-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x64 : Shape := ⟨3, ![16384, 32, 64]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S560x1 : Shape := ⟨2, ![560, 1]⟩
abbrev S1 : Shape := ⟨1, ![1]⟩
abbrev S_ : Shape := ⟨0, ![]⟩

class Facts : Prop where
  bcast_S_S16384x32x64 : S_.BroadcastsInDim S16384x32x64 (![] : Fin 0 → Fin S16384x32x64.rank)
  reducesTo_S16384x32x64_S_d0_1_2 : S16384x32x64.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S560x1 : S_.BroadcastsInDim S560x1 (![] : Fin 0 → Fin S560x1.rank)
  reducesTo_S560x1_S_d0_1 : S560x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S560x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S560x1 .f32 := Host.absf main_arg11
  let main_cst_20 : FVec F S_ .f32 := constant S_ .f32 0x7F800000#32
  let main_v55 : FVec F S560x1 .f32 := broadcastInDim S560x1 ![] bcast_S_S560x1 main_cst_20
  let main_v56 : IVec S560x1 1 := cmpf .olt main_v54 main_v55
  let main_c_21 : IVec S_ 1 := constantI S_ 1 1#1
  let main_v57 : IVec S_ 1 := (fun x v => Host.reduce IntOp.andi x v reducesTo_S560x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S512 .f32) (main_arg8 : FVec F S512 .f32) (main_arg9 : FVec F S512x64 .f32) (main_arg10 : FVec F S64 .f32) (main_arg11 : FVec F S560x1 .f32) (main_arg12 : FVec F S1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x64 .f32 := Host.absf main_arg9
  let main_cst_16 : FVec F S_ .f32 := constant S_ .f32 0x7F800000#32
  let main_v45 : FVec F S512x64 .f32 := broadcastInDim S512x64 ![] bcast_S_S512x64 main_cst_16
  let main_v46 : IVec S512x64 1 := cmpf .olt main_v44 main_v45
  let main_c_17 : IVec S_ 1 := constantI S_ 1 1#1
  let main_v47 : IVec S_ 1 := (fun x v => Host.reduce IntOp.andi x v reducesTo_S512x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S1024 .f32) (main_arg5 : FVec F S1024x512 .f32) (main_arg6 : FVec F S512 .f32) (main_arg7 : FVec F S512 .f32) (main_arg8 : FVec F S512 .f32) (main_arg9 : FVec F S512x64 .f32) (main_arg10 : FVec F S64 .f32) (main_arg11 : FVec F S560x1 .f32) (main_arg12 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x32x64 .f32) (main_arg1 : FVec F S2048x1024 .f32) (main_arg2 : FVec F S1024 .f32) (main_arg3 : FVec F S1024 .f32) (main_arg4 : FVec F S1024 .f32) (main_arg5 : FVec F S1024x512 .f32) (main_arg6 : FVec F S512 .f32) (main_arg7 : FVec F S512 .f32) (main_arg8 : FVec F S512 .f32) (main_arg9 : FVec F S512x64 .f32) (main_arg10 : FVec F S64 .f32) (main_arg11 : FVec F S560x1 .f32) (main_arg12 : FVec F S1 .f32) : IVec S_ 1 :=
  let main_v0 : FVec F S16384x32x64 .f32 := Host.absf main_arg0
  let main_cst : FVec F S_ .f32 := constant S_ .f32 0x7F800000#32
  let main_v1 : FVec F S16384x32x64 .f32 := broadcastInDim S16384x32x64 ![] bcast_S_S16384x32x64 main_cst
  let main_v2 : IVec S16384x32x64 1 := cmpf .olt main_v0 main_v1
  let main_c : IVec S_ 1 := constantI S_ 1 1#1
  let main_v3 : IVec S_ 1 := (fun x v => Host.reduce IntOp.andi x v reducesTo_S16384x32x64_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_v13 main_v16
-- ==== Kernel.lean ====
abbrev S16384x32x64 : Shape := ⟨3, ![16384, 32, 64]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S560x1 : Shape := ⟨2, ![560, 1]⟩
abbrev S1 : Shape := ⟨1, ![1]⟩
abbrev S496 : Shape := ⟨1, ![496]⟩
abbrev S64x1 : Shape := ⟨2, ![64, 1]⟩
abbrev S496x1 : Shape := ⟨2, ![496, 1]⟩
abbrev S1x1024 : Shape := ⟨2, ![1, 1024]⟩
abbrev S1x512 : Shape := ⟨2, ![1, 512]⟩
abbrev S1x64 : Shape := ⟨2, ![1, 64]⟩
abbrev S1x1 : Shape := ⟨2, ![1, 1]⟩
abbrev S16384x2048 : Shape := ⟨2, ![16384, 2048]⟩
abbrev S16384x32x32 : Shape := ⟨3, ![16384, 32, 32]⟩
abbrev S512x32x64 : Shape := ⟨3, ![512, 32, 64]⟩
abbrev S512x32x32 : Shape := ⟨3, ![512, 32, 32]⟩
abbrev S16384x1024 : Shape := ⟨2, ![16384, 1024]⟩
abbrev S_ : Shape := ⟨0, ![]⟩
abbrev S16384x496 : Shape := ⟨2, ![16384, 496]⟩
abbrev S2x1024 : Shape := ⟨2, ![2, 1024]⟩
abbrev S512x2048 : Shape := ⟨2, ![512, 2048]⟩
abbrev S512x1024 : Shape := ⟨2, ![512, 1024]⟩
abbrev S16384x512 : Shape := ⟨2, ![16384, 512]⟩
abbrev S2x512 : Shape := ⟨2, ![2, 512]⟩
abbrev S512x512 : Shape := ⟨2, ![512, 512]⟩
abbrev S16384x1 : Shape := ⟨2, ![16384, 1]⟩
abbrev S512x496 : Shape := ⟨2, ![512, 496]⟩
abbrev S512x1 : Shape := ⟨2, ![512, 1]⟩

abbrev nBuf : Space → Nat
  | .hbm => 60
  | .vmem => 39
  | .smem => 0
  | _ => 0

abbrev bufTy : (tb : Table) → Fin (tcTables nBuf tb) → BufTy
  | .hbm, ⟨0, _⟩ => ⟨S16384x32x64, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x64, .f32⟩
  | .hbm, ⟨10, _⟩ => ⟨S64, .f32⟩
  | .hbm, ⟨11, _⟩ => ⟨S560x1, .f32⟩
  | .hbm, ⟨12, _⟩ => ⟨S1, .f32⟩
  | .hbm, ⟨13, _⟩ => ⟨S496, .i32⟩
  | .hbm, ⟨14, _⟩ => ⟨S2048x1024, .bf16⟩
  | .hbm, ⟨15, _⟩ => ⟨S1024x512, .bf16⟩
  | .hbm, ⟨16, _⟩ => ⟨S512x64, .bf16⟩
  | .hbm, ⟨17, _⟩ => ⟨S64x1, .f32⟩
  | .hbm, ⟨18, _⟩ => ⟨S64x1, .bf16⟩
  | .hbm, ⟨19, _⟩ => ⟨S496x1, .f32⟩
  | .hbm, ⟨20, _⟩ => ⟨S496x1, .bf16⟩
  | .hbm, ⟨21, _⟩ => ⟨S1x1024, .f32⟩
  | .hbm, ⟨22, _⟩ => ⟨S1x512, .f32⟩
  | .hbm, ⟨23, _⟩ => ⟨S1x64, .f32⟩
  | .hbm, ⟨24, _⟩ => ⟨S1x1024, .f32⟩
  | .hbm, ⟨25, _⟩ => ⟨S1x1024, .f32⟩
  | .hbm, ⟨26, _⟩ => ⟨S1x512, .f32⟩
  | .hbm, ⟨27, _⟩ => ⟨S1x512, .f32⟩
  | .hbm, ⟨28, _⟩ => ⟨S1x1, .f32⟩
  | .hbm, ⟨29, _⟩ => ⟨S16384x2048, .f32⟩
  | .hbm, ⟨30, _⟩ => ⟨S16384x32x32, .f32⟩
  | .hbm, ⟨31, _⟩ => ⟨S16384x1024, .f32⟩
  | .hbm, ⟨32, _⟩ => ⟨S_, .i32⟩
  | .hbm, ⟨33, _⟩ => ⟨S496, .i32⟩
  | .hbm, ⟨34, _⟩ => ⟨S496, .i1⟩
  | .hbm, ⟨35, _⟩ => ⟨S_, .i32⟩
  | .hbm, ⟨36, _⟩ => ⟨S496, .i32⟩
  | .hbm, ⟨37, _⟩ => ⟨S496, .i32⟩
  | .hbm, ⟨38, _⟩ => ⟨S496, .i32⟩
  | .hbm, ⟨39, _⟩ => ⟨S496x1, .i32⟩
  | .hbm, ⟨40, _⟩ => ⟨S1, .i32⟩
  | .hbm, ⟨41, _⟩ => ⟨S_, .i32⟩
  | .hbm, ⟨42, _⟩ => ⟨S496x1, .i32⟩
  | .hbm, ⟨43, _⟩ => ⟨S496x1, .i1⟩
  | .hbm, ⟨44, _⟩ => ⟨S1x1, .i32⟩
  | .hbm, ⟨45, _⟩ => ⟨S496x1, .i32⟩
  | .hbm, ⟨46, _⟩ => ⟨S496x1, .i1⟩
  | .hbm, ⟨47, _⟩ => ⟨S496x1, .i1⟩
  | .hbm, ⟨48, _⟩ => ⟨S_, .i1⟩
  | .hbm, ⟨49, _⟩ => ⟨S496, .i1⟩
  | .hbm, ⟨50, _⟩ => ⟨S16384x496, .f32⟩
  | .hbm, ⟨51, _⟩ => ⟨S16384x496, .i1⟩
  | .hbm, ⟨52, _⟩ => ⟨S_, .f32⟩
  | .hbm, ⟨53, _⟩ => ⟨S16384x496, .f32⟩
  | .hbm, ⟨54, _⟩ => ⟨S16384x496, .f32⟩
  | .hbm, ⟨55, _⟩ => ⟨S16384x1024, .bf16⟩
  | .hbm, ⟨56, _⟩ => ⟨S2x1024, .f32⟩
  | .hbm, ⟨57, _⟩ => ⟨S16384x512, .bf16⟩
  | .hbm, ⟨58, _⟩ => ⟨S2x512, .f32⟩
  | .hbm, ⟨59, _⟩ => ⟨S16384x1, .f32⟩
  | .local _ .vmem, ⟨0, _⟩ => ⟨S512x32x64, .f32⟩
  | .local _ .vmem, ⟨1, _⟩ => ⟨S512x32x64, .f32⟩
  | .local _ .vmem, ⟨2, _⟩ => ⟨S512x32x32, .f32⟩
  | .local _ .vmem, ⟨3, _⟩ => ⟨S512x32x32, .f32⟩
  | .local _ .vmem, ⟨4, _⟩ => ⟨S512x2048, .f32⟩
  | .local _ .vmem, ⟨5, _⟩ => ⟨S512x2048, .f32⟩
  | .local _ .vmem, ⟨6, _⟩ => ⟨S2048x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S2x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S2x1024, .f32⟩
  | .local _ .vmem, ⟨16, _⟩ => ⟨S1x1024, .f32⟩
  | .local _ .vmem, ⟨17, _⟩ => ⟨S1x1024, .f32⟩
  | .local _ .vmem, ⟨18, _⟩ => ⟨S1024x512, .bf16⟩
  | .local _ .vmem, ⟨19, _⟩ => ⟨S1x512, .f32⟩
  | .local _ .vmem, ⟨20, _⟩ => ⟨S512x512, .bf16⟩
  | .local _ .vmem, ⟨21, _⟩ => ⟨S512x512, .bf16⟩
  | .local _ .vmem, ⟨22, _⟩ => ⟨S2x512, .f32⟩
  | .local _ .vmem, ⟨23, _⟩ => ⟨S1x512, .f32⟩
  | .local _ .vmem, ⟨24, _⟩ => ⟨S1x512, .f32⟩
  | .local _ .vmem, ⟨25, _⟩ => ⟨S512x512, .bf16⟩
  | .local _ .vmem, ⟨26, _⟩ => ⟨S512x512, .bf16⟩
  | .local _ .vmem, ⟨27, _⟩ => ⟨S2x512, .f32⟩
  | .local _ .vmem, ⟨28, _⟩ => ⟨S1x512, .f32⟩
  | .local _ .vmem, ⟨29, _⟩ => ⟨S1x512, .f32⟩
  | .local _ .vmem, ⟨30, _⟩ => ⟨S512x64, .bf16⟩
  | .local _ .vmem, ⟨31, _⟩ => ⟨S1x64, .f32⟩
  | .local _ .vmem, ⟨32, _⟩ => ⟨S512x496, .f32⟩
  | .local _ .vmem, ⟨33, _⟩ => ⟨S512x496, .f32⟩
  | .local _ .vmem, ⟨34, _⟩ => ⟨S64x1, .bf16⟩
  | .local _ .vmem, ⟨35, _⟩ => ⟨S496x1, .bf16⟩
  | .local _ .vmem, ⟨36, _⟩ => ⟨S1x1, .f32⟩
  | .local _ .vmem, ⟨37, _⟩ => ⟨S512x1, .f32⟩
  | .local _ .vmem, ⟨38, _⟩ => ⟨S512x1, .f32⟩
  | _, _ => ⟨S16384x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_cst : Ref sig .tc := ⟨.hbm, 52, rfl⟩
abbrev main_call0_v15 : Ref sig .tc := ⟨.hbm, 53, rfl⟩
abbrev main_v18 : Ref sig .tc := ⟨.hbm, 54, rfl⟩
abbrev main_v19_0 : Ref sig .tc := ⟨.hbm, 55, rfl⟩
abbrev main_v19_1 : Ref sig .tc := ⟨.hbm, 56, rfl⟩
abbrev main_v20_0 : Ref sig .tc := ⟨.hbm, 57, rfl⟩
abbrev main_v20_1 : Ref sig .tc := ⟨.hbm, 58, rfl⟩
abbrev main_v21 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_scratch0 : Ref sig .tc := ⟨.vmem, 11, rfl⟩
abbrev cc1_scratch1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg7_0 : Ref sig .tc := ⟨.vmem, 22, rfl⟩
abbrev cc2_scratch0 : Ref sig .tc := ⟨.vmem, 23, rfl⟩
abbrev cc2_scratch1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc3_stg7_0 : Ref sig .tc := ⟨.vmem, 34, rfl⟩
abbrev cc3_stg8_0 : Ref sig .tc := ⟨.vmem, 35, rfl⟩
abbrev cc3_stg9_0 : Ref sig .tc := ⟨.vmem, 36, rfl⟩
abbrev cc3_stg10_0 : Ref sig .tc := ⟨.vmem, 37, rfl⟩
abbrev cc3_stg10_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc2_sem7_0 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc3_sem7_0 : DmaSem sig := 30
abbrev cc3_sem8_0 : DmaSem sig := 31
abbrev cc3_sem9_0 : DmaSem sig := 32
abbrev cc3_sem10_0 : DmaSem sig := 33
abbrev cc3_sem10_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v32 : BitVec 1 := Scalar.cmpi .eq arg0 c31_i32
  let v33 : BitVec 32 := Scalar.extui v32
  let c0_i32_19 : BitVec 32 := 0#32
  let v34 : BitVec 1 := Scalar.cmpi .ne v33 c0_i32_19
  v34

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![32], ![false]⟩

def k2_cond2 (i : grid2.Coords) : BitVec 1 :=
  let arg0 : BitVec 32 := BitVec.ofNat 32 (i 0).val
  let c31_i32 : BitVec 32 := 31#32
  let v52 : BitVec 1 := Scalar.cmpi .eq arg0 c31_i32
  let v53 : BitVec 32 := Scalar.extui v52
  let c0_i32_27 : BitVec 32 := 0#32
  let v54 : BitVec 1 := Scalar.cmpi .ne v53 c0_i32_27
  v54

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x512 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S2x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x64 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S512x496 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S64x1 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S496x1 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S512x1 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  bitsLt_bf16_f32 : FTy.bits .bf16 < FTy.bits .f32
  slices_S560x1_S64x1_0_0 : S560x1.Slices ![0, 0] S64x1
  slices_S560x1_S496x1_64_0 : S560x1.Slices ![64, 0] S496x1
  shapeCasts_S1024_S1x1024 : S1024.ShapeCasts S1x1024
  shapeCasts_S512_S1x512 : S512.ShapeCasts S1x512
  shapeCasts_S64_S1x64 : S64.ShapeCasts S1x64
  shapeCasts_S1_S1x1 : S1.ShapeCasts S1x1
  shapeCasts_S16384x32x64_S16384x2048 : S16384x32x64.ShapeCasts S16384x2048
  inb_S512x32x64_S512x32x64_0_0_0 : ∀ a, (![0, 0, 0] : Fin 3 → Nat) a + S512x32x64.size a ≤ S512x32x64.size a
  h_S512x32x64 : 0 < S512x32x64.numel
  inb_S512x32x32_S512x32x32_0_0_0 : ∀ a, (![0, 0, 0] : Fin 3 → Nat) a + S512x32x32.size a ≤ S512x32x32.size a
  h_S512x32x32 : 0 < S512x32x32.numel
  shapeCasts_S16384x32x32_S16384x1024 : S16384x32x32.ShapeCasts S16384x1024
  bcast_S_S496 : S_.BroadcastsInDim S496 (![] : Fin 0 → Fin S496.rank)
  bcast_S496_S496x1_0 : S496.BroadcastsInDim S496x1 (![0] : Fin 1 → Fin S496x1.rank)
  bcast_S_S496x1 : S_.BroadcastsInDim S496x1 (![] : Fin 0 → Fin S496x1.rank)
  bcast_S1_S1x1_1 : S1.BroadcastsInDim S1x1 (![1] : Fin 1 → Fin S1x1.rank)
  bcast_S1x1_S496x1_0_1 : S1x1.BroadcastsInDim S496x1 (![0, 1] : Fin 2 → Fin S496x1.rank)
  reducesTo_S496x1_S496_d1 : S496x1.ReducesTo [1] S496
  h_S_ : 0 < S_.numel
  bcast_S496_S16384x496_1 : S496.BroadcastsInDim S16384x496 (![1] : Fin 1 → Fin S16384x496.rank)
  bcast_S_S16384x496 : S_.BroadcastsInDim S16384x496 (![] : Fin 0 → Fin S16384x496.rank)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  broadcasts_S1x1024_S512x1024 : S1x1024.Broadcasts S512x1024
  reduces_S512x1024_S1024 : S512x1024.Reduces [0] S1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  inb_S2x1024_S1x1024_0_0 : ∀ a, (![0, 0] : Fin 2 → Nat) a + S1x1024.size a ≤ S2x1024.size a
  inb_S2x1024_S1x1024_1_0 : ∀ a, (![1, 0] : Fin 2 → Nat) a + S1x1024.size a ≤ S2x1024.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S1x512_S512x512 : S1x512.Broadcasts S512x512
  reduces_S512x512_S512 : S512x512.Reduces [0] S512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S2x512_S1x512_0_0 : ∀ a, (![0, 0] : Fin 2 → Nat) a + S1x512.size a ≤ S2x512.size a
  inb_S2x512_S1x512_1_0 : ∀ a, (![1, 0] : Fin 2 → Nat) a + S1x512.size a ≤ S2x512.size a
  shapeCasts_S512x512_S512x512 : S512x512.ShapeCasts S512x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x496_S512x496_0_0 : ∀ a, (![0, 0] : Fin 2 → Nat) a + S512x496.size a ≤ S512x496.size a
  h_S512x496 : 0 < S512x496.numel
  shapeCasts_S512x496_S512x496 : S512x496.ShapeCasts S512x496
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S496x1_S496x1_0_0 : ∀ a, (![0, 0] : Fin 2 → Nat) a + S496x1.size a ≤ S496x1.size a
  h_S496x1 : 0 < S496x1.numel
  shapeCasts_S496x1_S496x1 : S496x1.ShapeCasts S496x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S512x32x64_S512x32x64_S512x32x32_2_2_1_1_0_0_wf : DotDims.WF S512x32x64 S512x32x64 S512x32x32 [2] [2] [1] [1] [0] [0]
  gather_S16384x1024_S496x1_S16384x496_0_1_n_n_1_1_163841_wf : GatherDims.WF S16384x1024 S496x1 S16384x496 [0] [1] [] [1] [] 1 ![16384, 1]
  dot_S512x2048_S2048x1024_S512x1024_1_0_0_1_n_n_wf : DotDims.WF S512x2048 S2048x1024 S512x1024 [1] [0] [0] [1] [] []
  dot_S512x1024_S1024x512_S512x512_1_0_0_1_n_n_wf : DotDims.WF S512x1024 S1024x512 S512x512 [1] [0] [0] [1] [] []
  dot_S512x512_S512x64_S512x64_1_0_0_1_n_n_wf : DotDims.WF S512x512 S512x64 S512x64 [1] [0] [0] [1] [] []
  dot_S512x64_S64x1_S512x1_1_0_0_1_n_n_wf : DotDims.WF S512x64 S64x1 S512x1 [1] [0] [0] [1] [] []
  dot_S512x496_S496x1_S512x1_1_0_0_1_n_n_wf : DotDims.WF S512x496 S496x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32x64.size a ≤ S16384x32x64.size a
  hwx0_0 : ∀ i : grid0.Coords, EltTy.bits .f32 = 32 ∨ (Rect.block (s := S16384x32x64) S512x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32x32.size a ≤ S16384x32x32.size a
  hwx0_1 : ∀ i : grid0.Coords, EltTy.bits .f32 = 32 ∨ (Rect.block (s := S16384x32x32) S512x32x32.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x1024.size a
  hwx1_1 : ∀ i : grid1.Coords, EltTy.bits .bf16 = 32 ∨ (Rect.block (s := S2048x1024) S2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S16384x1024.size a
  hwx1_3 : ∀ i : grid1.Coords, EltTy.bits .bf16 = 32 ∨ (Rect.block (s := S16384x1024) S512x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x1024.size a ≤ S2x1024.size a
  hwx1_4 : ∀ i : grid1.Coords, EltTy.bits .f32 = 32 ∨ (Rect.block (s := S2x1024) S2x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S16384x1024.size a
  hwx2_0 : ∀ i : grid2.Coords, EltTy.bits .bf16 = 32 ∨ (Rect.block (s := S16384x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x1024.size a ≤ S2x1024.size a
  hwx2_1 : ∀ i : grid2.Coords, EltTy.bits .f32 = 32 ∨ (Rect.block (s := S2x1024) S2x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x512.size a ≤ S1024x512.size a
  hwx2_4 : ∀ i : grid2.Coords, EltTy.bits .bf16 = 32 ∨ (Rect.block (s := S1024x512) S1024x512.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x512.size a ≤ S16384x512.size a
  hwx2_6 : ∀ i : grid2.Coords, EltTy.bits .bf16 = 32 ∨ (Rect.block (s := S16384x512) S512x512.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S2x512.size a ≤ S2x512.size a
  hwx2_7 : ∀ i : grid2.Coords, EltTy.bits .f32 = 32 ∨ (Rect.block (s := S2x512) S2x512.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S16384x512.size a
  hwx3_0 : ∀ i : grid3.Coords, EltTy.bits .bf16 = 32 ∨ (Rect.block (s := S16384x512) S512x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2x512.size a ≤ S2x512.size a
  hwx3_1 : ∀ i : grid3.Coords, EltTy.bits .f32 = 32 ∨ (Rect.block (s := S2x512) S2x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x64.size a ≤ S512x64.size a
  hwx3_4 : ∀ i : grid3.Coords, EltTy.bits .bf16 = 32 ∨ (Rect.block (s := S512x64) S512x64.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S512x496.size a ≤ S16384x496.size a
  hwx3_6 : ∀ i : grid3.Coords, EltTy.bits .f32 = 32 ∨ (Rect.block (s := S16384x496) S512x496.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x1.size a ≤ S64x1.size a
  hwx3_7 : ∀ i : grid3.Coords, EltTy.bits .bf16 = 32 ∨ (Rect.block (s := S64x1) S64x1.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S496x1.size a ≤ S496x1.size a
  hwx3_8 : ∀ i : grid3.Coords, EltTy.bits .bf16 = 32 ∨ (Rect.block (s := S496x1) S496x1.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x1.size a ≤ S1x1.size a
  hwx3_9 : ∀ i : grid3.Coords, EltTy.bits .f32 = 32 ∨ (Rect.block (s := S1x1) S1x1.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S512x1.size a ≤ S16384x1.size a
  hwx3_10 : ∀ i : grid3.Coords, EltTy.bits .f32 = 32 ∨ (Rect.block (s := S16384x1) S512x1.size (cc3_transform_10 i) (hinb3_10 i)).WholeWords (EltTy.packing .f32)

variable [Facts₀]

def dot_S512x32x64_S512x32x64_S512x32x32_2_2_1_1_0_0 : DotDims S512x32x64 S512x32x64 S512x32x32 where
  lhsContracting := [2]
  rhsContracting := [2]
  lhsNonContracting := [1]
  rhsNonContracting := [1]
  lhsBatch := [0]
  rhsBatch := [0]
  wf := dot_S512x32x64_S512x32x64_S512x32x32_2_2_1_1_0_0_wf
def gather_S16384x1024_S496x1_S16384x496_0_1_n_n_1_1_163841 : GatherDims S16384x1024 S496x1 S16384x496 where
  offsetDims := [0]
  collapsedSliceDims := [1]
  operandBatchingDims := []
  startIndicesBatchingDims := []
  startIndexMap := [1]
  indexVectorDim := 1
  sliceSizes := ![16384, 1]
  wf := gather_S16384x1024_S496x1_S16384x496_0_1_n_n_1_1_163841_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf
def dot_S512x496_S496x1_S512x1_1_0_0_1_n_n : DotDims S512x496 S496x1 S512x1 where
  lhsContracting := [1]
  rhsContracting := [0]
  lhsNonContracting := [0]
  rhsNonContracting := [1]
  lhsBatch := []
  rhsBatch := []
  wf := dot_S512x496_S496x1_S512x1_1_0_0_1_n_n_wf

abbrev win0_0 : Pipeline.Window sig grid0 :=
  Pipeline.Window.ofSpec (Memref.whole main_arg0) S512x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x32x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v15) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19_0) S512x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19_1) S2x1024.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v19_0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19_1) S2x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1) S1024x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20_0) S512x512.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v20_1) S2x512.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v20_0) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20_1) S2x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v2) S512x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v9) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v18) S512x496.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v4) S64x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v6) S496x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v14) S1x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v21) S512x1.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S16384x32x64 : Shape := ⟨3, ![16384, 32, 64]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S560x1 : Shape := ⟨2, ![560, 1]⟩
abbrev S1 : Shape := ⟨1, ![1]⟩
abbrev S496 : Shape := ⟨1, ![496]⟩
abbrev S16384x32x32 : Shape := ⟨3, ![16384, 32, 32]⟩
abbrev S_ : Shape := ⟨0, ![]⟩
abbrev S496x1 : Shape := ⟨2, ![496, 1]⟩
abbrev S496x2 : Shape := ⟨2, ![496, 2]⟩
abbrev S16384x496 : Shape := ⟨2, ![16384, 496]⟩
abbrev S16384x2048 : Shape := ⟨2, ![16384, 2048]⟩
abbrev S16384x1024 : Shape := ⟨2, ![16384, 1024]⟩
abbrev S1x1024 : Shape := ⟨2, ![1, 1024]⟩
abbrev S16384x512 : Shape := ⟨2, ![16384, 512]⟩
abbrev S1x512 : Shape := ⟨2, ![1, 512]⟩
abbrev S16384x64 : Shape := ⟨2, ![16384, 64]⟩
abbrev S1x64 : Shape := ⟨2, ![1, 64]⟩
abbrev S16384x560 : Shape := ⟨2, ![16384, 560]⟩
abbrev S16384x1 : Shape := ⟨2, ![16384, 1]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S16384x32x64, .f32⟩
  | 1 => ⟨S2048x1024, .f32⟩
  | 2 => ⟨S1024, .f32⟩
  | 3 => ⟨S1024, .f32⟩
  | 4 => ⟨S1024, .f32⟩
  | 5 => ⟨S1024x512, .f32⟩
  | 6 => ⟨S512, .f32⟩
  | 7 => ⟨S512, .f32⟩
  | 8 => ⟨S512, .f32⟩
  | 9 => ⟨S512x64, .f32⟩
  | 10 => ⟨S64, .f32⟩
  | 11 => ⟨S560x1, .f32⟩
  | 12 => ⟨S1, .f32⟩
  | 13 => ⟨S496, .i32⟩
  | 14 => ⟨S496, .i1⟩
  | 15 => ⟨S496, .i32⟩
  | 16 => ⟨S496, .i1⟩
  | 17 => ⟨S16384x32x32, .f32⟩
  | 18 => ⟨S_, .i32⟩
  | 19 => ⟨S496, .i32⟩
  | 20 => ⟨S496, .i32⟩
  | 21 => ⟨S496, .i32⟩
  | 22 => ⟨S_, .i32⟩
  | 23 => ⟨S496, .i32⟩
  | 24 => ⟨S496, .i32⟩
  | 25 => ⟨S496, .i32⟩
  | 26 => ⟨S496x1, .i32⟩
  | 27 => ⟨S496x1, .i32⟩
  | 28 => ⟨S496x2, .i32⟩
  | 29 => ⟨S16384x496, .f32⟩
  | 30 => ⟨S16384x2048, .f32⟩
  | 31 => ⟨S16384x1024, .f32⟩
  | 32 => ⟨S1x1024, .f32⟩
  | 33 => ⟨S16384x1024, .f32⟩
  | 34 => ⟨S16384x1024, .f32⟩
  | 35 => ⟨S_, .f32⟩
  | 36 => ⟨S16384x1024, .f32⟩
  | 37 => ⟨S16384x1024, .f32⟩
  | 38 => ⟨S_, .f32⟩
  | 39 => ⟨S1024, .f32⟩
  | 40 => ⟨S_, .f32⟩
  | 41 => ⟨S1024, .f32⟩
  | 42 => ⟨S1024, .f32⟩
  | 43 => ⟨S_, .i32⟩
  | 44 => ⟨S_, .f32⟩
  | 45 => ⟨S1024, .f32⟩
  | 46 => ⟨S1x1024, .f32⟩
  | 47 => ⟨S_, .f32⟩
  | 48 => ⟨S1x1024, .f32⟩
  | 49 => ⟨S1x1024, .f32⟩
  | 50 => ⟨S16384x1024, .f32⟩
  | 51 => ⟨S16384x1024, .f32⟩
  | 52 => ⟨S16384x1024, .f32⟩
  | 53 => ⟨S_, .f32⟩
  | 54 => ⟨S_, .f32⟩
  | 55 => ⟨S_, .f32⟩
  | 56 => ⟨S_, .f32⟩
  | 57 => ⟨S1024, .f32⟩
  | 58 => ⟨S1024, .f32⟩
  | 59 => ⟨S1024, .f32⟩
  | 60 => ⟨S_, .f32⟩
  | 61 => ⟨S_, .i1⟩
  | 62 => ⟨S_, .f32⟩
  | 63 => ⟨S_, .f32⟩
  | 64 => ⟨S1024, .f32⟩
  | 65 => ⟨S1024, .f32⟩
  | 66 => ⟨S1x1024, .f32⟩
  | 67 => ⟨S16384x1024, .f32⟩
  | 68 => ⟨S16384x1024, .f32⟩
  | 69 => ⟨S1x1024, .f32⟩
  | 70 => ⟨S16384x1024, .f32⟩
  | 71 => ⟨S16384x1024, .f32⟩
  | 72 => ⟨S_, .f32⟩
  | 73 => ⟨S1024, .f32⟩
  | 74 => ⟨S1024, .f32⟩
  | 75 => ⟨S1024, .f32⟩
  | 76 => ⟨S1x1024, .f32⟩
  | 77 => ⟨S16384x1024, .f32⟩
  | 78 => ⟨S16384x1024, .f32⟩
  | 79 => ⟨S1x1024, .f32⟩
  | 80 => ⟨S16384x1024, .f32⟩
  | 81 => ⟨S16384x1024, .f32⟩
  | 82 => ⟨S16384x512, .f32⟩
  | 83 => ⟨S1x512, .f32⟩
  | 84 => ⟨S16384x512, .f32⟩
  | 85 => ⟨S16384x512, .f32⟩
  | 86 => ⟨S_, .f32⟩
  | 87 => ⟨S16384x512, .f32⟩
  | 88 => ⟨S16384x512, .f32⟩
  | 89 => ⟨S_, .f32⟩
  | 90 => ⟨S512, .f32⟩
  | 91 => ⟨S_, .f32⟩
  | 92 => ⟨S512, .f32⟩
  | 93 => ⟨S512, .f32⟩
  | 94 => ⟨S_, .i32⟩
  | 95 => ⟨S_, .f32⟩
  | 96 => ⟨S512, .f32⟩
  | 97 => ⟨S1x512, .f32⟩
  | 98 => ⟨S_, .f32⟩
  | 99 => ⟨S1x512, .f32⟩
  | 100 => ⟨S1x512, .f32⟩
  | 101 => ⟨S16384x512, .f32⟩
  | 102 => ⟨S16384x512, .f32⟩
  | 103 => ⟨S16384x512, .f32⟩
  | 104 => ⟨S_, .f32⟩
  | 105 => ⟨S_, .f32⟩
  | 106 => ⟨S_, .f32⟩
  | 107 => ⟨S_, .f32⟩
  | 108 => ⟨S512, .f32⟩
  | 109 => ⟨S512, .f32⟩
  | 110 => ⟨S512, .f32⟩
  | 111 => ⟨S_, .f32⟩
  | 112 => ⟨S_, .i1⟩
  | 113 => ⟨S_, .f32⟩
  | 114 => ⟨S_, .f32⟩
  | 115 => ⟨S512, .f32⟩
  | 116 => ⟨S512, .f32⟩
  | 117 => ⟨S1x512, .f32⟩
  | 118 => ⟨S16384x512, .f32⟩
  | 119 => ⟨S16384x512, .f32⟩
  | 120 => ⟨S1x512, .f32⟩
  | 121 => ⟨S16384x512, .f32⟩
  | 122 => ⟨S16384x512, .f32⟩
  | 123 => ⟨S_, .f32⟩
  | 124 => ⟨S512, .f32⟩
  | 125 => ⟨S512, .f32⟩
  | 126 => ⟨S512, .f32⟩
  | 127 => ⟨S1x512, .f32⟩
  | _ => ⟨S16384x32x64, .f32⟩

abbrev hbmTy0_1 (i : Nat) : BufTy := match i % 128 with
  | 0 => ⟨S16384x512, .f32⟩
  | 1 => ⟨S16384x512, .f32⟩
  | 2 => ⟨S1x512, .f32⟩
  | 3 => ⟨S16384x512, .f32⟩
  | 4 => ⟨S16384x512, .f32⟩
  | 5 => ⟨S16384x64, .f32⟩
  | 6 => ⟨S1x64, .f32⟩
  | 7 => ⟨S16384x64, .f32⟩
  | 8 => ⟨S16384x64, .f32⟩
  | 9 => ⟨S16384x560, .f32⟩
  | 10 => ⟨S16384x1, .f32⟩
  | 11 => ⟨S1x1, .f32⟩
  | 12 => ⟨S16384x1, .f32⟩
  | 13 => ⟨S16384x1, .f32⟩
  | _ => ⟨S16384x32x64, .f32⟩

abbrev hbmTy (i : Nat) : BufTy := match i / 128 with
  | 0 => hbmTy0_0 i
  | 1 => hbmTy0_1 i
  | _ => ⟨S16384x32x64, .f32⟩

abbrev bufTy : (tb : Table) → Fin (tcTables nBuf tb) → BufTy
  | .hbm, ⟨i, _⟩ => hbmTy i
  | _, _ => ⟨S16384x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_v0 : Ref sig .tc := ⟨.hbm, 17, rfl⟩
abbrev main_c_3 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c_4 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call0_cst : Ref sig .tc := ⟨.hbm, 35, rfl⟩
abbrev main_call0_v0 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_cst_5 : Ref sig .tc := ⟨.hbm, 40, rfl⟩
abbrev main_v18 : Ref sig .tc := ⟨.hbm, 41, rfl⟩
abbrev main_v19 : Ref sig .tc := ⟨.hbm, 42, rfl⟩
abbrev main_c_6 : Ref sig .tc := ⟨.hbm, 43, rfl⟩
abbrev main_call1_cst : Ref sig .tc := ⟨.hbm, 44, rfl⟩
abbrev main_call1_v0 : Ref sig .tc := ⟨.hbm, 45, rfl⟩
abbrev main_call1_v1 : Ref sig .tc := ⟨.hbm, 46, rfl⟩
abbrev main_call1_cst_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_cst_1 : Ref sig .tc := ⟨.hbm, 54, rfl⟩
abbrev main_call1_v8 : Ref sig .tc := ⟨.hbm, 55, rfl⟩
abbrev main_call1_cst_2 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_cst_3 : Ref sig .tc := ⟨.hbm, 60, rfl⟩
abbrev main_call1_v12 : Ref sig .tc := ⟨.hbm, 61, rfl⟩
abbrev main_call1_cst_4 : Ref sig .tc := ⟨.hbm, 62, rfl⟩
abbrev main_call1_call0_v0 : Ref sig .tc := ⟨.hbm, 63, rfl⟩
abbrev main_call1_call0_v1 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_7 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_call2_cst : Ref sig .tc := ⟨.hbm, 86, rfl⟩
abbrev main_call2_v0 : Ref sig .tc := ⟨.hbm, 87, rfl⟩
abbrev main_v40 : Ref sig .tc := ⟨.hbm, 88, rfl⟩
abbrev main_cst_8 : Ref sig .tc := ⟨.hbm, 89, rfl⟩
abbrev main_v41 : Ref sig .tc := ⟨.hbm, 90, rfl⟩
abbrev main_cst_9 : Ref sig .tc := ⟨.hbm, 91, rfl⟩
abbrev main_v42 : Ref sig .tc := ⟨.hbm, 92, rfl⟩
abbrev main_v43 : Ref sig .tc := ⟨.hbm, 93, rfl⟩
abbrev main_c_10 : Ref sig .tc := ⟨.hbm, 94, rfl⟩
abbrev main_call3_cst : Ref sig .tc := ⟨.hbm, 95, rfl⟩
abbrev main_call3_v0 : Ref sig .tc := ⟨.hbm, 96, rfl⟩
abbrev main_call3_v1 : Ref sig .tc := ⟨.hbm, 97, rfl⟩
abbrev main_call3_cst_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_v6 : Ref sig .tc := ⟨.hbm, 103, rfl⟩
abbrev main_call3_v7 : Ref sig .tc := ⟨.hbm, 104, rfl⟩
abbrev main_call3_cst_1 : Ref sig .tc := ⟨.hbm, 105, rfl⟩
abbrev main_call3_v8 : Ref sig .tc := ⟨.hbm, 106, rfl⟩
abbrev main_call3_cst_2 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_cst_3 : Ref sig .tc := ⟨.hbm, 111, rfl⟩
abbrev main_call3_v12 : Ref sig .tc := ⟨.hbm, 112, rfl⟩
abbrev main_call3_cst_4 : Ref sig .tc := ⟨.hbm, 113, rfl⟩
abbrev main_call3_call0_v0 : Ref sig .tc := ⟨.hbm, 114, rfl⟩
abbrev main_call3_call0_v1 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_cst_11 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩

abbrev nD : Nat := 1
abbrev τ : Topo := Topo.v7x

variable {F : FTy → Type} [FloatOps F]

class Facts₀ : Prop where
  bcast_S_S496 : S_.BroadcastsInDim S496 (![] : Fin 0 → Fin S496.rank)
  bcast_S496_S496x1_0 : S496.BroadcastsInDim S496x1 (![0] : Fin 1 → Fin S496x1.rank)
  concatenates_S496x1_S496x1_S496x2_d1 : Shape.Concatenates [S496x1, S496x1] S496x2 1
  shapeCasts_S16384x32x64_S16384x2048 : S16384x32x64.ShapeCasts S16384x2048
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  reducesTo_S16384x1024_S1024_d0 : S16384x1024.ReducesTo [0] S1024
  h_S_ : 0 < S_.numel
  bcast_S_S1024 : S_.BroadcastsInDim S1024 (![] : Fin 0 → Fin S1024.rank)
  bcast_S_S1x1024 : S_.BroadcastsInDim S1x1024 (![] : Fin 0 → Fin S1x1024.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  reducesTo_S16384x512_S512_d0 : S16384x512.ReducesTo [0] S512
  bcast_S_S512 : S_.BroadcastsInDim S512 (![] : Fin 0 → Fin S512.rank)
  bcast_S_S1x512 : S_.BroadcastsInDim S1x512 (![] : Fin 0 → Fin S1x512.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  concatenates_S16384x64_S16384x496_S16384x560_d1 : Shape.Concatenates [S16384x64, S16384x496] S16384x560 1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x32x64_S16384x32x64_S16384x32x32_2_2_1_1_0_0_wf : DotDims.WF S16384x32x64 S16384x32x64 S16384x32x32 [2] [2] [1] [1] [0] [0]
  gather_S16384x32x32_S496x2_S16384x496_0_12_n_n_12_1_1638411_wf : GatherDims.WF S16384x32x32 S496x2 S16384x496 [0] [1, 2] [] [1, 2] [] 1 ![16384, 1, 1]
  dot_S16384x2048_S2048x1024_S16384x1024_1_0_0_1_n_n_wf : DotDims.WF S16384x2048 S2048x1024 S16384x1024 [1] [0] [0] [1] [] []
  dot_S16384x1024_S1024x512_S16384x512_1_0_0_1_n_n_wf : DotDims.WF S16384x1024 S1024x512 S16384x512 [1] [0] [0] [1] [] []
  dot_S16384x512_S512x64_S16384x64_1_0_0_1_n_n_wf : DotDims.WF S16384x512 S512x64 S16384x64 [1] [0] [0] [1] [] []
  dot_S16384x560_S560x1_S16384x1_1_0_0_1_n_n_wf : DotDims.WF S16384x560 S560x1 S16384x1 [1] [0] [0] [1] [] []

variable [Facts₀]

def dot_S16384x32x64_S16384x32x64_S16384x32x32_2_2_1_1_0_0 : DotDims S16384x32x64 S16384x32x64 S16384x32x32 where
  lhsContracting := [2]
  rhsContracting := [2]
  lhsNonContracting := [1]
  rhsNonContracting := [1]
  lhsBatch := [0]
  rhsBatch := [0]
  wf := dot_S16384x32x64_S16384x32x64_S16384x32x32_2_2_1_1_0_0_wf
def gather_S16384x32x32_S496x2_S16384x496_0_12_n_n_12_1_1638411 : GatherDims S16384x32x32 S496x2 S16384x496 where
  offsetDims := [0]
  collapsedSliceDims := [1, 2]
  operandBatchingDims := []
  startIndicesBatchingDims := []
  startIndexMap := [1, 2]
  indexVectorDim := 1
  sliceSizes := ![16384, 1, 1]
  wf := gather_S16384x32x32_S496x2_S16384x496_0_12_n_n_12_1_1638411_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x64_S16384x64_1_0_0_1_n_n : DotDims S16384x512 S512x64 S16384x64 where
  lhsContracting := [1]
  rhsContracting := [0]
  lhsNonContracting := [0]
  rhsNonContracting := [1]
  lhsBatch := []
  rhsBatch := []
  wf := dot_S16384x512_S512x64_S16384x64_1_0_0_1_n_n_wf
def dot_S16384x560_S560x1_S16384x1_1_0_0_1_n_n : DotDims S16384x560 S560x1 S16384x1 where
  lhsContracting := [1]
  rhsContracting := [0]
  lhsNonContracting := [0]
  rhsNonContracting := [1]
  lhsBatch := []
  rhsBatch := []
  wf := dot_S16384x560_S560x1_S16384x1_1_0_0_1_n_n_wf

class Facts : Prop extends Facts₀ where

variable [Facts]
-- ==== Proof.KI.R0.lean ====
/-
  Region 0 of @main (the pairwise dot products; pipeline 0), at a parameter `V`: the TensorCore's buffer
  contents when the region is entered.

  The grid has 32 points. Point `t` stages block `t` of the input array (512 batch rows, each 32 feature vectors of
  length 64) and writes back block `t` of the output array (512 batch rows, each a 32 × 32 table). The body loads
  the whole input block and stores ONE payload over the whole output block (the load of the output block before the
  store is never read). Stated here: each window's block at a point; what the body leaves in the output's staging
  buffer, as a function of the input block; the body's triple; the proof data; the body obligation at a generic point.
  The invariant between two points is the scoped buffers the pipeline does not stage, each whole at some contents:
  the region has no scratch, so entering and leaving the invariant are the identity.
-/
import proofs.«128293_j31387620999258_1_alg».proof.Proof.Gen.KernelIdeal.Launch
import proofs.«128293_j31387620999258_1_alg».proof.Proof.Gen.KernelIdeal.Skeleton
import proofs.«128293_j31387620999258_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 512 × 32 × 32: the structural recursion is once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not, for ANY proof
    data whose array is `V`'s (`hA`) and whose body leaves the block in place (`hafter`): an unfetched point is one
    where the block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole output block, as the rectangle the store writes through. -/
abbrev r0_0 : Rect S512x32x32 := Rect.unit (s := S512x32x32) ![0, 0, 0] S512x32x32.size inb_S512x32x32_S512x32x32_0_0_0
/-- The whole input block, as the rectangle the load reads through. -/
abbrev r0_in : Rect S512x32x64 := Rect.unit (s := S512x32x64) ![0, 0, 0] S512x32x64.size inb_S512x32x64_S512x32x64_0_0_0

/-! ## What the body leaves in the output window's buffer -/

/-- The output's staging buffer after the body, from the input block: its one store as a piece, the payload the
    batched product of the loaded block with itself. -/
def out0_1 (x0 : Vec F S512x32x64 .f32) : Vec F S512x32x32 .f32 :=
  View.canon [⟨r0_0, k0_pay1 (View.ld x0 r0_in)⟩]

/-- The one store is through the whole block, so it covers it. -/
theorem cover0_1 (p0 : Vec F S512x32x32 .f32) (y : S512x32x32.Idx) :
    ∃ pc ∈ ([⟨r0_0, p0⟩] : List (View.Piece (Elt F) S512x32x32 .f32)), y ∈ pc.1.set :=
  View.cover_of_tiled [⟨r0_0, p0⟩] S512x32x32.size (by rfl) y

/-! ## The body's triple -/

set_option maxHeartbeats 1000000 in
/-- The kernel body on whole staging memrefs, the input's at read contents `x0` and the output's at anything, runs to
    the continuation holding the input's as it was and the output's at `out0_1 x0`: the printed function is its
    sequence of memory operations over the named payload, which is run step by step. -/
theorem sound_kernel0 (c : Dev nD) (E : Set ℕ) (i : grid0.Coords) (arg1 : Memref sig .tc .vmem S512x32x64 .f32) (harg1 : arg1.IsWhole)
    (arg2 : Memref sig .tc .vmem S512x32x32 .f32) (harg2 : arg2.IsWhole)
    (x0 : Vec F S512x32x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_gram_kernel i arg1 harg1 arg2 harg2) K := by
  simp only [cc0_gram_kernel_eq_skeleton]; unfold cc0_gram_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at point
    `t` the input's buffer at its block and the output's at `out0_1` of the input block; the invariant the scoped
    buffers the pipeline does not stage; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.scopedRest (Ix := Unit) (Name := ℕ) (U := UR sig nD τ) (Lvl := ℕ) (Val := Elt F) spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-- The invariant is the scoped rest at every point: entering it and leaving it are the identity. -/
theorem hin0 (c : Dev nD) : (Pipeline.scopedRest (Ix := Unit) (Name := ℕ) (U := UR sig nD τ) (Lvl := ℕ) (Val := Elt F) spec0 c : sProp 𝕄) ⊢ (dat0 V c).Φ 0 := .rfl
theorem hout0 (c : Dev nD) : (dat0 V c).Φ (Fin.last cfg0.N) ⊢ (Pipeline.scopedRest (Ix := Unit) (Name := ℕ) (U := UR sig nD τ) (Lvl := ℕ) (Val := Elt F) spec0 c : sProp 𝕄) := .rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block (`before0_0`), so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.D1.lean ====
/-
  Region 1 (the first dense layer, its rectifier and its batch statistics): the pure data of its frame.

  The blocks of the three input windows at a grid point, read off the arrays as the region finds them; what each
  point leaves in the two carried accumulators — the column sums and the column sums of squares of the rectified
  activations: point 0 adds its block's sums to the reset value, point n + 1 to what point n left —; the block
  the body stores in the activation window at a point, and the block it stores in the statistics window at the
  last point (row 0 from the column sums, row 1 from both accumulators).
-/
import proofs.«128293_j31387620999258_1_alg».proof.Proof.Gen.KernelIdeal.Skeleton
import proofs.«128293_j31387620999258_1_alg».proof.Proof.Gen.KernelIdeal.Launch
import proofs.«128293_j31387620999258_1_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.Sem

variable {F : FTy → Type} [FloatOps F]

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at a point, at their literal shapes: 512 rows of the flattened features, the whole
    weight matrix, the bias row. -/
abbrev xblk1 (c : Dev nD) (t : Fin cfg1.N) : Vec F S512x2048 .f32 := iblk1 V c 0 t
abbrev wblk1 (c : Dev nD) (t : Fin cfg1.N) : Vec F S2048x1024 .bf16 := iblk1 V c 1 t
abbrev bblk1 (c : Dev nD) (t : Fin cfg1.N) : Vec F S1x1024 .f32 := iblk1 V c 2 t

/-- What point `n` leaves in the accumulator of column sums: the block's column sums added to the reset value
    at point 0, to what point `n` left at point `n + 1` (past the grid, unchanged). -/
def sum1 (c : Dev nD) : ℕ → Vec F S1x1024 .f32
  | 0 => if h : 0 < cfg1.N then Gen.k1_pay6 (xblk1 V c ⟨0, h⟩) (wblk1 V c ⟨0, h⟩) (bblk1 V c ⟨0, h⟩) Gen.k1_pay3 else Gen.k1_pay3
  | n + 1 => if h : n + 1 < cfg1.N then Gen.k1_pay6 (xblk1 V c ⟨n + 1, h⟩) (wblk1 V c ⟨n + 1, h⟩) (bblk1 V c ⟨n + 1, h⟩) (sum1 c n) else sum1 c n

/-- What point `n` leaves in the accumulator of column sums of squares, likewise. -/
def sq1 (c : Dev nD) : ℕ → Vec F S1x1024 .f32
  | 0 => if h : 0 < cfg1.N then Gen.k1_pay7 (xblk1 V c ⟨0, h⟩) (wblk1 V c ⟨0, h⟩) (bblk1 V c ⟨0, h⟩) Gen.k1_pay4 else Gen.k1_pay4
  | n + 1 => if h : n + 1 < cfg1.N then Gen.k1_pay7 (xblk1 V c ⟨n + 1, h⟩) (wblk1 V c ⟨n + 1, h⟩) (bblk1 V c ⟨n + 1, h⟩) (sq1 c n) else sq1 c n

/-- The activation window's block at a point: the one store of the rectified activations, narrowed. -/
def oblk1_3 (c : Dev nD) (t : Fin cfg1.N) : Vec F S512x1024 .bf16 :=
  Gen.k1_pay8 (xblk1 V c t) (wblk1 V c t) (bblk1 V c t)

/-- The statistics window's block at the last point: the two row stores, the last first — row 1 from both
    accumulators, row 0 from the column sums —, over what the last point leaves in the accumulators. -/
def oblk1_4 (c : Dev nD) : Vec F S2x1024 .f32 :=
  View.canon (Val := Elt F) (s := S2x1024) (e := .f32)
    [⟨Rect.unit (s := S2x1024) ![1, 0] S1x1024.size Gen.inb_S2x1024_S1x1024_1_0, Gen.k1_pay2 (sum1 V c 31) (sq1 V c 31)⟩,
     ⟨Rect.unit (s := S2x1024) ![0, 0] S1x1024.size Gen.inb_S2x1024_S1x1024_0_0, Gen.k1_pay1 (sum1 V c 31)⟩]

end Cert.KernelIdeal.Hand

end
-- ==== Proof.KI.R1.lean ====
/-
  Region 1 (the first dense layer, its rectifier and its batch statistics): the frame data and the body obligation.

  The body has three control cases over the 32 grid points. At the first point both accumulators are reset and the
  block's column sums (of the rectified activations, and of their squares) are added to the reset values; at a
  middle point they are added to what the point before left; at the last point they are added likewise and then
  the two statistics rows are stored from the accumulators' new contents. Each case is run once on abstract whole
  memrefs, and what each buffer then reads is computed: a last store through the whole shape leaves its payload,
  a load of the whole of a buffer reads its contents, and the two row stores tile the statistics block.

  The proof data hold the arrays as the region finds them, each input's buffer at its block, the activation
  window's at the block stored, the statistics window's at the two rows; the invariant between points holds the
  two accumulators — at anything before the first point, at the running sums after point n — beside the scoped
  buffers the region does not touch. The statistics window is idle off the last point and written back at the
  last point only: off it the body hands the buffer back as it found it.
-/
import proofs.«128293_j31387620999258_1_alg».proof.Proof.KI.D1
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading whole buffers back -/

/-- The zero offsets of a rank-2 rectangle, as the printed rectangles spell them. -/
theorem hz2 : (![0, 0] : Fin 2 → ℕ) = fun _ => 0 := by funext a; fin_cases a <;> rfl

/-- A load of the whole of a whole memref whose contents read `X` reads `X`. -/
theorem readAt_unread {S : Shape} {e : EltTy} {m : Memref sig .tc .vmem S e} (hm : m.IsWhole) {off : Fin S.rank → ℕ}
    (h : off = fun _ => 0) (inb : ∀ a, off a + S.size a ≤ S.size a) (X : S.Idx → Elt F e) :
    m.view.readAt (Elt F) (Rect.unit off S.size inb).toLoadRect (hm.unread X) = X := by
  rw [show m.view.readAt (Elt F) (Rect.unit off S.size inb).toLoadRect (hm.unread X)
      = View.ld (m.view.read (Elt F) (hm.unread X)) (Rect.unit off S.size inb) from rfl, hm.read_unread, View.ld_unit_zero h]

/-- After a last store through the whole shape the buffer reads that store's payload, whatever came before. -/
theorem read_writes_unit {S : Shape} {e : EltTy} (v : View sig .tc .vmem S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-! ## The body's branch conditions -/

/-- The first-point test of the body (its first conditional), from the grid coordinates. -/
abbrev cond1_1 (i : grid1.Coords) : Prop := (Scalar.cmpi .ne (Scalar.extui (Scalar.cmpi .eq (BitVec.ofNat 32 (i 0).val) 0#32)) 0#32) = 1#1

/-- It holds at the first point only — decided over the grid. -/
theorem hcond1_1 : ∀ t : Fin cfg1.N, cond1_1 (grid1.coords t) ↔ t.val % 32 = 0 :=
  (by decide +kernel : ∀ t : Fin grid1.N, cond1_1 (grid1.coords t) ↔ t.val % 32 = 0)

/-- The last-point test (the second conditional) holds at the last point only — decided over the grid. -/
theorem hcond1_2 : ∀ t : Fin cfg1.N, k1_cond2 (grid1.coords t) = 1#1 ↔ t.val % 32 = 31 :=
  (by decide +kernel : ∀ t : Fin grid1.N, k1_cond2 (grid1.coords t) = 1#1 ↔ t.val % 32 = 31)

/-! ## The body on whole memrefs, in its three control cases -/

section Runs

variable (c : Dev nD) (i : grid1.Coords)
  (arg1 : Memref sig .tc .vmem S512x2048 .f32) (harg1 : arg1.IsWhole) (arg2 : Memref sig .tc .vmem S2048x1024 .bf16) (harg2 : arg2.IsWhole)
  (arg3 : Memref sig .tc .vmem S1x1024 .f32) (harg3 : arg3.IsWhole) (arg4 : Memref sig .tc .vmem S512x1024 .bf16) (harg4 : arg4.IsWhole)
  (arg5 : Memref sig .tc .vmem S2x1024 .f32) (harg5 : arg5.IsWhole) (arg6 : Memref sig .tc .vmem S1x1024 .f32) (harg6 : arg6.IsWhole)
  (arg7 : Memref sig .tc .vmem S1x1024 .f32) (harg7 : arg7.IsWhole)
  (x : Vec F S512x2048 .f32) (w : Vec F S2048x1024 .bf16) (b : Vec F S1x1024 .f32)

set_option maxHeartbeats 1000000 in
/-- FIRST POINT: both accumulators are reset, then the block's column sums are added to the reset values; the
    activations are stored; the statistics buffer is not touched. -/
theorem run1_first (hc1 : cond1_1 i) (hc2 : ¬k1_cond2 i = 1#1) (d5 : Vec F S2x1024 .f32) (E : Set ℕ) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ owns (c : Thread nD τ) arg5 fullShare d5
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare w ∗ owns (c : Thread nD τ) arg3 fullShare b
            ∗ owns (c : Thread nD τ) arg4 fullShare (Gen.k1_pay8 x w b) ∗ owns (c : Thread nD τ) arg5 fullShare d5
            ∗ owns (c : Thread nD τ) arg6 fullShare (Gen.k1_pay6 x w b Gen.k1_pay3) ∗ owns (c : Thread nD τ) arg7 fullShare (Gen.k1_pay7 x w b Gen.k1_pay4)) -∗ K ⟨⟩))
      ⊢ wp frame (wpE (defs₀ (F := F)) Variants.none c none) E (cc1_mlp1_kernel i arg1 harg1 arg2 harg2 arg3 harg3 arg4 harg4 arg5 harg5 arg6 harg6 arg7 harg7) K := by
  simp only [Gen.cc1_mlp1_kernel_eq_skeleton]; unfold Gen.cc1_mlp1_kernel_skel
  simp only [Gen.k1_part1_eq_skeleton]
  unfold owns
  iintro ⟨⟨%f1, %hf1, H1⟩, ⟨%f2, %hf2, H2⟩, ⟨%f3, %hf3, H3⟩, ⟨%d4, %f4, -, H4⟩, ⟨%f5, %hf5, H5⟩, ⟨%d6, %f6, -, H6⟩, ⟨%d7, %f7, -, H7⟩, Hk⟩
  obtain rfl := harg1.eq_unread hf1; obtain rfl := harg2.eq_unread hf2; obtain rfl := harg3.eq_unread hf3
  sl_exec (disch := first | exact hc1 | exact hc2)
  sl_step
  iapply Hk
  isplitl [H1]; · iexists _; isplitr; · ipureintro; exact harg1.read_unread _
                  iexact H1
  isplitl [H2]; · iexists _; isplitr; · ipureintro; exact harg2.read_unread _
                  iexact H2
  isplitl [H3]; · iexists _; isplitr; · ipureintro; exact harg3.read_unread _
                  iexact H3
  isplitl [H4]
  · iexists _; isplitr; swap; · iexact H4
    ipureintro
    rw [read_writes_unit (S := S512x1024) arg4.view _ hz2]
    simp only [readAt_unread harg1 hz2, readAt_unread harg2 hz2, readAt_unread harg3 hz2, readAt_unread harg6 hz2, readAt_unread harg7 hz2]
  isplitl [H5]; · iexists _; isplitr; · ipureintro; exact hf5
                  iexact H5
  isplitl [H6]
  · iexists _; isplitr; swap; · iexact H6
    ipureintro
    sl_unfold_run_names
    rw [read_writes_unit (S := S1x1024) arg6.view _ hz2]
    simp only [readAt_unread harg1 hz2, readAt_unread harg2 hz2, readAt_unread harg3 hz2, View.readCov_unit_zero arg6.view hz2, View.readCov_unit_zero arg7.view hz2]
  · iexists _; isplitr; swap; · iexact H7
    ipureintro
    sl_unfold_run_names
    rw [read_writes_unit (S := S1x1024) arg7.view _ hz2]
    simp only [readAt_unread harg1 hz2, readAt_unread harg2 hz2, readAt_unread harg3 hz2, View.readCov_unit_zero arg6.view hz2, View.readCov_unit_zero arg7.view hz2]

set_option maxHeartbeats 1000000 in
/-- MIDDLE POINTS: the block's column sums are added to what the accumulators hold; the activations are stored;
    the statistics buffer is not touched. -/
theorem run1_mid (hc1 : ¬cond1_1 i) (hc2 : ¬k1_cond2 i = 1#1) (s q : Vec F S1x1024 .f32) (d5 : Vec F S2x1024 .f32) (E : Set ℕ) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ owns (c : Thread nD τ) arg5 fullShare d5
        ∗ owns (c : Thread nD τ) arg6 fullShare s ∗ owns (c : Thread nD τ) arg7 fullShare q
        ∗ (iprop(owns (c : Thread nD τ) arg1 fullShare x ∗ owns (c : Thread nD τ) arg2 fullShare w ∗ owns (c : Thread nD τ) arg3 fullShare b
            ∗ owns (c : Thread nD τ) arg4 fullShare (Gen.k1_pay8 x w b) ∗ owns (c : Thread nD τ) arg5 fullShare d5
            ∗ owns (c : Thread nD τ) arg6 fullShare (Gen.k1_pay6 x w b s) ∗ owns (c : Thread nD τ) arg7 fullShare (Gen.k1_pay7 x w b q)) -∗ K ⟨⟩))
      ⊢ wp frame (wpE (defs₀ (F := F)) Variants.none c none) E (cc1_mlp1_kernel i arg1 harg1 arg2 harg2 arg3 harg3 arg4 harg4 arg5 harg5 arg6 harg6 arg7 harg7) K := by
  simp only [Gen.cc1_mlp1_kernel_eq_skeleton]; unfold Gen.cc1_mlp1_kernel_skel
  simp only [Gen.k1_part1_eq_skeleton]
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3
  obtain rfl := harg6.eq_unread hf6; obtain rfl := harg7.eq_unread hf7
  sl_exec (disch := first | exact hc1 | exact hc2)
  sl_step
  iapply Hk
  isplitl [H1]; · iexists _; isplitr; · ipureintro; exact harg1.read_unread _
                  iexact H1
  isplitl [H2]; · iexists _; isplitr; · ipureintro; exact harg2.read_unread _
                  iexact H2
  isplitl [H3]; · iexists _; isplitr; · ipureintro; exact harg3.read_unread _
                  iexact H3
  isplitl [H4]
  · iexists _; isplitr; swap; · iexact H4
    ipureintro
    rw [read_writes_unit (S := S512x1024) arg4.view _ hz2]
    simp only [readAt_unread harg1 hz2, readAt_unread harg2 hz2, readAt_unread harg3 hz2, readAt_unread harg6 hz2, readAt_unread harg7 hz2]
  isplitl [H5]; · iexists _; isplitr; · ipureintro; exact hf5
                  iexact H5
  isplitl [H6]
  · iexists _; isplitr; swap; · iexact H6
    ipureintro
    sl_unfold_run_names
    rw [read_writes_unit (S := S1x1024) arg6.view _ hz2]
    simp only [readAt_unread harg1 hz2, readAt_unread harg2 hz2, readAt_unread harg3 hz2, readAt_unread harg6 hz2, readAt_unread harg7 hz2]
  · iexists _; isplitr; swap; · iexact H7
    ipureintro
    sl_unfold_run_names
    rw [read_writes_unit (S := S1x1024) arg7.view _ hz2]
    simp only [readAt_unread harg1 hz2, readAt_unread harg2 hz2, readAt_unread harg3 hz2, readAt_unread harg6 hz2, readAt_unread harg7 hz2]

set_option maxHeartbeats 1000000 in
/-- LAST POINT: the block's column sums are added to what the accumulators hold; the activations are stored; then
    both rows of the statistics buffer are stored from the accumulators' new contents — row 0 first, row 1 last. -/
theorem run1_last (hc1 : ¬cond1_1 i) (hc2 : k1_cond2 i = 1#1) (s q : Vec F S1x1024 .f32) (E : Set ℕ) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ owns (c : Thread nD τ) arg6 fullShare s ∗ owns (c : Thread nD τ) arg7 fullShare q
        ∗ (iprop(owns (c : Thread nD τ) arg1 fullShare x ∗ owns (c : Thread nD τ) arg2 fullShare w ∗ owns (c : Thread nD τ) arg3 fullShare b
            ∗ owns (c : Thread nD τ) arg4 fullShare (Gen.k1_pay8 x w b)
            ∗ owns (c : Thread nD τ) arg5 fullShare (View.canon (Val := Elt F) (s := S2x1024) (e := .f32)
                [⟨Rect.unit (s := S2x1024) ![1, 0] S1x1024.size Gen.inb_S2x1024_S1x1024_1_0, Gen.k1_pay2 (Gen.k1_pay6 x w b s) (Gen.k1_pay7 x w b q)⟩,
                 ⟨Rect.unit (s := S2x1024) ![0, 0] S1x1024.size Gen.inb_S2x1024_S1x1024_0_0, Gen.k1_pay1 (Gen.k1_pay6 x w b s)⟩])
            ∗ owns (c : Thread nD τ) arg6 fullShare (Gen.k1_pay6 x w b s) ∗ owns (c : Thread nD τ) arg7 fullShare (Gen.k1_pay7 x w b q)) -∗ K ⟨⟩))
      ⊢ wp frame (wpE (defs₀ (F := F)) Variants.none c none) E (cc1_mlp1_kernel i arg1 harg1 arg2 harg2 arg3 harg3 arg4 harg4 arg5 harg5 arg6 harg6 arg7 harg7) K := by
  simp only [Gen.cc1_mlp1_kernel_eq_skeleton]; unfold Gen.cc1_mlp1_kernel_skel
  simp only [Gen.k1_part1_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg1.eq_unread hf1; obtain rfl := harg2.eq_unread hf2; obtain rfl := harg3.eq_unread hf3
  obtain rfl := harg6.eq_unread hf6; obtain rfl := harg7.eq_unread hf7
  sl_exec (disch := first | exact hc1 | exact hc2)
  sl_step
  iapply Hk
  isplitl [H1]; · iexists _; isplitr; · ipureintro; exact harg1.read_unread _
                  iexact H1
  isplitl [H2]; · iexists _; isplitr; · ipureintro; exact harg2.read_unread _
                  iexact H2
  isplitl [H3]; · iexists _; isplitr; · ipureintro; exact harg3.read_unread _
                  iexact H3
  isplitl [H4]
  · iexists _; isplitr; swap; · iexact H4
    ipureintro
    rw [read_writes_unit (S := S512x1024) arg4.view _ hz2]
    simp only [readAt_unread harg1 hz2, readAt_unread harg2 hz2, readAt_unread harg3 hz2]
  isplitl [H5]
  · iexists _; isplitr; swap; · iexact H5
    ipureintro
    sl_unfold_run_names
    rw [View.read_writes_eq_canon arg5.view _ _ (View.cover_of_tiledL (s := S2x1024) _ S1x1024.size (by sl_kernel_rfl))]
    simp only [View.readCov_unit_zero arg6.view hz2, View.readCov_unit_zero arg7.view hz2,
      readAt_unread harg1 hz2, readAt_unread harg2 hz2, readAt_unread harg3 hz2, readAt_unread harg6 hz2, readAt_unread harg7 hz2]
  isplitl [H6]
  · iexists _; isplitr; swap; · iexact H6
    ipureintro
    sl_unfold_run_names
    rw [read_writes_unit (S := S1x1024) arg6.view _ hz2]
    simp only [readAt_unread harg1 hz2, readAt_unread harg2 hz2, readAt_unread harg3 hz2, readAt_unread harg6 hz2, readAt_unread harg7 hz2]
  · iexists _; isplitr; swap; · iexact H7
    ipureintro
    sl_unfold_run_names
    rw [read_writes_unit (S := S1x1024) arg7.view _ hz2]
    simp only [readAt_unread harg1 hz2, readAt_unread harg2 hz2, readAt_unread harg3 hz2, readAt_unread harg6 hz2, readAt_unread harg7 hz2]

end Runs

/-! ## The proof data -/

variable (V : (c : Dev nD) → (b : Ref sig .tc) → Buf (Elt F) ((c : Thread nD τ).loc b))

/-- Each window's current staging memref at point `t`, spelt as the pipeline passes it to the body, and its wholeness. -/
abbrev ms1_0 (t : Fin cfg1.N) : Memref sig .tc .vmem S512x2048 .f32 := win1_0.stage (cfg1.slots t 0)
abbrev hs1_0 (t : Fin cfg1.N) : (ms1_0 t).IsWhole := Gen.hstage1_0 ((cfg1.slots t 0).cast Gen.nbuf1_0)
abbrev ms1_1 (t : Fin cfg1.N) : Memref sig .tc .vmem S2048x1024 .bf16 := win1_1.stage (cfg1.slots t 1)
abbrev hs1_1 (t : Fin cfg1.N) : (ms1_1 t).IsWhole := Gen.hstage1_1 ((cfg1.slots t 1).cast Gen.nbuf1_1)
abbrev ms1_2 (t : Fin cfg1.N) : Memref sig .tc .vmem S1x1024 .f32 := win1_2.stage (cfg1.slots t 2)
abbrev hs1_2 (t : Fin cfg1.N) : (ms1_2 t).IsWhole := Gen.hstage1_2 ((cfg1.slots t 2).cast Gen.nbuf1_2)
abbrev ms1_3 (t : Fin cfg1.N) : Memref sig .tc .vmem S512x1024 .bf16 := win1_3.stage (cfg1.slots t 3)
abbrev hs1_3 (t : Fin cfg1.N) : (ms1_3 t).IsWhole := Gen.hstage1_3 ((cfg1.slots t 3).cast Gen.nbuf1_3)
abbrev ms1_4 (t : Fin cfg1.N) : Memref sig .tc .vmem S2x1024 .f32 := win1_4.stage (cfg1.slots t 4)
abbrev hs1_4 (t : Fin cfg1.N) : (ms1_4 t).IsWhole := Gen.hstage1_4 ((cfg1.slots t 4).cast Gen.nbuf1_4)

/-- The two accumulators as memrefs. -/
abbrev acc1_0 : Memref sig .tc .vmem S1x1024 .f32 := Memref.whole cc1_scratch0
abbrev acc1_1 : Memref sig .tc .vmem S1x1024 .f32 := Memref.whole cc1_scratch1

/-- The scoped buffers the region neither stages nor accumulates in, at anything. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The invariant between points, by the number of points run: before the first, the two accumulators hold
    anything; after point `n`, the column sums and the column sums of squares up to it. -/
def phi1 (c : Dev nD) : ℕ → sProp 𝕄
  | 0 => iprop(iprop((∃ d, owns (c : Thread nD τ) acc1_0 fullShare d) ∗ (∃ d, owns (c : Thread nD τ) acc1_1 fullShare d))
      ∗ rest1 c)
  | n + 1 => iprop(iprop(owns (c : Thread nD τ) acc1_0 fullShare (sum1 V c n) ∗ owns (c : Thread nD τ) acc1_1 fullShare (sq1 V c n))
      ∗ rest1 c)

/-- The proof data of region 1 on core `c`: the arrays as the region finds them; after the body at a point each
    input's buffer at its block, the activation window's at the block stored there, the statistics window's at
    the two rows the last point stores; the invariant `phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => oblk1_3 V c t
    | ⟨4, _⟩ => oblk1_4 V c
  Φ t := phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = oblk1_3 V c t := by dsimp only [dat1]
theorem after1_4 (c : Dev nD) (t : Fin cfg1.N) : (dat1 V c).after 4 t = oblk1_4 V c := by dsimp only [dat1]

/-- Each input's current staging buffer holds its block at every point, fetched there or not: unfetched, the block
    index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The accumulators' recursion at a point of the grid -/

theorem sum1_zero (c : Dev nD) (h : 0 < cfg1.N) :
    sum1 V c 0 = Gen.k1_pay6 (xblk1 V c ⟨0, h⟩) (wblk1 V c ⟨0, h⟩) (bblk1 V c ⟨0, h⟩) Gen.k1_pay3 := by
  rw [sum1]; exact dif_pos h
theorem sum1_succ (c : Dev nD) (n : ℕ) (h : n + 1 < cfg1.N) :
    sum1 V c (n + 1) = Gen.k1_pay6 (xblk1 V c ⟨n + 1, h⟩) (wblk1 V c ⟨n + 1, h⟩) (bblk1 V c ⟨n + 1, h⟩) (sum1 V c n) := by
  rw [sum1]; exact dif_pos h
theorem sq1_zero (c : Dev nD) (h : 0 < cfg1.N) :
    sq1 V c 0 = Gen.k1_pay7 (xblk1 V c ⟨0, h⟩) (wblk1 V c ⟨0, h⟩) (bblk1 V c ⟨0, h⟩) Gen.k1_pay4 := by
  rw [sq1]; exact dif_pos h
theorem sq1_succ (c : Dev nD) (n : ℕ) (h : n + 1 < cfg1.N) :
    sq1 V c (n + 1) = Gen.k1_pay7 (xblk1 V c ⟨n + 1, h⟩) (wblk1 V c ⟨n + 1, h⟩) (bblk1 V c ⟨n + 1, h⟩) (sq1 V c n) := by
  rw [sq1]; exact dif_pos h

/-- The same at a point of the grid given by its number: the point itself stays abstract. -/
theorem sum1_at_zero (c : Dev nD) (t : Fin cfg1.N) (hv : t.val = 0) :
    sum1 V c 0 = Gen.k1_pay6 (xblk1 V c t) (wblk1 V c t) (bblk1 V c t) Gen.k1_pay3 := by
  obtain ⟨m, hm⟩ := t; dsimp only at hv; subst hv; exact sum1_zero V c hm
theorem sq1_at_zero (c : Dev nD) (t : Fin cfg1.N) (hv : t.val = 0) :
    sq1 V c 0 = Gen.k1_pay7 (xblk1 V c t) (wblk1 V c t) (bblk1 V c t) Gen.k1_pay4 := by
  obtain ⟨m, hm⟩ := t; dsimp only at hv; subst hv; exact sq1_zero V c hm
theorem sum1_at_succ (c : Dev nD) (t : Fin cfg1.N) (n : ℕ) (hv : t.val = n + 1) :
    sum1 V c (n + 1) = Gen.k1_pay6 (xblk1 V c t) (wblk1 V c t) (bblk1 V c t) (sum1 V c n) := by
  obtain ⟨m, hm⟩ := t; dsimp only at hv; subst hv; exact sum1_succ V c n hm
theorem sq1_at_succ (c : Dev nD) (t : Fin cfg1.N) (n : ℕ) (hv : t.val = n + 1) :
    sq1 V c (n + 1) = Gen.k1_pay7 (xblk1 V c t) (wblk1 V c t) (bblk1 V c t) (sq1 V c n) := by
  obtain ⟨m, hm⟩ := t; dsimp only at hv; subst hv; exact sq1_succ V c n hm

/-- The statistics block with the last point's number written as a successor. -/
theorem oblk1_4_eq (c : Dev nD) : oblk1_4 V c = View.canon (Val := Elt F) (s := S2x1024) (e := .f32)
    [⟨Rect.unit (s := S2x1024) ![1, 0] S1x1024.size Gen.inb_S2x1024_S1x1024_1_0, Gen.k1_pay2 (sum1 V c (30 + 1)) (sq1 V c (30 + 1))⟩,
     ⟨Rect.unit (s := S2x1024) ![0, 0] S1x1024.size Gen.inb_S2x1024_S1x1024_0_0, Gen.k1_pay1 (sum1 V c (30 + 1))⟩] := rfl

/-! ## The region's ends -/

theorem hin1 (c : Dev nD) : (Pipeline.scopedRest (Ix := Unit) (Name := ℕ) (U := UR sig nD τ) (Lvl := ℕ) (Val := Elt F) spec1 c : sProp 𝕄) ⊢ (dat1 V c).Φ 0 := by
  rw [Gen.scopedRest1_split]
  show _ ⊢ phi1 V c 0
  rw [phi1]
  iintro ⟨⟨⟨%f0, H0⟩, ⟨%f1, H1⟩⟩, Hr⟩
  isplitr [Hr]; swap; · iexact Hr
  isplitl [H0]
  · iexists f0; rw [owns_whole]; iexact H0
  · iexists f1; rw [owns_whole]; iexact H1

theorem hout1 (c : Dev nD) : (dat1 V c).Φ (Fin.last cfg1.N) ⊢ (Pipeline.scopedRest (Ix := Unit) (Name := ℕ) (U := UR sig nD τ) (Lvl := ℕ) (Val := Elt F) spec1 c : sProp 𝕄) := by
  rw [Gen.scopedRest1_split]
  show phi1 V c (31 + 1) ⊢ _
  rw [phi1, owns_whole, owns_whole]
  iintro ⟨⟨H0, H1⟩, Hr⟩
  isplitr [Hr]; swap; · iexact Hr
  isplitl [H0]; · iexists _; iexact H0
  iexists _; iexact H1

/-! ## The body obligation, at a generic point -/
/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns: the statistics window, idle off the last point, handed back there as it was found. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ (dat1 V c).leavesExact 4 t)

/-- Off the last point the statistics window is idle and not written back: its post is the buffer as found. -/
theorem leaves1_4_idle (c : Dev nD) (t : Fin cfg1.N) (h : ¬t.val % 32 = 31) :
    (dat1 V c).leavesExact 4 t = iprop(∃ d, owns (c : Thread nD τ) (ms1_4 t) fullShare ((dat1 V c).before 4 t d)) := by
  have hc2 : ¬k1_cond2 (grid1.coords t) = 1#1 := fun hc => h ((hcond1_2 t).mp hc)
  have hi : cfg1.idle 4 (cfg1.grid.coords t) = true := by
    show (!(k1_cond2 (grid1.coords t) == 1#1)) = true
    rw [beq_eq_false_iff_ne.mpr hc2]; rfl
  have hf : (cfg1.win 4).flush t = false := Bool.eq_false_iff.mpr fun hfl => h ((Gen.flush1_4 t).mp hfl)
  exact (dat1 V c).leavesExact_idle 4 t hi hf

/-- At the last point it is live: its post is the buffer at the two rows stored. -/
theorem leaves1_4_last (c : Dev nD) (t : Fin cfg1.N) (h : t.val % 32 = 31) :
    (dat1 V c).leavesExact 4 t = owns (c : Thread nD τ) (ms1_4 t) fullShare (oblk1_4 V c) := by
  have hc2 : k1_cond2 (grid1.coords t) = 1#1 := (hcond1_2 t).mpr h
  have hi : cfg1.idle 4 (cfg1.grid.coords t) = false := by
    show (!(k1_cond2 (grid1.coords t) == 1#1)) = false
    rw [beq_iff_eq.mpr hc2]; rfl
  unfold Dat.leavesExact; rw [hi, after1_4]

set_option maxHeartbeats 800000 in
/-- THE FIRST POINT: the accumulators hold anything; the first-point run resets and accumulates; the statistics window is handed back as found. -/
theorem sound1_first (c : Dev nD) (t : Fin cfg1.N) (h0 : t.val % 32 = 0) :
    bodyPre1 V c t ⊢ wp frame (wpE (defs₀ (F := F)) Variants.none c none) Set.univ (Gen.bodyAt1 t) (fun _ => bodyPost1 V c t) := by
  unfold bodyPre1 bodyPost1 Gen.bodyAt1
  simp only [before1_0, before1_1, before1_2]
  rw [show (dat1 V c).owesAt () t.succ = (dat1 V c).owesAt () t.castSucc from rfl,
    after1_0, after1_1, after1_2, after1_3,
    show (dat1 V c).Φ t.castSucc = phi1 V c t.val from rfl, show (dat1 V c).Φ t.succ = phi1 V c (t.val + 1) from rfl]
  have hN : t.val < 32 := lt_of_lt_of_eq t.isLt (show cfg1.N = 32 from Gen.N_1)
  have hv : t.val = 0 := by omega
  have hc1 : cond1_1 (grid1.coords t) := (hcond1_1 t).mpr h0
  have h31 : ¬t.val % 32 = 31 := by omega
  have hc2 : ¬k1_cond2 (grid1.coords t) = 1#1 := fun hc => h31 ((hcond1_2 t).mp hc)
  rw [leaves1_4_idle V c t h31, hv]
  simp only [phi1]
  rw [sum1_at_zero V c t hv, sq1_at_zero V c t hv]
  iintro ⟨⟨⟨H6, H7⟩, Hr⟩, Ho, ⟨%d0, H0⟩, ⟨%d1, H1⟩, ⟨%d2, H2⟩, ⟨%d3, H3⟩, ⟨%d4, H4⟩⟩
  iapply (run1_first c (grid1.coords t) _ (hs1_0 t) _ (hs1_1 t) _ (hs1_2 t) _ (hs1_3 t) _ (hs1_4 t) acc1_0 (Memref.isWhole_whole _) acc1_1 (Memref.isWhole_whole _)
    (iblk1 V c 0 t) (iblk1 V c 1 t) (iblk1 V c 2 t) hc1 hc2 ((dat1 V c).before 4 t d4) Set.univ _)
  isplitl [H0]; · iexact H0
  isplitl [H1]; · iexact H1
  isplitl [H2]; · iexact H2
  isplitl [H3]; · iexists _; iexact H3
  isplitl [H4]; · iexact H4
  isplitl [H6]; · iexact H6
  isplitl [H7]; · iexact H7
  iintro ⟨H0, H1, H2, H3, H4, H6, H7⟩
  isplitl [H6 H7 Hr]
  · isplitr [Hr]; swap; · iexact Hr
    isplitl [H6]; · iexact H6
    iexact H7
  isplitl [Ho]; · iexact Ho
  isplitl [H0]; · iexact H0
  isplitl [H1]; · iexact H1
  isplitl [H2]; · iexact H2
  isplitl [H3]; · iexact H3
  iexists _; iexact H4

set_option maxHeartbeats 800000 in
/-- A MIDDLE POINT: the accumulators hold what the point before left; the middle run accumulates; the statistics window is handed back as found. -/
theorem sound1_mid (c : Dev nD) (t : Fin cfg1.N) (h0 : ¬t.val % 32 = 0) (h31 : ¬t.val % 32 = 31) :
    bodyPre1 V c t ⊢ wp frame (wpE (defs₀ (F := F)) Variants.none c none) Set.univ (Gen.bodyAt1 t) (fun _ => bodyPost1 V c t) := by
  unfold bodyPre1 bodyPost1 Gen.bodyAt1
  simp only [before1_0, before1_1, before1_2]
  rw [show (dat1 V c).owesAt () t.succ = (dat1 V c).owesAt () t.castSucc from rfl,
    after1_0, after1_1, after1_2, after1_3,
    show (dat1 V c).Φ t.castSucc = phi1 V c t.val from rfl, show (dat1 V c).Φ t.succ = phi1 V c (t.val + 1) from rfl]
  have hN : t.val < 32 := lt_of_lt_of_eq t.isLt (show cfg1.N = 32 from Gen.N_1)
  obtain ⟨n, hv⟩ : ∃ n, t.val = n + 1 := ⟨t.val - 1, by omega⟩
  have hc1 : ¬cond1_1 (grid1.coords t) := fun hc => h0 ((hcond1_1 t).mp hc)
  have hc2 : ¬k1_cond2 (grid1.coords t) = 1#1 := fun hc => h31 ((hcond1_2 t).mp hc)
  rw [leaves1_4_idle V c t h31, hv]
  simp only [phi1]
  rw [sum1_at_succ V c t n hv, sq1_at_succ V c t n hv]
  iintro ⟨⟨⟨H6, H7⟩, Hr⟩, Ho, ⟨%d0, H0⟩, ⟨%d1, H1⟩, ⟨%d2, H2⟩, ⟨%d3, H3⟩, ⟨%d4, H4⟩⟩
  iapply (run1_mid c (grid1.coords t) _ (hs1_0 t) _ (hs1_1 t) _ (hs1_2 t) _ (hs1_3 t) _ (hs1_4 t) acc1_0 (Memref.isWhole_whole _) acc1_1 (Memref.isWhole_whole _)
    (iblk1 V c 0 t) (iblk1 V c 1 t) (iblk1 V c 2 t) hc1 hc2 (sum1 V c n) (sq1 V c n) ((dat1 V c).before 4 t d4) Set.univ _)
  isplitl [H0]; · iexact H0
  isplitl [H1]; · iexact H1
  isplitl [H2]; · iexact H2
  isplitl [H3]; · iexists _; iexact H3
  isplitl [H4]; · iexact H4
  isplitl [H6]; · iexact H6
  isplitl [H7]; · iexact H7
  iintro ⟨H0, H1, H2, H3, H4, H6, H7⟩
  isplitl [H6 H7 Hr]
  · isplitr [Hr]; swap; · iexact Hr
    isplitl [H6]; · iexact H6
    iexact H7
  isplitl [Ho]; · iexact Ho
  isplitl [H0]; · iexact H0
  isplitl [H1]; · iexact H1
  isplitl [H2]; · iexact H2
  isplitl [H3]; · iexact H3
  iexists _; iexact H4

set_option maxHeartbeats 800000 in
/-- THE LAST POINT: the accumulators hold what the point before left; the last run accumulates and stores both rows of the statistics window, which is live here. -/
theorem sound1_last (c : Dev nD) (t : Fin cfg1.N) (h31 : t.val % 32 = 31) :
    bodyPre1 V c t ⊢ wp frame (wpE (defs₀ (F := F)) Variants.none c none) Set.univ (Gen.bodyAt1 t) (fun _ => bodyPost1 V c t) := by
  unfold bodyPre1 bodyPost1 Gen.bodyAt1
  simp only [before1_0, before1_1, before1_2]
  rw [show (dat1 V c).owesAt () t.succ = (dat1 V c).owesAt () t.castSucc from rfl,
    after1_0, after1_1, after1_2, after1_3,
    show (dat1 V c).Φ t.castSucc = phi1 V c t.val from rfl, show (dat1 V c).Φ t.succ = phi1 V c (t.val + 1) from rfl]
  have hN : t.val < 32 := lt_of_lt_of_eq t.isLt (show cfg1.N = 32 from Gen.N_1)
  have hv : t.val = 30 + 1 := by omega
  have h0 : ¬t.val % 32 = 0 := by omega
  have hc1 : ¬cond1_1 (grid1.coords t) := fun hc => h0 ((hcond1_1 t).mp hc)
  have hc2 : k1_cond2 (grid1.coords t) = 1#1 := (hcond1_2 t).mpr h31
  rw [leaves1_4_last V c t h31, hv, oblk1_4_eq]
  simp only [phi1]
  rw [sum1_at_succ V c t 30 hv, sq1_at_succ V c t 30 hv]
  iintro ⟨⟨⟨H6, H7⟩, Hr⟩, Ho, ⟨%d0, H0⟩, ⟨%d1, H1⟩, ⟨%d2, H2⟩, ⟨%d3, H3⟩, ⟨%d4, H4⟩⟩
  iapply (run1_last c (grid1.coords t) _ (hs1_0 t) _ (hs1_1 t) _ (hs1_2 t) _ (hs1_3 t) _ (hs1_4 t) acc1_0 (Memref.isWhole_whole _) acc1_1 (Memref.isWhole_whole _)
    (iblk1 V c 0 t) (iblk1 V c 1 t) (iblk1 V c 2 t) hc1 hc2 (sum1 V c 30) (sq1 V c 30) Set.univ _)
  isplitl [H0]; · iexact H0
  isplitl [H1]; · iexact H1
  isplitl [H2]; · iexact H2
  isplitl [H3]; · iexists _; iexact H3
  isplitl [H4]; · iexists _; iexact H4
  isplitl [H6]; · iexact H6
  isplitl [H7]; · iexact H7
  iintro ⟨H0, H1, H2, H3, H4, H6, H7⟩
  isplitl [H6 H7 Hr]
  · isplitr [Hr]; swap; · iexact Hr
    isplitl [H6]; · iexact H6
    iexact H7
  isplitl [Ho]; · iexact Ho
  isplitl [H0]; · iexact H0
  isplitl [H1]; · iexact H1
  isplitl [H2]; · iexact H2
  isplitl [H3]; · iexact H3
  iexact H4

/-- The body at any point: the closed forms say which of the three cases the point is in. -/
theorem sound_body1 (c : Dev nD) (t : Fin cfg1.N) :
    bodyPre1 V c t ⊢ wp frame (wpE (defs₀ (F := F)) Variants.none c none) Set.univ (Gen.bodyAt1 t) (fun _ => bodyPost1 V c t) := by
  by_cases h0 : t.val % 32 = 0
  · exact sound1_first V c t h0
  · by_cases h31 : t.val % 32 = 31
    · exact sound1_last V c t h31
    · exact sound1_mid V c t h0 h31

/-- The library's body obligation, at every point. -/
theorem body_obligation1 (c : Dev nD) : BodyObligation (dat1 (F := F) V c) (defs₀ (F := F)) Variants.none () Set.univ := fun t => by
  rw [Gen.bigSep_W1, Gen.bigSep_W1]
  exact sound_body1 V c t

end Cert.KernelIdeal.Hand

end
-- ==== Proof.KI.D2.lean ====
/- Region 2 of @main (the second hidden layer): the pure frame data of its pipeline, generic in the float
   model. The body at grid point t normalises the 512-row block of the previous layer's activations with that
   layer's batch statistics (row 0 the mean, row 1 the variance), scales and shifts it, multiplies by the weight
   block, adds the bias and clips at zero; it writes that block out, and adds the block's column sums and column
   sums of squares to two one-row accumulators that live from point to point, which the first point resets to
   zero; the last point turns the two accumulators into the layer's own statistics (mean, and mean of squares
   less squared mean) and writes them as the two rows of the statistics block. Everything here is a definition
   over the payload functions of the printed body; nothing is proved. -/
import proofs.«128293_j31387620999258_1_alg».proof.Proof.Gen.KernelIdeal.Skeleton
import proofs.«128293_j31387620999258_1_alg».proof.Proof.Gen.KernelIdeal.Launch
import proofs.«128293_j31387620999258_1_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.Sem
open Cert.KernelIdeal.Gen

variable {F : FTy → Type} [FloatOps F]

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The six input blocks at a point, at their literal shapes: the previous layer's activations (512 rows of the
    batch), its statistics (two rows), the scale, the shift, the weights, the bias. -/
abbrev blk2_pre1 (c : Dev nD) (t : Fin cfg2.N) : Vec F S512x1024 .bf16 := iblk2 V c 0 t
abbrev blk2_stats1 (c : Dev nD) (t : Fin cfg2.N) : Vec F S2x1024 .f32 := iblk2 V c 1 t
abbrev blk2_g1 (c : Dev nD) (t : Fin cfg2.N) : Vec F S1x1024 .f32 := iblk2 V c 2 t
abbrev blk2_beta1 (c : Dev nD) (t : Fin cfg2.N) : Vec F S1x1024 .f32 := iblk2 V c 3 t
abbrev blk2_W2 (c : Dev nD) (t : Fin cfg2.N) : Vec F S1024x512 .bf16 := iblk2 V c 4 t
abbrev blk2_b2 (c : Dev nD) (t : Fin cfg2.N) : Vec F S1x512 .f32 := iblk2 V c 5 t

/-! ## The body's partial accesses -/

/-- Row 0 (the mean) and row 1 (the variance) of the previous layer's statistics block. -/
abbrev r2_mean : Rect S2x1024 := Rect.unit (s := S2x1024) ![0, 0] S1x1024.size inb_S2x1024_S1x1024_0_0
abbrev r2_var : Rect S2x1024 := Rect.unit (s := S2x1024) ![1, 0] S1x1024.size inb_S2x1024_S1x1024_1_0
/-- Row 0 and row 1 of this layer's statistics block. -/
abbrev r2_row0 : Rect S2x512 := Rect.unit (s := S2x512) ![0, 0] S1x512.size inb_S2x512_S1x512_0_0
abbrev r2_row1 : Rect S2x512 := Rect.unit (s := S2x512) ![1, 0] S1x512.size inb_S2x512_S1x512_1_0

/-! ## What the body computes at a point -/

/-- The clipped pre-activations of the 512 rows of point `t`: the normalised, scaled and shifted block times
    the weights, plus the bias, clipped at zero. -/
def relu2 (c : Dev nD) (t : Fin cfg2.N) : FVec F S512x512 .f32 :=
  k2_pay8 (blk2_pre1 V c t) (View.ld (blk2_stats1 V c t) r2_mean) (View.ld (blk2_stats1 V c t) r2_var)
    (blk2_g1 V c t) (blk2_beta1 V c t) (blk2_W2 V c t) (blk2_b2 V c t)

/-- THE COLUMN SUMS. What point `n` leaves in the first accumulator: the column sums of its block added to what
    the point before left, the first point adding to the zero row it has just stored. Past the grid nothing
    changes. -/
def sum2 (c : Dev nD) : ℕ → Vec F S1x512 .f32
  | 0 => if h : 0 < cfg2.N then k2_pay1 (relu2 V c ⟨0, h⟩) (k2_pay6 (F := F)) else k2_pay6 (F := F)
  | n + 1 => if h : n + 1 < cfg2.N then k2_pay1 (relu2 V c ⟨n + 1, h⟩) (sum2 c n) else sum2 c n

/-- THE COLUMN SUMS OF SQUARES. What point `n` leaves in the second accumulator, likewise. -/
def sq2 (c : Dev nD) : ℕ → Vec F S1x512 .f32
  | 0 => if h : 0 < cfg2.N then k2_pay2 (relu2 V c ⟨0, h⟩) (k2_pay7 (F := F)) else k2_pay7 (F := F)
  | n + 1 => if h : n + 1 < cfg2.N then k2_pay2 (relu2 V c ⟨n + 1, h⟩) (sq2 c n) else sq2 c n

/-- The activations block point `t` writes out: the clipped block, narrowed to the storage format. -/
def out2_6 (c : Dev nD) (t : Fin cfg2.N) : Vec F S512x512 .bf16 := k2_pay3 (relu2 V c t)

/-- The statistics block from the accumulators as point `t` leaves them: row 0 the column sums over the batch
    size, then row 1 the sums of squares over the batch size less the square of row 0 (the later store first).
    It is what the body stores at the LAST point, the only one that writes the block back. -/
def out2_7 (c : Dev nD) (t : Fin cfg2.N) : Vec F S2x512 .f32 :=
  View.canon [⟨r2_row1, k2_pay5 (sum2 V c t.val) (sq2 V c t.val)⟩, ⟨r2_row0, k2_pay4 (sum2 V c t.val)⟩]

/-! ## The recursions, unfolded at a point of the grid -/

theorem sum2_zero (c : Dev nD) (h : 0 < cfg2.N) : sum2 V c 0 = k2_pay1 (relu2 V c ⟨0, h⟩) (k2_pay6 (F := F)) := by
  rw [sum2, dif_pos h]
theorem sum2_succ (c : Dev nD) (n : ℕ) (h : n + 1 < cfg2.N) : sum2 V c (n + 1) = k2_pay1 (relu2 V c ⟨n + 1, h⟩) (sum2 V c n) := by
  rw [sum2, dif_pos h]
theorem sq2_zero (c : Dev nD) (h : 0 < cfg2.N) : sq2 V c 0 = k2_pay2 (relu2 V c ⟨0, h⟩) (k2_pay7 (F := F)) := by
  rw [sq2, dif_pos h]
theorem sq2_succ (c : Dev nD) (n : ℕ) (h : n + 1 < cfg2.N) : sq2 V c (n + 1) = k2_pay2 (relu2 V c ⟨n + 1, h⟩) (sq2 V c n) := by
  rw [sq2, dif_pos h]

end Cert.KernelIdeal.Hand

end
-- ==== Proof.KI.R2.lean ====
/- Region 2 of @main (the second hidden layer): the frame data of its pipeline at a parameter `V`, the contents of the
   core's buffers when the region is entered. The body has two conditionals on the grid coordinate — the first
   point resets the two one-row accumulators, the last point turns them into the layer's statistics — hence three
   cases of a point: first, middle, last. In each the body's triple is stated in closed form over the blocks of
   the six inputs and what the accumulators held: the clipped block goes to the activations' buffer; its column
   sums and column sums of squares are added to the accumulators; at the last point only, the two rows (mean; mean
   of squares less squared mean) go to the statistics' buffer, which is otherwise handed back untouched. A store
   through the whole-buffer rectangle leaves its payload and a load through it reads the contents, so the closed
   forms mention no rectangle but the two row pairs. The proof data carries the accumulators from point to point in
   its invariant. -/
import proofs.«128293_j31387620999258_1_alg».proof.Proof.KI.D2
import Idealize.ShloMosaic.Lib.Pipeline.FrameBody
import Idealize.ShloMosaic.Lib.Pipeline.Value
import Idealize.ShloMosaic.Lib.Ring
import Idealize.ShloMosaic.Lib.Tactic

-- membership in a rectangle of production extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks

An input whose body leaves its block in place holds, at every point, what a fetch there would put in its buffer —
fetched there or not: unfetched, its block index has not moved (the five inputs with a constant index map are
fetched at the first point only). -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions, over the grid -/

/-- "This is the first point" as the body computes it, -/
abbrev cond2_0 (i : grid2.Coords) : Prop := (Scalar.cmpi .ne (Scalar.extui (Scalar.cmpi .eq (BitVec.ofNat 32 (i 0).val) 0#32)) 0#32) = 1#1
/-- in closed form: decided over the grid. -/
theorem hcond2_0 : ∀ t : Fin cfg2.N, cond2_0 (grid2.coords t) ↔ t.val = 0 :=
  (by decide +kernel : ∀ t : Fin grid2.N, cond2_0 (grid2.coords t) ↔ t.val = 0)

/-- "This is the last point" as the body computes it, -/
abbrev cond2_1 (i : grid2.Coords) : Prop := k2_cond2 i = 1#1
/-- in closed form. -/
theorem hcond2_1 : ∀ t : Fin cfg2.N, cond2_1 (grid2.coords t) ↔ t.val = 31 :=
  (by decide +kernel : ∀ t : Fin grid2.N, cond2_1 (grid2.coords t) ↔ t.val = 31)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- The statistics window is idle, and not written back, at every point but the last; live there. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

/-! ## The staging memrefs at a point, and the two accumulators -/

abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x512 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x512 .bf16 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S2x512 .f32 := win2_7.stage (cfg2.slots t 7)
abbrev hs2_7 (t : Fin cfg2.N) : (ms2_7 t).IsWhole := hstage2_7 ((cfg2.slots t 7).cast nbuf2_7)
abbrev scM2_0 : Memref sig .tc .vmem S1x512 .f32 := Memref.whole cc2_scratch0
abbrev scM2_1 : Memref sig .tc .vmem S1x512 .f32 := Memref.whole cc2_scratch1

/-! ## The clipped block over read contents -/

theorem zero2 : (![0, 0] : Fin 2 → Nat) = fun _ => 0 := funext fun a => by fin_cases a <;> rfl

/-- A list of stores whose last goes through the whole-buffer rectangle covers the buffer. -/
theorem cover_unit_zero2 {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

/-- The clipped block as a function of what the six input buffers read. -/
def reluOf2 (x0 : Vec F S512x1024 .bf16) (x1 : Vec F S2x1024 .f32) (x2 x3 : Vec F S1x1024 .f32) (x4 : Vec F S1024x512 .bf16) (x5 : Vec F S1x512 .f32) : FVec F S512x512 .f32 :=
  k2_pay8 x0 (View.ld x1 r2_mean) (View.ld x1 r2_var) x2 x3 x4 x5

/-! ## The body's triple, in the three cases -/

set_option maxHeartbeats 4000000 in
theorem sound_kernel2_A (c : Dev nD) (E : Set ℕ) (i : grid2.Coords) (arg1 : Memref sig .tc .vmem S512x1024 .bf16) (harg1 : arg1.IsWhole) (arg2 : Memref sig .tc .vmem S2x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S2x512 .f32) (harg8 : arg8.IsWhole) (arg9 : Memref sig .tc .vmem S1x512 .f32) (harg9 : arg9.IsWhole) (arg10 : Memref sig .tc .vmem S1x512 .f32) (harg10 : arg10.IsWhole) (hc0 : cond2_0 i) (hc1 : ¬cond2_1 i)
    (x0 : Vec F S512x1024 .bf16) (x1 : Vec F S2x1024 .f32) (x2 x3 : Vec F S1x1024 .f32) (x4 : Vec F S1024x512 .bf16) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k2_pay3 (reluOf2 x0 x1 x2 x3 x4 x5))
            ∗ owns (c : Thread nD τ) arg9 fullShare (k2_pay1 (reluOf2 x0 x1 x2 x3 x4 x5) (k2_pay6 (F := F))) ∗ owns (c : Thread nD τ) arg10 fullShare (k2_pay2 (reluOf2 x0 x1 x2 x3 x4 x5) (k2_pay7 (F := F)))) -∗ K ⟨⟩))
      ⊢ wp frame (wpE (defs₀ (F := F)) Variants.none c none) E (cc2_mlp2_kernel i arg1 harg1 arg2 harg2 arg3 harg3 arg4 harg4 arg5 harg5 arg6 harg6 arg7 harg7 arg8 harg8 arg9 harg9 arg10 harg10) K := by
  simp only [cc2_mlp2_kernel_eq_skeleton]; unfold cc2_mlp2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%e0, %g0, -, H9⟩, ⟨%e1, %g1, -, H10⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr; swap; · iexact H7
    ipureintro
    sl_unfold_run_names
    refine Eq.trans (View.read_writes_eq_canon _ _ _ (cover_unit_zero2 (S := S512x512) zero2 inb_S512x512_S512x512_0_0 _ _)) ?_
    rw [View.canon_unit_zero zero2]
    simp only [View.readAt_eq_ld, View.readCov_unit_zero (S := S1x512) _ zero2, View.ld_unit_zero (S := S512x1024) zero2, View.ld_unit_zero (S := S1x1024) zero2,
      View.ld_unit_zero (S := S1024x512) zero2, View.ld_unit_zero (S := S1x512) zero2]
    try rfl
  isplitl [H9]
  · iexists _; isplitr; swap; · iexact H9
    ipureintro
    sl_unfold_run_names
    refine Eq.trans (View.read_writes_eq_canon _ _ _ (cover_unit_zero2 (S := S1x512) zero2 inb_S1x512_S1x512_0_0 _ _)) ?_
    rw [View.canon_cons_unit_zero (S := S1x512) zero2]
    simp only [View.readAt_eq_ld, View.readCov_unit_zero (S := S1x512) _ zero2, View.ld_unit_zero (S := S512x1024) zero2, View.ld_unit_zero (S := S1x1024) zero2,
      View.ld_unit_zero (S := S1024x512) zero2, View.ld_unit_zero (S := S1x512) zero2]
    try rfl
  iexists _; isplitr; swap; · iexact H10
  ipureintro
  sl_unfold_run_names
  refine Eq.trans (View.read_writes_eq_canon _ _ _ (cover_unit_zero2 (S := S1x512) zero2 inb_S1x512_S1x512_0_0 _ _)) ?_
  rw [View.canon_cons_unit_zero (S := S1x512) zero2]
  simp only [View.readAt_eq_ld, View.readCov_unit_zero (S := S1x512) _ zero2, View.ld_unit_zero (S := S512x1024) zero2, View.ld_unit_zero (S := S1x1024) zero2,
    View.ld_unit_zero (S := S1024x512) zero2, View.ld_unit_zero (S := S1x512) zero2]
  try rfl

set_option maxHeartbeats 4000000 in
theorem sound_kernel2_B (c : Dev nD) (E : Set ℕ) (i : grid2.Coords) (arg1 : Memref sig .tc .vmem S512x1024 .bf16) (harg1 : arg1.IsWhole) (arg2 : Memref sig .tc .vmem S2x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S2x512 .f32) (harg8 : arg8.IsWhole) (arg9 : Memref sig .tc .vmem S1x512 .f32) (harg9 : arg9.IsWhole) (arg10 : Memref sig .tc .vmem S1x512 .f32) (harg10 : arg10.IsWhole) (hc0 : ¬cond2_0 i) (hc1 : ¬cond2_1 i)
    (x0 : Vec F S512x1024 .bf16) (x1 : Vec F S2x1024 .f32) (x2 x3 : Vec F S1x1024 .f32) (x4 : Vec F S1024x512 .bf16) (x5 : Vec F S1x512 .f32) (s0 s1 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k2_pay3 (reluOf2 x0 x1 x2 x3 x4 x5))
            ∗ owns (c : Thread nD τ) arg9 fullShare (k2_pay1 (reluOf2 x0 x1 x2 x3 x4 x5) s0) ∗ owns (c : Thread nD τ) arg10 fullShare (k2_pay2 (reluOf2 x0 x1 x2 x3 x4 x5) s1)) -∗ K ⟨⟩))
      ⊢ wp frame (wpE (defs₀ (F := F)) Variants.none c none) E (cc2_mlp2_kernel i arg1 harg1 arg2 harg2 arg3 harg3 arg4 harg4 arg5 harg5 arg6 harg6 arg7 harg7 arg8 harg8 arg9 harg9 arg10 harg10) K := by
  simp only [cc2_mlp2_kernel_eq_skeleton]; unfold cc2_mlp2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%g0, %hg0, H9⟩, ⟨%g1, %hg1, H10⟩, Hk⟩
  subst hf0 hf1 hf2 hf3 hf4 hf5 hg0 hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr; swap; · iexact H7
    ipureintro
    sl_unfold_run_names
    refine Eq.trans (View.read_writes_eq_canon _ _ _ (cover_unit_zero2 (S := S512x512) zero2 inb_S512x512_S512x512_0_0 _ _)) ?_
    rw [View.canon_unit_zero zero2]
    simp only [View.readAt_eq_ld, View.readCov_unit_zero (S := S1x512) _ zero2, View.ld_unit_zero (S := S512x1024) zero2, View.ld_unit_zero (S := S1x1024) zero2,
      View.ld_unit_zero (S := S1024x512) zero2, View.ld_unit_zero (S := S1x512) zero2]
    try rfl
  isplitl [H9]
  · iexists _; isplitr; swap; · iexact H9
    ipureintro
    sl_unfold_run_names
    refine Eq.trans (View.read_writes_eq_canon _ _ _ (cover_unit_zero2 (S := S1x512) zero2 inb_S1x512_S1x512_0_0 _ _)) ?_
    rw [View.canon_unit_zero zero2]
    simp only [View.readAt_eq_ld, View.readCov_unit_zero (S := S1x512) _ zero2, View.ld_unit_zero (S := S512x1024) zero2, View.ld_unit_zero (S := S1x1024) zero2,
      View.ld_unit_zero (S := S1024x512) zero2, View.ld_unit_zero (S := S1x512) zero2]
    try rfl
  iexists _; isplitr; swap; · iexact H10
  ipureintro
  sl_unfold_run_names
  refine Eq.trans (View.read_writes_eq_canon _ _ _ (cover_unit_zero2 (S := S1x512) zero2 inb_S1x512_S1x512_0_0 _ _)) ?_
  rw [View.canon_unit_zero zero2]
  simp only [View.readAt_eq_ld, View.readCov_unit_zero (S := S1x512) _ zero2, View.ld_unit_zero (S := S512x1024) zero2, View.ld_unit_zero (S := S1x1024) zero2,
    View.ld_unit_zero (S := S1024x512) zero2, View.ld_unit_zero (S := S1x512) zero2]
  try rfl

/-- The two row stores of the statistics tile its buffer, whatever their payloads: they cover it. -/
theorem cover2_7 (p1 p0 : Vec F S1x512 .f32) (y : S2x512.Idx) :
    ∃ pc ∈ ([⟨r2_row1, p1⟩, ⟨r2_row0, p0⟩] : List (View.Piece (Elt F) S2x512 .f32)), y ∈ pc.1.set :=
  View.cover_of_tiled [⟨r2_row1, p1⟩, ⟨r2_row0, p0⟩] S1x512.size (by rfl) y

set_option maxHeartbeats 4000000 in
theorem sound_kernel2_C (c : Dev nD) (E : Set ℕ) (i : grid2.Coords) (arg1 : Memref sig .tc .vmem S512x1024 .bf16) (harg1 : arg1.IsWhole) (arg2 : Memref sig .tc .vmem S2x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S2x512 .f32) (harg8 : arg8.IsWhole) (arg9 : Memref sig .tc .vmem S1x512 .f32) (harg9 : arg9.IsWhole) (arg10 : Memref sig .tc .vmem S1x512 .f32) (harg10 : arg10.IsWhole) (hc0 : ¬cond2_0 i) (hc1 : cond2_1 i)
    (x0 : Vec F S512x1024 .bf16) (x1 : Vec F S2x1024 .f32) (x2 x3 : Vec F S1x1024 .f32) (x4 : Vec F S1024x512 .bf16) (x5 : Vec F S1x512 .f32) (s0 s1 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k2_pay3 (reluOf2 x0 x1 x2 x3 x4 x5))
            ∗ owns (c : Thread nD τ) arg8 fullShare (View.canon [⟨r2_row1, k2_pay5 (k2_pay1 (reluOf2 x0 x1 x2 x3 x4 x5) s0) (k2_pay2 (reluOf2 x0 x1 x2 x3 x4 x5) s1)⟩, ⟨r2_row0, k2_pay4 (k2_pay1 (reluOf2 x0 x1 x2 x3 x4 x5) s0)⟩])
            ∗ owns (c : Thread nD τ) arg9 fullShare (k2_pay1 (reluOf2 x0 x1 x2 x3 x4 x5) s0) ∗ owns (c : Thread nD τ) arg10 fullShare (k2_pay2 (reluOf2 x0 x1 x2 x3 x4 x5) s1)) -∗ K ⟨⟩))
      ⊢ wp frame (wpE (defs₀ (F := F)) Variants.none c none) E (cc2_mlp2_kernel i arg1 harg1 arg2 harg2 arg3 harg3 arg4 harg4 arg5 harg5 arg6 harg6 arg7 harg7 arg8 harg8 arg9 harg9 arg10 harg10) K := by
  simp only [cc2_mlp2_kernel_eq_skeleton]; unfold cc2_mlp2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, ⟨%g0, %hg0, H9⟩, ⟨%g1, %hg1, H10⟩, Hk⟩
  subst hf0 hf1 hf2 hf3 hf4 hf5 hg0 hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr; swap; · iexact H7
    ipureintro
    sl_unfold_run_names
    refine Eq.trans (View.read_writes_eq_canon _ _ _ (cover_unit_zero2 (S := S512x512) zero2 inb_S512x512_S512x512_0_0 _ _)) ?_
    rw [View.canon_unit_zero zero2]
    simp only [View.readAt_eq_ld, View.readCov_unit_zero (S := S1x512) _ zero2, View.ld_unit_zero (S := S512x1024) zero2, View.ld_unit_zero (S := S1x1024) zero2,
      View.ld_unit_zero (S := S1024x512) zero2, View.ld_unit_zero (S := S1x512) zero2]
    try rfl
  isplitl [H8]
  · iexists _; isplitr; swap; · iexact H8
    ipureintro
    sl_unfold_run_names
    refine Eq.trans (View.read_writes_eq_canon _ _ _ (cover2_7 _ _)) ?_
    simp only [View.readAt_eq_ld, View.readCov_unit_zero (S := S1x512) _ zero2, View.ld_unit_zero (S := S512x1024) zero2, View.ld_unit_zero (S := S1x1024) zero2,
      View.ld_unit_zero (S := S1024x512) zero2, View.ld_unit_zero (S := S1x512) zero2]
    try rfl
  isplitl [H9]
  · iexists _; isplitr; swap; · iexact H9
    ipureintro
    sl_unfold_run_names
    refine Eq.trans (View.read_writes_eq_canon _ _ _ (cover_unit_zero2 (S := S1x512) zero2 inb_S1x512_S1x512_0_0 _ _)) ?_
    rw [View.canon_unit_zero zero2]
    simp only [View.readAt_eq_ld, View.readCov_unit_zero (S := S1x512) _ zero2, View.ld_unit_zero (S := S512x1024) zero2, View.ld_unit_zero (S := S1x1024) zero2,
      View.ld_unit_zero (S := S1024x512) zero2, View.ld_unit_zero (S := S1x512) zero2]
    try rfl
  iexists _; isplitr; swap; · iexact H10
  ipureintro
  sl_unfold_run_names
  refine Eq.trans (View.read_writes_eq_canon _ _ _ (cover_unit_zero2 (S := S1x512) zero2 inb_S1x512_S1x512_0_0 _ _)) ?_
  rw [View.canon_unit_zero zero2]
  simp only [View.readAt_eq_ld, View.readCov_unit_zero (S := S1x512) _ zero2, View.ld_unit_zero (S := S512x1024) zero2, View.ld_unit_zero (S := S1x1024) zero2,
    View.ld_unit_zero (S := S1024x512) zero2, View.ld_unit_zero (S := S1x512) zero2]
  try rfl

/-! ## The invariant between points: the two accumulators -/

/-- The scoped buffers the pipeline does not stage, before position `n`: before the first point all at anything;
    afterwards the first accumulator at the column sums and the second at the column sums of squares as the point
    before left them, every other scoped buffer at anything. -/
def PhiS2 (c : Dev nD) : ℕ → sProp 𝕄
  | 0 => (Pipeline.scopedRest (Ix := Unit) (Name := ℕ) (U := UR sig nD τ) (Lvl := ℕ) (Val := Elt F) spec2 c : sProp 𝕄)
  | n + 1 => iprop(iprop(owns (c : Thread nD τ) scM2_0 fullShare (sum2 V c n) ∗ owns (c : Thread nD τ) scM2_1 fullShare (sq2 V c n)) ∗ Pipeline.scopedRestBut (Ix := Unit) (Name := ℕ) (U := UR sig nD τ) (Lvl := ℕ) (Val := Elt F) spec2 c [cc2_scratch0, cc2_scratch1])

/-- The scoped rest with the two accumulators split off, each whole at some contents. -/
theorem scopedRest2_owns (c : Dev nD) :
    (Pipeline.scopedRest (Ix := Unit) (Name := ℕ) (U := UR sig nD τ) (Lvl := ℕ) (Val := Elt F) spec2 c : sProp 𝕄) = iprop(iprop((∃ d, owns (c : Thread nD τ) scM2_0 fullShare d) ∗ (∃ d, owns (c : Thread nD τ) scM2_1 fullShare d)) ∗ Pipeline.scopedRestBut (Ix := Unit) (Name := ℕ) (U := UR sig nD τ) (Lvl := ℕ) (Val := Elt F) spec2 c [cc2_scratch0, cc2_scratch1]) := by
  rw [scopedRest2_split]; simp only [scM2_0, scM2_1, owns_whole]; try rfl

theorem PhiS2_first (c : Dev nD) (n : ℕ) (hz : n = 0) :
    PhiS2 V c n = iprop(iprop((∃ d, owns (c : Thread nD τ) scM2_0 fullShare d) ∗ (∃ d, owns (c : Thread nD τ) scM2_1 fullShare d)) ∗ Pipeline.scopedRestBut (Ix := Unit) (Name := ℕ) (U := UR sig nD τ) (Lvl := ℕ) (Val := Elt F) spec2 c [cc2_scratch0, cc2_scratch1]) := by
  subst hz; exact scopedRest2_owns c

theorem PhiS2_succ (c : Dev nD) (n : ℕ) :
    PhiS2 V c (n + 1) = iprop(iprop(owns (c : Thread nD τ) scM2_0 fullShare (sum2 V c n) ∗ owns (c : Thread nD τ) scM2_1 fullShare (sq2 V c n)) ∗ Pipeline.scopedRestBut (Ix := Unit) (Name := ℕ) (U := UR sig nD τ) (Lvl := ℕ) (Val := Elt F) spec2 c [cc2_scratch0, cc2_scratch1]) := rfl

theorem PhiS2_pos (c : Dev nD) (n : ℕ) (hz : n ≠ 0) :
    PhiS2 V c n = iprop(iprop(owns (c : Thread nD τ) scM2_0 fullShare (sum2 V c (n - 1)) ∗ owns (c : Thread nD τ) scM2_1 fullShare (sq2 V c (n - 1))) ∗ Pipeline.scopedRestBut (Ix := Unit) (Name := ℕ) (U := UR sig nD τ) (Lvl := ℕ) (Val := Elt F) spec2 c [cc2_scratch0, cc2_scratch1]) := by
  cases n with
  | zero => exact absurd rfl hz
  | succ n => rfl

/-- The recursions at a point of the grid: the first point adds to the zero row, every other to what the point before left. -/
theorem sum2_first (c : Dev nD) (t : Fin cfg2.N) (h : t.val = 0) : sum2 V c t.val = k2_pay1 (relu2 V c t) (k2_pay6 (F := F)) := by
  obtain ⟨n, hn⟩ := t; obtain rfl : n = 0 := h; exact sum2_zero V c hn
theorem sum2_next (c : Dev nD) (t : Fin cfg2.N) (h : t.val ≠ 0) : sum2 V c t.val = k2_pay1 (relu2 V c t) (sum2 V c (t.val - 1)) := by
  obtain ⟨n, hn⟩ := t
  cases n with
  | zero => exact absurd rfl h
  | succ n => exact sum2_succ V c n hn
theorem sq2_first (c : Dev nD) (t : Fin cfg2.N) (h : t.val = 0) : sq2 V c t.val = k2_pay2 (relu2 V c t) (k2_pay7 (F := F)) := by
  obtain ⟨n, hn⟩ := t; obtain rfl : n = 0 := h; exact sq2_zero V c hn
theorem sq2_next (c : Dev nD) (t : Fin cfg2.N) (h : t.val ≠ 0) : sq2 V c t.val = k2_pay2 (relu2 V c t) (sq2 V c (t.val - 1)) := by
  obtain ⟨n, hn⟩ := t
  cases n with
  | zero => exact absurd rfl h
  | succ n => exact sq2_succ V c n hn

theorem relu2_eq (c : Dev nD) (t : Fin cfg2.N) : relu2 V c t = (reluOf2 (iblk2 V c 0 t) (iblk2 V c 1 t) (iblk2 V c 2 t) (iblk2 V c 3 t) (iblk2 V c 4 t) (iblk2 V c 5 t)) := rfl

/-! ## The pipeline's proof data -/

/-- The proof data of region 2 on core `c`: the arrays as the region finds them; after the body at point `t` each
    input's buffer at its block, the activations' at the clipped block, the statistics' at the two rows made of the
    accumulators as that point leaves them (read only at the last point, the one that writes the block back); the
    invariant the two accumulators; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 V c t
    | ⟨7, _⟩ => out2_7 V c t
  Φ t := PhiS2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 V c t := by dsimp only [dat2]
theorem after2_7 (c : Dev nD) (t : Fin cfg2.N) : (dat2 V c).after 7 t = out2_7 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

theorem Phi2_castSucc (c : Dev nD) (t : Fin cfg2.N) : (dat2 V c).Φ t.castSucc = PhiS2 V c t.val := by
  dsimp only [dat2]; simp only [Fin.coe_castSucc]
theorem Phi2_succ (c : Dev nD) (t : Fin cfg2.N) : (dat2 V c).Φ t.succ = PhiS2 V c (t.val + 1) := by
  dsimp only [dat2]; simp only [Fin.val_succ]

/-- At a window never idle the body leaves `after`. -/
theorem leaves2_0 (c : Dev nD) (t : Fin cfg2.N) : (dat2 V c).leavesExact 0 t = owns (c : Thread nD τ) (ms2_0 t) fullShare ((dat2 V c).after 0 t) := by
  unfold Dat.leavesExact; rw [liveAt2_0 t]
theorem leaves2_1 (c : Dev nD) (t : Fin cfg2.N) : (dat2 V c).leavesExact 1 t = owns (c : Thread nD τ) (ms2_1 t) fullShare ((dat2 V c).after 1 t) := by
  unfold Dat.leavesExact; rw [liveAt2_1 t]
theorem leaves2_2 (c : Dev nD) (t : Fin cfg2.N) : (dat2 V c).leavesExact 2 t = owns (c : Thread nD τ) (ms2_2 t) fullShare ((dat2 V c).after 2 t) := by
  unfold Dat.leavesExact; rw [liveAt2_2 t]
theorem leaves2_3 (c : Dev nD) (t : Fin cfg2.N) : (dat2 V c).leavesExact 3 t = owns (c : Thread nD τ) (ms2_3 t) fullShare ((dat2 V c).after 3 t) := by
  unfold Dat.leavesExact; rw [liveAt2_3 t]
theorem leaves2_4 (c : Dev nD) (t : Fin cfg2.N) : (dat2 V c).leavesExact 4 t = owns (c : Thread nD τ) (ms2_4 t) fullShare ((dat2 V c).after 4 t) := by
  unfold Dat.leavesExact; rw [liveAt2_4 t]
theorem leaves2_5 (c : Dev nD) (t : Fin cfg2.N) : (dat2 V c).leavesExact 5 t = owns (c : Thread nD τ) (ms2_5 t) fullShare ((dat2 V c).after 5 t) := by
  unfold Dat.leavesExact; rw [liveAt2_5 t]
theorem leaves2_6 (c : Dev nD) (t : Fin cfg2.N) : (dat2 V c).leavesExact 6 t = owns (c : Thread nD τ) (ms2_6 t) fullShare ((dat2 V c).after 6 t) := by
  unfold Dat.leavesExact; rw [liveAt2_6 t]
theorem leaves2_7_last (c : Dev nD) (t : Fin cfg2.N) (h : cond2_1 (grid2.coords t)) : (dat2 V c).leavesExact 7 t = owns (c : Thread nD τ) (ms2_7 t) fullShare ((dat2 V c).after 7 t) := by
  unfold Dat.leavesExact; rw [liveAt2_7 t h]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4000000 in
/-- The body at any point. The inputs' buffers hold their blocks; the grid's closed forms say which of the three
    cases the point is in; the invariant hands the body the two accumulators (at anything before the first point,
    else at what the point before left) and takes them back at this point's sums; the statistics buffer passes
    through untouched except at the last point, which fills its two rows. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl, Phi2_castSucc, Phi2_succ, PhiS2_succ]
  rw [leaves2_0, leaves2_1, leaves2_2, leaves2_3, leaves2_4, leaves2_5, leaves2_6,
    after2_0, after2_1, after2_2, after2_3, after2_4, after2_5, after2_6]
  have hN : t.val < 32 := lt_of_lt_of_eq t.isLt (show cfg2.N = 32 from N_2)
  by_cases h0 : t.val = 0
  · have h1 : ¬t.val = 31 := by omega
    rw [Dat.leavesExact_idle (dat2 V c) 7 t (idleAt2_7 t fun h => h1 ((hcond2_1 t).mp h)) (noFlush2_7 t fun h => h1 ((hcond2_1 t).mp h))]
    rw [PhiS2_first V c _ h0, sum2_first V c t h0, sq2_first V c t h0]
    unfold out2_6
    rw [relu2_eq]
    iintro ⟨⟨⟨⟨%e0, HS0⟩, ⟨%e1, HS1⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_A c Set.univ (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexists _; iexact HS0
    isplitl [HS1]; · iexists _; iexact HS1
    iintro ⟨H0, H1, H2, H3, H4, H5, H6, HS0, HS1⟩
    isplitl [HS0 HS1 Hr]
    · isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val = 31
    · rw [leaves2_7_last V c t ((hcond2_1 t).mpr h1), after2_7]
      rw [PhiS2_pos V c _ h0]
      unfold out2_6 out2_7
      rw [sum2_next V c t h0, sq2_next V c t h0, relu2_eq]
      iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_C c Set.univ (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hr]
      · isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat2 V c) 7 t (idleAt2_7 t fun h => h1 ((hcond2_1 t).mp h)) (noFlush2_7 t fun h => h1 ((hcond2_1 t).mp h))]
      rw [PhiS2_pos V c _ h0]
      unfold out2_6
      rw [sum2_next V c t h0, sq2_next V c t h0, relu2_eq]
      iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_B c Set.univ (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hr]
      · isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with, the scoped rest, is the invariant before the first point. -/
theorem hin2 (c : Dev nD) : (Pipeline.scopedRest (Ix := Unit) (Name := ℕ) (U := UR sig nD τ) (Lvl := ℕ) (Val := Elt F) spec2 c : sProp 𝕄) ⊢ (dat2 V c).Φ 0 := by
  rw [show (dat2 V c).Φ 0 = PhiS2 V c 0 from rfl]
  exact Idealize.SL.BI.Entails.refl _

/-- After the last point the invariant gives the scoped rest back: what the accumulators hold is forgotten. -/
theorem hout2 (c : Dev nD) : (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = PhiS2 V c (Fin.last cfg2.N).val from rfl, Fin.val_last,
    PhiS2_pos V c _ (by have : cfg2.N = 32 := N_2; omega), scopedRest2_owns]
  iintro ⟨⟨HS0, HS1⟩, Hr⟩
  isplitl [HS0 HS1]
  · isplitl [HS0]; · iexists _; iexact HS0
    iexists _; iexact HS1
  iexact Hr

end Cert.KernelIdeal.Hand

end
-- ==== Proof.KI.R3.lean ====
/-
  Region 3 of the kernel (the last pallas_call): at each of the 32 grid points the body normalizes a 512-row block of
  the second layer's activations with the second batch statistics, applies the third dense layer, projects the 64
  deep features and the 496 pair products to one column each, and adds the two columns and the bias.

  Eleven windows: 0 the activations' block, 1 the statistics (two rows), 2 the scale, 3 the shift, 4 the third
  layer's weights, 5 its bias, 6 the pair products' block, 7 and 8 the two projections' weights, 9 the output
  bias, 10 the result's block. Windows 1-5 and 7-9 have a constant block index: they are fetched at the first point
  only and found in place afterwards.

  The body reads every input window's buffer through literal rectangles and stores once, over the whole of window
  10's buffer; so what it leaves there is a closed function of the ten input blocks at the point. This file states
  that function, proves the body's triple by running the body, and packs the region's proof data and body obligation
  at a parameter `V`: the core's buffer contents when the region is entered. No scratch is carried from point to point,
  so the invariant between points is the scoped rest alone.
-/
import proofs.«128293_j31387620999258_1_alg».proof.Proof.Gen.KernelIdeal.Launch
import proofs.«128293_j31387620999258_1_alg».proof.Proof.Gen.KernelIdeal.Skeleton
import proofs.«128293_j31387620999258_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block index
    has not moved, so the block found is the block of the point. The window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): unfetched, the block index
    has not moved, so the block found is the block of the point. The window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): unfetched, the block index
    has not moved, so the block found is the block of the point. The window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): unfetched, the block index
    has not moved, so the block found is the block of the point. The window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): unfetched, the block index
    has not moved, so the block found is the block of the point. The window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for any proof
    data whose array is `V`'s (`hA`) and whose body leaves the block in place (`hafter`): unfetched, the block index
    has not moved, so the block found is the block of the point. The window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for any proof
    data whose array is `V`'s (`hA`) and whose body leaves the block in place (`hafter`): unfetched, the block index
    has not moved, so the block found is the block of the point. The window is uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for any proof
    data whose array is `V`'s (`hA`) and whose body leaves the block in place (`hafter`): unfetched, the block index
    has not moved, so the block found is the block of the point. The window is uncut and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's current staging buffer holds its block at every point, fetched there or not, for any proof
    data whose array is `V`'s (`hA`) and whose body leaves the block in place (`hafter`): unfetched, the block index
    has not moved, so the block found is the block of the point. The window is uncut and never idle. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
/-- Input window 9's current staging buffer holds its block at every point, fetched there or not, for any proof
    data whose array is `V`'s (`hA`) and whose body leaves the block in place (`hafter`): unfetched, the block index
    has not moved, so the block found is the block of the point. The window is uncut and never idle. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S512x512 := Rect.unit (s := S512x512) ![0, 0] S512x512.size inb_S512x512_S512x512_0_0
abbrev r3_1 : Rect S2x512 := Rect.unit (s := S2x512) ![0, 0] S1x512.size inb_S2x512_S1x512_0_0
abbrev r3_2 : Rect S2x512 := Rect.unit (s := S2x512) ![1, 0] S1x512.size inb_S2x512_S1x512_1_0
abbrev r3_3 : Rect S1x512 := Rect.unit (s := S1x512) ![0, 0] S1x512.size inb_S1x512_S1x512_0_0
abbrev r3_4 : Rect S512x64 := Rect.unit (s := S512x64) ![0, 0] S512x64.size inb_S512x64_S512x64_0_0
abbrev r3_5 : Rect S1x64 := Rect.unit (s := S1x64) ![0, 0] S1x64.size inb_S1x64_S1x64_0_0
abbrev r3_6 : Rect S512x496 := Rect.unit (s := S512x496) ![0, 0] S512x496.size inb_S512x496_S512x496_0_0
abbrev r3_7 : Rect S64x1 := Rect.unit (s := S64x1) ![0, 0] S64x1.size inb_S64x1_S64x1_0_0
abbrev r3_8 : Rect S496x1 := Rect.unit (s := S496x1) ![0, 0] S496x1.size inb_S496x1_S496x1_0_0
abbrev r3_9 : Rect S1x1 := Rect.unit (s := S1x1) ![0, 0] S1x1.size inb_S1x1_S1x1_0_0
abbrev r3_10 : Rect S512x1 := Rect.unit (s := S512x1) ![0, 0] S512x1.size inb_S512x1_S512x1_0_0

/-! ## What the body leaves in the output window's buffer -/

/-- Window 10's staging buffer after the body, from the input windows' blocks: its one store, over the whole buffer.
    The stored column is the sum of the deep features' projection (the third layer over the normalized block, against
    window 7), the pair products' projection (against window 8) and the bias. The statistics' two rows are read
    apart: the mean through the first row's rectangle, the variance through the second's. -/
def out3_10 (x0 : Vec F S512x512 .bf16) (x1 : Vec F S2x512 .f32) (x2 : Vec F S1x512 .f32) (x3 : Vec F S1x512 .f32) (x4 : Vec F S512x64 .bf16) (x5 : Vec F S1x64 .f32) (x6 : Vec F S512x496 .f32) (x7 : Vec F S64x1 .bf16) (x8 : Vec F S496x1 .bf16) (x9 : Vec F S1x1 .f32) : Vec F S512x1 .f32 :=
  View.canon [⟨r3_10, k3_pay1 (k3_pay2 (View.ld x6 r3_6)) (k3_pay3 (View.ld x0 r3_0) (View.ld x1 r3_1) (View.ld x1 r3_2) (View.ld x2 r3_3) (View.ld x3 r3_3) (View.ld x4 r3_4) (View.ld x5 r3_5) (View.ld x7 r3_7)) (View.ld x8 r3_8) (View.ld x9 r3_9)⟩]

/-- The one store tiles the buffer, so it covers it. -/
theorem cover3_10 (p0 : Vec F S512x1 .f32) (y : S512x1.Idx) :
    ∃ pc ∈ ([⟨r3_10, p0⟩] : List (View.Piece (Elt F) S512x1 .f32)), y ∈ pc.1.set :=
  View.cover_of_tiled [⟨r3_10, p0⟩] S512x1.size (by rfl) y

/-! ## The body's triple -/

set_option maxHeartbeats 1000000 in
/-- The kernel body on whole staging memrefs, the inputs' at read contents `xW` and the output's at anything, runs to
    the continuation holding the inputs' as they were and the output's at `out3_10` of the inputs': the body is its
    sequence of loads and one store over named pure values, run statement by statement through its one part call. -/
theorem sound_kernel3 (c : Dev nD) (E : Set ℕ) (i : grid3.Coords) (arg1 : Memref sig .tc .vmem S512x512 .bf16) (harg1 : arg1.IsWhole) (arg2 : Memref sig .tc .vmem S2x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S512x64 .bf16) (harg5 : arg5.IsWhole) (arg6 : Memref sig .tc .vmem S1x64 .f32) (harg6 : arg6.IsWhole) (arg7 : Memref sig .tc .vmem S512x496 .f32) (harg7 : arg7.IsWhole) (arg8 : Memref sig .tc .vmem S64x1 .bf16) (harg8 : arg8.IsWhole) (arg9 : Memref sig .tc .vmem S496x1 .bf16) (harg9 : arg9.IsWhole) (arg10 : Memref sig .tc .vmem S1x1 .f32) (harg10 : arg10.IsWhole) (arg11 : Memref sig .tc .vmem S512x1 .f32) (harg11 : arg11.IsWhole)
    (x0 : Vec F S512x512 .bf16) (x1 : Vec F S2x512 .f32) (x2 : Vec F S1x512 .f32) (x3 : Vec F S1x512 .f32) (x4 : Vec F S512x64 .bf16) (x5 : Vec F S1x64 .f32) (x6 : Vec F S512x496 .f32) (x7 : Vec F S64x1 .bf16) (x8 : Vec F S496x1 .bf16) (x9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out3_10 x0 x1 x2 x3 x4 x5 x6 x7 x8 x9)) -∗ K ⟨⟩))
      ⊢ wp frame (wpE (defs₀ (F := F)) Variants.none c none) E (cc3_final_kernel i arg1 harg1 arg2 harg2 arg3 harg3 arg4 harg4 arg5 harg5 arg6 harg6 arg7 harg7 arg8 harg8 arg9 harg9 arg10 harg10 arg11 harg11) K := by
  simp only [cc3_final_kernel_eq_skeleton]; unfold cc3_final_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover3_10 _)

/-! ## The pipeline's proof data -/

/-- The proof data of the region's pipeline on core `c`: the arrays as the region finds them (`V`); after the body at
    point `t` each input's buffer at its block and the output's at `out3_10` of the input blocks; the invariant
    between points the scoped rest alone (nothing is carried from point to point); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.scopedRest (Ix := Unit) (Name := ℕ) (U := UR sig nD τ) (Lvl := ℕ) (Val := Elt F) spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

/-- The invariant is entered from, and left to, the scoped rest itself. -/
theorem hin3 (c : Dev nD) : (Pipeline.scopedRest (Ix := Unit) (Name := ℕ) (U := UR sig nD τ) (Lvl := ℕ) (Val := Elt F) spec3 c : sProp 𝕄) ⊢ (dat3 V c).Φ 0 := .rfl
theorem hout3 (c : Dev nD) : (dat3 V c).Φ (Fin.last cfg3.N) ⊢ (Pipeline.scopedRest (Ix := Unit) (Name := ℕ) (U := UR sig nD τ) (Lvl := ℕ) (Val := Elt F) spec3 c : sProp 𝕄) := .rfl

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The run of @main over its four kernel regions, from the launch to the return.

  @main is seven segments: a stretch of host operations (the index table, converts, slices, reshapes), region 0, one
  reshape, the 23 operations that gather the upper-triangle columns, then regions 1, 2 and 3. The buffer contents at
  each segment boundary are a fold from the launch memory `m` (`W0 … W7`): a host stretch rewrites the buffers its
  operations write (`StableHlo.after`); a region leaves its arrays at what its write-backs fold to (`Dat.arrAt … N`)
  and every other buffer as entered (`Pipeline.withArrays`). Each region's proof data is taken at its entry contents.

  The thread state between two segments is: every unscoped buffer at the boundary's contents, the generator register
  at some state, nothing owed. A region splits its arrays out of the unscoped buffers at entry and puts them back at
  exit; only the scoped buffers no window stages enter its invariant, the register and the other unscoped buffers
  bypass it. The launch theorem for several regions then gives: every weakly fair execution terminates, nothing
  faulting, and the final memory holds `W7` at every unscoped buffer. No host operation writes an argument array and
  no region has one among its outputs, so `W7` at an argument is the launch memory.
-/
import proofs.«128293_j31387620999258_1_alg».proof.Proof.KI.R0
import proofs.«128293_j31387620999258_1_alg».proof.Proof.KI.R1
import proofs.«128293_j31387620999258_1_alg».proof.Proof.KI.R2
import proofs.«128293_j31387620999258_1_alg».proof.Proof.KI.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is none of a region's eleven arrays recurses once per window
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
/-- The same read at the TensorCore's references (what region 0's proof data take). -/
abbrev V1 : (c : Dev nD) → (b : Ref sig .tc) → Buf (Elt F) ((c : Thread nD τ).loc b) := fun c b => W1 m c b
/-- At region 0's exit: its arrays at what the pipeline leaves (the input as entered, the output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m c b
/-- At region 0's exit each of its arrays holds what the pipeline leaves, and every other buffer what it held at
    entry: the two hypotheses under which the arrays and the unscoped rest join back into the unscoped buffers. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reshape of region 0's result. -/
abbrev W3 : Dev nD → Valuation τ sig (Elt F) := fun c => StableHlo.after hostOps1 (W2 m c)
/-- After the gather of the upper-triangle columns (region 1's entry). -/
abbrev W4 : Dev nD → Valuation τ sig (Elt F) := fun c => StableHlo.after hostOps1_1 (W3 m c)
/-- The same read at the TensorCore's references (what region 1's proof data take). -/
abbrev V4 : (c : Dev nD) → (b : Ref sig .tc) → Buf (Elt F) ((c : Thread nD τ).loc b) := fun c b => W4 m c b
/-- At region 1's exit (region 2's entry). -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The same read at the TensorCore's references (what region 2's proof data take). -/
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- At region 2's exit (region 3's entry). -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references (what region 3's proof data take). -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- At region 3's exit: what the final memory holds. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same read at the TensorCore's references (region 3's exit contents). -/
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-! ### The arguments end as launched

Each host stretch writes only its operations' results, listed here as references; a reference outside the list keeps
its contents through the stretch. A region changes only its own arrays, and of those only the outputs. -/

/-- The references the first host stretch writes. -/
abbrev wr0 : List (Ref sig .tc) :=
  [main_c, main_v0, main_v1, main_v2, main_v3, main_v4, main_v5, main_v6, main_v7, main_v8, main_v9, main_v10,
    main_v11, main_v12, main_v13, main_v14, main_v15]
/-- The reference the reshape of region 0's result writes. -/
abbrev wr1 : List (Ref sig .tc) := [main_v17]
/-- The references the gather's 23 operations write. -/
abbrev wr1_1 : List (Ref sig .tc) :=
  [main_call0_c, main_call0_v0, main_call0_v1, main_call0_c_0, main_call0_v2, main_call0_v3, main_call0_v4,
    main_call0_v5, main_call0_c_1, main_call0_c_2, main_call0_v6, main_call0_v7, main_call0_v8, main_call0_v9,
    main_call0_v10, main_call0_v11, main_call0_c_3, main_call0_v12, main_call0_v13, main_call0_v14, main_call0_cst,
    main_call0_v15, main_v18]

theorem hostOps0_writes : (hostOps0 : List (HloOp τ sig (Elt F))).Forall fun op =>
    op.writes ⊆ (wr0.map (Proc.devRef (τ := τ) .tc)).toFinset := by
  simp only [hostOps0, List.Forall, StableHlo.nullary_writes, StableHlo.unary_writes, StableHlo.reshape_writes,
    Finset.singleton_subset_iff, List.mem_toFinset]
  repeat' apply And.intro
  all_goals exact List.mem_map.mpr ⟨_, by decide, rfl⟩
theorem hostOps1_writes : (hostOps1 : List (HloOp τ sig (Elt F))).Forall fun op =>
    op.writes ⊆ (wr1.map (Proc.devRef (τ := τ) .tc)).toFinset := by
  simp only [hostOps1, List.Forall, StableHlo.reshape_writes, Finset.singleton_subset_iff, List.mem_toFinset]
  exact List.mem_map.mpr ⟨_, by decide, rfl⟩
theorem hostOps1_1_writes : (hostOps1_1 : List (HloOp τ sig (Elt F))).Forall fun op =>
    op.writes ⊆ (wr1_1.map (Proc.devRef (τ := τ) .tc)).toFinset := by
  simp only [hostOps1_1, List.Forall, StableHlo.nullary_writes, StableHlo.unary_writes, StableHlo.binary_writes,
    StableHlo.ternary_writes, Finset.singleton_subset_iff, List.mem_toFinset]
  repeat' apply And.intro
  all_goals exact List.mem_map.mpr ⟨_, by decide, rfl⟩

/-- A buffer the first host stretch does not write holds at region 0's entry what the launch memory holds. -/
theorem W1_of_not_written (c : Dev nD) (b : Ref sig .tc) (h0 : b ∉ wr0) :
    W1 m c (Proc.devRef .tc b) = m ((c : Thread nD τ).loc b) :=
  (StableHlo.after_of_writes_sub hostOps0 (W0 m c) hostOps0_writes h0).trans rfl

/-- A buffer that neither later host stretch writes and that is no array of regions 1, 2, 3 holds at the end what it
    held at region 0's exit. -/
theorem W7_eq_W2 (c : Dev nD) (b : Ref sig .tc) (h1 : b ∉ wr1) (h11 : b ∉ wr1_1)
    (hs1 : ∀ w, Pipeline.arrRef spec1 w ≠ b) (hs2 : ∀ w, Pipeline.arrRef spec2 w ≠ b)
    (hs3 : ∀ w, Pipeline.arrRef spec3 w ≠ b) : W7 m c (Proc.devRef .tc b) = W2 m c (Proc.devRef .tc b) :=
  calc W7 m c (Proc.devRef .tc b)
    _ = W6 m c (Proc.devRef .tc b) := W7_of_ne m c b hs3
    _ = W5 m c (Proc.devRef .tc b) := W6_of_ne m c b hs2
    _ = W4 m c (Proc.devRef .tc b) := W5_of_ne m c b hs1
    _ = W3 m c (Proc.devRef .tc b) := StableHlo.after_of_writes_sub hostOps1_1 (W3 m c) hostOps1_1_writes h11
    _ = W2 m c (Proc.devRef .tc b) := StableHlo.after_of_writes_sub hostOps1 (W2 m c) hostOps1_writes h1

/-- A buffer no host operation writes and no region has among its arrays ends as launched. -/
theorem W7_of_untouched (c : Dev nD) (b : Ref sig .tc) (h0 : b ∉ wr0) (h1 : b ∉ wr1) (h11 : b ∉ wr1_1)
    (hs0 : ∀ w, Pipeline.arrRef spec0 w ≠ b) (hs1 : ∀ w, Pipeline.arrRef spec1 w ≠ b)
    (hs2 : ∀ w, Pipeline.arrRef spec2 w ≠ b) (hs3 : ∀ w, Pipeline.arrRef spec3 w ≠ b) :
    W7 m c (Proc.devRef .tc b) = m ((c : Thread nD τ).loc b) :=
  ((W7_eq_W2 m c b h1 h11 hs1 hs2 hs3).trans (W2_of_ne m c b hs0)).trans (W1_of_not_written m c b h0)

/-- The first argument is region 0's INPUT array: the region reads it and never writes it back. -/
theorem W7_main_arg0 (c : Dev nD) : W7 m c (Proc.devRef .tc main_arg0) = m ((c : Thread nD τ).loc main_arg0) :=
  calc W7 m c (Proc.devRef .tc main_arg0)
    _ = W2 m c (Proc.devRef .tc main_arg0) :=
      W7_eq_W2 m c main_arg0 (by decide) (by decide) (by decide) (by decide) (by decide)
    _ = W1 m c (Proc.devRef .tc main_arg0) :=
      (W2_arr m c 0).trans (((dat0 (V1 m) c).arrAt_in 0 rfl _).trans (A_eq0 (V1 m) c 0))
    _ = m ((c : Thread nD τ).loc main_arg0) := W1_of_not_written m c main_arg0 (by decide)
theorem W7_main_arg1 (c : Dev nD) : W7 m c (Proc.devRef .tc main_arg1) = m ((c : Thread nD τ).loc main_arg1) :=
  W7_of_untouched m c main_arg1 (by decide) (by decide) (by decide) (by decide) (by decide) (by decide) (by decide)
theorem W7_main_arg2 (c : Dev nD) : W7 m c (Proc.devRef .tc main_arg2) = m ((c : Thread nD τ).loc main_arg2) :=
  W7_of_untouched m c main_arg2 (by decide) (by decide) (by decide) (by decide) (by decide) (by decide) (by decide)
theorem W7_main_arg3 (c : Dev nD) : W7 m c (Proc.devRef .tc main_arg3) = m ((c : Thread nD τ).loc main_arg3) :=
  W7_of_untouched m c main_arg3 (by decide) (by decide) (by decide) (by decide) (by decide) (by decide) (by decide)
theorem W7_main_arg4 (c : Dev nD) : W7 m c (Proc.devRef .tc main_arg4) = m ((c : Thread nD τ).loc main_arg4) :=
  W7_of_untouched m c main_arg4 (by decide) (by decide) (by decide) (by decide) (by decide) (by decide) (by decide)
theorem W7_main_arg5 (c : Dev nD) : W7 m c (Proc.devRef .tc main_arg5) = m ((c : Thread nD τ).loc main_arg5) :=
  W7_of_untouched m c main_arg5 (by decide) (by decide) (by decide) (by decide) (by decide) (by decide) (by decide)
theorem W7_main_arg6 (c : Dev nD) : W7 m c (Proc.devRef .tc main_arg6) = m ((c : Thread nD τ).loc main_arg6) :=
  W7_of_untouched m c main_arg6 (by decide) (by decide) (by decide) (by decide) (by decide) (by decide) (by decide)
theorem W7_main_arg7 (c : Dev nD) : W7 m c (Proc.devRef .tc main_arg7) = m ((c : Thread nD τ).loc main_arg7) :=
  W7_of_untouched m c main_arg7 (by decide) (by decide) (by decide) (by decide) (by decide) (by decide) (by decide)
theorem W7_main_arg8 (c : Dev nD) : W7 m c (Proc.devRef .tc main_arg8) = m ((c : Thread nD τ).loc main_arg8) :=
  W7_of_untouched m c main_arg8 (by decide) (by decide) (by decide) (by decide) (by decide) (by decide) (by decide)
theorem W7_main_arg9 (c : Dev nD) : W7 m c (Proc.devRef .tc main_arg9) = m ((c : Thread nD τ).loc main_arg9) :=
  W7_of_untouched m c main_arg9 (by decide) (by decide) (by decide) (by decide) (by decide) (by decide) (by decide)
theorem W7_main_arg10 (c : Dev nD) : W7 m c (Proc.devRef .tc main_arg10) = m ((c : Thread nD τ).loc main_arg10) :=
  W7_of_untouched m c main_arg10 (by decide) (by decide) (by decide) (by decide) (by decide) (by decide) (by decide)
theorem W7_main_arg11 (c : Dev nD) : W7 m c (Proc.devRef .tc main_arg11) = m ((c : Thread nD τ).loc main_arg11) :=
  W7_of_untouched m c main_arg11 (by decide) (by decide) (by decide) (by decide) (by decide) (by decide) (by decide)
theorem W7_main_arg12 (c : Dev nD) : W7 m c (Proc.devRef .tc main_arg12) = m ((c : Thread nD τ).loc main_arg12) :=
  W7_of_untouched m c main_arg12 (by decide) (by decide) (by decide) (by decide) (by decide) (by decide) (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents: a literal match, so that the family at a numeral
    reduces to the printed configuration's record. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
  | ⟨2, _⟩ => fun c => dat2 (V5 m) c
  | ⟨3, _⟩ => fun c => dat3 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its tally of
    what it owes, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- Nor does the reshape of region 0's result, -/
theorem hostOps1_fresh : (hostOps1 : List (HloOp τ sig (Elt F))).Forall fun op => op.fresh = ∅ := by
  simp only [List.Forall]; repeat' constructor
/-- nor any of the gather's operations. -/
theorem hostOps1_1_fresh : (hostOps1_1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tally: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

/-! ## The regions as segments

Each record: the region is entered from every unscoped buffer at its entry contents and left at its exit contents.
Its arrays are split out of the unscoped buffers at entry and joined back at the exit contents; the generator register
and the other unscoped buffers bypass the region (`Z`); nothing but the scoped buffers no window stages enters the
invariant (`X` and `Y` are empty), by the region's own two entailments; nothing is owed; the kernels have no semaphore
of their own. -/

-- a library lemma stated over the pinned configuration unifies with the printed one only when unification may unfold
-- plain definitions in a metavariable's type
set_option backward.isDefEq.respectTransparency.types false in
/-- REGION 0: entered at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X _ := BI.emp
  Y _ := BI.emp
  Z c := iprop(Pipeline.unscopedRest (Ix := Unit) (Name := ℕ) (U := UR sig nD τ) (Lvl := ℕ) spec0 c (V1 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have h : (Pipeline.scopedRest (Ix := Unit) (Name := ℕ) (U := UR sig nD τ) (Lvl := ℕ) (Val := Elt F) spec0 c : sProp 𝕄)
        ⊢ (pdats m 0 c).Φ 0 := hin0 (V1 m) c
    iintro ⟨-, -, Hr⟩
    iapply h; iexact Hr
  hout c := by
    have h : (pdats m 0 c).Φ (Fin.last _)
        ⊢ (Pipeline.scopedRest (Ix := Unit) (Name := ℕ) (U := UR sig nD τ) (Lvl := ℕ) (Val := Elt F) spec0 c : sProp 𝕄) := hout0 (V1 m) c
    rw [Pipeline.ownSems0_none]
    iintro HΦ
    isplitr; · iempintro
    isplitr; · iempintro
    iapply h; iexact HΦ
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- as above
set_option backward.isDefEq.respectTransparency.types false in
/-- REGION 1: entered at `W4`, left at `W5`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X _ := BI.emp
  Y _ := BI.emp
  Z c := iprop(Pipeline.unscopedRest (Ix := Unit) (Name := ℕ) (U := UR sig nD τ) (Lvl := ℕ) spec1 c (V4 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun w => A_eq1 (V4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have h : (Pipeline.scopedRest (Ix := Unit) (Name := ℕ) (U := UR sig nD τ) (Lvl := ℕ) (Val := Elt F) spec1 c : sProp 𝕄)
        ⊢ (pdats m 1 c).Φ 0 := hin1 (V4 m) c
    iintro ⟨-, -, Hr⟩
    iapply h; iexact Hr
  hout c := by
    have h : (pdats m 1 c).Φ (Fin.last _)
        ⊢ (Pipeline.scopedRest (Ix := Unit) (Name := ℕ) (U := UR sig nD τ) (Lvl := ℕ) (Val := Elt F) spec1 c : sProp 𝕄) := hout1 (V4 m) c
    rw [Pipeline.ownSems0_none]
    iintro HΦ
    isplitr; · iempintro
    isplitr; · iempintro
    iapply h; iexact HΦ
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- as above
set_option backward.isDefEq.respectTransparency.types false in
/-- REGION 2: entered at `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X _ := BI.emp
  Y _ := BI.emp
  Z c := iprop(Pipeline.unscopedRest (Ix := Unit) (Name := ℕ) (U := UR sig nD τ) (Lvl := ℕ) spec2 c (V5 m c) ∗ ∃ r, prngReg c r)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun w => A_eq2 (V5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have h : (Pipeline.scopedRest (Ix := Unit) (Name := ℕ) (U := UR sig nD τ) (Lvl := ℕ) (Val := Elt F) spec2 c : sProp 𝕄)
        ⊢ (pdats m 2 c).Φ 0 := hin2 (V5 m) c
    iintro ⟨-, -, Hr⟩
    iapply h; iexact Hr
  hout c := by
    have h : (pdats m 2 c).Φ (Fin.last _)
        ⊢ (Pipeline.scopedRest (Ix := Unit) (Name := ℕ) (U := UR sig nD τ) (Lvl := ℕ) (Val := Elt F) spec2 c : sProp 𝕄) := hout2 (V5 m) c
    rw [Pipeline.ownSems0_none]
    iintro HΦ
    isplitr; · iempintro
    isplitr; · iempintro
    iapply h; iexact HΦ
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- as above
set_option backward.isDefEq.respectTransparency.types false in
/-- REGION 3: entered at `W6`, left at `W7`, what the launch reads at the end. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X _ := BI.emp
  Y _ := BI.emp
  Z c := iprop(Pipeline.unscopedRest (Ix := Unit) (Name := ℕ) (U := UR sig nD τ) (Lvl := ℕ) spec3 c (V6 m c) ∗ ∃ r, prngReg c r)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun w => A_eq3 (V6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have h : (Pipeline.scopedRest (Ix := Unit) (Name := ℕ) (U := UR sig nD τ) (Lvl := ℕ) (Val := Elt F) spec3 c : sProp 𝕄)
        ⊢ (pdats m 3 c).Φ 0 := hin3 (V6 m) c
    iintro ⟨-, -, Hr⟩
    iapply h; iexact Hr
  hout c := by
    have h : (pdats m 3 c).Φ (Fin.last _)
        ⊢ (Pipeline.scopedRest (Ix := Unit) (Name := ℕ) (U := UR sig nD τ) (Lvl := ℕ) (Val := Elt F) spec3 c : sProp 𝕄) := hout3 (V6 m) c
    rw [Pipeline.ownSems0_none]
    iintro HΦ
    isplitr; · iempintro
    isplitr; · iempintro
    iapply h; iexact HΦ
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Ha, HO, -, Hrest, Hp⟩
    imodintro
    isplitl [Ha Hrest Hp]
    · isplitl [Ha Hrest]
      · iapply hjoin; isplitl [Ha] <;> iassumption
      iexact Hp
    unfold Pipeline.Dat.owesAt Pipeline.owesWithin
    icases HO with ⟨%W, -, HO⟩; iexists W; iexact HO

/-! ## @main as segments, and the launch -/

/-- @main's seven segments in order: a host segment per stretch from its boundary's contents, a region per kernel. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .region (reg2 m),
    .region (reg3 m) ]
/-- @main IS the run of the segments: it is the chain of its seven items, and the segments' run unfolds to that chain
    (the kernel's definitional check). -/
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds `W7` at every unscoped buffer: the launch
    theorem for several regions over the segments, the last thread state read against the final state. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c b hb => h c b hb)

/-- info: 'Cert.KernelIdeal.Hand.run_all' depends on axioms: [propext, Classical.choice, Quot.sound] -/
#guard_msgs in #print axioms run_all

end Cert.KernelIdeal.Hand

end
-- ==== Proof.Forms.lean ====
/-
  The closed forms both programs are read against, over the extended reals and literal shapes; no program is imported here.

  A deep factorization machine: for a batch row `b`, the pairwise dot products of the 32 feature vectors
  (`gramF`), two dense layers each followed by a rectifier and a batch normalization over the 16384 rows
  (`actF`, `meanK` / `varK` or `meanR` / `varR`, `bnF`), a third dense layer (`hofF`), and a final projection of
  the 64 deep features beside the 496 selected pair products.

  The kernel and the reference differ in exactly three places, all visible below:
  * the batch mean is the sum times 2^-14 (kernel) or the sum divided by 16384 (reference);
  * the batch variance is E[a^2] - E[a]^2 (kernel) or E[(a - E a)^2] (reference);
  * the projection is two sums, over the 64 deep features and the 496 pair products (kernel), or one sum over
    their concatenation (reference).
-/
import Idealize.ShloMosaic.PureOps.Ideal
import Idealize.ShloMosaic.Lib.ValueIdx

noncomputable section

namespace Cert.Forms

open Idealize.ShloMosaic Idealize.ShloMosaic.ValueIdx
open Finset BigOperators

abbrev E := EReal

/-- An array of a literal rank-1, rank-2 or rank-3 shape, as a function of its index. -/
abbrev A1 (n : Nat) := (⟨1, ![n]⟩ : Shape).Idx → E
abbrev A2 (n0 n1 : Nat) := (⟨2, ![n0, n1]⟩ : Shape).Idx → E
abbrev A3 (n0 n1 n2 : Nat) := (⟨3, ![n0, n1, n2]⟩ : Shape).Idx → E

/-- The f32 words that occur: the variance floor 1e-5 (as its binary value), 2^-14, 16384. -/
def eps : E := Ideal.ofBits .f32 0x3727C5AC#32
def c14 : E := Ideal.ofBits .f32 0x38800000#32
def n16384 : E := Ideal.ofBits .f32 0x46800000#32

/-- The pairwise dot products of a row's feature vectors. -/
def gramF (X : A3 16384 32 64) : A3 16384 32 32 :=
  fun i => ∑ d : Fin 64, X (ix3 (i 0) (i 1) d) * X (ix3 (i 0) (i 2) d)

/-- A dense layer with a row bias and a rectifier: `max (a · W + b) 0`. -/
def actF {nin nout : Nat} (H : A2 16384 nin) (W : A2 nin nout) (B : A2 1 nout) : A2 16384 nout :=
  fun i => max ((∑ j : Fin nin, H (ix2 (i 0) j) * W (ix2 j (i 1))) + B (ix2 0 (i 1))) 0

/-- The kernel's batch statistics: row 0 the mean (the column sum times 2^-14), row 1 the variance as
    E[a^2] - E[a]^2. -/
def meanK {n : Nat} (A : A2 16384 n) (k : Fin n) : E := (∑ b : Fin 16384, A (ix2 b k)) * c14
def varK {n : Nat} (A : A2 16384 n) (k : Fin n) : E :=
  (∑ b : Fin 16384, A (ix2 b k) * A (ix2 b k)) * c14 - meanK A k * meanK A k
def statsK {n : Nat} (A : A2 16384 n) : A2 2 n :=
  fun i => if (i 0).val = 0 then meanK A (i 1) else varK A (i 1)

/-- The reference's batch statistics: the column sum divided by 16384, and E[(a - E a)^2]. -/
def meanR {n : Nat} (A : A2 16384 n) (k : Fin n) : E := Ideal.div (∑ b : Fin 16384, A (ix2 b k)) n16384
def varR {n : Nat} (A : A2 16384 n) (k : Fin n) : E :=
  Ideal.div (∑ b : Fin 16384, (A (ix2 b k) - meanR A k) * (A (ix2 b k) - meanR A k)) n16384

/-- Batch normalization with given statistics: `g · (a - mean) · rsqrt (var + eps) + beta`. -/
def bnF {n : Nat} (A : A2 16384 n) (mean var : Fin n → E) (G Be : Fin n → E) (b : Fin 16384) (k : Fin n) : E :=
  G k * (A (ix2 b k) - mean k) * Ideal.rsqrt (var k + eps) + Be k

/-- The kernel's normalization reads its statistics from a 2-row array and its scale and shift from 1-row arrays. -/
def bnK {n : Nat} (A : A2 16384 n) (S : A2 2 n) (G Be : A2 1 n) : A2 16384 n :=
  fun i => G (ix2 0 (i 1)) * (A i - S (ix2 0 (i 1))) * Ideal.rsqrt (S (ix2 1 (i 1)) + eps) + Be (ix2 0 (i 1))

/-- The third dense layer (no rectifier). -/
def hofF (H : A2 16384 512) (W : A2 512 64) (B : A2 1 64) : A2 16384 64 :=
  fun i => (∑ j : Fin 512, H (ix2 (i 0) j) * W (ix2 j (i 1))) + B (ix2 0 (i 1))

/-- The kernel's last region: two projections and the bias. -/
def outKF (HOF : A2 16384 64) (PR : A2 16384 496) (Wc1 : A2 64 1) (Wc2 : A2 496 1) (BC : A2 1 1) : A2 16384 1 :=
  fun i => ((∑ k : Fin 64, HOF (ix2 (i 0) k) * Wc1 (ix2 k 0)) + (∑ p : Fin 496, PR (ix2 (i 0) p) * Wc2 (ix2 p 0))) + BC (ix2 0 0)

/-- The reference's last stage: one projection of the concatenation `[hof, pairs]` against `Wc`, and the bias. -/
def outRF (HOF : A2 16384 64) (PR : A2 16384 496) (Wc : A2 560 1) (bc : A1 1) : A2 16384 1 :=
  fun i => (∑ j : Fin 560, (if h : j.val < 64 then HOF (ix2 (i 0) ⟨j.val, h⟩)
      else PR (ix2 (i 0) ⟨j.val - 64, by omega⟩)) * Wc (ix2 j 0)) + bc (ix1 0)

/-! ## The two programs' results from the thirteen argument arrays -/

/-- The argument arrays. -/
structure Args where
  x : A3 16384 32 64
  W1 : A2 2048 1024
  b1 : A1 1024
  g1 : A1 1024
  be1 : A1 1024
  W2 : A2 1024 512
  b2 : A1 512
  g2 : A1 512
  be2 : A1 512
  W3 : A2 512 64
  b3 : A1 64
  Wc : A2 560 1
  bc : A1 1

/-- A rank-1 array as one row. -/
def row {n : Nat} (v : A1 n) : A2 1 n := fun i => v (ix1 (i 1))

/-- A row of 32 × 64 features flattened to 2048. -/
def flat (X : A3 16384 32 64) : A2 16384 2048 :=
  fun i => X (ix3 (i 0) ⟨(i 1).val / 64, by have h : (i 1).val < 2048 := (i 1).isLt; omega⟩ ⟨(i 1).val % 64, Nat.mod_lt _ (by decide)⟩)

/-- The selected pair products: entry `p` is the dot product of features `iu p` and `ju p`. -/
def pairsF (X : A3 16384 32 64) (iu ju : Fin 496 → Fin 32) : A2 16384 496 :=
  fun i => gramF X (ix3 (i 0) (iu (i 1)) (ju (i 1)))

/-- The kernel's result. -/
def outK (a : Args) (iu ju : Fin 496 → Fin 32) : A2 16384 1 :=
  let act1 := actF (flat a.x) a.W1 (row a.b1)
  let h1 := bnK act1 (statsK act1) (row a.g1) (row a.be1)
  let act2 := actF h1 a.W2 (row a.b2)
  let h2 := bnK act2 (statsK act2) (row a.g2) (row a.be2)
  outKF (hofF h2 a.W3 (row a.b3)) (pairsF a.x iu ju)
    (fun i => a.Wc (ix2 ⟨(i 0).val, by have h : (i 0).val < 64 := (i 0).isLt; omega⟩ 0))
    (fun i => a.Wc (ix2 ⟨(i 0).val + 64, by have h : (i 0).val < 496 := (i 0).isLt; omega⟩ 0))
    (fun _ => a.bc (ix1 0))

/-- The reference's result. -/
def outR (a : Args) (iu ju : Fin 496 → Fin 32) : A2 16384 1 :=
  let act1 := actF (flat a.x) a.W1 (row a.b1)
  let h1 : A2 16384 1024 := fun i => bnF act1 (meanR act1) (varR act1) (fun k => a.g1 (ix1 k)) (fun k => a.be1 (ix1 k)) (i 0) (i 1)
  let act2 := actF h1 a.W2 (row a.b2)
  let h2 : A2 16384 512 := fun i => bnF act2 (meanR act2) (varR act2) (fun k => a.g2 (ix1 k)) (fun k => a.be2 (ix1 k)) (i 0) (i 1)
  outRF (hofF h2 a.W3 (row a.b3)) (pairsF a.x iu ju) a.Wc a.bc

/-- Every entry of every argument is a real number. -/
def Args.Finite (a : Args) : Prop :=
  (∀ i, ∃ r : ℝ, a.x i = (r : E)) ∧ (∀ i, ∃ r : ℝ, a.W1 i = (r : E)) ∧ (∀ i, ∃ r : ℝ, a.b1 i = (r : E))
  ∧ (∀ i, ∃ r : ℝ, a.g1 i = (r : E)) ∧ (∀ i, ∃ r : ℝ, a.be1 i = (r : E)) ∧ (∀ i, ∃ r : ℝ, a.W2 i = (r : E))
  ∧ (∀ i, ∃ r : ℝ, a.b2 i = (r : E)) ∧ (∀ i, ∃ r : ℝ, a.g2 i = (r : E)) ∧ (∀ i, ∃ r : ℝ, a.be2 i = (r : E))
  ∧ (∀ i, ∃ r : ℝ, a.W3 i = (r : E)) ∧ (∀ i, ∃ r : ℝ, a.b3 i = (r : E)) ∧ (∀ i, ∃ r : ℝ, a.Wc i = (r : E))
  ∧ (∀ i, ∃ r : ℝ, a.bc i = (r : E))

end Cert.Forms

end
-- ==== Proof.Val.Val0.lean ====
/-
  Region 0 read at the extended reals: the output array after the 32 points is the table of pairwise dot products
  of each batch row's feature vectors.

  Block `t` of the output array is rows `512 t … 512 t + 511`. At point `t` the body's one payload is the batched product of
  the input block with itself into a zero accumulator — batch axis 0 (the row), the two free axes the feature indices,
  the contraction over axis 2 (the 64 components): index by index a plain sum of products, the narrowing of the
  operands to bf16 being the identity here. That sum, with the row read through the block, is `Forms.gramF` of the
  input array at the block's index; every row `r` lies in block `r / 512`, so the blocks written back cover the array.
-/
import proofs.«128293_j31387620999258_1_alg».proof.Proof.KI.R0
import proofs.«128293_j31387620999258_1_alg».proof.Proof.Forms
import Idealize.ShloMosaic.Lib.Pipeline.Value
import Idealize.ShloMosaic.Lib.ValueIdx
import Idealize.ShloMosaic.PureOps.Ideal.Laws

-- an index of a block of extents 512 × 32 × 64 read structurally: once per coordinate of the long axis
set_option maxRecDepth 16384

noncomputable section

namespace Cert.KernelIdeal.Val

open Cert.KernelIdeal Cert.KernelIdeal.Gen Cert.KernelIdeal.Hand Cert
open Idealize.ShloMosaic Idealize.ShloMosaic.TcCoe Idealize.SL.Sem Idealize.ShloMosaic.ValueIdx
open Idealize.ShloMosaic.Pipeline (Dat)
open Finset BigOperators

variable (V : (c : Dev nD) → (b : Ref sig .tc) → Buf (Elt Ideal) ((c : Thread nD τ).loc b))

/-- The product's dimension numbers: batch axis 0, free axis 1 of each operand, contraction over axis 2. -/
abbrev D0 := dot_S512x32x64_S512x32x64_S512x32x32_2_2_1_1_0_0

/-- The zero offsets of a whole-block access, as the constant function. -/
theorem hz0_zero : (![0, 0, 0] : Fin 3 → Nat) = fun _ => 0 := funext fun a => by fin_cases a <;> rfl

/-! ## The product's index maps -/

/-- The contraction runs over one axis, of extent 64. -/
theorem D0_rank : D0.contr.rank = 1 := rfl
theorem D0_size : D0.contr.size ⟨0, by rw [D0_rank]; exact Nat.one_pos⟩ = 64 := rfl

/-- The contraction index as its coordinate. -/
abbrev e0 : D0.contr.Idx ≃ Fin 64 := contrEquiv1 D0 64 D0_rank D0_size

/-- At output index `(b, n, m)` and contraction index `k` the left operand is read at `(b, n, k)`, -/
theorem lhs0 (j : S512x32x32.Idx) (k : D0.contr.Idx) : (D0.lhsIdx j k 0).val = (j 0).val := by
  simp [DotDims.lhsIdx, D0, dot_S512x32x64_S512x32x64_S512x32x32_2_2_1_1_0_0]; rfl
theorem lhs1 (j : S512x32x32.Idx) (k : D0.contr.Idx) : (D0.lhsIdx j k 1).val = (j 1).val := by
  simp [DotDims.lhsIdx, D0, dot_S512x32x64_S512x32x64_S512x32x32_2_2_1_1_0_0]; rfl
theorem lhs2 (j : S512x32x32.Idx) (k : D0.contr.Idx) : (D0.lhsIdx j k 2).val = (k ⟨0, by rw [D0_rank]; exact Nat.one_pos⟩).val :=
  D0.lhsIdx_val_of_single (cl := 2) rfl j k
/-- and the right operand at `(b, m, k)`. -/
theorem rhs0 (j : S512x32x32.Idx) (k : D0.contr.Idx) : (D0.rhsIdx j k 0).val = (j 0).val := by
  simp [DotDims.rhsIdx, D0, dot_S512x32x64_S512x32x64_S512x32x32_2_2_1_1_0_0]; rfl
theorem rhs1 (j : S512x32x32.Idx) (k : D0.contr.Idx) : (D0.rhsIdx j k 1).val = (j 2).val := by
  simp [DotDims.rhsIdx, D0, dot_S512x32x64_S512x32x64_S512x32x32_2_2_1_1_0_0]; rfl
theorem rhs2 (j : S512x32x32.Idx) (k : D0.contr.Idx) : (D0.rhsIdx j k 2).val = (k ⟨0, by rw [D0_rank]; exact Nat.one_pos⟩).val :=
  D0.rhsIdx_val_of_single (cr := 2) rfl j k

/-! ## The windows' index maps -/

/-- At point `t` both windows are at block `(t, 0, 0)` (decided over the 32 points). -/
theorem idx_facts0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-! ## The payload, index by index -/

/-- The payload at an output index is the plain sum, over the contraction index, of the products of the block's
    entries: the accumulator is the zero splat, and narrowing to bf16 is the identity on the extended reals. -/
theorem pay0_eq (x : Vec Ideal S512x32x64 .f32) (j : S512x32x32.Idx) :
    k0_pay1 x j = ∑ k : D0.contr.Idx, x (D0.lhsIdx j k) * x (D0.rhsIdx j k) := by
  unfold k0_pay1
  simp only [matmul]
  rw [Ideal.matmul_constant_zero_apply]
  rfl

/-! ## What a point writes back -/

/-- What point `t` writes back is block `t` of the table of pairwise dot products of the input array: the one store
    leaves its payload, the load reads the input block, the contraction is re-indexed by its coordinate, and the two
    factors are the input array at rows `512 t + b`, features `n` and `m`, component `k`. -/
theorem flushed0_eq (c : Dev nD) (t : Fin cfg0.N) :
    (dat0 (F := Ideal) V c).flushed 1 t = ((cfg0.win 1).blk t).view.read (Elt Ideal) (Forms.gramF (V c main_arg0)) := by
  show (cfg0.win 1).cut (grid0.coords t) ((dat0 V c).after 1 t) = _
  rw [after0_1]
  unfold out0_1
  rw [View.canon_unit_zero hz0_zero]
  simp only [View.ld_unit_zero (S := S512x32x64) hz0_zero]
  funext j
  show k0_pay1 (iblk0 V c 0 t) j = Forms.gramF (V c main_arg0) (((cfg0.win 1).blk t).view.emb j)
  rw [pay0_eq]
  unfold Forms.gramF
  refine ((Equiv.sum_comp e0.symm _).symm).trans ?_
  refine Finset.sum_congr rfl fun d _ => ?_
  have hk : ((e0.symm d) ⟨0, by rw [D0_rank]; exact Nat.one_pos⟩ : ℕ) = d.val := contrEquiv1_symm_val D0 64 D0_rank D0_size d
  obtain ⟨i0, i1, i2, o0, o1, o2⟩ := idx_facts0 t
  have hj0 : (j 0).val < 512 := (j 0).isLt
  have hj1 : (j 1).val < 32 := (j 1).isLt
  have hj2 : (j 2).val < 32 := (j 2).isLt
  have hl : ((cfg0.win 0).blk t).view.emb (D0.lhsIdx j (e0.symm d))
      = ix3 ((((cfg0.win 1).blk t).view.emb j) 0) ((((cfg0.win 1).blk t).view.emb j) 1) d := by
    funext a; apply Fin.ext
    match a with
    | ⟨0, _⟩ => show win0_0.index t (0 : Fin 3) * 512 + 1 * (D0.lhsIdx j (e0.symm d) 0).val = win0_1.index t (0 : Fin 3) * 512 + 1 * (j 0).val; rw [lhs0]; omega
    | ⟨1, _⟩ => show win0_0.index t (1 : Fin 3) * 32 + 1 * (D0.lhsIdx j (e0.symm d) 1).val = win0_1.index t (1 : Fin 3) * 32 + 1 * (j 1).val; rw [lhs1]; omega
    | ⟨2, _⟩ => show win0_0.index t (2 : Fin 3) * 64 + 1 * (D0.lhsIdx j (e0.symm d) 2).val = d.val; rw [lhs2, hk]; omega
  have hr : ((cfg0.win 0).blk t).view.emb (D0.rhsIdx j (e0.symm d))
      = ix3 ((((cfg0.win 1).blk t).view.emb j) 0) ((((cfg0.win 1).blk t).view.emb j) 2) d := by
    funext a; apply Fin.ext
    match a with
    | ⟨0, _⟩ => show win0_0.index t (0 : Fin 3) * 512 + 1 * (D0.rhsIdx j (e0.symm d) 0).val = win0_1.index t (0 : Fin 3) * 512 + 1 * (j 0).val; rw [rhs0]; omega
    | ⟨1, _⟩ => show win0_0.index t (1 : Fin 3) * 32 + 1 * (D0.rhsIdx j (e0.symm d) 1).val = win0_1.index t (2 : Fin 3) * 32 + 1 * (j 2).val; rw [rhs1]; omega
    | ⟨2, _⟩ => show win0_0.index t (2 : Fin 3) * 64 + 1 * (D0.rhsIdx j (e0.symm d) 2).val = d.val; rw [rhs2, hk]; omega
  have hA : iblk0 V c 0 t (D0.lhsIdx j (e0.symm d)) = V c main_arg0 (((cfg0.win 0).blk t).view.emb (D0.lhsIdx j (e0.symm d))) := rfl
  have hB : iblk0 V c 0 t (D0.rhsIdx j (e0.symm d)) = V c main_arg0 (((cfg0.win 0).blk t).view.emb (D0.rhsIdx j (e0.symm d))) := rfl
  rw [hA, hB, hl, hr]
  rfl

/-! ## The blocks cover the array -/

/-- An index of the output array is in point `t`'s block iff each coordinate is in the block's range on its axis. -/
theorem mem_blk0_1 (t : Fin cfg0.N) (i : S16384x32x32.Idx) :
    i ∈ ((cfg0.win 1).blk t).view.set ↔ ∀ a : Fin 3, win0_1.index t a * S512x32x32.size a ≤ (i a).val ∧ (i a).val < win0_1.index t a * S512x32x32.size a + S512x32x32.size a := by
  show i ∈ ((View.whole main_v16).slice (win0_1.rect t)).set ↔ _
  rw [View.set_slice_whole, Rect.mem_set_unit]
  exact Iff.rfl

/-- Row `r` is in the block of point `r / 512`, which is written back: every index of the array is covered. -/
theorem cover0_1v (i : S16384x32x32.Idx) : ∃ t : Fin cfg0.N, (cfg0.win 1).flush t = true ∧ i ∈ ((cfg0.win 1).blk t).view.set := by
  have hi0 : (i 0).val < 16384 := (i 0).isLt
  have hi1 : (i 1).val < 32 := (i 1).isLt
  have hi2 : (i 2).val < 32 := (i 2).isLt
  have hN : cfg0.N = 32 := N_0
  obtain ⟨t, ht⟩ : ∃ t : Fin cfg0.N, t.val = (i 0).val / 512 := ⟨⟨(i 0).val / 512, by rw [hN]; omega⟩, rfl⟩
  obtain ⟨-, -, -, o0, o1, o2⟩ := idx_facts0 t
  refine ⟨t, flush0_1 t, ?_⟩
  rw [mem_blk0_1]
  intro a
  match a with
  | ⟨0, _⟩ => show win0_1.index t (0 : Fin 3) * 512 ≤ (i 0).val ∧ (i 0).val < win0_1.index t (0 : Fin 3) * 512 + 512; omega
  | ⟨1, _⟩ => show win0_1.index t (1 : Fin 3) * 32 ≤ (i 1).val ∧ (i 1).val < win0_1.index t (1 : Fin 3) * 32 + 32; omega
  | ⟨2, _⟩ => show win0_1.index t (2 : Fin 3) * 32 ≤ (i 2).val ∧ (i 2).val < win0_1.index t (2 : Fin 3) * 32 + 32; omega

/-! ## The array after the region -/

/-- The output array after the 32 points is the table of pairwise dot products of the input array as the region finds
    it: every point writes back its block of that one table, and the blocks cover the array. -/
theorem val0 (c : Dev nD) : ((dat0 (F := Ideal) V c).arrAt 1 cfg0.N : Forms.A3 16384 32 32) = Forms.gramF (V c main_arg0) :=
  (dat0 (F := Ideal) V c).arrAt_eq_of_cover 1 (Forms.gramF (V c main_arg0)) (fun t _ => flushed0_eq V c t) cover0_1v

end Cert.KernelIdeal.Val

end
-- ==== Proof.Val.Pay1.lean ====
/-
  The arithmetic of one grid point of the first dense layer, read entry by entry over the extended reals.

  A point's body computes, from a 512 × 2048 block `x` of the flattened features, the 2048 × 1024 weights `w` and the
  bias row `b`, the rectified block  a(r, k) = max (∑ⱼ x(r, j) · w(j, k) + b(0, k)) 0;  it adds the block's column sums
  ∑ᵣ a(r, k) and ∑ᵣ a(r, k)² to two carried rows, and stores the block itself (the change of float format is the
  identity on the extended reals).  At the last point the statistics rows are  mean = s · 2⁻¹⁴  and
  q · 2⁻¹⁴ − mean · mean  of the carried rows s and q.

  Below that, the one fact about sums the carried rows need: the sum over the first 512 · (n + 1) rows of a column is
  the sum over the first 512 · n rows plus the sum over the 512 rows of block n, and 32 blocks are all 16384 rows.
  Only commutativity and associativity of + are used.
-/
import proofs.«128293_j31387620999258_1_alg».proof.Proof.Gen.KernelIdeal.Skeleton
import proofs.«128293_j31387620999258_1_alg».proof.Proof.Forms
import Idealize.ShloMosaic.PureOps.Ideal.Laws
import Idealize.ShloMosaic.Lib.ValueLayout

noncomputable section

namespace Cert.KernelIdeal.Val

open Idealize.ShloMosaic Idealize.ShloMosaic.ValueIdx
open Cert.KernelIdeal Cert.KernelIdeal.Gen
open Finset BigOperators

/-! ## The matrix product at an entry -/

theorem lhs_mlp1_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl

theorem lhs_mlp1_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q

theorem rhs_mlp1_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q

theorem rhs_mlp1_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- The product of a 512 × 2048 block and the 2048 × 1024 weights into the zero block, at (r, k): ∑ⱼ x(r, j) · w(j, k). -/
theorem matmul_mlp1_apply (x : FVec Ideal S512x2048 .bf16) (w : FVec Ideal S2048x1024 .bf16) (r : Fin 512) (k : Fin 1024) :
    matmul dot_S512x2048_S2048x1024_S512x1024_1_0_0_1_n_n none x w (constant S512x1024 .f32 0x00000000#32) (ix2 r k)
      = ∑ j : Fin 2048, x (ix2 r j) * w (ix2 j k) := by
  simp only [matmul]
  rw [Ideal.matmul_constant_zero_apply,
    ← Equiv.sum_comp (contrEquiv1 dot_S512x2048_S2048x1024_S512x1024_1_0_0_1_n_n 2048 rfl rfl).symm]
  refine Finset.sum_congr rfl fun j _ => ?_
  have hk := contrEquiv1_symm_val dot_S512x2048_S2048x1024_S512x1024_1_0_0_1_n_n 2048 rfl rfl j
  have el : dot_S512x2048_S2048x1024_S512x1024_1_0_0_1_n_n.lhsIdx (ix2 r k)
      ((contrEquiv1 dot_S512x2048_S2048x1024_S512x1024_1_0_0_1_n_n 2048 rfl rfl).symm j) = ix2 r j :=
    funext fun a => Fin.ext (by
      match a with
      | ⟨0, _⟩ => exact lhs_mlp1_0 _ _
      | ⟨1, _⟩ => exact (lhs_mlp1_1 _ _).trans hk)
  have er : dot_S512x2048_S2048x1024_S512x1024_1_0_0_1_n_n.rhsIdx (ix2 r k)
      ((contrEquiv1 dot_S512x2048_S2048x1024_S512x1024_1_0_0_1_n_n 2048 rfl rfl).symm j) = ix2 j k :=
    funext fun a => Fin.ext (by
      match a with
      | ⟨0, _⟩ => exact (rhs_mlp1_0 _ _).trans hk
      | ⟨1, _⟩ => exact rhs_mlp1_1 _ _)
  rw [el, er]

/-! ## The payloads at an entry -/

/-- The sum over the 512 rows of a 512 × 1024 block, at column k. -/
theorem colsum_mlp1_apply (v : FVec Ideal S512x1024 .f32) (k : Fin 1024) :
    multiReduction .add [0] S1024 v 0x00000000#32 reduces_S512x1024_S1024 (.inl rfl) rfl (ix1 k)
      = ∑ r : Fin 512, v (ix2 r k) := by
  refine (Ideal.multiReduction_add_single v 0x00000000#32 reduces_S512x1024_S1024 (.inl rfl) rfl (ix1 k)).trans ?_
  refine Finset.sum_congr rfl fun r _ => congrArg v ?_
  exact funext fun a => Fin.ext (by
    match a with
    | ⟨0, _⟩ => rfl
    | ⟨1, _⟩ => rfl)

/-- The rectified block: max (∑ⱼ x(r, j) · w(j, k) + b(0, k)) 0. -/
theorem pay5_apply (x : Vec Ideal S512x2048 .f32) (w : Vec Ideal S2048x1024 .bf16) (b : Vec Ideal S1x1024 .f32)
    (r : Fin 512) (k : Fin 1024) :
    k1_pay5 (F := Ideal) x w b (ix2 r k)
      = max ((∑ j : Fin 2048, x (ix2 r j) * w (ix2 j k)) + b (ix2 (0 : Fin 1) k)) 0 := by
  unfold k1_pay5
  simp only [shapeCast_self]
  refine (maximumf_apply _ _ _).trans (congrArg₂ max ?_ Ideal.ofBits_zero_f32)
  refine (addf_apply _ _ _).trans ?_
  exact congrArg₂ (· + ·) (matmul_mlp1_apply _ _ r k) (broadcastTo_1b_ab_apply _ _ r k)

/-- The carried column sums after a point: what was carried plus the block's column sums. -/
theorem pay6_apply (x : Vec Ideal S512x2048 .f32) (w : Vec Ideal S2048x1024 .bf16) (b : Vec Ideal S1x1024 .f32)
    (acc : Vec Ideal S1x1024 .f32) (k : Fin 1024) :
    k1_pay6 (F := Ideal) x w b acc (ix2 (0 : Fin 1) k)
      = acc (ix2 (0 : Fin 1) k) + ∑ r : Fin 512, k1_pay5 (F := Ideal) x w b (ix2 r k) := by
  unfold k1_pay6
  simp only [shapeCast_self]
  refine (addf_apply _ _ _).trans (congrArg (acc (ix2 (0 : Fin 1) k) + ·) ?_)
  refine (shapeCast_a_1a_apply _ _ (0 : Fin 1) k).trans ?_
  exact colsum_mlp1_apply _ k

/-- The carried column sums of squares after a point. -/
theorem pay7_apply (x : Vec Ideal S512x2048 .f32) (w : Vec Ideal S2048x1024 .bf16) (b : Vec Ideal S1x1024 .f32)
    (acc : Vec Ideal S1x1024 .f32) (k : Fin 1024) :
    k1_pay7 (F := Ideal) x w b acc (ix2 (0 : Fin 1) k)
      = acc (ix2 (0 : Fin 1) k)
        + ∑ r : Fin 512, k1_pay5 (F := Ideal) x w b (ix2 r k) * k1_pay5 (F := Ideal) x w b (ix2 r k) := by
  unfold k1_pay7
  simp only [shapeCast_self]
  refine (addf_apply _ _ _).trans (congrArg (acc (ix2 (0 : Fin 1) k) + ·) ?_)
  refine (shapeCast_a_1a_apply _ _ (0 : Fin 1) k).trans ?_
  exact colsum_mlp1_apply _ k

/-- The stored block is the rectified block (the narrowing is the identity on the extended reals). -/
theorem pay8_apply (x : Vec Ideal S512x2048 .f32) (w : Vec Ideal S2048x1024 .bf16) (b : Vec Ideal S1x1024 .f32)
    (i : S512x1024.Idx) : (k1_pay8 (F := Ideal) x w b i : EReal) = k1_pay5 (F := Ideal) x w b i := rfl

/-- The two reset values are zero rows. -/
theorem pay3_apply (i : S1x1024.Idx) : (k1_pay3 (F := Ideal)) i = 0 := by
  unfold k1_pay3
  simp only [shapeCast_self]
  exact Ideal.ofBits_zero_f32

theorem pay4_apply (i : S1x1024.Idx) : (k1_pay4 (F := Ideal)) i = 0 := by
  unfold k1_pay4
  simp only [shapeCast_self]
  exact Ideal.ofBits_zero_f32

/-- The mean row: the carried column sum times 2⁻¹⁴. -/
theorem pay1_apply (s : Vec Ideal S1x1024 .f32) (i : S1x1024.Idx) :
    k1_pay1 (F := Ideal) s i = s i * Forms.c14 := rfl

/-- The variance row: the carried sum of squares times 2⁻¹⁴, minus the mean squared. -/
theorem pay2_apply (s q : Vec Ideal S1x1024 .f32) (i : S1x1024.Idx) :
    k1_pay2 (F := Ideal) s q i = q i * Forms.c14 - (s i * Forms.c14) * (s i * Forms.c14) := rfl

/-! ## Column sums by blocks of 512 rows -/

/-- Column `k` of a 16384-row array as a function of the row number (zero past the last row). -/
def colN {n : Nat} (A : Forms.A2 16384 n) (k : Fin n) (b : ℕ) : EReal :=
  if h : b < 16384 then A (ix2 ⟨b, h⟩ k) else 0

/-- The sum of column `k` over the rows of the first `m` blocks of 512 rows. -/
def partSum {n : Nat} (A : Forms.A2 16384 n) (k : Fin n) (m : ℕ) : EReal :=
  ∑ b ∈ range (512 * m), colN A k b

theorem partSum_zero {n : Nat} (A : Forms.A2 16384 n) (k : Fin n) : partSum A k 0 = 0 := by
  unfold partSum; rw [Nat.mul_zero, Finset.range_zero, Finset.sum_empty]

/-- One more block: its 512 rows are added. -/
theorem partSum_succ {n : Nat} (A : Forms.A2 16384 n) (k : Fin n) (m : ℕ) :
    partSum A k (m + 1) = partSum A k m + ∑ r : Fin 512, colN A k (512 * m + r.val) := by
  unfold partSum
  rw [Nat.mul_succ, Finset.sum_range_add, Fin.sum_univ_eq_sum_range (fun r => colN A k (512 * m + r)) 512]

/-- All 32 blocks: the whole column. -/
theorem partSum_full {n : Nat} (A : Forms.A2 16384 n) (k : Fin n) :
    partSum A k 32 = ∑ b : Fin 16384, A (ix2 b k) := by
  unfold partSum
  rw [show 512 * 32 = 16384 from rfl, ← Fin.sum_univ_eq_sum_range (fun b => colN A k b) 16384]
  refine Finset.sum_congr rfl fun b _ => ?_
  unfold colN
  rw [dif_pos b.isLt]

/-- A row of block `t` is a row of the array. -/
theorem colN_block {n : Nat} (A : Forms.A2 16384 n) (k : Fin n) (t : ℕ) (r : Fin 512) (h : 512 * t + r.val < 16384) :
    colN A k (512 * t + r.val) = A (ix2 ⟨512 * t + r.val, h⟩ k) := by
  unfold colN
  rw [dif_pos h]

end Cert.KernelIdeal.Val

end
-- ==== Proof.Val.Blk1.lean ====
/-
  Region 1's two result arrays, from its blocks.

  Block t of the activation window is rows 512 t … 512 t + 511 of  act = max (x · W + b) 0  (the features' block at
  point t is those rows of the flattened features, the weights' and the bias's blocks are the whole arrays), and the
  32 blocks tile the 16384 × 1024 array: it ends holding `Forms.actF`.

  The carried row of column sums after point n is, at column k, the sum of act over the rows below 512 (n + 1)
  (induction on n: a point adds its block's 512 rows), likewise the sums of squares; after the last point they are the
  sums over all 16384 rows, so the two rows stored in the statistics window there are  mean = sum · 2⁻¹⁴  and
  sq · 2⁻¹⁴ − mean · mean: `Forms.statsK`.  That window is written back at the last point only, and its one block is
  the whole 2 × 1024 array.

  Stated for any proof data of the region whose contents after the body, for the two result windows, are the blocks
  above.
-/
import proofs.«128293_j31387620999258_1_alg».proof.Proof.KI.D1
import proofs.«128293_j31387620999258_1_alg».proof.Proof.Val.Pay1
import Idealize.ShloMosaic.Lib.Pipeline.Value

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand
open Finset BigOperators

variable (V : (c : Dev nD) → (b : Ref sig .tc) → Buf (Elt Ideal) ((c : Thread nD τ).loc b))

/-- The three arrays the region reads, at their literal shapes, and the rectified dense layer of them. -/
abbrev xarr1 (c : Dev nD) : Forms.A2 16384 2048 := V c main_v15
abbrev warr1 (c : Dev nD) : Forms.A2 2048 1024 := V c main_v0
abbrev barr1 (c : Dev nD) : Forms.A2 1 1024 := V c main_v7
abbrev act1 (c : Dev nD) : Forms.A2 16384 1024 := Forms.actF (xarr1 V c) (warr1 V c) (barr1 V c)
/-- Its entrywise square. -/
abbrev actsq1 (c : Dev nD) : Forms.A2 16384 1024 := fun i => act1 V c i * act1 V c i

theorem N1 : cfg1.N = 32 := N_1

/-- The printed index maps over the grid: the features' and the activations' blocks move with the point along the
    rows, every other block stays at the origin. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0 :=
  (by decide +kernel : ∀ t : Fin grid1.N, _)

/-! ## The input blocks, read off the arrays -/

/-- Row r of the features' block at point t is row 512 t + r of the flattened features. -/
theorem xblk1_apply (c : Dev nD) (t : Fin cfg1.N) (r : Fin 512) (j : Fin 2048) (h : 512 * t.val + r.val < 16384) :
    (xblk1 V c t (ix2 r j) : EReal) = xarr1 V c (ix2 ⟨512 * t.val + r.val, h⟩ j) := by
  obtain ⟨e0, e1, -⟩ := idx_facts1 t
  unfold xblk1 iblk1
  rw [View.read_apply]
  show V c main_v15 _ = V c main_v15 _
  refine congrArg (V c main_v15) (funext fun a => Fin.ext ?_)
  match a with
  | ⟨0, _⟩ => show win1_0.index t (0 : Fin 2) * 512 + 1 * r.val = 512 * t.val + r.val; rw [e0]; omega
  | ⟨1, _⟩ => show win1_0.index t (1 : Fin 2) * 2048 + 1 * j.val = j.val; rw [e1]; omega

/-- The weights' block at any point is the whole weight matrix. -/
theorem wblk1_eq (c : Dev nD) (t : Fin cfg1.N) : (wblk1 V c t : Forms.A2 2048 1024) = warr1 V c := by
  obtain ⟨-, -, e2, e3, -⟩ := idx_facts1 t
  funext i
  unfold wblk1 iblk1
  rw [View.read_apply]
  show V c main_v0 _ = V c main_v0 i
  refine congrArg (V c main_v0) (funext fun a => Fin.ext ?_)
  match a with
  | ⟨0, _⟩ => show win1_1.index t (0 : Fin 2) * 2048 + 1 * (i 0).val = (i 0).val; rw [e2]; omega
  | ⟨1, _⟩ => show win1_1.index t (1 : Fin 2) * 1024 + 1 * (i 1).val = (i 1).val; rw [e3]; omega

/-- The bias's block at any point is the whole bias row. -/
theorem bblk1_eq (c : Dev nD) (t : Fin cfg1.N) : (bblk1 V c t : Forms.A2 1 1024) = barr1 V c := by
  obtain ⟨-, -, -, -, e4, e5, -⟩ := idx_facts1 t
  funext i
  unfold bblk1 iblk1
  rw [View.read_apply]
  show V c main_v7 _ = V c main_v7 i
  refine congrArg (V c main_v7) (funext fun a => Fin.ext ?_)
  match a with
  | ⟨0, _⟩ => show win1_2.index t (0 : Fin 2) * 1 + 1 * (i 0).val = (i 0).val; rw [e4]; omega
  | ⟨1, _⟩ => show win1_2.index t (1 : Fin 2) * 1024 + 1 * (i 1).val = (i 1).val; rw [e5]; omega

/-- The rectified block at point t, at (r, k), is act at row 512 t + r. -/
theorem pay5_block (c : Dev nD) (t : Fin cfg1.N) (r : Fin 512) (k : Fin 1024) (h : 512 * t.val + r.val < 16384) :
    k1_pay5 (F := Ideal) (xblk1 V c t) (wblk1 V c t) (bblk1 V c t) (ix2 r k)
      = act1 V c (ix2 ⟨512 * t.val + r.val, h⟩ k) := by
  refine (pay5_apply _ _ _ r k).trans ?_
  show max ((∑ j : Fin 2048, xblk1 V c t (ix2 r j) * (wblk1 V c t : Forms.A2 2048 1024) (ix2 j k))
      + (bblk1 V c t : Forms.A2 1 1024) (ix2 (0 : Fin 1) k)) 0
    = max ((∑ j : Fin 2048, xarr1 V c (ix2 ⟨512 * t.val + r.val, h⟩ j) * warr1 V c (ix2 j k))
      + barr1 V c (ix2 (0 : Fin 1) k)) 0
  rw [wblk1_eq V c t, bblk1_eq V c t]
  refine congrArg (fun s => max (s + barr1 V c (ix2 (0 : Fin 1) k)) 0) (Finset.sum_congr rfl fun j _ => ?_)
  rw [xblk1_apply V c t r j h]

/-! ## The activation window: 32 blocks of 512 rows -/

section Win3
variable {c : Dev nD} (dat : Dat τ (Elt Ideal) Unit ℕ (UR sig nD τ) ℕ cfg1 c)

/-- What point t writes back is block t of act. -/
theorem flushed1_3_eq (h3 : ∀ t, dat.after 3 t = oblk1_3 V c t) (t : Fin cfg1.N) :
    dat.flushed 3 t = ((cfg1.win 3).blk t).view.read (Elt Ideal) (act1 V c) := by
  show (cfg1.win 3).cut (grid1.coords t) (dat.after 3 t) = _
  rw [h3 t]
  obtain ⟨-, -, -, -, -, -, e6, e7, -⟩ := idx_facts1 t
  have ht : t.val < 32 := lt_of_lt_of_eq t.isLt N1
  funext y
  have hy0 : (y 0).val < 512 := (y 0).isLt
  have hy1 : (y 1).val < 1024 := (y 1).isLt
  have hlt : 512 * t.val + (y 0).val < 16384 := by omega
  rw [View.read_apply]
  show (oblk1_3 V c t y : EReal) = act1 V c (((cfg1.win 3).blk t).view.emb y)
  have hemb : ((cfg1.win 3).blk t).view.emb y
      = ix2 (⟨512 * t.val + (y 0).val, hlt⟩ : Fin 16384) (⟨(y 1).val, hy1⟩ : Fin 1024) :=
    funext fun a => Fin.ext (by
      match a with
      | ⟨0, _⟩ => show win1_3.index t (0 : Fin 2) * 512 + 1 * (y 0).val = 512 * t.val + (y 0).val; rw [e6]; omega
      | ⟨1, _⟩ => show win1_3.index t (1 : Fin 2) * 1024 + 1 * (y 1).val = (y 1).val; rw [e7]; omega)
  have hy : y = ix2 (⟨(y 0).val, hy0⟩ : Fin 512) (⟨(y 1).val, hy1⟩ : Fin 1024) :=
    funext fun a => by
      match a with
      | ⟨0, _⟩ => rfl
      | ⟨1, _⟩ => rfl
  rw [hemb]
  refine (congrArg (fun z => (oblk1_3 V c t z : EReal)) hy).trans ?_
  exact pay5_block V c t ⟨(y 0).val, hy0⟩ ⟨(y 1).val, hy1⟩ hlt

/-- An index of the array is in point t's block iff each coordinate is in the block's range on its axis. -/
theorem mem_blk1_3 (t : Fin cfg1.N) (i : S16384x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v19_0).slice (win1_3.rect t)).set ↔ _
  rw [View.set_slice_whole, Rect.mem_set_unit]
  exact Iff.rfl

/-- Row i₀ is in the block of point i₀ / 512. -/
theorem cover1_3 (i : S16384x1024.Idx) :
    ∃ t : Fin cfg1.N, (cfg1.win 3).flush t = true ∧ i ∈ ((cfg1.win 3).blk t).view.set := by
  have hi0 : (i 0).val < 16384 := (i 0).isLt
  have hi1 : (i 1).val < 1024 := (i 1).isLt
  obtain ⟨t, ht⟩ : ∃ t : Fin cfg1.N, t.val = (i 0).val / 512 :=
    ⟨⟨(i 0).val / 512, by rw [N1]; omega⟩, rfl⟩
  obtain ⟨-, -, -, -, -, -, e6, e7, -⟩ := idx_facts1 t
  refine ⟨t, flush1_3 t, ?_⟩
  rw [mem_blk1_3]
  intro a
  match a with
  | ⟨0, _⟩ =>
    show win1_3.index t (0 : Fin 2) * 512 ≤ (i 0).val ∧ (i 0).val < win1_3.index t (0 : Fin 2) * 512 + 512
    rw [e6, ht]; omega
  | ⟨1, _⟩ =>
    show win1_3.index t (1 : Fin 2) * 1024 ≤ (i 1).val ∧ (i 1).val < win1_3.index t (1 : Fin 2) * 1024 + 1024
    rw [e7]; omega

/-- The activation array after the run. -/
theorem arr1_3_eq (h3 : ∀ t, dat.after 3 t = oblk1_3 V c t) :
    (dat.arrAt 3 cfg1.N : Forms.A2 16384 1024) = act1 V c :=
  dat.arrAt_eq_of_cover 3 (act1 V c) (fun t _ => flushed1_3_eq V dat h3 t) cover1_3

end Win3

/-! ## The carried rows: partial column sums -/

/-- After point n the row of column sums holds, at column k, the sum of act over the rows below 512 (n + 1). -/
theorem sum1_apply (c : Dev nD) (k : Fin 1024) :
    ∀ n : ℕ, n < 32 → (sum1 V c n (ix2 (0 : Fin 1) k) : EReal) = partSum (act1 V c) k (n + 1)
  | 0, _ => by
    have h0 : 0 < cfg1.N := by rw [N1]; omega
    rw [sum1, dif_pos h0]
    refine (pay6_apply _ _ _ _ k).trans ?_
    rw [pay3_apply, zero_add, partSum_succ, partSum_zero, zero_add]
    refine Finset.sum_congr rfl fun r _ => ?_
    have hr : r.val < 512 := r.isLt
    have hlt : 512 * 0 + r.val < 16384 := by omega
    exact (pay5_block V c ⟨0, h0⟩ r k hlt).trans (colN_block (act1 V c) k 0 r hlt).symm
  | n + 1, hn => by
    have h : n + 1 < cfg1.N := by rw [N1]; exact hn
    rw [sum1, dif_pos h]
    refine (pay6_apply _ _ _ _ k).trans ?_
    rw [sum1_apply c k n (by omega), partSum_succ (act1 V c) k (n + 1)]
    refine congrArg (partSum (act1 V c) k (n + 1) + ·) (Finset.sum_congr rfl fun r _ => ?_)
    have hr : r.val < 512 := r.isLt
    have hlt : 512 * (n + 1) + r.val < 16384 := by omega
    exact (pay5_block V c ⟨n + 1, h⟩ r k hlt).trans (colN_block (act1 V c) k (n + 1) r hlt).symm

/-- Likewise the row of column sums of squares. -/
theorem sq1_apply (c : Dev nD) (k : Fin 1024) :
    ∀ n : ℕ, n < 32 → (sq1 V c n (ix2 (0 : Fin 1) k) : EReal) = partSum (actsq1 V c) k (n + 1)
  | 0, _ => by
    have h0 : 0 < cfg1.N := by rw [N1]; omega
    rw [sq1, dif_pos h0]
    refine (pay7_apply _ _ _ _ k).trans ?_
    rw [pay4_apply, zero_add, partSum_succ, partSum_zero, zero_add]
    refine Finset.sum_congr rfl fun r _ => ?_
    have hr : r.val < 512 := r.isLt
    have hlt : 512 * 0 + r.val < 16384 := by omega
    rw [pay5_block V c ⟨0, h0⟩ r k hlt]
    exact (colN_block (actsq1 V c) k 0 r hlt).symm
  | n + 1, hn => by
    have h : n + 1 < cfg1.N := by rw [N1]; exact hn
    rw [sq1, dif_pos h]
    refine (pay7_apply _ _ _ _ k).trans ?_
    rw [sq1_apply c k n (by omega), partSum_succ (actsq1 V c) k (n + 1)]
    refine congrArg (partSum (actsq1 V c) k (n + 1) + ·) (Finset.sum_congr rfl fun r _ => ?_)
    have hr : r.val < 512 := r.isLt
    have hlt : 512 * (n + 1) + r.val < 16384 := by omega
    rw [pay5_block V c ⟨n + 1, h⟩ r k hlt]
    exact (colN_block (actsq1 V c) k (n + 1) r hlt).symm

/-! ## The statistics block: two row stores -/

/-- Two rows stored one after the other into a 2 × 1024 block, row 1 first: row 0 reads the later store, -/
theorem rows2_apply0 (w1 w0 : Vec Ideal S1x1024 .f32) (k : Fin 1024) :
    View.canon (Val := Elt Ideal) (s := S2x1024) (e := .f32)
      [⟨Rect.unit (s := S2x1024) ![1, 0] S1x1024.size inb_S2x1024_S1x1024_1_0, w1⟩,
       ⟨Rect.unit (s := S2x1024) ![0, 0] S1x1024.size inb_S2x1024_S1x1024_0_0, w0⟩] (ix2 (0 : Fin 2) k)
      = w0 (ix2 (0 : Fin 1) k) := by
  rw [View.canon_cons_of_not_mem _ _ (y := ix2 (0 : Fin 2) k) (fun hmem => by
    have h := (Rect.mem_set_unit (s := S2x1024) (off := ![1, 0]) (size := S1x1024.size)
      (inb := inb_S2x1024_S1x1024_1_0) (i := ix2 (0 : Fin 2) k)).mp hmem (0 : Fin 2)
    have h0 : (1 : ℕ) ≤ 0 := h.1
    omega)]
  have e : (ix2 (0 : Fin 2) k : S2x1024.Idx)
      = (Rect.unit (s := S2x1024) ![0, 0] S1x1024.size inb_S2x1024_S1x1024_0_0).emb (ix2 (0 : Fin 1) k) :=
    funext fun a => Fin.ext (by
      match a with
      | ⟨0, _⟩ => rfl
      | ⟨1, _⟩ => show k.val = 0 + 1 * k.val; omega)
  rw [e]
  exact View.canon_cons_emb _ _ _ _

/-- and row 1 the earlier one. -/
theorem rows2_apply1 (w1 w0 : Vec Ideal S1x1024 .f32) (k : Fin 1024) :
    View.canon (Val := Elt Ideal) (s := S2x1024) (e := .f32)
      [⟨Rect.unit (s := S2x1024) ![1, 0] S1x1024.size inb_S2x1024_S1x1024_1_0, w1⟩,
       ⟨Rect.unit (s := S2x1024) ![0, 0] S1x1024.size inb_S2x1024_S1x1024_0_0, w0⟩] (ix2 (1 : Fin 2) k)
      = w1 (ix2 (0 : Fin 1) k) := by
  have e : (ix2 (1 : Fin 2) k : S2x1024.Idx)
      = (Rect.unit (s := S2x1024) ![1, 0] S1x1024.size inb_S2x1024_S1x1024_1_0).emb (ix2 (0 : Fin 1) k) :=
    funext fun a => Fin.ext (by
      match a with
      | ⟨0, _⟩ => rfl
      | ⟨1, _⟩ => show k.val = 0 + 1 * k.val; omega)
  rw [e]
  exact View.canon_cons_emb _ _ _ _

/-- The statistics block is the batch statistics of act: row 0 the mean, row 1 E[a²] − mean². -/
theorem oblk1_4_apply (c : Dev nD) (p : Fin 2) (k : Fin 1024) :
    (oblk1_4 V c (ix2 p k) : EReal) = Forms.statsK (act1 V c) (ix2 p k) := by
  have hs : (sum1 V c 31 (ix2 (0 : Fin 1) k) : EReal) = ∑ b : Fin 16384, act1 V c (ix2 b k) :=
    (sum1_apply V c k 31 (by omega)).trans (partSum_full (act1 V c) k)
  have hq : (sq1 V c 31 (ix2 (0 : Fin 1) k) : EReal)
      = ∑ b : Fin 16384, act1 V c (ix2 b k) * act1 V c (ix2 b k) :=
    (sq1_apply V c k 31 (by omega)).trans (partSum_full (actsq1 V c) k)
  have hp : p = 0 ∨ p = 1 := by
    rcases p with ⟨_ | _ | n, hn⟩
    · exact Or.inl rfl
    · exact Or.inr rfl
    · omega
  unfold oblk1_4
  rcases hp with rfl | rfl
  · refine (rows2_apply0 _ _ k).trans ((pay1_apply _ _).trans ?_)
    rw [hs]
    rfl
  · refine (rows2_apply1 _ _ k).trans ((pay2_apply _ _ _).trans ?_)
    rw [hs, hq]
    rfl

/-! ## The statistics window: one block, written back at the last point -/

section Win4
variable {c : Dev nD} (dat : Dat τ (Elt Ideal) Unit ℕ (UR sig nD τ) ℕ cfg1 c)

/-- What the last point writes back is the statistics of act (the block is the whole array). -/
theorem flushed1_4_eq (h4 : ∀ t, (cfg1.win 4).flush t = true → dat.after 4 t = oblk1_4 V c)
    (t : Fin cfg1.N) (hf : (cfg1.win 4).flush t = true) :
    dat.flushed 4 t = ((cfg1.win 4).blk t).view.read (Elt Ideal) (Forms.statsK (act1 V c)) := by
  show (cfg1.win 4).cut (grid1.coords t) (dat.after 4 t) = _
  rw [h4 t hf]
  obtain ⟨-, -, -, -, -, -, -, -, e8, e9⟩ := idx_facts1 t
  funext y
  have hy0 : (y 0).val < 2 := (y 0).isLt
  have hy1 : (y 1).val < 1024 := (y 1).isLt
  rw [View.read_apply]
  show (oblk1_4 V c y : EReal) = Forms.statsK (act1 V c) (((cfg1.win 4).blk t).view.emb y)
  have hemb : ((cfg1.win 4).blk t).view.emb y = ix2 (⟨(y 0).val, hy0⟩ : Fin 2) (⟨(y 1).val, hy1⟩ : Fin 1024) :=
    funext fun a => Fin.ext (by
      match a with
      | ⟨0, _⟩ => show win1_4.index t (0 : Fin 2) * 2 + 1 * (y 0).val = (y 0).val; rw [e8]; omega
      | ⟨1, _⟩ => show win1_4.index t (1 : Fin 2) * 1024 + 1 * (y 1).val = (y 1).val; rw [e9]; omega)
  have hy : y = ix2 (⟨(y 0).val, hy0⟩ : Fin 2) (⟨(y 1).val, hy1⟩ : Fin 1024) :=
    funext fun a => by
      match a with
      | ⟨0, _⟩ => rfl
      | ⟨1, _⟩ => rfl
  rw [hemb]
  refine (congrArg (fun z => (oblk1_4 V c z : EReal)) hy).trans ?_
  exact oblk1_4_apply V c _ _

theorem mem_blk1_4 (t : Fin cfg1.N) (i : S2x1024.Idx) :
    i ∈ ((cfg1.win 4).blk t).view.set ↔ ∀ a : Fin 2, win1_4.index t a * S2x1024.size a ≤ (i a).val
      ∧ (i a).val < win1_4.index t a * S2x1024.size a + S2x1024.size a := by
  show i ∈ ((View.whole main_v19_1).slice (win1_4.rect t)).set ↔ _
  rw [View.set_slice_whole, Rect.mem_set_unit]
  exact Iff.rfl

/-- The last point's block covers the array. -/
theorem cover1_4 (i : S2x1024.Idx) :
    ∃ t : Fin cfg1.N, (cfg1.win 4).flush t = true ∧ i ∈ ((cfg1.win 4).blk t).view.set := by
  have hi0 : (i 0).val < 2 := (i 0).isLt
  have hi1 : (i 1).val < 1024 := (i 1).isLt
  obtain ⟨t, ht⟩ : ∃ t : Fin cfg1.N, t.val = 31 := ⟨⟨31, by rw [N1]; omega⟩, rfl⟩
  obtain ⟨-, -, -, -, -, -, -, -, e8, e9⟩ := idx_facts1 t
  refine ⟨t, (flush1_4 t).mpr (by rw [ht]), ?_⟩
  rw [mem_blk1_4]
  intro a
  match a with
  | ⟨0, _⟩ =>
    show win1_4.index t (0 : Fin 2) * 2 ≤ (i 0).val ∧ (i 0).val < win1_4.index t (0 : Fin 2) * 2 + 2
    rw [e8]; omega
  | ⟨1, _⟩ =>
    show win1_4.index t (1 : Fin 2) * 1024 ≤ (i 1).val ∧ (i 1).val < win1_4.index t (1 : Fin 2) * 1024 + 1024
    rw [e9]; omega

/-- The statistics array after the run. -/
theorem arr1_4_eq (h4 : ∀ t, (cfg1.win 4).flush t = true → dat.after 4 t = oblk1_4 V c) :
    (dat.arrAt 4 cfg1.N : Forms.A2 2 1024) = Forms.statsK (act1 V c) :=
  dat.arrAt_eq_of_cover 4 (Forms.statsK (act1 V c)) (fun t hf => flushed1_4_eq V dat h4 t hf) cover1_4

end Win4

end Cert.KernelIdeal.Val

end
-- ==== Proof.Val.Val1.lean ====
/-
  Region 1's two result arrays at the ideal values.

  The activation array ends holding  max (x · W + b) 0  of the flattened features, the weights and the bias row as the
  region finds them; the statistics array ends holding that array's batch statistics: row 0 the column means (the
  column sum times 2⁻¹⁴), row 1  E[a²] − mean².  Both are the block facts of the region's proof data read through the
  general statements about any proof data with those blocks.
-/
import proofs.«128293_j31387620999258_1_alg».proof.Proof.KI.R1
import proofs.«128293_j31387620999258_1_alg».proof.Proof.Val.Blk1

noncomputable section

namespace Cert.KernelIdeal.Val

open Idealize.ShloMosaic Idealize.ShloMosaic.TcCoe
open Idealize.SL Idealize.SL.Sem
open Cert.KernelIdeal Cert.KernelIdeal.Hand

/-- The activations: every point writes back its 512 rows of the rectified dense layer. -/
theorem val1_3 (V : (c : Dev nD) → (b : Ref sig .tc) → Buf (Elt Ideal) ((c : Thread nD τ).loc b)) (c : Dev nD) :
    ((dat1 (F := Ideal) V c).arrAt 3 cfg1.N : Forms.A2 16384 1024)
      = Forms.actF (V c main_v15) (V c main_v0) (V c main_v7) :=
  arr1_3_eq V (dat1 (F := Ideal) V c) (fun t => after1_3 V c t)

/-- The statistics: the last point writes back the mean and variance rows of the carried column sums. -/
theorem val1_4 (V : (c : Dev nD) → (b : Ref sig .tc) → Buf (Elt Ideal) ((c : Thread nD τ).loc b)) (c : Dev nD) :
    ((dat1 (F := Ideal) V c).arrAt 4 cfg1.N : Forms.A2 2 1024)
      = Forms.statsK (Forms.actF (V c main_v15) (V c main_v0) (V c main_v7)) :=
  arr1_4_eq V (dat1 (F := Ideal) V c) (fun t _ => after1_4 V c t)

end Cert.KernelIdeal.Val

end
-- ==== Proof.Val.Pay2.lean ====
/-
  Region 2's payloads read at an index, over the extended reals.

  The body of the second hidden layer computes, per grid point, one 512 x 512 block: row r of the previous
  layer's activations is normalised with that layer's mean and variance rows, g * (a - mean) * rsqrt (var + eps) + beta,
  multiplied by the 1024 x 512 weights, the bias row added and the result clipped at zero. Over the extended reals the
  widening and narrowing conversions are the identity, the product into a zero accumulator is the plain sum over the
  1024 contracted positions, and a sum over the rows of a block is the plain sum over its 512 rows. The two
  accumulator updates add the block's column sums, and the column sums of its squares, to what the accumulator
  held; the two statistics rows are the column sums times 2^-14, and the sums of squares times 2^-14 less the square
  of the former. Each lemma states one payload at explicit coordinates (row r, column k).
-/
import proofs.«128293_j31387620999258_1_alg».proof.Proof.Gen.KernelIdeal.Skeleton
import proofs.«128293_j31387620999258_1_alg».proof.Proof.Forms
import Idealize.ShloMosaic.PureOps.Ideal.Laws
import Idealize.ShloMosaic.Lib.ValueIdx
import Idealize.ShloMosaic.Lib.ValueLayout

noncomputable section

namespace Cert.KernelIdeal.Val.Two

open Cert.KernelIdeal Cert.KernelIdeal.Gen Idealize.ShloMosaic Idealize.ShloMosaic.ValueIdx
open Finset BigOperators

/-! ## The second dense layer's product: its operand indices -/

theorem lhs_mm2_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl

theorem lhs_mm2_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q

theorem rhs_mm2_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q

theorem rhs_mm2_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- The product into the zero accumulator, at row r and column k: the sum over the 1024 contracted positions. -/
theorem mm2_apply (L : FVec Ideal S512x1024 .bf16) (R : FVec Ideal S1024x512 .bf16) (r k : Fin 512) :
    matmul dot_S512x1024_S1024x512_S512x512_1_0_0_1_n_n none L R (constant (F := Ideal) S512x512 .f32 0x00000000#32) (ix2 r k)
      = ∑ j : Fin 1024, L (ix2 r j) * R (ix2 j k) := by
  simp only [matmul]
  rw [Ideal.matmul_constant_zero_apply,
    ← Equiv.sum_comp (contrEquiv1 dot_S512x1024_S1024x512_S512x512_1_0_0_1_n_n 1024 rfl rfl).symm]
  refine Finset.sum_congr rfl fun j _ => ?_
  have hk := contrEquiv1_symm_val dot_S512x1024_S1024x512_S512x512_1_0_0_1_n_n 1024 rfl rfl j
  have el : dot_S512x1024_S1024x512_S512x512_1_0_0_1_n_n.lhsIdx (ix2 r k)
      ((contrEquiv1 dot_S512x1024_S1024x512_S512x512_1_0_0_1_n_n 1024 rfl rfl).symm j) = ix2 r j :=
    funext fun a => Fin.ext (by
      match a with
      | ⟨0, _⟩ => exact lhs_mm2_0 _ _
      | ⟨1, _⟩ => exact (lhs_mm2_1 _ _).trans hk)
  have er : dot_S512x1024_S1024x512_S512x512_1_0_0_1_n_n.rhsIdx (ix2 r k)
      ((contrEquiv1 dot_S512x1024_S1024x512_S512x512_1_0_0_1_n_n 1024 rfl rfl).symm j) = ix2 j k :=
    funext fun a => Fin.ext (by
      match a with
      | ⟨0, _⟩ => exact (rhs_mm2_0 _ _).trans hk
      | ⟨1, _⟩ => exact rhs_mm2_1 _ _)
  rw [el, er]

/-! ## The accumulators' payloads -/

/-- The column sums of a 512 × 512 block, as one row: at column k the sum over the 512 rows. -/
theorem colsum_apply (v : FVec Ideal S512x512 .f32) (hφ : FKind.Formats .f32)
    (hacc : (0x00000000#32 : BitVec 32) = FKind.add.neutral .f32 hφ) (u : Fin 1) (k : Fin 512) :
    shapeCast S1x512 (multiReduction (F := Ideal) .add [0] S512 v 0x00000000#32 reduces_S512x512_S512 hφ hacc)
        shapeCasts_S512_S1x512 (ix2 u k)
      = ∑ r : Fin 512, v (ix2 r k) := by
  refine (shapeCast_a_1a_apply _ shapeCasts_S512_S1x512 u k).trans ?_
  refine (Ideal.multiReduction_add_single v _ reduces_S512x512_S512 hφ hacc (ix1 k)).trans ?_
  refine Finset.sum_congr rfl fun r _ => congrArg v ?_
  funext a
  apply Fin.ext
  match a with
  | ⟨0, _⟩ => rfl
  | ⟨1, _⟩ => rfl

/-- The first accumulator's update: what it held plus the block's column sums. -/
theorem pay1_apply (v : FVec Ideal S512x512 .f32) (a : FVec Ideal S1x512 .f32) (u : Fin 1) (k : Fin 512) :
    k2_pay1 (F := Ideal) v a (ix2 u k) = a (ix2 u k) + ∑ r : Fin 512, v (ix2 r k) := by
  unfold k2_pay1
  simp only [shapeCast_self]
  exact congrArg (a (ix2 u k) + ·) (colsum_apply v _ _ u k)

/-- The second accumulator's update: what it held plus the column sums of the block's squares. -/
theorem pay2_apply (v : FVec Ideal S512x512 .f32) (a : FVec Ideal S1x512 .f32) (u : Fin 1) (k : Fin 512) :
    k2_pay2 (F := Ideal) v a (ix2 u k) = a (ix2 u k) + ∑ r : Fin 512, v (ix2 r k) * v (ix2 r k) := by
  unfold k2_pay2
  simp only [shapeCast_self]
  exact congrArg (a (ix2 u k) + ·) (colsum_apply (mulf v v) _ _ u k)

/-- The stored block is the clipped block (narrowing to the storage format changes nothing over the extended reals). -/
theorem pay3_eq (v : FVec Ideal S512x512 .f32) : k2_pay3 (F := Ideal) v = v := rfl

/-- The mean row: the column sums times 2^-14. -/
theorem pay4_apply (s : FVec Ideal S1x512 .f32) (i : S1x512.Idx) :
    k2_pay4 (F := Ideal) s i = s i * Forms.c14 := rfl

/-- The variance row: the sums of squares times 2^-14, less the square of the mean row. -/
theorem pay5_apply (s q : FVec Ideal S1x512 .f32) (i : S1x512.Idx) :
    k2_pay5 (F := Ideal) s q i = q i * Forms.c14 - (s i * Forms.c14) * (s i * Forms.c14) := rfl

/-- The reset rows are zero. -/
theorem pay6_apply (i : S1x512.Idx) : k2_pay6 (F := Ideal) i = 0 := by
  unfold k2_pay6
  simp only [shapeCast_self]
  exact Ideal.ofBits_zero_f32

theorem pay7_apply (i : S1x512.Idx) : k2_pay7 (F := Ideal) i = 0 := by
  unfold k2_pay7
  simp only [shapeCast_self]
  exact Ideal.ofBits_zero_f32

/-! ## The dense layer's payload -/

/-- The clipped pre-activation at row r, column k of a block: the block's row r normalised with the two statistics
    rows, scaled and shifted, times column k of the weights, plus the bias, clipped at zero. -/
theorem pay8_apply (x : FVec Ideal S512x1024 .bf16) (m v g be : FVec Ideal S1x1024 .f32)
    (w : FVec Ideal S1024x512 .bf16) (b : FVec Ideal S1x512 .f32) (r k : Fin 512) :
    k2_pay8 (F := Ideal) x m v g be w b (ix2 r k)
      = max ((∑ j : Fin 1024, (g (ix2 0 j) * (x (ix2 r j) - m (ix2 0 j)) * Ideal.rsqrt (v (ix2 0 j) + Forms.eps)
              + be (ix2 0 j)) * w (ix2 j k)) + b (ix2 0 k)) 0 := by
  unfold k2_pay8
  simp only [shapeCast_self]
  refine (congrArg₂ max (congrArg₂ (· + ·) (mm2_apply _ w r k)
    (broadcastTo_1b_ab_apply b broadcasts_S1x512_S512x512 r k)) Ideal.ofBits_zero_f32).trans ?_
  refine congrArg (fun s => max (s + b (ix2 0 k)) 0) (Finset.sum_congr rfl fun j _ => ?_)
  refine congrArg (· * w (ix2 j k)) ?_
  show broadcastTo S512x1024 g broadcasts_S1x1024_S512x1024 (ix2 r j)
        * (x (ix2 r j) - broadcastTo S512x1024 m broadcasts_S1x1024_S512x1024 (ix2 r j))
        * broadcastTo S512x1024 (rsqrt (addf v (broadcast S1x1024 (Scalar.ofBits .f32 0x3727C5AC#32)))) broadcasts_S1x1024_S512x1024 (ix2 r j)
      + broadcastTo S512x1024 be broadcasts_S1x1024_S512x1024 (ix2 r j) = _
  rw [broadcastTo_1b_ab_apply, broadcastTo_1b_ab_apply, broadcastTo_1b_ab_apply, broadcastTo_1b_ab_apply]
  rfl

end Cert.KernelIdeal.Val.Two

end
-- ==== Proof.Val.Val2G.lean ====
/-
  Region 2's two output arrays over the extended reals, for ANY proof data of the region's pipeline whose output
  blocks are the body's.

  At grid point t the body holds rows 512 t … 512 t + 511 of the previous layer's activations and the whole of the
  statistics, scale, shift, weight and bias arrays; its clipped block at (r, k) is therefore the layer's clipped
  pre-activation max (Σ_j bn(512 t + r, j) · W2(j, k) + b2(k)) 0 at row 512 t + r, where bn is the normalisation with the
  two statistics rows. The 32 blocks tile the 16384 rows, so the activations array ends holding that function. The two
  accumulators after point n hold, at column k, the sums of the pre-activations and of their squares over the rows of
  the points up to n (induction on n); after the last point these are the sums over all 16384 rows (row 512 p + r is
  the pair (p, r)), and the statistics block the last point writes, which is the whole statistics array, is the mean
  row (the sum times 2^-14) over the variance row (the sum of squares times 2^-14 less the squared mean).
-/
import proofs.«128293_j31387620999258_1_alg».proof.Proof.KI.D2
import proofs.«128293_j31387620999258_1_alg».proof.Proof.Val.Pay2
import Idealize.ShloMosaic.Lib.Pipeline.Value
import Idealize.ShloMosaic.Lib.ValueIdx
import Mathlib.Algebra.BigOperators.Fin
import Mathlib.Data.Fintype.BigOperators
import Mathlib.Logic.Equiv.Fin.Basic

noncomputable section

namespace Cert.KernelIdeal.Val.Two

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Finset BigOperators

variable (V : (c : Dev nD) → (b : Ref sig .tc) → Buf (Elt Ideal) ((c : Thread nD τ).loc b))

/-- The index maps of region 2, decided over its 32 points: the activations' and the output's blocks move with the
    point along the rows, every other window's block is the whole array. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0 :=
  (by decide +kernel : ∀ t : Fin grid2.N, _)

/-- The row of the batch that row r of point t's block is. -/
def brow (t : Fin cfg2.N) (r : Fin 512) : Fin 16384 :=
  ⟨512 * t.val + r.val, by have := t.isLt; have hN : cfg2.N = 32 := N_2; have := r.isLt; omega⟩

/-- The activations' block at point t is rows 512 t … 512 t + 511 of the array. -/
theorem pre1_read (c : Dev nD) (t : Fin cfg2.N) (r : Fin 512) (j : Fin 1024) :
    blk2_pre1 V c t (ix2 r j) = (V c main_v19_0 : Forms.A2 16384 1024) (ix2 (brow t r) j) := by
  show V c main_v19_0 (((cfg2.win 0).blk t).view.emb (ix2 r j)) = V c main_v19_0 (ix2 (brow t r) j)
  refine congrArg (V c main_v19_0) ?_
  obtain ⟨e0, e1, -⟩ := idx_facts2 t
  funext a
  apply Fin.ext
  match a with
  | ⟨0, _⟩ => show win2_0.index t (0 : Fin 2) * 512 + 1 * r.val = 512 * t.val + r.val; rw [e0]; omega
  | ⟨1, _⟩ => show win2_0.index t (1 : Fin 2) * 1024 + 1 * j.val = j.val; rw [e1]; omega

/-- The statistics block is the whole two-row array; its row 0 is the mean row, -/
theorem mean_read (c : Dev nD) (t : Fin cfg2.N) (j : Fin 1024) :
    View.ld (blk2_stats1 V c t) r2_mean (ix2 0 j) = (V c main_v19_1 : Forms.A2 2 1024) (ix2 0 j) := by
  show V c main_v19_1 (((cfg2.win 1).blk t).view.emb (r2_mean.idx (ix2 0 j))) = V c main_v19_1 (ix2 0 j)
  refine congrArg (V c main_v19_1) ?_
  obtain ⟨-, -, e0, e1, -⟩ := idx_facts2 t
  funext a
  apply Fin.ext
  match a with
  | ⟨0, _⟩ => show win2_1.index t (0 : Fin 2) * 2 + 1 * (0 + 1 * 0) = 0; rw [e0]
  | ⟨1, _⟩ => show win2_1.index t (1 : Fin 2) * 1024 + 1 * (0 + 1 * j.val) = j.val; rw [e1]; omega

/-- and its row 1 the variance row. -/
theorem var_read (c : Dev nD) (t : Fin cfg2.N) (j : Fin 1024) :
    View.ld (blk2_stats1 V c t) r2_var (ix2 0 j) = (V c main_v19_1 : Forms.A2 2 1024) (ix2 1 j) := by
  show V c main_v19_1 (((cfg2.win 1).blk t).view.emb (r2_var.idx (ix2 0 j))) = V c main_v19_1 (ix2 1 j)
  refine congrArg (V c main_v19_1) ?_
  obtain ⟨-, -, e0, e1, -⟩ := idx_facts2 t
  funext a
  apply Fin.ext
  match a with
  | ⟨0, _⟩ => show win2_1.index t (0 : Fin 2) * 2 + 1 * (1 + 1 * 0) = 1; rw [e0]
  | ⟨1, _⟩ => show win2_1.index t (1 : Fin 2) * 1024 + 1 * (0 + 1 * j.val) = j.val; rw [e1]; omega

/-- The scale, the shift, the weights and the bias are whole arrays at every point. -/
theorem g1_read (c : Dev nD) (t : Fin cfg2.N) (j : Fin 1024) :
    blk2_g1 V c t (ix2 0 j) = (V c main_v10 : Forms.A2 1 1024) (ix2 0 j) := by
  show V c main_v10 (((cfg2.win 2).blk t).view.emb (ix2 0 j)) = V c main_v10 (ix2 0 j)
  refine congrArg (V c main_v10) ?_
  obtain ⟨-, -, -, -, e0, e1, -⟩ := idx_facts2 t
  funext a
  apply Fin.ext
  match a with
  | ⟨0, _⟩ => show win2_2.index t (0 : Fin 2) * 1 + 1 * 0 = 0; rw [e0]
  | ⟨1, _⟩ => show win2_2.index t (1 : Fin 2) * 1024 + 1 * j.val = j.val; rw [e1]; omega

theorem beta1_read (c : Dev nD) (t : Fin cfg2.N) (j : Fin 1024) :
    blk2_beta1 V c t (ix2 0 j) = (V c main_v11 : Forms.A2 1 1024) (ix2 0 j) := by
  show V c main_v11 (((cfg2.win 3).blk t).view.emb (ix2 0 j)) = V c main_v11 (ix2 0 j)
  refine congrArg (V c main_v11) ?_
  obtain ⟨-, -, -, -, -, -, e0, e1, -⟩ := idx_facts2 t
  funext a
  apply Fin.ext
  match a with
  | ⟨0, _⟩ => show win2_3.index t (0 : Fin 2) * 1 + 1 * 0 = 0; rw [e0]
  | ⟨1, _⟩ => show win2_3.index t (1 : Fin 2) * 1024 + 1 * j.val = j.val; rw [e1]; omega

theorem W2_read (c : Dev nD) (t : Fin cfg2.N) (j : Fin 1024) (k : Fin 512) :
    blk2_W2 V c t (ix2 j k) = (V c main_v1 : Forms.A2 1024 512) (ix2 j k) := by
  show V c main_v1 (((cfg2.win 4).blk t).view.emb (ix2 j k)) = V c main_v1 (ix2 j k)
  refine congrArg (V c main_v1) ?_
  obtain ⟨-, -, -, -, -, -, -, -, e0, e1, -⟩ := idx_facts2 t
  funext a
  apply Fin.ext
  match a with
  | ⟨0, _⟩ => show win2_4.index t (0 : Fin 2) * 1024 + 1 * j.val = j.val; rw [e0]; omega
  | ⟨1, _⟩ => show win2_4.index t (1 : Fin 2) * 512 + 1 * k.val = k.val; rw [e1]; omega

theorem b2_read (c : Dev nD) (t : Fin cfg2.N) (k : Fin 512) :
    blk2_b2 V c t (ix2 0 k) = (V c main_v8 : Forms.A2 1 512) (ix2 0 k) := by
  show V c main_v8 (((cfg2.win 5).blk t).view.emb (ix2 0 k)) = V c main_v8 (ix2 0 k)
  refine congrArg (V c main_v8) ?_
  obtain ⟨-, -, -, -, -, -, -, -, -, -, e0, e1, -⟩ := idx_facts2 t
  funext a
  apply Fin.ext
  match a with
  | ⟨0, _⟩ => show win2_5.index t (0 : Fin 2) * 1 + 1 * 0 = 0; rw [e0]
  | ⟨1, _⟩ => show win2_5.index t (1 : Fin 2) * 512 + 1 * k.val = k.val; rw [e1]; omega

/-- The layer's clipped pre-activations over the whole batch, of the arrays as the region finds them. -/
abbrev act2 (c : Dev nD) : Forms.A2 16384 512 :=
  Forms.actF (Forms.bnK (V c main_v19_0) (V c main_v19_1) (V c main_v10) (V c main_v11)) (V c main_v1) (V c main_v8)

/-- THE PER-POINT VALUE. Row r, column k of the clipped block of point t is the layer's clipped pre-activation at row
    512 t + r of the batch: the block's row is that row of the activations, the statistics, scale, shift, weights and
    bias are the whole arrays. -/
theorem relu2_apply (c : Dev nD) (t : Fin cfg2.N) (r k : Fin 512) :
    relu2 V c t (ix2 r k) = act2 V c (ix2 (brow t r) k) := by
  unfold relu2
  refine (pay8_apply (blk2_pre1 V c t) (View.ld (blk2_stats1 V c t) r2_mean) (View.ld (blk2_stats1 V c t) r2_var)
    (blk2_g1 V c t) (blk2_beta1 V c t) (blk2_W2 V c t) (blk2_b2 V c t) r k).trans ?_
  show _ = max ((∑ j : Fin 1024, Forms.bnK (V c main_v19_0) (V c main_v19_1) (V c main_v10) (V c main_v11) (ix2 (brow t r) j)
      * (V c main_v1 : Forms.A2 1024 512) (ix2 j k)) + (V c main_v8 : Forms.A2 1 512) (ix2 0 k)) 0
  refine congrArg₂ (fun s b => max (s + b) 0) (Finset.sum_congr rfl fun j _ => ?_) (b2_read V c t k)
  refine congrArg₂ (· * ·) ?_ (W2_read V c t j k)
  rw [g1_read, pre1_read, mean_read, var_read, beta1_read]
  rfl

/-! ## The activations array: window 6 -/

theorem mem_blk6 (t : Fin cfg2.N) (i : S16384x512.Idx) :
    i ∈ ((cfg2.win 6).blk t).view.set ↔ ∀ a : Fin 2, win2_6.index t a * S512x512.size a ≤ (i a).val
      ∧ (i a).val < win2_6.index t a * S512x512.size a + S512x512.size a := by
  show i ∈ ((View.whole main_v20_0).slice (win2_6.rect t)).set ↔ _
  rw [View.set_slice_whole, Rect.mem_set_unit]
  exact Iff.rfl

/-- Row i lies in the block of point i / 512. -/
theorem cover6 (i : S16384x512.Idx) :
    ∃ t : Fin cfg2.N, (cfg2.win 6).flush t = true ∧ i ∈ ((cfg2.win 6).blk t).view.set := by
  have hN : cfg2.N = 32 := N_2
  have hi0 : (i 0).val < 16384 := (i 0).isLt
  have hi1 : (i 1).val < 512 := (i 1).isLt
  have hq : (i 0).val / 512 < cfg2.N := by omega
  refine ⟨⟨(i 0).val / 512, hq⟩, flush2_6 _, ?_⟩
  rw [mem_blk6]
  obtain ⟨-, -, -, -, -, -, -, -, -, -, -, -, e0, e1, -⟩ := idx_facts2 ⟨(i 0).val / 512, hq⟩
  intro a
  match a with
  | ⟨0, _⟩ =>
    show win2_6.index ⟨(i 0).val / 512, hq⟩ (0 : Fin 2) * 512 ≤ (i 0).val
      ∧ (i 0).val < win2_6.index ⟨(i 0).val / 512, hq⟩ (0 : Fin 2) * 512 + 512
    rw [e0]; dsimp only; omega
  | ⟨1, _⟩ =>
    show win2_6.index ⟨(i 0).val / 512, hq⟩ (1 : Fin 2) * 512 ≤ (i 1).val
      ∧ (i 1).val < win2_6.index ⟨(i 0).val / 512, hq⟩ (1 : Fin 2) * 512 + 512
    rw [e1]; omega

/-- THE ACTIVATIONS ARRAY after the region, for any proof data whose output block at every point is the body's. -/
theorem val2_6_of (c : Dev nD) (dat : Dat τ (Elt Ideal) Unit ℕ (UR sig nD τ) ℕ cfg2 c)
    (h6 : ∀ t : Fin cfg2.N, dat.after 6 t = out2_6 V c t) :
    (dat.arrAt 6 cfg2.N : Forms.A2 16384 512) = act2 V c := by
  refine dat.arrAt_eq_of_cover 6 (act2 V c) (fun t _ => ?_) cover6
  show (cfg2.win 6).cut (grid2.coords t) (dat.after 6 t) = _
  rw [h6 t]
  funext y
  obtain ⟨r, k, rfl⟩ : ∃ (r k : Fin 512), y = ix2 r k := ⟨y 0, y 1, eq_ix2 y⟩
  show relu2 V c t (ix2 r k) = act2 V c (((cfg2.win 6).blk t).view.emb (ix2 r k))
  rw [relu2_apply]
  refine congrArg (act2 V c) ?_
  obtain ⟨-, -, -, -, -, -, -, -, -, -, -, -, e0, e1, -⟩ := idx_facts2 t
  funext a
  apply Fin.ext
  match a with
  | ⟨0, _⟩ => show 512 * t.val + r.val = win2_6.index t (0 : Fin 2) * 512 + 1 * r.val; rw [e0]; omega
  | ⟨1, _⟩ => show k.val = win2_6.index t (1 : Fin 2) * 512 + 1 * k.val; rw [e1]; omega

/-! ## The accumulators: sums over the rows of the points so far -/

/-- The sum of f over the 512 rows of point p's block (zero past the grid). -/
def bsumF (f : Fin 16384 → EReal) (p : ℕ) : EReal :=
  if h : p < cfg2.N then ∑ r : Fin 512, f (brow ⟨p, h⟩ r) else 0

/-- The 32 blocks of 512 rows are the 16384 rows: row 512 p + r is the pair (p, r). -/
theorem sum_blocks (f : Fin 16384 → EReal) : ∑ p ∈ Finset.range 32, bsumF f p = ∑ b : Fin 16384, f b := by
  have hN : cfg2.N = 32 := N_2
  rw [Finset.sum_range]
  have hb : ∀ p : Fin 32, bsumF f p.val = ∑ r : Fin 512, f (finProdFinEquiv (m := 32) (n := 512) (p, r)) := fun p => by
    have hp : p.val < cfg2.N := by have := p.isLt; omega
    rw [bsumF, dif_pos hp]
    refine Finset.sum_congr rfl fun r _ => congrArg f (Fin.ext ?_)
    show 512 * p.val + r.val = r.val + 512 * p.val
    omega
  rw [Finset.sum_congr rfl fun p _ => hb p, ← Fintype.sum_prod_type']
  exact Equiv.sum_comp (finProdFinEquiv (m := 32) (n := 512)) f

/-- THE FIRST ACCUMULATOR after point n, at column k: the sum of the clipped pre-activations over the rows of the
    points up to n. By induction on the point: the first adds its block's column sums to the zero row, each later one
    to what the one before left. -/
theorem sum2_apply (c : Dev nD) (u : Fin 1) (k : Fin 512) :
    ∀ n, n < cfg2.N → sum2 V c n (ix2 u k) = ∑ p ∈ Finset.range (n + 1), bsumF (fun b => act2 V c (ix2 b k)) p
  | 0, h => by
    rw [sum2_zero V c h, pay1_apply, pay6_apply, zero_add, Finset.sum_range_one, bsumF, dif_pos h]
    exact Finset.sum_congr rfl fun r _ => relu2_apply V c ⟨0, h⟩ r k
  | n + 1, h => by
    rw [sum2_succ V c n h, pay1_apply, sum2_apply c u k n (Nat.lt_of_succ_lt h), Finset.sum_range_succ _ (n + 1)]
    refine congrArg (_ + ·) ?_
    rw [bsumF, dif_pos h]
    exact Finset.sum_congr rfl fun r _ => relu2_apply V c ⟨n + 1, h⟩ r k

/-- THE SECOND ACCUMULATOR likewise: the sum of their squares. -/
theorem sq2_apply (c : Dev nD) (u : Fin 1) (k : Fin 512) :
    ∀ n, n < cfg2.N → sq2 V c n (ix2 u k)
      = ∑ p ∈ Finset.range (n + 1), bsumF (fun b => act2 V c (ix2 b k) * act2 V c (ix2 b k)) p
  | 0, h => by
    rw [sq2_zero V c h, pay2_apply, pay7_apply, zero_add, Finset.sum_range_one, bsumF, dif_pos h]
    exact Finset.sum_congr rfl fun r _ => by rw [relu2_apply]
  | n + 1, h => by
    rw [sq2_succ V c n h, pay2_apply, sq2_apply c u k n (Nat.lt_of_succ_lt h), Finset.sum_range_succ _ (n + 1)]
    refine congrArg (_ + ·) ?_
    rw [bsumF, dif_pos h]
    exact Finset.sum_congr rfl fun r _ => by rw [relu2_apply]

/-! ## The statistics array: window 7 -/

/-- Row 0 of the statistics block is the earlier store's payload (the mean row): the later store covers row 1 only, -/
theorem out2_7_row0 (c : Dev nD) (t : Fin cfg2.N) (k : Fin 512) :
    out2_7 V c t (ix2 0 k) = k2_pay4 (sum2 V c t.val) (ix2 0 k) := by
  have hn : (ix2 (0 : Fin 2) k : S2x512.Idx) ∉ r2_row1.set := by
    rw [Rect.mem_set_unit]
    intro h
    have h1 : 1 ≤ 0 := (h 0).1
    omega
  unfold out2_7
  refine (View.canon_cons_of_not_mem (Val := Elt Ideal) (s := S2x512) (e := .f32)
    ⟨r2_row1, k2_pay5 (sum2 V c t.val) (sq2 V c t.val)⟩ [⟨r2_row0, k2_pay4 (sum2 V c t.val)⟩] hn).trans ?_
  have e : (ix2 (0 : Fin 2) k : S2x512.Idx) = r2_row0.emb (ix2 (0 : Fin 1) k) := funext fun a => Fin.ext (by
    match a with
    | ⟨0, _⟩ => rfl
    | ⟨1, _⟩ => show k.val = 0 + 1 * k.val; omega)
  rw [e]
  exact View.canon_cons_emb r2_row0 _ _ _

/-- and row 1 the first-listed store's (the variance row). -/
theorem out2_7_row1 (c : Dev nD) (t : Fin cfg2.N) (k : Fin 512) :
    out2_7 V c t (ix2 1 k) = k2_pay5 (sum2 V c t.val) (sq2 V c t.val) (ix2 0 k) := by
  unfold out2_7
  have e : (ix2 (1 : Fin 2) k : S2x512.Idx) = r2_row1.emb (ix2 (0 : Fin 1) k) := funext fun a => Fin.ext (by
    match a with
    | ⟨0, _⟩ => rfl
    | ⟨1, _⟩ => show k.val = 0 + 1 * k.val; omega)
  rw [e]
  exact View.canon_cons_emb r2_row1 _ _ _

theorem mem_blk7 (t : Fin cfg2.N) (i : S2x512.Idx) :
    i ∈ ((cfg2.win 7).blk t).view.set ↔ ∀ a : Fin 2, win2_7.index t a * S2x512.size a ≤ (i a).val
      ∧ (i a).val < win2_7.index t a * S2x512.size a + S2x512.size a := by
  show i ∈ ((View.whole main_v20_1).slice (win2_7.rect t)).set ↔ _
  rw [View.set_slice_whole, Rect.mem_set_unit]
  exact Iff.rfl

/-- The last point. -/
def tlast : Fin cfg2.N := ⟨31, by have hN : cfg2.N = 32 := N_2; omega⟩

/-- The last point's block is the whole statistics array. -/
theorem cover7 (i : S2x512.Idx) :
    ∃ t : Fin cfg2.N, (cfg2.win 7).flush t = true ∧ i ∈ ((cfg2.win 7).blk t).view.set := by
  have hi0 : (i 0).val < 2 := (i 0).isLt
  have hi1 : (i 1).val < 512 := (i 1).isLt
  refine ⟨tlast, (flush2_7 tlast).mpr rfl, ?_⟩
  rw [mem_blk7]
  obtain ⟨-, -, -, -, -, -, -, -, -, -, -, -, -, -, e0, e1⟩ := idx_facts2 tlast
  intro a
  match a with
  | ⟨0, _⟩ =>
    show win2_7.index tlast (0 : Fin 2) * 2 ≤ (i 0).val ∧ (i 0).val < win2_7.index tlast (0 : Fin 2) * 2 + 2
    rw [e0]; omega
  | ⟨1, _⟩ =>
    show win2_7.index tlast (1 : Fin 2) * 512 ≤ (i 1).val ∧ (i 1).val < win2_7.index tlast (1 : Fin 2) * 512 + 512
    rw [e1]; omega

/-- THE STATISTICS ARRAY after the region, for any proof data whose statistics block at the last point is the body's:
    row 0 the column sums over all 16384 rows times 2^-14, row 1 the sums of squares times 2^-14 less the square of
    row 0. -/
theorem val2_7_of (c : Dev nD) (dat : Dat τ (Elt Ideal) Unit ℕ (UR sig nD τ) ℕ cfg2 c)
    (h7 : ∀ t : Fin cfg2.N, t.val = 31 → dat.after 7 t = out2_7 V c t) :
    (dat.arrAt 7 cfg2.N : Forms.A2 2 512) = Forms.statsK (act2 V c) := by
  refine dat.arrAt_eq_of_cover 7 (Forms.statsK (act2 V c)) (fun t hf => ?_) cover7
  have hN : cfg2.N = 32 := N_2
  have h31 : t.val = 31 := by have := (flush2_7 t).mp hf; have := t.isLt; omega
  show (cfg2.win 7).cut (grid2.coords t) (dat.after 7 t) = _
  rw [h7 t h31]
  funext y
  obtain ⟨u, k, rfl⟩ : ∃ (u : Fin 2) (k : Fin 512), y = ix2 u k := ⟨y 0, y 1, eq_ix2 y⟩
  show out2_7 V c t (ix2 u k) = Forms.statsK (act2 V c) (((cfg2.win 7).blk t).view.emb (ix2 u k))
  obtain ⟨-, -, -, -, -, -, -, -, -, -, -, -, -, -, e0, e1⟩ := idx_facts2 t
  have eemb : ((cfg2.win 7).blk t).view.emb (ix2 u k) = (ix2 u k : S2x512.Idx) := funext fun a => Fin.ext (by
    match a with
    | ⟨0, _⟩ => show win2_7.index t (0 : Fin 2) * 2 + 1 * u.val = u.val; rw [e0]; omega
    | ⟨1, _⟩ => show win2_7.index t (1 : Fin 2) * 512 + 1 * k.val = k.val; rw [e1]; omega)
  rw [eemb]
  have hs : sum2 V c t.val (ix2 0 k) = ∑ b : Fin 16384, act2 V c (ix2 b k) := by
    rw [h31, sum2_apply V c 0 k 31 (by omega)]
    exact sum_blocks _
  have hq : sq2 V c t.val (ix2 0 k) = ∑ b : Fin 16384, act2 V c (ix2 b k) * act2 V c (ix2 b k) := by
    rw [h31, sq2_apply V c 0 k 31 (by omega)]
    exact sum_blocks _
  match u with
  | ⟨0, _⟩ =>
    refine (out2_7_row0 V c t k).trans ?_
    rw [pay4_apply, hs]
    rfl
  | ⟨1, _⟩ =>
    refine (out2_7_row1 V c t k).trans ?_
    rw [pay5_apply, hs, hq]
    rfl

end Cert.KernelIdeal.Val.Two

end
-- ==== Proof.Val.Val2.lean ====
/-
  Region 2's values over the extended reals: after the region the activations array holds the second layer's clipped
  pre-activations of the normalised first-layer activations, and the statistics array holds their batch mean (the
  column sum times 2^-14) and variance (the mean of squares less the squared mean). Both are the general statements
  about any proof data of the region whose output blocks are the body's, taken at the region's own proof data.
-/
import proofs.«128293_j31387620999258_1_alg».proof.Proof.KI.R2
import proofs.«128293_j31387620999258_1_alg».proof.Proof.Val.Val2G

noncomputable section

namespace Cert.KernelIdeal.Val

open Cert.KernelIdeal Cert.KernelIdeal.Gen Cert.KernelIdeal.Hand
open Idealize.ShloMosaic Idealize.ShloMosaic.TcCoe Idealize.SL.Sem

/-- The activations array after region 2. -/
theorem val2_6 (V : (c : Dev nD) → (b : Ref sig .tc) → Buf (Elt Ideal) ((c : Thread nD τ).loc b)) (c : Dev nD) :
    ((dat2 (F := Ideal) V c).arrAt 6 cfg2.N : Forms.A2 16384 512)
      = Forms.actF (Forms.bnK (V c main_v19_0) (V c main_v19_1) (V c main_v10) (V c main_v11)) (V c main_v1) (V c main_v8) :=
  Two.val2_6_of V c (dat2 V c) (after2_6 V c)

/-- The statistics array after region 2. -/
theorem val2_7 (V : (c : Dev nD) → (b : Ref sig .tc) → Buf (Elt Ideal) ((c : Thread nD τ).loc b)) (c : Dev nD) :
    ((dat2 (F := Ideal) V c).arrAt 7 cfg2.N : Forms.A2 2 512)
      = Forms.statsK (Forms.actF (Forms.bnK (V c main_v19_0) (V c main_v19_1) (V c main_v10) (V c main_v11)) (V c main_v1) (V c main_v8)) :=
  Two.val2_7_of V c (dat2 V c) (fun t _ => after2_7 V c t)

end Cert.KernelIdeal.Val

end
-- ==== Proof.Val.Val3.lean ====
/-
  The value of region 3's result at the extended reals.

  At each of the 32 grid points the body stores one column of 512 entries. Read at row `p` of the block, the stored
  entry is: the sum over the 64 deep features `k` of (the sum over the 512 activations `j` of the row, each normalized
  as scale · (a - mean) · rsqrt (variance + floor) + shift, times the third layer's weight `(j, k)`, plus its bias `k`)
  times the first projection's weight `k`; plus the sum over the 496 pair products of the row times the second
  projection's weights; plus the output bias. On the extended reals every change of float format is the identity and a
  block product into a zero accumulator is the plain sum over the contracted axis; nothing is regrouped or
  distributed, so no finiteness enters.

  The block at point `t` of the activations, of the pair products and of the result is rows `t · 512 … t · 512 + 511`
  of its array; every other window's one block is its whole array. So what point `t` writes back is block `t` of one
  function of the arrays as the region finds them, the 32 blocks cover the 16384 rows, and the array after the region
  is that function.
-/
import proofs.«128293_j31387620999258_1_alg».proof.Proof.KI.R3
import proofs.«128293_j31387620999258_1_alg».proof.Proof.Forms
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Finset BigOperators

/-! ## The three products read at an entry -/

/-! ### the third dense layer's product: a 512×512 block against the 512×64 weights -/

/-- The left operand's row is the output's row; -/
theorem lhs_mmA_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
/-- its column is the contracted coordinate. -/
theorem lhs_mmA_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
/-- The right operand's row is the contracted coordinate; -/
theorem rhs_mmA_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
/-- its column is the output's column. -/
theorem rhs_mmA_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- Into a zero accumulator the product at an entry is the plain sum over the contracted axis of row times column. -/
theorem mmA_apply {φ₁ φ₂ : FTy} (lhs : FVec Ideal S512x512 φ₁) (rhs : FVec Ideal S512x64 φ₂) (i : S512x64.Idx) :
    matmul dot_S512x512_S512x64_S512x64_1_0_0_1_n_n none lhs rhs (constant S512x64 .f32 0x00000000#32) i
      = ∑ k : Fin 512, lhs (ix2 (i 0) k) * rhs (ix2 k (i 1)) := by
  simp only [matmul]
  rw [Ideal.matmul_constant_zero_apply, ← Equiv.sum_comp (ValueIdx.contrEquiv1 dot_S512x512_S512x64_S512x64_1_0_0_1_n_n 512 rfl rfl).symm]
  refine Finset.sum_congr rfl fun k _ => ?_
  have hk := ValueIdx.contrEquiv1_symm_val dot_S512x512_S512x64_S512x64_1_0_0_1_n_n 512 rfl rfl k
  have el : dot_S512x512_S512x64_S512x64_1_0_0_1_n_n.lhsIdx i ((ValueIdx.contrEquiv1 dot_S512x512_S512x64_S512x64_1_0_0_1_n_n 512 rfl rfl).symm k) = ix2 (i 0) k := funext fun a => Fin.ext (by
    match a with
    | ⟨0, _⟩ => exact lhs_mmA_0 _ _
    | ⟨1, _⟩ => exact (lhs_mmA_1 _ _).trans hk)
  have er : dot_S512x512_S512x64_S512x64_1_0_0_1_n_n.rhsIdx i ((ValueIdx.contrEquiv1 dot_S512x512_S512x64_S512x64_1_0_0_1_n_n 512 rfl rfl).symm k) = ix2 k (i 1) := funext fun a => Fin.ext (by
    match a with
    | ⟨0, _⟩ => exact (rhs_mmA_0 _ _).trans hk
    | ⟨1, _⟩ => exact rhs_mmA_1 _ _)
  rw [el, er]
  rfl

/-- The same as one function of the output index. -/
theorem mmA_eq {φ₁ φ₂ : FTy} (lhs : FVec Ideal S512x512 φ₁) (rhs : FVec Ideal S512x64 φ₂) :
    matmul dot_S512x512_S512x64_S512x64_1_0_0_1_n_n none lhs rhs (constant S512x64 .f32 0x00000000#32)
      = fun i => ∑ k : Fin 512, lhs (ix2 (i 0) k) * rhs (ix2 k (i 1)) :=
  funext fun i => mmA_apply lhs rhs i

/-! ### the deep features' projection: a 512×64 block against the 64×1 weights -/

/-- The left operand's row is the output's row; -/
theorem lhs_mmB_0 (i : S512x1.Idx) (q : dot_S512x64_S64x1_S512x1_1_0_0_1_n_n.contr.Idx) :
    (dot_S512x64_S64x1_S512x1_1_0_0_1_n_n.lhsIdx i q 0).val = (i 0).val := by
  unfold DotDims.lhsIdx
  rw [dif_neg (show ¬(0 : Fin S512x64.rank) ∈ dot_S512x64_S64x1_S512x1_1_0_0_1_n_n.lhsBatch by decide), dif_pos (show (0 : Fin S512x64.rank) ∈ dot_S512x64_S64x1_S512x1_1_0_0_1_n_n.lhsNonContracting by decide)]
  rfl
/-- its column is the contracted coordinate. -/
theorem lhs_mmB_1 (i : S512x1.Idx) (q : dot_S512x64_S64x1_S512x1_1_0_0_1_n_n.contr.Idx) :
    (dot_S512x64_S64x1_S512x1_1_0_0_1_n_n.lhsIdx i q 1).val = (q ⟨0, by decide⟩).val :=
  dot_S512x64_S64x1_S512x1_1_0_0_1_n_n.lhsIdx_val_of_single rfl i q
/-- The right operand's row is the contracted coordinate; -/
theorem rhs_mmB_0 (i : S512x1.Idx) (q : dot_S512x64_S64x1_S512x1_1_0_0_1_n_n.contr.Idx) :
    (dot_S512x64_S64x1_S512x1_1_0_0_1_n_n.rhsIdx i q 0).val = (q ⟨0, by decide⟩).val :=
  dot_S512x64_S64x1_S512x1_1_0_0_1_n_n.rhsIdx_val_of_single rfl i q
/-- its column is the output's column. -/
theorem rhs_mmB_1 (i : S512x1.Idx) (q : dot_S512x64_S64x1_S512x1_1_0_0_1_n_n.contr.Idx) :
    (dot_S512x64_S64x1_S512x1_1_0_0_1_n_n.rhsIdx i q 1).val = (i 1).val := by
  unfold DotDims.rhsIdx
  rw [dif_neg (show ¬(1 : Fin S64x1.rank) ∈ dot_S512x64_S64x1_S512x1_1_0_0_1_n_n.rhsBatch by decide), dif_pos (show (1 : Fin S64x1.rank) ∈ dot_S512x64_S64x1_S512x1_1_0_0_1_n_n.rhsNonContracting by decide)]
  rfl

/-- Into a zero accumulator the product at an entry is the plain sum over the contracted axis of row times column. -/
theorem mmB_apply {φ₁ φ₂ : FTy} (lhs : FVec Ideal S512x64 φ₁) (rhs : FVec Ideal S64x1 φ₂) (i : S512x1.Idx) :
    matmul dot_S512x64_S64x1_S512x1_1_0_0_1_n_n none lhs rhs (constant S512x1 .f32 0x00000000#32) i
      = ∑ k : Fin 64, lhs (ix2 (i 0) k) * rhs (ix2 k (i 1)) := by
  simp only [matmul]
  rw [Ideal.matmul_constant_zero_apply, ← Equiv.sum_comp (ValueIdx.contrEquiv1 dot_S512x64_S64x1_S512x1_1_0_0_1_n_n 64 rfl rfl).symm]
  refine Finset.sum_congr rfl fun k _ => ?_
  have hk := ValueIdx.contrEquiv1_symm_val dot_S512x64_S64x1_S512x1_1_0_0_1_n_n 64 rfl rfl k
  have el : dot_S512x64_S64x1_S512x1_1_0_0_1_n_n.lhsIdx i ((ValueIdx.contrEquiv1 dot_S512x64_S64x1_S512x1_1_0_0_1_n_n 64 rfl rfl).symm k) = ix2 (i 0) k := funext fun a => Fin.ext (by
    match a with
    | ⟨0, _⟩ => exact lhs_mmB_0 _ _
    | ⟨1, _⟩ => exact (lhs_mmB_1 _ _).trans hk)
  have er : dot_S512x64_S64x1_S512x1_1_0_0_1_n_n.rhsIdx i ((ValueIdx.contrEquiv1 dot_S512x64_S64x1_S512x1_1_0_0_1_n_n 64 rfl rfl).symm k) = ix2 k (i 1) := funext fun a => Fin.ext (by
    match a with
    | ⟨0, _⟩ => exact (rhs_mmB_0 _ _).trans hk
    | ⟨1, _⟩ => exact rhs_mmB_1 _ _)
  rw [el, er]
  rfl

/-- The same as one function of the output index. -/
theorem mmB_eq {φ₁ φ₂ : FTy} (lhs : FVec Ideal S512x64 φ₁) (rhs : FVec Ideal S64x1 φ₂) :
    matmul dot_S512x64_S64x1_S512x1_1_0_0_1_n_n none lhs rhs (constant S512x1 .f32 0x00000000#32)
      = fun i => ∑ k : Fin 64, lhs (ix2 (i 0) k) * rhs (ix2 k (i 1)) :=
  funext fun i => mmB_apply lhs rhs i

/-! ### the pair products' projection: a 512×496 block against the 496×1 weights -/

/-- The left operand's row is the output's row; -/
theorem lhs_mmC_0 (i : S512x1.Idx) (q : dot_S512x496_S496x1_S512x1_1_0_0_1_n_n.contr.Idx) :
    (dot_S512x496_S496x1_S512x1_1_0_0_1_n_n.lhsIdx i q 0).val = (i 0).val := by
  unfold DotDims.lhsIdx
  rw [dif_neg (show ¬(0 : Fin S512x496.rank) ∈ dot_S512x496_S496x1_S512x1_1_0_0_1_n_n.lhsBatch by decide), dif_pos (show (0 : Fin S512x496.rank) ∈ dot_S512x496_S496x1_S512x1_1_0_0_1_n_n.lhsNonContracting by decide)]
  rfl
/-- its column is the contracted coordinate. -/
theorem lhs_mmC_1 (i : S512x1.Idx) (q : dot_S512x496_S496x1_S512x1_1_0_0_1_n_n.contr.Idx) :
    (dot_S512x496_S496x1_S512x1_1_0_0_1_n_n.lhsIdx i q 1).val = (q ⟨0, by decide⟩).val :=
  dot_S512x496_S496x1_S512x1_1_0_0_1_n_n.lhsIdx_val_of_single rfl i q
/-- The right operand's row is the contracted coordinate; -/
theorem rhs_mmC_0 (i : S512x1.Idx) (q : dot_S512x496_S496x1_S512x1_1_0_0_1_n_n.contr.Idx) :
    (dot_S512x496_S496x1_S512x1_1_0_0_1_n_n.rhsIdx i q 0).val = (q ⟨0, by decide⟩).val :=
  dot_S512x496_S496x1_S512x1_1_0_0_1_n_n.rhsIdx_val_of_single rfl i q
/-- its column is the output's column. -/
theorem rhs_mmC_1 (i : S512x1.Idx) (q : dot_S512x496_S496x1_S512x1_1_0_0_1_n_n.contr.Idx) :
    (dot_S512x496_S496x1_S512x1_1_0_0_1_n_n.rhsIdx i q 1).val = (i 1).val := by
  unfold DotDims.rhsIdx
  rw [dif_neg (show ¬(1 : Fin S496x1.rank) ∈ dot_S512x496_S496x1_S512x1_1_0_0_1_n_n.rhsBatch by decide), dif_pos (show (1 : Fin S496x1.rank) ∈ dot_S512x496_S496x1_S512x1_1_0_0_1_n_n.rhsNonContracting by decide)]
  rfl

/-- Into a zero accumulator the product at an entry is the plain sum over the contracted axis of row times column. -/
theorem mmC_apply {φ₁ φ₂ : FTy} (lhs : FVec Ideal S512x496 φ₁) (rhs : FVec Ideal S496x1 φ₂) (i : S512x1.Idx) :
    matmul dot_S512x496_S496x1_S512x1_1_0_0_1_n_n none lhs rhs (constant S512x1 .f32 0x00000000#32) i
      = ∑ k : Fin 496, lhs (ix2 (i 0) k) * rhs (ix2 k (i 1)) := by
  simp only [matmul]
  rw [Ideal.matmul_constant_zero_apply, ← Equiv.sum_comp (ValueIdx.contrEquiv1 dot_S512x496_S496x1_S512x1_1_0_0_1_n_n 496 rfl rfl).symm]
  refine Finset.sum_congr rfl fun k _ => ?_
  have hk := ValueIdx.contrEquiv1_symm_val dot_S512x496_S496x1_S512x1_1_0_0_1_n_n 496 rfl rfl k
  have el : dot_S512x496_S496x1_S512x1_1_0_0_1_n_n.lhsIdx i ((ValueIdx.contrEquiv1 dot_S512x496_S496x1_S512x1_1_0_0_1_n_n 496 rfl rfl).symm k) = ix2 (i 0) k := funext fun a => Fin.ext (by
    match a with
    | ⟨0, _⟩ => exact lhs_mmC_0 _ _
    | ⟨1, _⟩ => exact (lhs_mmC_1 _ _).trans hk)
  have er : dot_S512x496_S496x1_S512x1_1_0_0_1_n_n.rhsIdx i ((ValueIdx.contrEquiv1 dot_S512x496_S496x1_S512x1_1_0_0_1_n_n 496 rfl rfl).symm k) = ix2 k (i 1) := funext fun a => Fin.ext (by
    match a with
    | ⟨0, _⟩ => exact (rhs_mmC_0 _ _).trans hk
    | ⟨1, _⟩ => exact rhs_mmC_1 _ _)
  rw [el, er]
  rfl

/-- The same as one function of the output index. -/
theorem mmC_eq {φ₁ φ₂ : FTy} (lhs : FVec Ideal S512x496 φ₁) (rhs : FVec Ideal S496x1 φ₂) :
    matmul dot_S512x496_S496x1_S512x1_1_0_0_1_n_n none lhs rhs (constant S512x1 .f32 0x00000000#32)
      = fun i => ∑ k : Fin 496, lhs (ix2 (i 0) k) * rhs (ix2 k (i 1)) :=
  funext fun i => mmC_apply lhs rhs i

/-! ## A row broadcast down the block -/

/-- One row broadcast down 512 rows reads, at any entry, the row's entry in that column. -/
theorem bc512_eq {α : Type} (x : S1x512.Idx → α) :
    broadcastTo S512x512 x broadcasts_S1x512_S512x512 = fun i => x (ix2 0 (i 1)) :=
  funext fun i => broadcastTo_apply x broadcasts_S1x512_S512x512 i (ix2 0 (i 1)) fun a => by
    match a with
    | ⟨0, _⟩ => rfl
    | ⟨1, _⟩ => rfl

/-- One row broadcast down 512 rows reads, at any entry, the row's entry in that column. -/
theorem bc64_eq {α : Type} (x : S1x64.Idx → α) :
    broadcastTo S512x64 x broadcasts_S1x64_S512x64 = fun i => x (ix2 0 (i 1)) :=
  funext fun i => broadcastTo_apply x broadcasts_S1x64_S512x64 i (ix2 0 (i 1)) fun a => by
    match a with
    | ⟨0, _⟩ => rfl
    | ⟨1, _⟩ => rfl

/-- The one-entry operand broadcast down 512 rows reads that entry everywhere (both its axes have extent one). -/
theorem bc1_eq {α : Type} (x : S1x1.Idx → α) :
    broadcastTo S512x1 x broadcasts_S1x1_S512x1 = fun _ => x (ix2 0 0) :=
  funext fun i => broadcastTo_apply x broadcasts_S1x1_S512x1 i (ix2 0 0) fun a => by
    match a with
    | ⟨0, _⟩ => rfl
    | ⟨1, _⟩ => rfl

/-! ## The stored column as one function of the loaded blocks -/

/-- What the body stores, as one function of the ten loaded blocks: at row `i 0`, the projection of the 64 deep
    features — each the third layer's sum over the 512 normalized activations of the row, plus its bias — plus the
    projection of the row's 496 pair products, plus the output bias. The format changes are the identity on the
    extended reals, the identity shape casts drop out, each product into a zero accumulator is a plain sum, and each
    one-row operand is read in its column. -/
theorem pay3_eq (x0 : Vec Ideal S512x512 .bf16) (s0 s1 g be : Vec Ideal S1x512 .f32) (w : Vec Ideal S512x64 .bf16)
    (b : Vec Ideal S1x64 .f32) (x6 : Vec Ideal S512x496 .f32) (wc1 : Vec Ideal S64x1 .bf16) (wc2 : Vec Ideal S496x1 .bf16)
    (bc : Vec Ideal S1x1 .f32) :
    k3_pay1 (k3_pay2 x6) (k3_pay3 x0 s0 s1 g be w b wc1) wc2 bc
      = fun i => ((∑ k : Fin 64, ((∑ j : Fin 512, (g (ix2 0 j) * (x0 (ix2 (i 0) j) - s0 (ix2 0 j)) * Ideal.rsqrt (s1 (ix2 0 j) + Forms.eps)
              + be (ix2 0 j)) * w (ix2 j k)) + b (ix2 0 k)) * wc1 (ix2 k (i 1)))
          + ∑ r : Fin 496, x6 (ix2 (i 0) r) * wc2 (ix2 r (i 1))) + bc (ix2 0 0) := by
  unfold k3_pay1 k3_pay2 k3_pay3
  simp only [shapeCast_self, bc512_eq, bc64_eq, bc1_eq, mmA_eq, mmB_eq, mmC_eq]
  rfl

/-- The stored column at row `p` of the block is the closed form's entry at row `r` of the arrays, when the block's
    row `p` of the activations and of the pair products is the arrays' row `r`, the two statistics rows are the mean
    and the variance, and every other operand reads as its array. -/
theorem point3 (A : Forms.A2 16384 512) (S : Forms.A2 2 512) (Gm Be : Forms.A2 1 512) (W : Forms.A2 512 64) (B : Forms.A2 1 64)
    (PR : Forms.A2 16384 496) (Wc1 : Forms.A2 64 1) (Wc2 : Forms.A2 496 1) (BC : Forms.A2 1 1)
    (x0 : Vec Ideal S512x512 .bf16) (s0 s1 g be : Vec Ideal S1x512 .f32) (w : Vec Ideal S512x64 .bf16)
    (b : Vec Ideal S1x64 .f32) (x6 : Vec Ideal S512x496 .f32) (wc1 : Vec Ideal S64x1 .bf16) (wc2 : Vec Ideal S496x1 .bf16)
    (bc : Vec Ideal S1x1 .f32) (r : Fin 16384) (p : Fin 512)
    (h0 : ∀ j, x0 (ix2 p j) = A (ix2 r j)) (hs0 : ∀ j, s0 (ix2 0 j) = S (ix2 0 j)) (hs1 : ∀ j, s1 (ix2 0 j) = S (ix2 1 j))
    (h2 : ∀ j, g (ix2 0 j) = Gm (ix2 0 j)) (h3 : ∀ j, be (ix2 0 j) = Be (ix2 0 j)) (h4 : ∀ j k, w (ix2 j k) = W (ix2 j k))
    (h5 : ∀ k, b (ix2 0 k) = B (ix2 0 k)) (h6 : ∀ j, x6 (ix2 p j) = PR (ix2 r j)) (h7 : ∀ k, wc1 (ix2 k 0) = Wc1 (ix2 k 0))
    (h8 : ∀ j, wc2 (ix2 j 0) = Wc2 (ix2 j 0)) (h9 : bc (ix2 0 0) = BC (ix2 0 0)) :
    k3_pay1 (k3_pay2 x6) (k3_pay3 x0 s0 s1 g be w b wc1) wc2 bc (ix2 p 0)
      = Forms.outKF (Forms.hofF (Forms.bnK A S Gm Be) W B) PR Wc1 Wc2 BC (ix2 r 0) := by
  refine (congrFun (pay3_eq x0 s0 s1 g be w b x6 wc1 wc2 bc) (ix2 p 0)).trans ?_
  show ((∑ k : Fin 64, ((∑ j : Fin 512, (g (ix2 0 j) * (x0 (ix2 p j) - s0 (ix2 0 j)) * Ideal.rsqrt (s1 (ix2 0 j) + Forms.eps)
              + be (ix2 0 j)) * w (ix2 j k)) + b (ix2 0 k)) * wc1 (ix2 k 0))
          + ∑ r' : Fin 496, x6 (ix2 p r') * wc2 (ix2 r' 0)) + bc (ix2 0 0) = _
  simp only [h0, hs0, hs1, h2, h3, h4, h5, h6, h7, h8, h9]
  rfl

/-! ## From the blocks to the array -/

variable (V : (c : Dev nD) → (b : Ref sig .tc) → Buf (Elt Ideal) ((c : Thread nD τ).loc b))

theorem hz3 : (![0, 0] : Fin 2 → Nat) = fun _ => 0 := funext fun a => by fin_cases a <;> rfl

/-- The closed form of the region's result, of the arrays as the region finds them. -/
abbrev G3 (c : Dev nD) : Forms.A2 16384 1 :=
  Forms.outKF (Forms.hofF (Forms.bnK (V c main_v20_0) (V c main_v20_1) (V c main_v12) (V c main_v13)) (V c main_v2) (V c main_v9))
    (V c main_v18) (V c main_v4) (V c main_v6) (V c main_v14)

/-- The index maps, decided over the 32 grid points: the activations', the pair products' and the result's blocks
    move down the rows with the point, in column block 0; every other window stays on its one block. -/
theorem idx_facts3 : ∀ t : Fin cfg3.N,
    win3_0.index t (0 : Fin 2) = t.val
    ∧ win3_0.index t (1 : Fin 2) = 0
    ∧ win3_6.index t (0 : Fin 2) = t.val
    ∧ win3_6.index t (1 : Fin 2) = 0
    ∧ win3_10.index t (0 : Fin 2) = t.val
    ∧ win3_10.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0 :=
  (by decide +kernel : ∀ t : Fin grid3.N, _)

/-- Every row block of the result is some point's. -/
theorem idx_onto3 : ∀ q0 : Fin 32, ∃ t : Fin cfg3.N, win3_10.index t = ![q0.val, 0] :=
  (by decide +kernel : ∀ q0 : Fin 32, ∃ t : Fin grid3.N, win3_10.index t = ![q0.val, 0])

/-! ### The input blocks at a point, read off the arrays -/

/-- Row `p` of the activations' block at point `t` is row `t · 512 + p` of the array. -/
theorem blk3_0 (c : Dev nD) (t : Fin cfg3.N) (p j : Fin 512) (r : Fin 16384) (hr : r.val = t.val * 512 + p.val) :
    iblk3 V c 0 t (ix2 p j) = (V c main_v20_0 : Forms.A2 16384 512) (ix2 r j) := by
  obtain ⟨e0_0, e0_1, e6_0, e6_1, e10_0, e10_1, e1_0, e1_1, e2_0, e2_1, e3_0, e3_1, e4_0, e4_1, e5_0, e5_1, e7_0, e7_1, e8_0, e8_1, e9_0, e9_1⟩ := idx_facts3 t
  show V c main_v20_0 (((cfg3.win 0).blk t).view.emb (ix2 p j)) = V c main_v20_0 (ix2 r j)
  refine congrArg _ (funext fun a => Fin.ext ?_)
  match a with
  | ⟨0, _⟩ => show win3_0.index t (0 : Fin 2) * 512 + 1 * p.val = r.val; omega
  | ⟨1, _⟩ => show win3_0.index t (1 : Fin 2) * 512 + 1 * j.val = j.val; omega

/-- Row `p` of the pair products' block at point `t` is row `t · 512 + p` of the array. -/
theorem blk3_6 (c : Dev nD) (t : Fin cfg3.N) (p : Fin 512) (j : Fin 496) (r : Fin 16384) (hr : r.val = t.val * 512 + p.val) :
    iblk3 V c 6 t (ix2 p j) = (V c main_v18 : Forms.A2 16384 496) (ix2 r j) := by
  obtain ⟨e0_0, e0_1, e6_0, e6_1, e10_0, e10_1, e1_0, e1_1, e2_0, e2_1, e3_0, e3_1, e4_0, e4_1, e5_0, e5_1, e7_0, e7_1, e8_0, e8_1, e9_0, e9_1⟩ := idx_facts3 t
  show V c main_v18 (((cfg3.win 6).blk t).view.emb (ix2 p j)) = V c main_v18 (ix2 r j)
  refine congrArg _ (funext fun a => Fin.ext ?_)
  match a with
  | ⟨0, _⟩ => show win3_6.index t (0 : Fin 2) * 512 + 1 * p.val = r.val; omega
  | ⟨1, _⟩ => show win3_6.index t (1 : Fin 2) * 496 + 1 * j.val = j.val; omega

/-- Window 1's one block is its whole array, at every point. -/
theorem blk3_1 (c : Dev nD) (t : Fin cfg3.N) (y : S2x512.Idx) :
    iblk3 V c 1 t y = V c main_v20_1 y := by
  obtain ⟨e0_0, e0_1, e6_0, e6_1, e10_0, e10_1, e1_0, e1_1, e2_0, e2_1, e3_0, e3_1, e4_0, e4_1, e5_0, e5_1, e7_0, e7_1, e8_0, e8_1, e9_0, e9_1⟩ := idx_facts3 t
  show V c main_v20_1 (((cfg3.win 1).blk t).view.emb y) = V c main_v20_1 y
  refine congrArg _ (funext fun a => Fin.ext ?_)
  match a with
  | ⟨0, _⟩ => show win3_1.index t (0 : Fin 2) * 2 + 1 * (y 0).val = (y 0).val; omega
  | ⟨1, _⟩ => show win3_1.index t (1 : Fin 2) * 512 + 1 * (y 1).val = (y 1).val; omega

/-- Window 2's one block is its whole array, at every point. -/
theorem blk3_2 (c : Dev nD) (t : Fin cfg3.N) (y : S1x512.Idx) :
    iblk3 V c 2 t y = V c main_v12 y := by
  obtain ⟨e0_0, e0_1, e6_0, e6_1, e10_0, e10_1, e1_0, e1_1, e2_0, e2_1, e3_0, e3_1, e4_0, e4_1, e5_0, e5_1, e7_0, e7_1, e8_0, e8_1, e9_0, e9_1⟩ := idx_facts3 t
  show V c main_v12 (((cfg3.win 2).blk t).view.emb y) = V c main_v12 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 512 + 1 * (y 1).val = (y 1).val; omega

/-- Window 3's one block is its whole array, at every point. -/
theorem blk3_3 (c : Dev nD) (t : Fin cfg3.N) (y : S1x512.Idx) :
    iblk3 V c 3 t y = V c main_v13 y := by
  obtain ⟨e0_0, e0_1, e6_0, e6_1, e10_0, e10_1, e1_0, e1_1, e2_0, e2_1, e3_0, e3_1, e4_0, e4_1, e5_0, e5_1, e7_0, e7_1, e8_0, e8_1, e9_0, e9_1⟩ := idx_facts3 t
  show V c main_v13 (((cfg3.win 3).blk t).view.emb y) = V c main_v13 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 512 + 1 * (y 1).val = (y 1).val; omega

/-- Window 4's one block is its whole array, at every point. -/
theorem blk3_4 (c : Dev nD) (t : Fin cfg3.N) (y : S512x64.Idx) :
    iblk3 V c 4 t y = V c main_v2 y := by
  obtain ⟨e0_0, e0_1, e6_0, e6_1, e10_0, e10_1, e1_0, e1_1, e2_0, e2_1, e3_0, e3_1, e4_0, e4_1, e5_0, e5_1, e7_0, e7_1, e8_0, e8_1, e9_0, e9_1⟩ := idx_facts3 t
  show V c main_v2 (((cfg3.win 4).blk t).view.emb y) = V c main_v2 y
  refine congrArg _ (funext fun a => Fin.ext ?_)
  match a with
  | ⟨0, _⟩ => show win3_4.index t (0 : Fin 2) * 512 + 1 * (y 0).val = (y 0).val; omega
  | ⟨1, _⟩ => show win3_4.index t (1 : Fin 2) * 64 + 1 * (y 1).val = (y 1).val; omega

/-- Window 5's one block is its whole array, at every point. -/
theorem blk3_5 (c : Dev nD) (t : Fin cfg3.N) (y : S1x64.Idx) :
    iblk3 V c 5 t y = V c main_v9 y := by
  obtain ⟨e0_0, e0_1, e6_0, e6_1, e10_0, e10_1, e1_0, e1_1, e2_0, e2_1, e3_0, e3_1, e4_0, e4_1, e5_0, e5_1, e7_0, e7_1, e8_0, e8_1, e9_0, e9_1⟩ := idx_facts3 t
  show V c main_v9 (((cfg3.win 5).blk t).view.emb y) = V c main_v9 y
  refine congrArg _ (funext fun a => Fin.ext ?_)
  match a with
  | ⟨0, _⟩ => show win3_5.index t (0 : Fin 2) * 1 + 1 * (y 0).val = (y 0).val; omega
  | ⟨1, _⟩ => show win3_5.index t (1 : Fin 2) * 64 + 1 * (y 1).val = (y 1).val; omega

/-- Window 7's one block is its whole array, at every point. -/
theorem blk3_7 (c : Dev nD) (t : Fin cfg3.N) (y : S64x1.Idx) :
    iblk3 V c 7 t y = V c main_v4 y := by
  obtain ⟨e0_0, e0_1, e6_0, e6_1, e10_0, e10_1, e1_0, e1_1, e2_0, e2_1, e3_0, e3_1, e4_0, e4_1, e5_0, e5_1, e7_0, e7_1, e8_0, e8_1, e9_0, e9_1⟩ := idx_facts3 t
  show V c main_v4 (((cfg3.win 7).blk t).view.emb y) = V c main_v4 y
  refine congrArg _ (funext fun a => Fin.ext ?_)
  match a with
  | ⟨0, _⟩ => show win3_7.index t (0 : Fin 2) * 64 + 1 * (y 0).val = (y 0).val; omega
  | ⟨1, _⟩ => show win3_7.index t (1 : Fin 2) * 1 + 1 * (y 1).val = (y 1).val; omega

/-- Window 8's one block is its whole array, at every point. -/
theorem blk3_8 (c : Dev nD) (t : Fin cfg3.N) (y : S496x1.Idx) :
    iblk3 V c 8 t y = V c main_v6 y := by
  obtain ⟨e0_0, e0_1, e6_0, e6_1, e10_0, e10_1, e1_0, e1_1, e2_0, e2_1, e3_0, e3_1, e4_0, e4_1, e5_0, e5_1, e7_0, e7_1, e8_0, e8_1, e9_0, e9_1⟩ := idx_facts3 t
  show V c main_v6 (((cfg3.win 8).blk t).view.emb y) = V c main_v6 y
  refine congrArg _ (funext fun a => Fin.ext ?_)
  match a with
  | ⟨0, _⟩ => show win3_8.index t (0 : Fin 2) * 496 + 1 * (y 0).val = (y 0).val; omega
  | ⟨1, _⟩ => show win3_8.index t (1 : Fin 2) * 1 + 1 * (y 1).val = (y 1).val; omega

/-- Window 9's one block is its whole array, at every point. -/
theorem blk3_9 (c : Dev nD) (t : Fin cfg3.N) (y : S1x1.Idx) :
    iblk3 V c 9 t y = V c main_v14 y := by
  obtain ⟨e0_0, e0_1, e6_0, e6_1, e10_0, e10_1, e1_0, e1_1, e2_0, e2_1, e3_0, e3_1, e4_0, e4_1, e5_0, e5_1, e7_0, e7_1, e8_0, e8_1, e9_0, e9_1⟩ := idx_facts3 t
  show V c main_v14 (((cfg3.win 9).blk t).view.emb y) = V c main_v14 y
  refine congrArg _ (funext fun a => Fin.ext ?_)
  match a with
  | ⟨0, _⟩ => show win3_9.index t (0 : Fin 2) * 1 + 1 * (y 0).val = (y 0).val; omega
  | ⟨1, _⟩ => show win3_9.index t (1 : Fin 2) * 1 + 1 * (y 1).val = (y 1).val; omega

/-- Through the first row's rectangle the statistics read their row 0, -/
theorem ld_row0 {Val : EltTy → Type} {e : EltTy} (X : S2x512.Idx → Val e) (j : Fin 512) : View.ld X r3_1 (ix2 0 j) = X (ix2 0 j) :=
  congrArg X (funext fun a => Fin.ext (by
    match a with
    | ⟨0, _⟩ => rfl
    | ⟨1, _⟩ => show (0 : ℕ) + 1 * j.val = j.val; omega))
/-- and through the second row's their row 1. -/
theorem ld_row1 {Val : EltTy → Type} {e : EltTy} (X : S2x512.Idx → Val e) (j : Fin 512) : View.ld X r3_2 (ix2 0 j) = X (ix2 1 j) :=
  congrArg X (funext fun a => Fin.ext (by
    match a with
    | ⟨0, _⟩ => rfl
    | ⟨1, _⟩ => show (0 : ℕ) + 1 * j.val = j.val; omega))

/-! ### What a point writes back -/

/-- What point `t` writes back is block `t` of the closed form: the body's one store read at row `p` of the block
    is the closed form's entry at row `t · 512 + p`, every block read off its array where the index maps put it. -/
theorem flushed3_eq (c : Dev nD) (t : Fin cfg3.N) :
    (dat3 (F := Ideal) V c).flushed 10 t = ((cfg3.win 10).blk t).view.read (Elt Ideal) (G3 V c) := by
  show (cfg3.win 10).cut (grid3.coords t) ((dat3 V c).after 10 t) = _
  rw [after3_10]
  unfold out3_10
  rw [View.canon_unit_zero hz3]
  simp only [View.ld_unit_zero (S := S512x512) hz3, View.ld_unit_zero (S := S1x512) hz3, View.ld_unit_zero (S := S512x64) hz3,
    View.ld_unit_zero (S := S1x64) hz3, View.ld_unit_zero (S := S512x496) hz3, View.ld_unit_zero (S := S64x1) hz3,
    View.ld_unit_zero (S := S496x1) hz3, View.ld_unit_zero (S := S1x1) hz3]
  obtain ⟨e0_0, e0_1, e6_0, e6_1, e10_0, e10_1, e1_0, e1_1, e2_0, e2_1, e3_0, e3_1, e4_0, e4_1, e5_0, e5_1, e7_0, e7_1, e8_0, e8_1, e9_0, e9_1⟩ := idx_facts3 t
  funext j
  obtain ⟨p, q, rfl⟩ : ∃ (p : Fin 512) (q : Fin 1), j = ix2 p q := ⟨j 0, j 1, eq_ix2 j⟩
  obtain rfl : q = 0 := Subsingleton.elim _ _
  have ht : t.val < 32 := t.isLt
  have hp : p.val < 512 := p.isLt
  have hemb : ((cfg3.win 10).blk t).view.emb (ix2 p (0 : Fin 1)) = (ix2 (⟨t.val * 512 + p.val, by omega⟩ : Fin 16384) (0 : Fin 1) : S16384x1.Idx) :=
    funext fun a => Fin.ext (by
      match a with
      | ⟨0, _⟩ => show win3_10.index t (0 : Fin 2) * 512 + 1 * p.val = t.val * 512 + p.val; omega
      | ⟨1, _⟩ => show win3_10.index t (1 : Fin 2) * 1 + 1 * 0 = 0; omega)
  show k3_pay1 (k3_pay2 (iblk3 V c 6 t)) (k3_pay3 (iblk3 V c 0 t) (View.ld (iblk3 V c 1 t) r3_1) (View.ld (iblk3 V c 1 t) r3_2)
      (iblk3 V c 2 t) (iblk3 V c 3 t) (iblk3 V c 4 t) (iblk3 V c 5 t) (iblk3 V c 7 t)) (iblk3 V c 8 t) (iblk3 V c 9 t) (ix2 p 0)
    = G3 V c (((cfg3.win 10).blk t).view.emb (ix2 p (0 : Fin 1)))
  rw [hemb]
  exact point3 (V c main_v20_0) (V c main_v20_1) (V c main_v12) (V c main_v13) (V c main_v2) (V c main_v9) (V c main_v18)
    (V c main_v4) (V c main_v6) (V c main_v14)
    (iblk3 V c 0 t) (View.ld (iblk3 V c 1 t) r3_1) (View.ld (iblk3 V c 1 t) r3_2) (iblk3 V c 2 t) (iblk3 V c 3 t)
    (iblk3 V c 4 t) (iblk3 V c 5 t) (iblk3 V c 6 t) (iblk3 V c 7 t) (iblk3 V c 8 t) (iblk3 V c 9 t)
    ⟨t.val * 512 + p.val, by omega⟩ p
    (fun j => blk3_0 V c t p j _ rfl)
    (fun j => (ld_row0 (iblk3 V c 1 t) j).trans (blk3_1 V c t (ix2 0 j)))
    (fun j => (ld_row1 (iblk3 V c 1 t) j).trans (blk3_1 V c t (ix2 1 j)))
    (fun j => blk3_2 V c t (ix2 0 j)) (fun j => blk3_3 V c t (ix2 0 j)) (fun j k => blk3_4 V c t (ix2 j k))
    (fun k => blk3_5 V c t (ix2 0 k)) (fun j => blk3_6 V c t p j _ rfl) (fun k => blk3_7 V c t (ix2 k 0))
    (fun j => blk3_8 V c t (ix2 j 0)) (blk3_9 V c t (ix2 0 0))

/-! ### The cover, and the array -/

/-- An index of the result array is in point `t`'s block iff each coordinate is in the block's range on its axis. -/
theorem mem_blk3 (t : Fin cfg3.N) (i : S16384x1.Idx) :
    i ∈ ((cfg3.win 10).blk t).view.set ↔ ∀ a : Fin 2, win3_10.index t a * S512x1.size a ≤ (i a).val ∧ (i a).val < win3_10.index t a * S512x1.size a + S512x1.size a := by
  show i ∈ ((View.whole main_v21).slice (win3_10.rect t)).set ↔ _
  rw [View.set_slice_whole, Rect.mem_set_unit]
  exact Iff.rfl

/-- Every row of the result is in the block of the point `row / 512`, which writes it back. -/
theorem cover3 (i : S16384x1.Idx) : ∃ t : Fin cfg3.N, (cfg3.win 10).flush t = true ∧ i ∈ ((cfg3.win 10).blk t).view.set := by
  have hi0 : (i 0).val < 16384 := (i 0).isLt
  have hi1 : (i 1).val < 1 := (i 1).isLt
  obtain ⟨t, ht⟩ := idx_onto3 ⟨(i 0).val / 512, by omega⟩
  have q0 : win3_10.index t (0 : Fin 2) = (i 0).val / 512 := congrFun ht 0
  have q1 : win3_10.index t (1 : Fin 2) = 0 := congrFun ht 1
  refine ⟨t, flush3_10 t, ?_⟩
  rw [mem_blk3]
  intro a
  match a with
  | ⟨0, _⟩ => show win3_10.index t (0 : Fin 2) * 512 ≤ (i 0).val ∧ (i 0).val < win3_10.index t (0 : Fin 2) * 512 + 512; omega
  | ⟨1, _⟩ => show win3_10.index t (1 : Fin 2) * 1 ≤ (i 1).val ∧ (i 1).val < win3_10.index t (1 : Fin 2) * 1 + 1; omega

/-- The region's result array after its 32 points: the two projections and the bias of the closed form, of the
    arrays as the region finds them. -/
theorem val3 (c : Dev nD) : ((dat3 (F := Ideal) V c).arrAt 10 cfg3.N : Forms.A2 16384 1) =
    Forms.outKF (Forms.hofF (Forms.bnK (V c main_v20_0) (V c main_v20_1) (V c main_v12) (V c main_v13)) (V c main_v2) (V c main_v9))
      (V c main_v18) (V c main_v4) (V c main_v6) (V c main_v14) :=
  (dat3 V c).arrAt_eq_of_cover 10 (G3 V c) (fun t _ => flushed3_eq V c t) (cover3)

end Cert.KernelIdeal.Val

end
-- ==== Proof.Val.Host.lean ====
/-
  The host glue of the kernel's program, read at the extended reals, for any contents `W` of the TensorCore's buffers.

  Between its four kernel regions @main runs three stretches of host operations. The first converts the three weight
  matrices to bf16 (the identity on extended reals), cuts the last weight column into its first 64 and its last 496 rows,
  turns each bias, scale and shift vector into a one-row array, and flattens each batch row's 32 × 64 features into 2048
  columns. The second flattens each batch row's 32 × 32 Gram block into 1024 columns. The third takes, of those 1024
  columns, the 496 a literal table names (`jnp.take` along axis 1): a gather of columns under a range mask that is all
  ones, because every entry of the table lies in [0, 1023]; the NaN fill behind the mask is never read.

  Each theorem states what one result buffer holds after its stretch as a function of what the stretch's operand
  buffers held before it: a reshape read at the index with the same row-major position, a slice read at the shifted
  row, the take read at the column the table names (`linK`).
-/
import proofs.«128293_j31387620999258_1_alg».proof.Proof.Gen.KernelIdeal.Launch
import proofs.«128293_j31387620999258_1_alg».proof.Proof.Forms
import Idealize.ShloMosaic.Lib.StableHlo.Run
import Idealize.ShloMosaic.Lib.StableHlo.Predicate
import Idealize.ShloMosaic.Lib.Pipeline.Value
import Idealize.ShloMosaic.Lib.ValueIdx

noncomputable section

namespace Cert.KernelIdeal.Val

open Cert.KernelIdeal Cert.KernelIdeal.Gen Cert.Forms
open Idealize.ShloMosaic Idealize.ShloMosaic.StableHlo Idealize.ShloMosaic.ValueIdx

/-! ## Layout operations at an index, at the shapes of this program's host stretches -/

section Layout
variable {α : Type}

/-- A reshape of a vector to one row reads the vector at the column. -/
theorem shapeCast_row {n : Nat} (v : (⟨1, ![n]⟩ : Shape).Idx → α) (h : (⟨1, ![n]⟩ : Shape).ShapeCasts ⟨2, ![1, n]⟩)
    (i : (⟨2, ![1, n]⟩ : Shape).Idx) : shapeCast ⟨2, ![1, n]⟩ v h i = v (ix1 (i 1)) := by
  refine shapeCast_apply v h i (ix1 (i 1)) ?_
  rw [Shape.rowMajor_val_one, Shape.rowMajor_val_two]
  have h0 : (i 0).val < 1 := idx2_lt0 i
  show (i 1).val = (i 0).val * n + (i 1).val
  rw [show (i 0).val = 0 by omega]; omega

/-- A reshape that merges the two trailing axes (extents `b` and `c`, merged extent `m = b * c`) reads the array at the
    quotient and the remainder of the merged coordinate by `c`. -/
theorem shapeCast_merge {a b c m : Nat} (hc : 0 < c) (hm : m = b * c) (v : (⟨3, ![a, b, c]⟩ : Shape).Idx → α)
    (h : (⟨3, ![a, b, c]⟩ : Shape).ShapeCasts ⟨2, ![a, m]⟩) (i : (⟨2, ![a, m]⟩ : Shape).Idx) :
    shapeCast ⟨2, ![a, m]⟩ v h i
      = v (ix3 (i 0) ⟨(i 1).val / c, by
            have h1 : (i 1).val < m := idx2_lt1 i
            exact Nat.div_lt_of_lt_mul (by rw [Nat.mul_comm, ← hm]; exact h1)⟩ ⟨(i 1).val % c, Nat.mod_lt _ hc⟩) := by
  refine shapeCast_apply v h i _ ?_
  rw [Shape.rowMajor_val_three, Shape.rowMajor_val_two]
  have e : ∀ p q : ℕ, (p * b + q / c) * c + q % c = p * m + q := fun p q => by
    rw [hm, Nat.add_mul, Nat.mul_assoc, Nat.add_assoc, Nat.div_add_mod']
  exact e _ _

/-- A slice of rows `o, o + 1, …` of a one-column array reads the array `o` rows further down. -/
theorem slice_rows {N n : Nat} (o : Nat) (v : (⟨2, ![N, 1]⟩ : Shape).Idx → α)
    (h : (⟨2, ![N, 1]⟩ : Shape).Slices ![o, 0] ⟨2, ![n, 1]⟩) (i : (⟨2, ![n, 1]⟩ : Shape).Idx) (hb : (i 0).val + o < N) :
    extractStridedSlice ⟨2, ![n, 1]⟩ ![o, 0] v h i = v (ix2 ⟨(i 0).val + o, hb⟩ 0) := by
  refine extractStridedSlice_apply _ v h i _ fun a => ?_
  match a with
  | ⟨0, _⟩ => show (i 0).val + o = o + (i 0).val; omega
  | ⟨1, _⟩ =>
    have h1 : (i 1).val < 1 := idx2_lt1 i
    show (0 : ℕ) = 0 + (i 1).val; omega

end Layout

/-! ## The take: a gather of columns

`jnp.take(x, table, axis = 1)` of a matrix `x : [M, N]` prints as a gather whose start indices are the table as an
`[n, 1]` column: operand axis 1 is collapsed and start-indexed, operand axis 0 is an offset axis with the whole extent as
its slice size, and the index vector sits on axis 1 of the start indices. Result element `(r, p)` is `x` at row `r` and at
the column start index `p` names, read signed and clamped into `[0, N - 1]`. -/

section Take
variable {α : Type}

/-- This program's gather record. -/
abbrev gd : GatherDims S16384x1024 S496x1 S16384x496 := gather_S16384x1024_S496x1_S16384x496_0_1_n_n_1_1_163841

/-- The gather read at an index. -/
theorem gather_apply {w : Nat} (x : S16384x1024.Idx → α) (idx : IVec S496x1 w) (j : S16384x496.Idx) :
    Host.gather gd x idx j
      = x (ix2 (j 0) ⟨min (idx (ix2 (j 1) 0)).toInt.toNat 1023, by omega⟩) := by
  unfold Host.gather
  congr 1
  funext a
  apply Fin.ext
  match a with
  | ⟨0, _⟩ =>
    -- the row: no start index, no batching, the result's own row as the offset
    show gd.start j idx 0 + gd.batchCoord j 0 + gd.offCoord j 0 = (j 0).val
    rw [GatherDims.batchCoord_eq_zero _ _ _ (by decide)]
    unfold GatherDims.start GatherDims.offCoord
    rw [dif_neg (by decide), dif_pos (by decide)]
    simp only [Nat.zero_add, Nat.add_zero]
    rfl
  | ⟨1, _⟩ =>
    -- the column: the clamped start index, no batching, no offset (the axis is collapsed)
    show gd.start j idx 1 + gd.batchCoord j 1 + gd.offCoord j 1 = min (idx (ix2 (j 1) 0)).toInt.toNat 1023
    rw [GatherDims.batchCoord_eq_zero _ _ _ (by decide), GatherDims.offCoord_eq_zero _ _ _ (by decide)]
    unfold GatherDims.start
    rw [dif_pos (by decide)]
    simp only [Nat.add_zero]
    have hsi : gd.siIdx j ⟨List.idxOf (1 : Fin 2) gd.startIndexMap, List.idxOf_lt_length_iff.2 (by decide)⟩ = ix2 (j 1) 0 := by
      funext b; apply Fin.ext
      match b with
      | ⟨0, _⟩ => rfl
      | ⟨1, _⟩ => rfl
    rw [hsi]
    rfl

/-- An `and`-fold over one-bit words that starts at one and meets only ones ends at one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- The table's entries as a column of start indices: jnp's wrap of negative entries (`where (c < 0) (c + 1024) c`),
    then the column. -/
def takeIdx (c : IVec S496 32) : IVec S496x1 32 :=
  broadcastInDim S496x1 ![0] bcast_S496_S496x1_0
    (select (cmpi .slt c (broadcastInDim S496 ![] bcast_S_S496 (constantI S_ 32 0#32)))
      (addi c (broadcastInDim S496 ![] bcast_S_S496 (constantI S_ 32 1024#32))) c)

/-- The range mask of the start indices (`0 ≤ idx ≤ 1023`, all over the unit axis), laid along the columns of the result. -/
def takeMask (idx : IVec S496x1 32) : IVec S16384x496 1 :=
  broadcastInDim S16384x496 ![1] bcast_S496_S16384x496_1
    (Host.reduce IntOp.andi
      (andi (cmpi .sge idx (broadcastInDim S496x1 ![] bcast_S_S496x1 (constantI S_ 32 0#32)))
        (cmpi .sle idx (broadcastInDim S496x1 ![0, 1] bcast_S1x1_S496x1_0_1
          (broadcastInDim S1x1 ![1] bcast_S1_S1x1_1 (constantI S1 32 1023#32)))))
      (constantI S_ 1 1#1) reducesTo_S496x1_S496_d1 h_S_)

/-- The take as the program prints it: the gathered columns where the mask is set, a NaN elsewhere. -/
def takeF (c : IVec S496 32) (x : FVec Ideal S16384x1024 .f32) : FVec Ideal S16384x496 .f32 :=
  select (takeMask (takeIdx c)) (Host.gather gd x (takeIdx c))
    (broadcastInDim S16384x496 ![] bcast_S_S16384x496 (constant (F := Ideal) S_ .f32 0x7FC00000#32))

/-- A column of start indices from a table of small non-negative words is the table: no entry is wrapped. -/
theorem takeIdx_apply (c : IVec S496 32) (hc : ∀ p : Fin 496, (c (ix1 p)).toNat < 1024) (p : Fin 496) (z : Fin 1) :
    takeIdx c (ix2 p z) = c (ix1 p) := by
  unfold takeIdx
  refine (broadcastInDim_apply (s := S496) (t := S496x1) ![0] bcast_S496_S496x1_0 _ (ix2 p z) (ix1 p)
    (fun a => match a with | ⟨0, _⟩ => rfl)).trans ?_
  have hlt : ¬ (IntOp.cmpi .slt (c (ix1 p)) 0#32 = 1#1) := by
    rw [Predicate.slt_iff_toNat (by have := hc p; omega) (by decide)]
    exact Nat.not_lt_zero _
  show Scalar.select (IntOp.cmpi .slt (c (ix1 p)) 0#32) (IntOp.addi (c (ix1 p)) 1024#32) (c (ix1 p)) = c (ix1 p)
  rw [eq_zero_of_ne_one hlt, select_zero]

/-- Over start indices that are all in range the mask is all ones. -/
theorem takeMask_apply (idx : IVec S496x1 32) (hidx : ∀ q, (idx q).toNat < 1024) (r : Fin 16384) (p : Fin 496) :
    takeMask idx (ix2 r p) = 1#1 := by
  unfold takeMask
  refine (broadcastInDim_apply (s := S496) (t := S16384x496) ![1] bcast_S496_S16384x496_1 _ (ix2 r p) (ix1 p)
    (fun a => match a with | ⟨0, _⟩ => rfl)).trans ?_
  unfold Host.reduce
  show List.foldl (fun r n => IntOp.andi r _) 1#1 _ = 1#1
  refine foldl_andi_ones _ (fun n => ?_) _
  show IntOp.andi (IntOp.cmpi .sge (idx (S496x1.rowMajor.symm n)) 0#32) (IntOp.cmpi .sle (idx (S496x1.rowMajor.symm n)) 1023#32) = 1#1
  have hq := hidx (S496x1.rowMajor.symm n)
  rw [IntOp.andi_eq_one]
  exact ⟨(Predicate.sge_iff_toNat (by omega) (by decide)).2 (Nat.zero_le _),
    (Predicate.sle_iff_toNat (by omega) (by decide)).2 (by show _ ≤ 1023; omega)⟩

/-- THE TAKE READ AT AN INDEX: over a table of words below 1024, column `p` of the result is the column of `x` the table's
    entry `p` names. -/
theorem takeF_apply (c : IVec S496 32) (x : FVec Ideal S16384x1024 .f32) (hc : ∀ p : Fin 496, (c (ix1 p)).toNat < 1024)
    (r : Fin 16384) (p : Fin 496) :
    takeF c x (ix2 r p) = x (ix2 r ⟨(c (ix1 p)).toNat % 1024, Nat.mod_lt _ (by decide)⟩) := by
  have hidx : ∀ q, (takeIdx c q).toNat < 1024 := fun q => by
    have e : takeIdx c q = c (ix1 (q 0)) := (congrArg (takeIdx c) (eq_ix2 q)).trans (takeIdx_apply c hc (q 0) (q 1))
    rw [e]; exact hc _
  have e := takeIdx_apply c hc p 0
  have h := hc p
  show Scalar.select (takeMask (takeIdx c) (ix2 r p)) (Host.gather gd x (takeIdx c) (ix2 r p)) _ = _
  rw [takeMask_apply _ hidx r p, select_one]
  refine (gather_apply x (takeIdx c) (ix2 r p)).trans ?_
  refine congrArg x (congrArg (ix2 r) (Fin.ext ?_))
  show min (takeIdx c (ix2 p 0)).toInt.toNat 1023 = (c (ix1 p)).toNat % 1024
  rw [e, Predicate.toInt_eq_toNat_of_lt (by omega), Int.toNat_natCast]
  omega

end Take

/-! ## The first stretch: converts, slices and reshapes of the arguments

At the extended reals a narrowing to bf16 is the identity, so each converted weight is the argument itself and each
converted slice of the last weight column is the slice. -/

section Stretch0
variable (W : Valuation τ sig (Elt Ideal))

/-- The index table the first stretch writes: the literal, in row-major order. -/
theorem host0_c :
    StableHlo.after (hostOps0 (F := Ideal)) W (Proc.devRef .tc main_c) = fun i => lit0 (S496.rowMajor i) := by
  after_results; rfl

theorem host0_v0 :
    StableHlo.after (hostOps0 (F := Ideal)) W (Proc.devRef .tc main_v0) = W (Proc.devRef .tc main_arg1) := by
  after_results; rfl

theorem host0_v1 :
    StableHlo.after (hostOps0 (F := Ideal)) W (Proc.devRef .tc main_v1) = W (Proc.devRef .tc main_arg5) := by
  after_results; rfl

theorem host0_v2 :
    StableHlo.after (hostOps0 (F := Ideal)) W (Proc.devRef .tc main_v2) = W (Proc.devRef .tc main_arg9) := by
  after_results; rfl

/-- Rows 0 … 63 of the last weight column. -/
theorem host0_v4 :
    (StableHlo.after (hostOps0 (F := Ideal)) W (Proc.devRef .tc main_v4) : Forms.A2 64 1)
      = fun i => W (Proc.devRef .tc main_arg11) (ix2 ⟨(i 0).val, by have h : (i 0).val < 64 := (i 0).isLt; omega⟩ 0) := by
  after_results
  funext i
  show extractStridedSlice S64x1 ![0, 0] (W (Proc.devRef .tc main_arg11)) slices_S560x1_S64x1_0_0 i = _
  exact slice_rows (N := 560) (n := 64) 0 _ _ i (by have h : (i 0).val < 64 := (i 0).isLt; omega)

/-- Rows 64 … 559 of the last weight column. -/
theorem host0_v6 :
    (StableHlo.after (hostOps0 (F := Ideal)) W (Proc.devRef .tc main_v6) : Forms.A2 496 1)
      = fun i => W (Proc.devRef .tc main_arg11) (ix2 ⟨(i 0).val + 64, by have h : (i 0).val < 496 := (i 0).isLt; omega⟩ 0) := by
  after_results
  funext i
  show extractStridedSlice S496x1 ![64, 0] (W (Proc.devRef .tc main_arg11)) slices_S560x1_S496x1_64_0 i = _
  exact slice_rows (N := 560) (n := 496) 64 _ _ i (by have h : (i 0).val < 496 := (i 0).isLt; omega)

theorem host0_v7 :
    (StableHlo.after (hostOps0 (F := Ideal)) W (Proc.devRef .tc main_v7) : Forms.A2 1 1024) = Forms.row (W (Proc.devRef .tc main_arg2)) := by
  after_results
  funext i
  show shapeCast S1x1024 (W (Proc.devRef .tc main_arg2)) shapeCasts_S1024_S1x1024 i = _
  exact shapeCast_row _ _ i

theorem host0_v8 :
    (StableHlo.after (hostOps0 (F := Ideal)) W (Proc.devRef .tc main_v8) : Forms.A2 1 512) = Forms.row (W (Proc.devRef .tc main_arg6)) := by
  after_results
  funext i
  show shapeCast S1x512 (W (Proc.devRef .tc main_arg6)) shapeCasts_S512_S1x512 i = _
  exact shapeCast_row _ _ i

theorem host0_v9 :
    (StableHlo.after (hostOps0 (F := Ideal)) W (Proc.devRef .tc main_v9) : Forms.A2 1 64) = Forms.row (W (Proc.devRef .tc main_arg10)) := by
  after_results
  funext i
  show shapeCast S1x64 (W (Proc.devRef .tc main_arg10)) shapeCasts_S64_S1x64 i = _
  exact shapeCast_row _ _ i

theorem host0_v10 :
    (StableHlo.after (hostOps0 (F := Ideal)) W (Proc.devRef .tc main_v10) : Forms.A2 1 1024) = Forms.row (W (Proc.devRef .tc main_arg3)) := by
  after_results
  funext i
  show shapeCast S1x1024 (W (Proc.devRef .tc main_arg3)) shapeCasts_S1024_S1x1024 i = _
  exact shapeCast_row _ _ i

theorem host0_v11 :
    (StableHlo.after (hostOps0 (F := Ideal)) W (Proc.devRef .tc main_v11) : Forms.A2 1 1024) = Forms.row (W (Proc.devRef .tc main_arg4)) := by
  after_results
  funext i
  show shapeCast S1x1024 (W (Proc.devRef .tc main_arg4)) shapeCasts_S1024_S1x1024 i = _
  exact shapeCast_row _ _ i

theorem host0_v12 :
    (StableHlo.after (hostOps0 (F := Ideal)) W (Proc.devRef .tc main_v12) : Forms.A2 1 512) = Forms.row (W (Proc.devRef .tc main_arg7)) := by
  after_results
  funext i
  show shapeCast S1x512 (W (Proc.devRef .tc main_arg7)) shapeCasts_S512_S1x512 i = _
  exact shapeCast_row _ _ i

theorem host0_v13 :
    (StableHlo.after (hostOps0 (F := Ideal)) W (Proc.devRef .tc main_v13) : Forms.A2 1 512) = Forms.row (W (Proc.devRef .tc main_arg8)) := by
  after_results
  funext i
  show shapeCast S1x512 (W (Proc.devRef .tc main_arg8)) shapeCasts_S512_S1x512 i = _
  exact shapeCast_row _ _ i

/-- The scalar bias as a one-by-one array. -/
theorem host0_v14 :
    (StableHlo.after (hostOps0 (F := Ideal)) W (Proc.devRef .tc main_v14) : Forms.A2 1 1) = fun _ => W (Proc.devRef .tc main_arg12) (ix1 0) := by
  after_results
  funext i
  show shapeCast S1x1 (W (Proc.devRef .tc main_arg12)) shapeCasts_S1_S1x1 i = _
  refine (shapeCast_row _ _ i).trans (congrArg (W (Proc.devRef .tc main_arg12)) (congrArg ix1 (Fin.ext ?_)))
  have h : (i 1).val < 1 := idx2_lt1 i
  show (i 1).val = 0
  omega

/-- The batch of 32 × 64 feature arrays with each row's features laid end to end. -/
theorem host0_v15 :
    (StableHlo.after (hostOps0 (F := Ideal)) W (Proc.devRef .tc main_v15) : Forms.A2 16384 2048) = Forms.flat (W (Proc.devRef .tc main_arg0)) := by
  after_results
  funext i
  show shapeCast S16384x2048 (W (Proc.devRef .tc main_arg0)) shapeCasts_S16384x32x64_S16384x2048 i = _
  exact shapeCast_merge (a := 16384) (b := 32) (c := 64) (m := 2048) (by decide) rfl _ _ i

end Stretch0

/-! ## The second stretch: the Gram blocks with each row's 32 × 32 products laid end to end -/

theorem host1_v17 (W : Valuation τ sig (Elt Ideal)) :
    (StableHlo.after (hostOps1 (F := Ideal)) W (Proc.devRef .tc main_v17) : Forms.A2 16384 1024)
      = fun i => W (Proc.devRef .tc main_v16) (ix3 (i 0) ⟨(i 1).val / 32, by have h : (i 1).val < 1024 := (i 1).isLt; omega⟩
          ⟨(i 1).val % 32, Nat.mod_lt _ (by decide)⟩) := by
  after_results
  funext i
  show shapeCast S16384x1024 (W (Proc.devRef .tc main_v16)) shapeCasts_S16384x32x32_S16384x1024 i = _
  exact shapeCast_merge (a := 16384) (b := 32) (c := 32) (m := 1024) (by decide) rfl _ _ i

/-! ## The third stretch: the take of the 496 selected columns -/

/-- Every entry of the index table is a word below 1024: the table decided entry by entry. -/
theorem lit0_lt : ∀ p : Fin 496, (lit0 p).toNat < 1024 := by decide +kernel

/-- Entry `p` of the index table as a column number (reduced mod 1024, which changes no entry: `lit0_lt`). -/
def linK (p : Fin 496) : Fin 1024 := ⟨(lit0 p).toNat % 1024, Nat.mod_lt _ (by decide)⟩

/-- The stretch's result is the printed take of the table's buffer and the flattened Gram array's. -/
theorem host11_v18_takeF (W : Valuation τ sig (Elt Ideal)) :
    StableHlo.after (hostOps1_1 (F := Ideal)) W (Proc.devRef .tc main_v18)
      = takeF (W (Proc.devRef .tc main_c)) (W (Proc.devRef .tc main_v17)) := by
  after_results_simp
  simp only [TRef.ofBuf, TRef.toBuf, cast_eq]
  rfl

/-- Column `p` of the result is column `linK p` of the flattened Gram array, given that the table's buffer holds the
    literal (as the first stretch leaves it: `host0_c`). -/
theorem host11_v18 (W : Valuation τ sig (Elt Ideal))
    (hc : W (Proc.devRef .tc main_c) = fun i => lit0 (S496.rowMajor i)) :
    (StableHlo.after (hostOps1_1 (F := Ideal)) W (Proc.devRef .tc main_v18) : Forms.A2 16384 496)
      = fun i => W (Proc.devRef .tc main_v17) (ix2 (i 0) (linK (i 1))) := by
  rw [host11_v18_takeF]
  funext i
  have hrm : ∀ p : Fin 496, S496.rowMajor (ix1 p) = p := fun p => Fin.ext (Shape.rowMajor_val_one _)
  have hcp : ∀ p : Fin 496, W (Proc.devRef .tc main_c) (ix1 p) = lit0 p := fun p => by rw [hc]; exact congrArg lit0 (hrm p)
  have hlt : ∀ p : Fin 496, (W (Proc.devRef .tc main_c) (ix1 p)).toNat < 1024 := fun p => by rw [hcp p]; exact lit0_lt p
  refine (congrArg (takeF (W (Proc.devRef .tc main_c)) (W (Proc.devRef .tc main_v17))) (eq_ix2 i)).trans ?_
  refine (takeF_apply _ _ hlt (i 0) (i 1)).trans ?_
  refine congrArg (W (Proc.devRef .tc main_v17)) (congrArg (ix2 (i 0)) (Fin.ext ?_))
  exact congrArg (fun w : BitVec 32 => w.toNat % 1024) (hcp (i 1))

end Cert.KernelIdeal.Val
end
-- ==== Proof.Val.KOut.lean ====
/-
  The idealized kernel's result array as ONE function of the thirteen argument arrays.

  Each region leaves its output arrays at a closed form of the arrays it was entered with; between the regions the
  host only reshapes, slices and narrows (the identity on the extended reals) the arguments, lays the 32 × 32 dot
  products of a row end to end, and selects 496 of those 1024 columns by a literal table. Walking every buffer a
  region reads back to the boundary that wrote it composes the four closed forms into the kernel's formula:
  activations of the flattened features, their batch statistics, the normalized activations into the second dense
  layer, its statistics, the third dense layer, and the projection beside the selected pair products.
-/
import proofs.«128293_j31387620999258_1_alg».proof.Proof.KI.Run
import proofs.«128293_j31387620999258_1_alg».proof.Proof.Val.Val0
import proofs.«128293_j31387620999258_1_alg».proof.Proof.Val.Val1
import proofs.«128293_j31387620999258_1_alg».proof.Proof.Val.Val2
import proofs.«128293_j31387620999258_1_alg».proof.Proof.Val.Val3
import proofs.«128293_j31387620999258_1_alg».proof.Proof.Val.Host
import proofs.«128293_j31387620999258_1_alg».proof.Proof.Forms

noncomputable section

namespace Cert.KernelIdeal.Val

open Cert.KernelIdeal Cert.KernelIdeal.Gen Cert.KernelIdeal.Hand Cert.Forms
open Idealize.ShloMosaic Idealize.ShloMosaic.TcCoe Idealize.ShloMosaic.ValueIdx Idealize.SL.Sem

variable (m : (ℓ : Loc nD τ sig) → Buf (Elt Ideal) ℓ)

/-- The thirteen argument arrays of core `c` at launch. -/
def argsOf (c : Dev nD) : Forms.Args where
  x := m ((c : Thread nD τ).loc main_arg0)
  W1 := m ((c : Thread nD τ).loc main_arg1)
  b1 := m ((c : Thread nD τ).loc main_arg2)
  g1 := m ((c : Thread nD τ).loc main_arg3)
  be1 := m ((c : Thread nD τ).loc main_arg4)
  W2 := m ((c : Thread nD τ).loc main_arg5)
  b2 := m ((c : Thread nD τ).loc main_arg6)
  g2 := m ((c : Thread nD τ).loc main_arg7)
  be2 := m ((c : Thread nD τ).loc main_arg8)
  W3 := m ((c : Thread nD τ).loc main_arg9)
  b3 := m ((c : Thread nD τ).loc main_arg10)
  Wc := m ((c : Thread nD τ).loc main_arg11)
  bc := m ((c : Thread nD τ).loc main_arg12)

/-- Entry `p` of the table names column `32 · iuK p + juK p` of a row's 32 × 32 products: the pair of features. -/
def iuK (p : Fin 496) : Fin 32 := ⟨(linK p).val / 32, by have h : (linK p).val < 1024 := (linK p).isLt; omega⟩
def juK (p : Fin 496) : Fin 32 := ⟨(linK p).val % 32, Nat.mod_lt _ (by decide)⟩

/-! ## A buffer that nothing in between writes keeps its contents -/

/-- Neither later host stretch writes it and region 0 does not have it among its arrays: region 1 finds it as the
    first stretch left it. -/
theorem W4_eq_W1 (c : Dev nD) (b : Ref sig .tc) (h1 : b ∉ wr1) (h11 : b ∉ wr1_1) (hs0 : ∀ w, Pipeline.arrRef spec0 w ≠ b) :
    W4 m c (Proc.devRef .tc b) = W1 m c (Proc.devRef .tc b) :=
  ((StableHlo.after_of_writes_sub hostOps1_1 (W3 m c) hostOps1_1_writes h11).trans
    (StableHlo.after_of_writes_sub hostOps1 (W2 m c) hostOps1_writes h1)).trans (W2_of_ne m c b hs0)

theorem W5_eq_W1 (c : Dev nD) (b : Ref sig .tc) (h1 : b ∉ wr1) (h11 : b ∉ wr1_1) (hs0 : ∀ w, Pipeline.arrRef spec0 w ≠ b)
    (hs1 : ∀ w, Pipeline.arrRef spec1 w ≠ b) : W5 m c (Proc.devRef .tc b) = W1 m c (Proc.devRef .tc b) :=
  (W5_of_ne m c b hs1).trans (W4_eq_W1 m c b h1 h11 hs0)

theorem W6_eq_W1 (c : Dev nD) (b : Ref sig .tc) (h1 : b ∉ wr1) (h11 : b ∉ wr1_1) (hs0 : ∀ w, Pipeline.arrRef spec0 w ≠ b)
    (hs1 : ∀ w, Pipeline.arrRef spec1 w ≠ b) (hs2 : ∀ w, Pipeline.arrRef spec2 w ≠ b) :
    W6 m c (Proc.devRef .tc b) = W1 m c (Proc.devRef .tc b) :=
  (W6_of_ne m c b hs2).trans (W5_eq_W1 m c b h1 h11 hs0 hs1)

/-! ## What each region finds in the buffers the first stretch wrote -/

theorem e4_v15 (c : Dev nD) : (W4 m c (Proc.devRef .tc main_v15) : Forms.A2 16384 2048) = Forms.flat (argsOf m c).x :=
  (W4_eq_W1 m c main_v15 (by decide) (by decide) (by decide)).trans (host0_v15 (W0 m c))
theorem e4_v0 (c : Dev nD) : (W4 m c (Proc.devRef .tc main_v0) : Forms.A2 2048 1024) = (argsOf m c).W1 :=
  (W4_eq_W1 m c main_v0 (by decide) (by decide) (by decide)).trans (host0_v0 (W0 m c))
theorem e4_v7 (c : Dev nD) : (W4 m c (Proc.devRef .tc main_v7) : Forms.A2 1 1024) = Forms.row (argsOf m c).b1 :=
  (W4_eq_W1 m c main_v7 (by decide) (by decide) (by decide)).trans (host0_v7 (W0 m c))

theorem e5_v10 (c : Dev nD) : (W5 m c (Proc.devRef .tc main_v10) : Forms.A2 1 1024) = Forms.row (argsOf m c).g1 :=
  (W5_eq_W1 m c main_v10 (by decide) (by decide) (by decide) (by decide)).trans (host0_v10 (W0 m c))
theorem e5_v11 (c : Dev nD) : (W5 m c (Proc.devRef .tc main_v11) : Forms.A2 1 1024) = Forms.row (argsOf m c).be1 :=
  (W5_eq_W1 m c main_v11 (by decide) (by decide) (by decide) (by decide)).trans (host0_v11 (W0 m c))
theorem e5_v1 (c : Dev nD) : (W5 m c (Proc.devRef .tc main_v1) : Forms.A2 1024 512) = (argsOf m c).W2 :=
  (W5_eq_W1 m c main_v1 (by decide) (by decide) (by decide) (by decide)).trans (host0_v1 (W0 m c))
theorem e5_v8 (c : Dev nD) : (W5 m c (Proc.devRef .tc main_v8) : Forms.A2 1 512) = Forms.row (argsOf m c).b2 :=
  (W5_eq_W1 m c main_v8 (by decide) (by decide) (by decide) (by decide)).trans (host0_v8 (W0 m c))

theorem e6_v12 (c : Dev nD) : (W6 m c (Proc.devRef .tc main_v12) : Forms.A2 1 512) = Forms.row (argsOf m c).g2 :=
  (W6_eq_W1 m c main_v12 (by decide) (by decide) (by decide) (by decide) (by decide)).trans (host0_v12 (W0 m c))
theorem e6_v13 (c : Dev nD) : (W6 m c (Proc.devRef .tc main_v13) : Forms.A2 1 512) = Forms.row (argsOf m c).be2 :=
  (W6_eq_W1 m c main_v13 (by decide) (by decide) (by decide) (by decide) (by decide)).trans (host0_v13 (W0 m c))
theorem e6_v2 (c : Dev nD) : (W6 m c (Proc.devRef .tc main_v2) : Forms.A2 512 64) = (argsOf m c).W3 :=
  (W6_eq_W1 m c main_v2 (by decide) (by decide) (by decide) (by decide) (by decide)).trans (host0_v2 (W0 m c))
theorem e6_v9 (c : Dev nD) : (W6 m c (Proc.devRef .tc main_v9) : Forms.A2 1 64) = Forms.row (argsOf m c).b3 :=
  (W6_eq_W1 m c main_v9 (by decide) (by decide) (by decide) (by decide) (by decide)).trans (host0_v9 (W0 m c))
theorem e6_v4 (c : Dev nD) : (W6 m c (Proc.devRef .tc main_v4) : Forms.A2 64 1)
    = fun i => (argsOf m c).Wc (ix2 ⟨(i 0).val, by have h : (i 0).val < 64 := (i 0).isLt; omega⟩ 0) :=
  (W6_eq_W1 m c main_v4 (by decide) (by decide) (by decide) (by decide) (by decide)).trans (host0_v4 (W0 m c))
theorem e6_v6 (c : Dev nD) : (W6 m c (Proc.devRef .tc main_v6) : Forms.A2 496 1)
    = fun i => (argsOf m c).Wc (ix2 ⟨(i 0).val + 64, by have h : (i 0).val < 496 := (i 0).isLt; omega⟩ 0) :=
  (W6_eq_W1 m c main_v6 (by decide) (by decide) (by decide) (by decide) (by decide)).trans (host0_v6 (W0 m c))
theorem e6_v14 (c : Dev nD) : (W6 m c (Proc.devRef .tc main_v14) : Forms.A2 1 1) = fun _ => (argsOf m c).bc (ix1 0) :=
  (W6_eq_W1 m c main_v14 (by decide) (by decide) (by decide) (by decide) (by decide)).trans (host0_v14 (W0 m c))

/-! ## The selected pair products -/

/-- Region 0 leaves the pairwise dot products of the first argument's rows. -/
theorem e2_v16 (c : Dev nD) : (W2 m c (Proc.devRef .tc main_v16) : Forms.A3 16384 32 32) = Forms.gramF (argsOf m c).x := by
  refine ((W2_arr m c 1).trans (val0 (V1 m) c)).trans ?_
  exact congrArg Forms.gramF (W1_of_not_written m c main_arg0 (by decide))

/-- The index table reaches the gather as the first stretch wrote it. -/
theorem e3_c (c : Dev nD) : W3 m c (Proc.devRef .tc main_c) = fun i => lit0 (S496.rowMajor i) :=
  ((StableHlo.after_of_writes_sub hostOps1 (W2 m c) hostOps1_writes (by decide : main_c ∉ wr1)).trans
    (W2_of_ne m c main_c (by decide))).trans (host0_c (W0 m c))

/-- Region 3 finds the 496 selected pair products: column `p` of a row is the dot product of features `iuK p`, `juK p`. -/
theorem e6_v18 (c : Dev nD) : (W6 m c (Proc.devRef .tc main_v18) : Forms.A2 16384 496) = Forms.pairsF (argsOf m c).x iuK juK := by
  refine ((W6_of_ne m c main_v18 (by decide)).trans (W5_of_ne m c main_v18 (by decide))).trans ?_
  refine (host11_v18 (W3 m c) (e3_c m c)).trans ?_
  funext i
  show W3 m c (Proc.devRef .tc main_v17) (ix2 (i 0) (linK (i 1))) = _
  rw [show (W3 m c (Proc.devRef .tc main_v17) : Forms.A2 16384 1024) = _ from host1_v17 (W2 m c)]
  show W2 m c (Proc.devRef .tc main_v16) _ = _
  rw [show (W2 m c (Proc.devRef .tc main_v16) : Forms.A3 16384 32 32) = _ from e2_v16 m c]
  rfl

/-! ## The layers -/

/-- Region 1 leaves the rectified first dense layer of the flattened features, -/
theorem e5_v19_0 (c : Dev nD) : (W5 m c (Proc.devRef .tc main_v19_0) : Forms.A2 16384 1024)
    = Forms.actF (Forms.flat (argsOf m c).x) (argsOf m c).W1 (Forms.row (argsOf m c).b1) := by
  refine ((W5_arr m c 3).trans (val1_3 (V4 m) c)).trans ?_
  rw [show (V4 m c main_v15 : Forms.A2 16384 2048) = _ from e4_v15 m c, show (V4 m c main_v0 : Forms.A2 2048 1024) = _ from e4_v0 m c,
    show (V4 m c main_v7 : Forms.A2 1 1024) = _ from e4_v7 m c]

/-- and its batch statistics. -/
theorem e5_v19_1 (c : Dev nD) : (W5 m c (Proc.devRef .tc main_v19_1) : Forms.A2 2 1024)
    = Forms.statsK (Forms.actF (Forms.flat (argsOf m c).x) (argsOf m c).W1 (Forms.row (argsOf m c).b1)) := by
  refine ((W5_arr m c 4).trans (val1_4 (V4 m) c)).trans ?_
  rw [show (V4 m c main_v15 : Forms.A2 16384 2048) = _ from e4_v15 m c, show (V4 m c main_v0 : Forms.A2 2048 1024) = _ from e4_v0 m c,
    show (V4 m c main_v7 : Forms.A2 1 1024) = _ from e4_v7 m c]

/-- The normalized first layer, as region 2 computes it from what it finds. -/
abbrev h1K (c : Dev nD) : Forms.A2 16384 1024 :=
  let act1 := Forms.actF (Forms.flat (argsOf m c).x) (argsOf m c).W1 (Forms.row (argsOf m c).b1)
  Forms.bnK act1 (Forms.statsK act1) (Forms.row (argsOf m c).g1) (Forms.row (argsOf m c).be1)

/-- Region 2 leaves the rectified second dense layer of the normalized first, -/
theorem e6_v20_0 (c : Dev nD) : (W6 m c (Proc.devRef .tc main_v20_0) : Forms.A2 16384 512)
    = Forms.actF (h1K m c) (argsOf m c).W2 (Forms.row (argsOf m c).b2) := by
  refine ((W6_arr m c 6).trans (val2_6 (V5 m) c)).trans ?_
  rw [show (V5 m c main_v19_0 : Forms.A2 16384 1024) = _ from e5_v19_0 m c, show (V5 m c main_v19_1 : Forms.A2 2 1024) = _ from e5_v19_1 m c,
    show (V5 m c main_v10 : Forms.A2 1 1024) = _ from e5_v10 m c, show (V5 m c main_v11 : Forms.A2 1 1024) = _ from e5_v11 m c,
    show (V5 m c main_v1 : Forms.A2 1024 512) = _ from e5_v1 m c, show (V5 m c main_v8 : Forms.A2 1 512) = _ from e5_v8 m c]

/-- and its batch statistics. -/
theorem e6_v20_1 (c : Dev nD) : (W6 m c (Proc.devRef .tc main_v20_1) : Forms.A2 2 512)
    = Forms.statsK (Forms.actF (h1K m c) (argsOf m c).W2 (Forms.row (argsOf m c).b2)) := by
  refine ((W6_arr m c 7).trans (val2_7 (V5 m) c)).trans ?_
  rw [show (V5 m c main_v19_0 : Forms.A2 16384 1024) = _ from e5_v19_0 m c, show (V5 m c main_v19_1 : Forms.A2 2 1024) = _ from e5_v19_1 m c,
    show (V5 m c main_v10 : Forms.A2 1 1024) = _ from e5_v10 m c, show (V5 m c main_v11 : Forms.A2 1 1024) = _ from e5_v11 m c,
    show (V5 m c main_v1 : Forms.A2 1024 512) = _ from e5_v1 m c, show (V5 m c main_v8 : Forms.A2 1 512) = _ from e5_v8 m c]

/-- THE KERNEL'S RESULT: region 3's output array is the kernel's closed form of the arguments. -/
theorem kernel_out (c : Dev nD) :
    (W7 m c (Proc.devRef .tc main_v21) : Forms.A2 16384 1) = Forms.outK (argsOf m c) iuK juK := by
  refine ((W7_arr m c 10).trans (val3 (V6 m) c)).trans ?_
  rw [show (V6 m c main_v20_0 : Forms.A2 16384 512) = _ from e6_v20_0 m c, show (V6 m c main_v20_1 : Forms.A2 2 512) = _ from e6_v20_1 m c,
    show (V6 m c main_v12 : Forms.A2 1 512) = _ from e6_v12 m c, show (V6 m c main_v13 : Forms.A2 1 512) = _ from e6_v13 m c,
    show (V6 m c main_v2 : Forms.A2 512 64) = _ from e6_v2 m c, show (V6 m c main_v9 : Forms.A2 1 64) = _ from e6_v9 m c,
    show (V6 m c main_v18 : Forms.A2 16384 496) = _ from e6_v18 m c, show (V6 m c main_v4 : Forms.A2 64 1) = _ from e6_v4 m c,
    show (V6 m c main_v6 : Forms.A2 496 1) = _ from e6_v6 m c, show (V6 m c main_v14 : Forms.A2 1 1) = _ from e6_v14 m c]
  rfl

end Cert.KernelIdeal.Val

end
-- ==== Proof.Ref.Ops.lean ====
import proofs.«128293_j31387620999258_1_alg».proof.ReferenceIdeal
import proofs.«128293_j31387620999258_1_alg».proof.Proof.Gen.ReferenceIdeal
import Idealize.ShloMosaic.Lib.StableHlo.Run

/-! The reference program as a straight line.

@main calls four outlined functions (two rectifiers, two variances, each variance calling a select); a call
executes the callee's body on the operands, so the program is the line of its own operations with each callee's
operations written at the call site over that call's buffer record. The line is cut into eight stretches, one per
stage of the computation, a cut standing before each concatenate; ops is their concatenation and main_eq says
@main is that line. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch 0 (15 operations): the two index tables of the upper triangle (each a constant, shifted by 32 where a
    constant-false mask says so, then made a column), and the Gram tensor of the input's 32 rows. -/
abbrev ops0 : List (HloOp τ sig (Elt F)) :=
  [ nullary main_c (fun i => lit0 (S496.rowMajor i)),
    nullary main_c_0 (constantI S496 1 0#1),
    nullary main_c_1 (fun i => lit1 (S496.rowMajor i)),
    nullary main_c_2 (constantI S496 1 0#1),
    binary main_arg0 main_arg0 main_v0 ((fun l r => Host.dotGeneral dot_S16384x32x64_S16384x32x64_S16384x32x32_2_2_1_1_0_0 none l r) : (⟨S16384x32x64, .f32⟩ : BufTy).Contents (Elt F) → (⟨S16384x32x64, .f32⟩ : BufTy).Contents (Elt F) → (⟨S16384x32x32, .f32⟩ : BufTy).Contents (Elt F)),
    nullary main_c_3 (constantI S_ 32 32#32),
    unary main_c_3 main_v1 (broadcastInDim S496 ![] bcast_S_S496 : (⟨S_, .i32⟩ : BufTy).Contents (Elt F) → (⟨S496, .i32⟩ : BufTy).Contents (Elt F)),
    binary main_c main_v1 main_v2 (addi : (⟨S496, .i32⟩ : BufTy).Contents (Elt F) → (⟨S496, .i32⟩ : BufTy).Contents (Elt F) → (⟨S496, .i32⟩ : BufTy).Contents (Elt F)),
    ternary main_c_0 main_v2 main_c main_v3 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    nullary main_c_4 (constantI S_ 32 32#32),
    unary main_c_4 main_v4 (broadcastInDim S496 ![] bcast_S_S496 : (⟨S_, .i32⟩ : BufTy).Contents (Elt F) → (⟨S496, .i32⟩ : BufTy).Contents (Elt F)),
    binary main_c_1 main_v4 main_v5 (addi : (⟨S496, .i32⟩ : BufTy).Contents (Elt F) → (⟨S496, .i32⟩ : BufTy).Contents (Elt F) → (⟨S496, .i32⟩ : BufTy).Contents (Elt F)),
    ternary main_c_2 main_v5 main_c_1 main_v6 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    unary main_v3 main_v7 (broadcastInDim S496x1 ![0] bcast_S496_S496x1_0 : (⟨S496, .i32⟩ : BufTy).Contents (Elt F) → (⟨S496x1, .i32⟩ : BufTy).Contents (Elt F)),
    unary main_v6 main_v8 (broadcastInDim S496x1 ![0] bcast_S496_S496x1_0 : (⟨S496, .i32⟩ : BufTy).Contents (Elt F) → (⟨S496x1, .i32⟩ : BufTy).Contents (Elt F)) ]

/-- Stretch 1 (2 operations): the two index columns side by side, and the gather of the 496 upper-triangle entries
    of the Gram tensor. -/
abbrev ops1 : List (HloOp τ sig (Elt F)) :=
  [ binary main_v7 main_v8 main_v9 ((fun a b => concatenate S496x2 1 [⟨S496x1, a⟩, ⟨S496x1, b⟩] concatenates_S496x1_S496x1_S496x2_d1) : (⟨S496x1, .i32⟩ : BufTy).Contents (Elt F) → (⟨S496x1, .i32⟩ : BufTy).Contents (Elt F) → (⟨S496x2, .i32⟩ : BufTy).Contents (Elt F)),
    binary main_v0 main_v9 main_v10 ((fun x i => Host.gather gather_S16384x32x32_S496x2_S16384x496_0_12_n_n_12_1_1638411 x i) : (⟨S16384x32x32, .f32⟩ : BufTy).Contents (Elt F) → (⟨S496x2, .i32⟩ : BufTy).Contents (Elt F) → (⟨S16384x496, .f32⟩ : BufTy).Contents (Elt F)) ]

/-- Stretch 2 (8 operations): the first layer, the flattened input times the first weight plus its bias, and the
    rectifier (the first call: the zero, its broadcast, the maximum). -/
abbrev ops2 : List (HloOp τ sig (Elt F)) :=
  [ reshape main_arg0 main_v11 rfl shapeCasts_S16384x32x64_S16384x2048,
    binary main_v11 main_arg1 main_v12 ((fun l r => Host.dotGeneral dot_S16384x2048_S2048x1024_S16384x1024_1_0_0_1_n_n none l r) : (⟨S16384x2048, .f32⟩ : BufTy).Contents (Elt F) → (⟨S2048x1024, .f32⟩ : BufTy).Contents (Elt F) → (⟨S16384x1024, .f32⟩ : BufTy).Contents (Elt F)),
    unary main_arg2 main_v13 (broadcastInDim S1x1024 ![1] bcast_S1024_S1x1024_1 : (⟨S1024, .f32⟩ : BufTy).Contents (Elt F) → (⟨S1x1024, .f32⟩ : BufTy).Contents (Elt F)),
    unary main_v13 main_v14 (broadcastInDim S16384x1024 ![0, 1] bcast_S1x1024_S16384x1024_0_1 : (⟨S1x1024, .f32⟩ : BufTy).Contents (Elt F) → (⟨S16384x1024, .f32⟩ : BufTy).Contents (Elt F)),
    binary main_v12 main_v14 main_v15 (addf : (⟨S16384x1024, .f32⟩ : BufTy).Contents (Elt F) → (⟨S16384x1024, .f32⟩ : BufTy).Contents (Elt F) → (⟨S16384x1024, .f32⟩ : BufTy).Contents (Elt F)),
    TRef.nullary main_call0.cst (constant S_ .f32 0x00000000#32),
    TRef.unary main_call0.cst main_call0.v0 (broadcastInDim S16384x1024 ![] bcast_S_S16384x1024),
    TRef.binary (.of main_v15 : TRef sig ⟨S16384x1024, .f32⟩) main_call0.v0 main_call0.v1 maximumf ]

/-- Stretch 3 (28 operations): the first layer's statistics, the column mean (sum over the rows, divided by their
    number) and the column variance (the second call: mean, centred squares, their sum divided by the number of
    rows less the correction, and the select on that divisor being positive, the third function's three
    operations). -/
abbrev ops3 : List (HloOp τ sig (Elt F)) :=
  [ nullary main_cst (constant S_ .f32 0x00000000#32),
    binary main_v16 main_cst main_v17 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_5 (constant S_ .f32 0x46800000#32),
    unary main_cst_5 main_v18 (broadcastInDim S1024 ![] bcast_S_S1024 : (⟨S_, .f32⟩ : BufTy).Contents (Elt F) → (⟨S1024, .f32⟩ : BufTy).Contents (Elt F)),
    binary main_v17 main_v18 main_v19 (Host.divf : (⟨S1024, .f32⟩ : BufTy).Contents (Elt F) → (⟨S1024, .f32⟩ : BufTy).Contents (Elt F) → (⟨S1024, .f32⟩ : BufTy).Contents (Elt F)),
    nullary main_c_6 (constantI S_ 32 0#32),
    TRef.nullary main_call1.cst (constant S_ .f32 0x00000000#32),
    TRef.binary (.of main_v16 : TRef sig ⟨S16384x1024, .f32⟩) main_call1.cst main_call1.v0 (fun x v => Host.reduceAdd x v reducesTo_S16384x1024_S1024_d0 h_S_),
    TRef.unary main_call1.v0 main_call1.v1 (broadcastInDim S1x1024 ![1] bcast_S1024_S1x1024_1),
    TRef.nullary main_call1.cst_0 (constant S_ .f32 0x46800000#32),
    TRef.unary main_call1.cst_0 main_call1.v2 (broadcastInDim S1x1024 ![] bcast_S_S1x1024),
    TRef.binary main_call1.v1 main_call1.v2 main_call1.v3 Host.divf,
    TRef.unary main_call1.v3 main_call1.v4 (broadcastInDim S16384x1024 ![0, 1] bcast_S1x1024_S16384x1024_0_1),
    TRef.binary (.of main_v16 : TRef sig ⟨S16384x1024, .f32⟩) main_call1.v4 main_call1.v5 subf,
    TRef.binary main_call1.v5 main_call1.v5 main_call1.v6 mulf,
    TRef.unary (.of main_c_6 : TRef sig ⟨S_, .i32⟩) main_call1.v7 (sitofp (F := F) .f32),
    TRef.nullary main_call1.cst_1 (constant S_ .f32 0x46800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S16384x1024_S1024_d0 h_S_),
    TRef.unary main_call1.v8 main_call1.v10 (broadcastInDim S1024 ![] bcast_S_S1024),
    TRef.binary main_call1.v9 main_call1.v10 main_call1.v11 Host.divf,
    TRef.nullary main_call1.cst_3 (constant S_ .f32 0x00000000#32),
    TRef.binary main_call1.v8 main_call1.cst_3 main_call1.v12 (cmpf (F := F) .ogt),
    TRef.nullary main_call1.cst_4 (constant S_ .f32 0x7FC00000#32),
    TRef.unary main_call1.cst_4 main_call1.call0.v0 id,
    TRef.unary main_call1.call0.v0 main_call1.call0.v1 (broadcastInDim S1024 ![] bcast_S_S1024),
    TRef.ternary main_call1.v12 main_call1.v11 main_call1.call0.v1 main_call1.call0.v2 (fun p a b => select (broadcastInDim S1024 ![] bcast_S_S1024 p) a b) ]

/-- Stretch 4 (23 operations): the first normalisation (centre, scale by the first gain, by the reciprocal root of
    variance plus epsilon, add the first shift), the second layer (times the second weight plus its bias) and its
    rectifier (the fourth call). -/
abbrev ops4 : List (HloOp τ sig (Elt F)) :=
  [ unary main_v19 main_v21 (broadcastInDim S1x1024 ![1] bcast_S1024_S1x1024_1 : (⟨S1024, .f32⟩ : BufTy).Contents (Elt F) → (⟨S1x1024, .f32⟩ : BufTy).Contents (Elt F)),
    unary main_v21 main_v22 (broadcastInDim S16384x1024 ![0, 1] bcast_S1x1024_S16384x1024_0_1 : (⟨S1x1024, .f32⟩ : BufTy).Contents (Elt F) → (⟨S16384x1024, .f32⟩ : BufTy).Contents (Elt F)),
    binary main_v16 main_v22 main_v23 (subf : (⟨S16384x1024, .f32⟩ : BufTy).Contents (Elt F) → (⟨S16384x1024, .f32⟩ : BufTy).Contents (Elt F) → (⟨S16384x1024, .f32⟩ : BufTy).Contents (Elt F)),
    unary main_arg3 main_v24 (broadcastInDim S1x1024 ![1] bcast_S1024_S1x1024_1 : (⟨S1024, .f32⟩ : BufTy).Contents (Elt F) → (⟨S1x1024, .f32⟩ : BufTy).Contents (Elt F)),
    unary main_v24 main_v25 (broadcastInDim S16384x1024 ![0, 1] bcast_S1x1024_S16384x1024_0_1 : (⟨S1x1024, .f32⟩ : BufTy).Contents (Elt F) → (⟨S16384x1024, .f32⟩ : BufTy).Contents (Elt F)),
    binary main_v25 main_v23 main_v26 (mulf : (⟨S16384x1024, .f32⟩ : BufTy).Contents (Elt F) → (⟨S16384x1024, .f32⟩ : BufTy).Contents (Elt F) → (⟨S16384x1024, .f32⟩ : BufTy).Contents (Elt F)),
    nullary main_cst_7 (constant S_ .f32 0x3727C5AC#32),
    unary main_cst_7 main_v27 (broadcastInDim S1024 ![] bcast_S_S1024 : (⟨S_, .f32⟩ : BufTy).Contents (Elt F) → (⟨S1024, .f32⟩ : BufTy).Contents (Elt F)),
    binary main_v20 main_v27 main_v28 (addf : (⟨S1024, .f32⟩ : BufTy).Contents (Elt F) → (⟨S1024, .f32⟩ : BufTy).Contents (Elt F) → (⟨S1024, .f32⟩ : BufTy).Contents (Elt F)),
    unary main_v28 main_v29 (Host.rsqrt : (⟨S1024, .f32⟩ : BufTy).Contents (Elt F) → (⟨S1024, .f32⟩ : BufTy).Contents (Elt F)),
    unary main_v29 main_v30 (broadcastInDim S1x1024 ![1] bcast_S1024_S1x1024_1 : (⟨S1024, .f32⟩ : BufTy).Contents (Elt F) → (⟨S1x1024, .f32⟩ : BufTy).Contents (Elt F)),
    unary main_v30 main_v31 (broadcastInDim S16384x1024 ![0, 1] bcast_S1x1024_S16384x1024_0_1 : (⟨S1x1024, .f32⟩ : BufTy).Contents (Elt F) → (⟨S16384x1024, .f32⟩ : BufTy).Contents (Elt F)),
    binary main_v26 main_v31 main_v32 (mulf : (⟨S16384x1024, .f32⟩ : BufTy).Contents (Elt F) → (⟨S16384x1024, .f32⟩ : BufTy).Contents (Elt F) → (⟨S16384x1024, .f32⟩ : BufTy).Contents (Elt F)),
    unary main_arg4 main_v33 (broadcastInDim S1x1024 ![1] bcast_S1024_S1x1024_1 : (⟨S1024, .f32⟩ : BufTy).Contents (Elt F) → (⟨S1x1024, .f32⟩ : BufTy).Contents (Elt F)),
    unary main_v33 main_v34 (broadcastInDim S16384x1024 ![0, 1] bcast_S1x1024_S16384x1024_0_1 : (⟨S1x1024, .f32⟩ : BufTy).Contents (Elt F) → (⟨S16384x1024, .f32⟩ : BufTy).Contents (Elt F)),
    binary main_v32 main_v34 main_v35 (addf : (⟨S16384x1024, .f32⟩ : BufTy).Contents (Elt F) → (⟨S16384x1024, .f32⟩ : BufTy).Contents (Elt F) → (⟨S16384x1024, .f32⟩ : BufTy).Contents (Elt F)),
    binary main_v35 main_arg5 main_v36 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    unary main_arg6 main_v37 (broadcastInDim S1x512 ![1] bcast_S512_S1x512_1 : (⟨S512, .f32⟩ : BufTy).Contents (Elt F) → (⟨S1x512, .f32⟩ : BufTy).Contents (Elt F)),
    unary main_v37 main_v38 (broadcastInDim S16384x512 ![0, 1] bcast_S1x512_S16384x512_0_1 : (⟨S1x512, .f32⟩ : BufTy).Contents (Elt F) → (⟨S16384x512, .f32⟩ : BufTy).Contents (Elt F)),
    binary main_v36 main_v38 main_v39 (addf : (⟨S16384x512, .f32⟩ : BufTy).Contents (Elt F) → (⟨S16384x512, .f32⟩ : BufTy).Contents (Elt F) → (⟨S16384x512, .f32⟩ : BufTy).Contents (Elt F)),
    TRef.nullary main_call2.cst (constant S_ .f32 0x00000000#32),
    TRef.unary main_call2.cst main_call2.v0 (broadcastInDim S16384x512 ![] bcast_S_S16384x512),
    TRef.binary (.of main_v39 : TRef sig ⟨S16384x512, .f32⟩) main_call2.v0 main_call2.v1 maximumf ]

/-- Stretch 5 (28 operations): the second layer's statistics, as stretch 3 at 512 columns (the fifth call and,
    inside it, the sixth function's three operations). -/
abbrev ops5 : List (HloOp τ sig (Elt F)) :=
  [ nullary main_cst_8 (constant S_ .f32 0x00000000#32),
    binary main_v40 main_cst_8 main_v41 ((fun x v => Host.reduceAdd x v reducesTo_S16384x512_S512_d0 h_S_) : (⟨S16384x512, .f32⟩ : BufTy).Contents (Elt F) → (⟨S_, .f32⟩ : BufTy).Contents (Elt F) → (⟨S512, .f32⟩ : BufTy).Contents (Elt F)),
    nullary main_cst_9 (constant S_ .f32 0x46800000#32),
    unary main_cst_9 main_v42 (broadcastInDim S512 ![] bcast_S_S512 : (⟨S_, .f32⟩ : BufTy).Contents (Elt F) → (⟨S512, .f32⟩ : BufTy).Contents (Elt F)),
    binary main_v41 main_v42 main_v43 (Host.divf : (⟨S512, .f32⟩ : BufTy).Contents (Elt F) → (⟨S512, .f32⟩ : BufTy).Contents (Elt F) → (⟨S512, .f32⟩ : BufTy).Contents (Elt F)),
    nullary main_c_10 (constantI S_ 32 0#32),
    TRef.nullary main_call3.cst (constant S_ .f32 0x00000000#32),
    TRef.binary (.of main_v40 : TRef sig ⟨S16384x512, .f32⟩) main_call3.cst main_call3.v0 (fun x v => Host.reduceAdd x v reducesTo_S16384x512_S512_d0 h_S_),
    TRef.unary main_call3.v0 main_call3.v1 (broadcastInDim S1x512 ![1] bcast_S512_S1x512_1),
    TRef.nullary main_call3.cst_0 (constant S_ .f32 0x46800000#32),
    TRef.unary main_call3.cst_0 main_call3.v2 (broadcastInDim S1x512 ![] bcast_S_S1x512),
    TRef.binary main_call3.v1 main_call3.v2 main_call3.v3 Host.divf,
    TRef.unary main_call3.v3 main_call3.v4 (broadcastInDim S16384x512 ![0, 1] bcast_S1x512_S16384x512_0_1),
    TRef.binary (.of main_v40 : TRef sig ⟨S16384x512, .f32⟩) main_call3.v4 main_call3.v5 subf,
    TRef.binary main_call3.v5 main_call3.v5 main_call3.v6 mulf,
    TRef.unary (.of main_c_10 : TRef sig ⟨S_, .i32⟩) main_call3.v7 (sitofp (F := F) .f32),
    TRef.nullary main_call3.cst_1 (constant S_ .f32 0x46800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S16384x512_S512_d0 h_S_),
    TRef.unary main_call3.v8 main_call3.v10 (broadcastInDim S512 ![] bcast_S_S512),
    TRef.binary main_call3.v9 main_call3.v10 main_call3.v11 Host.divf,
    TRef.nullary main_call3.cst_3 (constant S_ .f32 0x00000000#32),
    TRef.binary main_call3.v8 main_call3.cst_3 main_call3.v12 (cmpf (F := F) .ogt),
    TRef.nullary main_call3.cst_4 (constant S_ .f32 0x7FC00000#32),
    TRef.unary main_call3.cst_4 main_call3.call0.v0 id,
    TRef.unary main_call3.call0.v0 main_call3.call0.v1 (broadcastInDim S512 ![] bcast_S_S512),
    TRef.ternary main_call3.v12 main_call3.v11 main_call3.call0.v1 main_call3.call0.v2 (fun p a b => select (broadcastInDim S512 ![] bcast_S_S512 p) a b) ]

/-- Stretch 6 (20 operations): the second normalisation and the third layer (times the third weight plus its
    bias). -/
abbrev ops6 : List (HloOp τ sig (Elt F)) :=
  [ unary main_v43 main_v45 (broadcastInDim S1x512 ![1] bcast_S512_S1x512_1 : (⟨S512, .f32⟩ : BufTy).Contents (Elt F) → (⟨S1x512, .f32⟩ : BufTy).Contents (Elt F)),
    unary main_v45 main_v46 (broadcastInDim S16384x512 ![0, 1] bcast_S1x512_S16384x512_0_1 : (⟨S1x512, .f32⟩ : BufTy).Contents (Elt F) → (⟨S16384x512, .f32⟩ : BufTy).Contents (Elt F)),
    binary main_v40 main_v46 main_v47 (subf : (⟨S16384x512, .f32⟩ : BufTy).Contents (Elt F) → (⟨S16384x512, .f32⟩ : BufTy).Contents (Elt F) → (⟨S16384x512, .f32⟩ : BufTy).Contents (Elt F)),
    unary main_arg7 main_v48 (broadcastInDim S1x512 ![1] bcast_S512_S1x512_1 : (⟨S512, .f32⟩ : BufTy).Contents (Elt F) → (⟨S1x512, .f32⟩ : BufTy).Contents (Elt F)),
    unary main_v48 main_v49 (broadcastInDim S16384x512 ![0, 1] bcast_S1x512_S16384x512_0_1 : (⟨S1x512, .f32⟩ : BufTy).Contents (Elt F) → (⟨S16384x512, .f32⟩ : BufTy).Contents (Elt F)),
    binary main_v49 main_v47 main_v50 (mulf : (⟨S16384x512, .f32⟩ : BufTy).Contents (Elt F) → (⟨S16384x512, .f32⟩ : BufTy).Contents (Elt F) → (⟨S16384x512, .f32⟩ : BufTy).Contents (Elt F)),
    nullary main_cst_11 (constant S_ .f32 0x3727C5AC#32),
    unary main_cst_11 main_v51 (broadcastInDim S512 ![] bcast_S_S512 : (⟨S_, .f32⟩ : BufTy).Contents (Elt F) → (⟨S512, .f32⟩ : BufTy).Contents (Elt F)),
    binary main_v44 main_v51 main_v52 (addf : (⟨S512, .f32⟩ : BufTy).Contents (Elt F) → (⟨S512, .f32⟩ : BufTy).Contents (Elt F) → (⟨S512, .f32⟩ : BufTy).Contents (Elt F)),
    unary main_v52 main_v53 (Host.rsqrt : (⟨S512, .f32⟩ : BufTy).Contents (Elt F) → (⟨S512, .f32⟩ : BufTy).Contents (Elt F)),
    unary main_v53 main_v54 (broadcastInDim S1x512 ![1] bcast_S512_S1x512_1 : (⟨S512, .f32⟩ : BufTy).Contents (Elt F) → (⟨S1x512, .f32⟩ : BufTy).Contents (Elt F)),
    unary main_v54 main_v55 (broadcastInDim S16384x512 ![0, 1] bcast_S1x512_S16384x512_0_1 : (⟨S1x512, .f32⟩ : BufTy).Contents (Elt F) → (⟨S16384x512, .f32⟩ : BufTy).Contents (Elt F)),
    binary main_v50 main_v55 main_v56 (mulf : (⟨S16384x512, .f32⟩ : BufTy).Contents (Elt F) → (⟨S16384x512, .f32⟩ : BufTy).Contents (Elt F) → (⟨S16384x512, .f32⟩ : BufTy).Contents (Elt F)),
    unary main_arg8 main_v57 (broadcastInDim S1x512 ![1] bcast_S512_S1x512_1 : (⟨S512, .f32⟩ : BufTy).Contents (Elt F) → (⟨S1x512, .f32⟩ : BufTy).Contents (Elt F)),
    unary main_v57 main_v58 (broadcastInDim S16384x512 ![0, 1] bcast_S1x512_S16384x512_0_1 : (⟨S1x512, .f32⟩ : BufTy).Contents (Elt F) → (⟨S16384x512, .f32⟩ : BufTy).Contents (Elt F)),
    binary main_v56 main_v58 main_v59 (addf : (⟨S16384x512, .f32⟩ : BufTy).Contents (Elt F) → (⟨S16384x512, .f32⟩ : BufTy).Contents (Elt F) → (⟨S16384x512, .f32⟩ : BufTy).Contents (Elt F)),
    binary main_v59 main_arg9 main_v60 ((fun l r => Host.dotGeneral dot_S16384x512_S512x64_S16384x64_1_0_0_1_n_n none l r) : (⟨S16384x512, .f32⟩ : BufTy).Contents (Elt F) → (⟨S512x64, .f32⟩ : BufTy).Contents (Elt F) → (⟨S16384x64, .f32⟩ : BufTy).Contents (Elt F)),
    unary main_arg10 main_v61 (broadcastInDim S1x64 ![1] bcast_S64_S1x64_1 : (⟨S64, .f32⟩ : BufTy).Contents (Elt F) → (⟨S1x64, .f32⟩ : BufTy).Contents (Elt F)),
    unary main_v61 main_v62 (broadcastInDim S16384x64 ![0, 1] bcast_S1x64_S16384x64_0_1 : (⟨S1x64, .f32⟩ : BufTy).Contents (Elt F) → (⟨S16384x64, .f32⟩ : BufTy).Contents (Elt F)),
    binary main_v60 main_v62 main_v63 (addf : (⟨S16384x64, .f32⟩ : BufTy).Contents (Elt F) → (⟨S16384x64, .f32⟩ : BufTy).Contents (Elt F) → (⟨S16384x64, .f32⟩ : BufTy).Contents (Elt F)) ]

/-- Stretch 7 (5 operations): the third layer's 64 columns beside the 496 gathered ones, times the last weight
    column, plus the last bias. -/
abbrev ops7 : List (HloOp τ sig (Elt F)) :=
  [ binary main_v63 main_v10 main_v64 ((fun a b => concatenate S16384x560 1 [⟨S16384x64, a⟩, ⟨S16384x496, b⟩] concatenates_S16384x64_S16384x496_S16384x560_d1) : (⟨S16384x64, .f32⟩ : BufTy).Contents (Elt F) → (⟨S16384x496, .f32⟩ : BufTy).Contents (Elt F) → (⟨S16384x560, .f32⟩ : BufTy).Contents (Elt F)),
    binary main_v64 main_arg11 main_v65 ((fun l r => Host.dotGeneral dot_S16384x560_S560x1_S16384x1_1_0_0_1_n_n none l r) : (⟨S16384x560, .f32⟩ : BufTy).Contents (Elt F) → (⟨S560x1, .f32⟩ : BufTy).Contents (Elt F) → (⟨S16384x1, .f32⟩ : BufTy).Contents (Elt F)),
    unary main_arg12 main_v66 (broadcastInDim S1x1 ![1] bcast_S1_S1x1_1 : (⟨S1, .f32⟩ : BufTy).Contents (Elt F) → (⟨S1x1, .f32⟩ : BufTy).Contents (Elt F)),
    unary main_v66 main_v67 (broadcastInDim S16384x1 ![0, 1] bcast_S1x1_S16384x1_0_1 : (⟨S1x1, .f32⟩ : BufTy).Contents (Elt F) → (⟨S16384x1, .f32⟩ : BufTy).Contents (Elt F)),
    binary main_v65 main_v67 main_v68 (addf : (⟨S16384x1, .f32⟩ : BufTy).Contents (Elt F) → (⟨S16384x1, .f32⟩ : BufTy).Contents (Elt F) → (⟨S16384x1, .f32⟩ : BufTy).Contents (Elt F)) ]

/-- @main's 129 operations in order, the four calls' bodies (and the two calls inside them) at their call sites:
    the eight stretches one after the other. -/
abbrev ops : List (HloOp τ sig (Elt F)) :=
  ops0 ++ (ops1 ++ (ops2 ++ (ops3 ++ (ops4 ++ (ops5 ++ (ops6 ++ ops7))))))

/-- The contents after a concatenated line are the second line's after the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- The contents after the whole line, stretch by stretch. -/
theorem after_ops (V : Valuation τ sig (Elt F)) :
    after (ops (F := F)) V
      = after ops7 (after ops6 (after ops5 (after ops4 (after ops3 (after ops2 (after ops1 (after ops0 V))))))) := by
  simp only [ops, after_app]

set_option maxRecDepth 8192 in
set_option maxHeartbeats 4000000 in
/-- @main is that straight line: the functions' definitions unfolded at their calls and the records at their
    fields, both sides are one chain of operation steps once sequencing is reassociated. -/
theorem main_eq (c : Dev nD) : main (F := F) c = seq ops := by
  simp only [main, main_part0, main_part1, fn_relu.body, fn_var.body, fn_where.body, fn_relu_0.body, fn_var_1.body,
    fn_where_2.body, bind_assoc, pure_bind]
  rfl

end Cert.ReferenceIdeal.Hand

end
-- ==== Proof.Ref.Writes.lean ====
import proofs.«128293_j31387620999258_1_alg».proof.Proof.Ref.Ops

/-! Which buffers each stretch of the reference's line writes, and that every other buffer keeps its contents
across the stretch: an operation rewrites its own result buffer only. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A result buffer named in a list is among that list's device buffers. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

/-- The results of stretch 0. -/
abbrev ops0_W : List (Ref sig .tc) :=
  [main_c, main_c_0, main_c_1, main_c_2, main_v0, main_c_3, main_v1, main_v2, main_v3, main_c_4, main_v4, main_v5,
    main_v6, main_v7, main_v8]
/-- The results of stretch 1. -/
abbrev ops1_W : List (Ref sig .tc) := [main_v9, main_v10]
/-- The results of stretch 2. -/
abbrev ops2_W : List (Ref sig .tc) :=
  [main_v11, main_v12, main_v13, main_v14, main_v15, main_call0_cst, main_call0_v0, main_v16]
/-- The results of stretch 3. -/
abbrev ops3_W : List (Ref sig .tc) :=
  [main_cst, main_v17, main_cst_5, main_v18, main_v19, main_c_6, main_call1_cst, main_call1_v0, main_call1_v1,
    main_call1_cst_0, main_call1_v2, main_call1_v3, main_call1_v4, main_call1_v5, main_call1_v6, main_call1_v7,
    main_call1_cst_1, main_call1_v8, main_call1_cst_2, main_call1_v9, main_call1_v10, main_call1_v11,
    main_call1_cst_3, main_call1_v12, main_call1_cst_4, main_call1_call0_v0, main_call1_call0_v1, main_v20]
/-- The results of stretch 4. -/
abbrev ops4_W : List (Ref sig .tc) :=
  [main_v21, main_v22, main_v23, main_v24, main_v25, main_v26, main_cst_7, main_v27, main_v28, main_v29, main_v30,
    main_v31, main_v32, main_v33, main_v34, main_v35, main_v36, main_v37, main_v38, main_v39, main_call2_cst,
    main_call2_v0, main_v40]
/-- The results of stretch 5. -/
abbrev ops5_W : List (Ref sig .tc) :=
  [main_cst_8, main_v41, main_cst_9, main_v42, main_v43, main_c_10, main_call3_cst, main_call3_v0, main_call3_v1,
    main_call3_cst_0, main_call3_v2, main_call3_v3, main_call3_v4, main_call3_v5, main_call3_v6, main_call3_v7,
    main_call3_cst_1, main_call3_v8, main_call3_cst_2, main_call3_v9, main_call3_v10, main_call3_v11,
    main_call3_cst_3, main_call3_v12, main_call3_cst_4, main_call3_call0_v0, main_call3_call0_v1, main_v44]
/-- The results of stretch 6. -/
abbrev ops6_W : List (Ref sig .tc) :=
  [main_v45, main_v46, main_v47, main_v48, main_v49, main_v50, main_cst_11, main_v51, main_v52, main_v53, main_v54,
    main_v55, main_v56, main_v57, main_v58, main_v59, main_v60, main_v61, main_v62, main_v63]
/-- The results of stretch 7. -/
abbrev ops7_W : List (Ref sig .tc) := [main_v64, main_v65, main_v66, main_v67, main_v68]

theorem ops0_writes : (ops0 (F := F)).Forall fun op => op.writes ⊆ (ops0_W.map (Proc.devRef (τ := τ) .tc)).toFinset := by
  simp only [ops0, List.Forall]
  repeat' apply And.intro
  all_goals exact writes_sub_of_mem (by decide)
theorem ops1_writes : (ops1 (F := F)).Forall fun op => op.writes ⊆ (ops1_W.map (Proc.devRef (τ := τ) .tc)).toFinset := by
  simp only [ops1, List.Forall]
  repeat' apply And.intro
  all_goals exact writes_sub_of_mem (by decide)
theorem ops2_writes : (ops2 (F := F)).Forall fun op => op.writes ⊆ (ops2_W.map (Proc.devRef (τ := τ) .tc)).toFinset := by
  simp only [ops2, List.Forall]
  repeat' apply And.intro
  all_goals exact writes_sub_of_mem (by decide)
theorem ops3_writes : (ops3 (F := F)).Forall fun op => op.writes ⊆ (ops3_W.map (Proc.devRef (τ := τ) .tc)).toFinset := by
  simp only [ops3, List.Forall]
  repeat' apply And.intro
  all_goals exact writes_sub_of_mem (by decide)
theorem ops4_writes : (ops4 (F := F)).Forall fun op => op.writes ⊆ (ops4_W.map (Proc.devRef (τ := τ) .tc)).toFinset := by
  simp only [ops4, List.Forall]
  repeat' apply And.intro
  all_goals exact writes_sub_of_mem (by decide)
theorem ops5_writes : (ops5 (F := F)).Forall fun op => op.writes ⊆ (ops5_W.map (Proc.devRef (τ := τ) .tc)).toFinset := by
  simp only [ops5, List.Forall]
  repeat' apply And.intro
  all_goals exact writes_sub_of_mem (by decide)
theorem ops6_writes : (ops6 (F := F)).Forall fun op => op.writes ⊆ (ops6_W.map (Proc.devRef (τ := τ) .tc)).toFinset := by
  simp only [ops6, List.Forall]
  repeat' apply And.intro
  all_goals exact writes_sub_of_mem (by decide)
theorem ops7_writes : (ops7 (F := F)).Forall fun op => op.writes ⊆ (ops7_W.map (Proc.devRef (τ := τ) .tc)).toFinset := by
  simp only [ops7, List.Forall]
  repeat' apply And.intro
  all_goals exact writes_sub_of_mem (by decide)

/-! A buffer that is no result of a stretch keeps its contents across it. -/

theorem ops0_of (V : Valuation τ sig (Elt F)) {r : Ref sig .tc} (h : r ∉ ops0_W) :
    after (ops0 (F := F)) V (Proc.devRef .tc r) = V (Proc.devRef .tc r) := after_of_writes_sub ops0 V ops0_writes h
theorem ops1_of (V : Valuation τ sig (Elt F)) {r : Ref sig .tc} (h : r ∉ ops1_W) :
    after (ops1 (F := F)) V (Proc.devRef .tc r) = V (Proc.devRef .tc r) := after_of_writes_sub ops1 V ops1_writes h
theorem ops2_of (V : Valuation τ sig (Elt F)) {r : Ref sig .tc} (h : r ∉ ops2_W) :
    after (ops2 (F := F)) V (Proc.devRef .tc r) = V (Proc.devRef .tc r) := after_of_writes_sub ops2 V ops2_writes h
theorem ops3_of (V : Valuation τ sig (Elt F)) {r : Ref sig .tc} (h : r ∉ ops3_W) :
    after (ops3 (F := F)) V (Proc.devRef .tc r) = V (Proc.devRef .tc r) := after_of_writes_sub ops3 V ops3_writes h
theorem ops4_of (V : Valuation τ sig (Elt F)) {r : Ref sig .tc} (h : r ∉ ops4_W) :
    after (ops4 (F := F)) V (Proc.devRef .tc r) = V (Proc.devRef .tc r) := after_of_writes_sub ops4 V ops4_writes h
theorem ops5_of (V : Valuation τ sig (Elt F)) {r : Ref sig .tc} (h : r ∉ ops5_W) :
    after (ops5 (F := F)) V (Proc.devRef .tc r) = V (Proc.devRef .tc r) := after_of_writes_sub ops5 V ops5_writes h
theorem ops6_of (V : Valuation τ sig (Elt F)) {r : Ref sig .tc} (h : r ∉ ops6_W) :
    after (ops6 (F := F)) V (Proc.devRef .tc r) = V (Proc.devRef .tc r) := after_of_writes_sub ops6 V ops6_writes h
theorem ops7_of (V : Valuation τ sig (Elt F)) {r : Ref sig .tc} (h : r ∉ ops7_W) :
    after (ops7 (F := F)) V (Proc.devRef .tc r) = V (Proc.devRef .tc r) := after_of_writes_sub ops7 V ops7_writes h

/-- A buffer that is no result of the whole line keeps its contents across it. -/
theorem ops_of (V : Valuation τ sig (Elt F)) {r : Ref sig .tc}
    (h : r ∉ ops0_W ++ (ops1_W ++ (ops2_W ++ (ops3_W ++ (ops4_W ++ (ops5_W ++ (ops6_W ++ ops7_W))))))) :
    after (ops (F := F)) V (Proc.devRef .tc r) = V (Proc.devRef .tc r) := by
  simp only [List.mem_append, not_or] at h
  obtain ⟨h0, h1, h2, h3, h4, h5, h6, h7⟩ := h
  rw [after_ops, ops7_of _ h7, ops6_of _ h6, ops5_of _ h5, ops4_of _ h4, ops3_of _ h3, ops2_of _ h2, ops1_of _ h1,
    ops0_of _ h0]

end Cert.ReferenceIdeal.Hand

end
-- ==== Proof.Ref.Run.lean ====
import proofs.«128293_j31387620999258_1_alg».proof.Proof.Ref.Writes

/-! The reference's run: from any memory with zero counters every weakly fair execution of @main terminates, the
result buffer holds what the line of operations computes from the launch contents, and the thirteen arguments are
unchanged (no operation writes them). -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of every operation of their concatenation. -/
theorem forall_app {p : HloOp τ sig (Elt F) → Prop} {l₁ l₂ : List (HloOp τ sig (Elt F))} (h₁ : l₁.Forall p)
    (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-! Every operation touches TensorCore references only. -/

theorem ops0_sub : (ops0 (F := F)).Forall fun op => op.bufs ⊆ tcRefs τ sig :=
  ⟨nullary_bufs_sub .., nullary_bufs_sub .., nullary_bufs_sub .., nullary_bufs_sub .., binary_bufs_sub ..,
    nullary_bufs_sub .., unary_bufs_sub .., binary_bufs_sub .., ternary_bufs_sub .., nullary_bufs_sub ..,
    unary_bufs_sub .., binary_bufs_sub .., ternary_bufs_sub .., unary_bufs_sub .., unary_bufs_sub ..⟩
theorem ops1_sub : (ops1 (F := F)).Forall fun op => op.bufs ⊆ tcRefs τ sig :=
  ⟨binary_bufs_sub .., binary_bufs_sub ..⟩
theorem ops2_sub : (ops2 (F := F)).Forall fun op => op.bufs ⊆ tcRefs τ sig :=
  ⟨reshape_bufs_sub .., binary_bufs_sub .., unary_bufs_sub .., unary_bufs_sub .., binary_bufs_sub ..,
    nullary_bufs_sub .., unary_bufs_sub .., binary_bufs_sub ..⟩
theorem ops3_sub : (ops3 (F := F)).Forall fun op => op.bufs ⊆ tcRefs τ sig :=
  ⟨nullary_bufs_sub .., binary_bufs_sub .., nullary_bufs_sub .., unary_bufs_sub .., binary_bufs_sub ..,
    nullary_bufs_sub ..,
    nullary_bufs_sub .., binary_bufs_sub .., unary_bufs_sub .., nullary_bufs_sub .., unary_bufs_sub ..,
    binary_bufs_sub .., unary_bufs_sub .., binary_bufs_sub .., binary_bufs_sub .., unary_bufs_sub ..,
    nullary_bufs_sub .., binary_bufs_sub .., nullary_bufs_sub .., binary_bufs_sub .., unary_bufs_sub ..,
    binary_bufs_sub .., nullary_bufs_sub .., binary_bufs_sub .., nullary_bufs_sub ..,
    unary_bufs_sub .., unary_bufs_sub .., ternary_bufs_sub ..⟩
theorem ops4_sub : (ops4 (F := F)).Forall fun op => op.bufs ⊆ tcRefs τ sig :=
  ⟨unary_bufs_sub .., unary_bufs_sub .., binary_bufs_sub .., unary_bufs_sub .., unary_bufs_sub ..,
    binary_bufs_sub .., nullary_bufs_sub .., unary_bufs_sub .., binary_bufs_sub .., unary_bufs_sub ..,
    unary_bufs_sub .., unary_bufs_sub .., binary_bufs_sub .., unary_bufs_sub .., unary_bufs_sub ..,
    binary_bufs_sub .., binary_bufs_sub .., unary_bufs_sub .., unary_bufs_sub .., binary_bufs_sub ..,
    nullary_bufs_sub .., unary_bufs_sub .., binary_bufs_sub ..⟩
theorem ops5_sub : (ops5 (F := F)).Forall fun op => op.bufs ⊆ tcRefs τ sig :=
  ⟨nullary_bufs_sub .., binary_bufs_sub .., nullary_bufs_sub .., unary_bufs_sub .., binary_bufs_sub ..,
    nullary_bufs_sub ..,
    nullary_bufs_sub .., binary_bufs_sub .., unary_bufs_sub .., nullary_bufs_sub .., unary_bufs_sub ..,
    binary_bufs_sub .., unary_bufs_sub .., binary_bufs_sub .., binary_bufs_sub .., unary_bufs_sub ..,
    nullary_bufs_sub .., binary_bufs_sub .., nullary_bufs_sub .., binary_bufs_sub .., unary_bufs_sub ..,
    binary_bufs_sub .., nullary_bufs_sub .., binary_bufs_sub .., nullary_bufs_sub ..,
    unary_bufs_sub .., unary_bufs_sub .., ternary_bufs_sub ..⟩
theorem ops6_sub : (ops6 (F := F)).Forall fun op => op.bufs ⊆ tcRefs τ sig :=
  ⟨unary_bufs_sub .., unary_bufs_sub .., binary_bufs_sub .., unary_bufs_sub .., unary_bufs_sub ..,
    binary_bufs_sub .., nullary_bufs_sub .., unary_bufs_sub .., binary_bufs_sub .., unary_bufs_sub ..,
    unary_bufs_sub .., unary_bufs_sub .., binary_bufs_sub .., unary_bufs_sub .., unary_bufs_sub ..,
    binary_bufs_sub .., binary_bufs_sub .., unary_bufs_sub .., unary_bufs_sub .., binary_bufs_sub ..⟩
theorem ops7_sub : (ops7 (F := F)).Forall fun op => op.bufs ⊆ tcRefs τ sig :=
  ⟨binary_bufs_sub .., binary_bufs_sub .., unary_bufs_sub .., unary_bufs_sub .., binary_bufs_sub ..⟩

theorem ops_sub : (ops (F := F)).Forall fun op => op.bufs ⊆ tcRefs τ sig :=
  forall_app ops0_sub (forall_app ops1_sub (forall_app ops2_sub (forall_app ops3_sub (forall_app ops4_sub
    (forall_app ops5_sub (forall_app ops6_sub ops7_sub))))))

/-! Every operation determines its results: none allocates. -/

theorem ops0_fresh : (ops0 (F := F)).Forall fun op => op.fresh = ∅ := by
  simp only [ops0, List.Forall]; repeat' constructor
theorem ops1_fresh : (ops1 (F := F)).Forall fun op => op.fresh = ∅ := by
  simp only [ops1, List.Forall]; repeat' constructor
theorem ops2_fresh : (ops2 (F := F)).Forall fun op => op.fresh = ∅ := by
  simp only [ops2, List.Forall]; repeat' constructor
theorem ops3_fresh : (ops3 (F := F)).Forall fun op => op.fresh = ∅ := by
  simp only [ops3, List.Forall]; repeat' constructor
theorem ops4_fresh : (ops4 (F := F)).Forall fun op => op.fresh = ∅ := by
  simp only [ops4, List.Forall]; repeat' constructor
theorem ops5_fresh : (ops5 (F := F)).Forall fun op => op.fresh = ∅ := by
  simp only [ops5, List.Forall]; repeat' constructor
theorem ops6_fresh : (ops6 (F := F)).Forall fun op => op.fresh = ∅ := by
  simp only [ops6, List.Forall]; repeat' constructor
theorem ops7_fresh : (ops7 (F := F)).Forall fun op => op.fresh = ∅ := by
  simp only [ops7, List.Forall]; repeat' constructor

theorem ops_fresh : ∀ op ∈ (ops (F := F)), op.fresh = ∅ :=
  List.forall_iff_forall_mem.1 (forall_app ops0_fresh (forall_app ops1_fresh (forall_app ops2_fresh
    (forall_app ops3_fresh (forall_app ops4_fresh (forall_app ops5_fresh (forall_app ops6_fresh ops7_fresh)))))))

/-- On every device, for any float values, from any memory with zero counters: every weakly fair execution of
    @main terminates with the result buffer at the line's value over the launch contents and the arguments
    unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v68) = StableHlo.after ops (fun b => m (c, b)) (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨h c main_v68,
      (h c main_arg0).trans (ops_of _ (by decide)),
      (h c main_arg1).trans (ops_of _ (by decide)),
      (h c main_arg2).trans (ops_of _ (by decide)),
      (h c main_arg3).trans (ops_of _ (by decide)),
      (h c main_arg4).trans (ops_of _ (by decide)),
      (h c main_arg5).trans (ops_of _ (by decide)),
      (h c main_arg6).trans (ops_of _ (by decide)),
      (h c main_arg7).trans (ops_of _ (by decide)),
      (h c main_arg8).trans (ops_of _ (by decide)),
      (h c main_arg9).trans (ops_of _ (by decide)),
      (h c main_arg10).trans (ops_of _ (by decide)),
      (h c main_arg11).trans (ops_of _ (by decide)),
      (h c main_arg12).trans (ops_of _ (by decide))⟩)
    (run_seq scopedRefs_eq scopedSems_eq defs main (fun _ => ops) main_eq (fun _ => ops_sub) m ρ
      (fun _ => ops_fresh))

end Cert.ReferenceIdeal.Hand

end
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.Ref.ReadA.lean ====
/-
  The reference's first half, read at an index, at the ideal values.

  Two buffers of the reference's line are read here against the closed forms:
  * the 496 selected pair products: the batched Gram tensor of the input's 32 feature rows, gathered at the
    upper-triangle (row, column) pairs that the program's two literal index tables list;
  * the first normalized layer: the flattened input times the first weight plus its bias, rectified, then centred
    at its column mean, scaled by the gain and by the reciprocal root of its column variance plus epsilon, shifted.

  Each operation is read by one small lemma over ANY operands (a contraction as the sum over its contracted axis, a
  host sum as the initial value plus the column's sum, a broadcast or reshape as a re-indexing, the gather as the
  operand at the clamped start indices); the stages compose those over any operands; only the last section opens the
  program, and there the line is opened at a buffer to its operations' composed term.
-/
import proofs.«128293_j31387620999258_1_alg».proof.Proof.Ref.Ops
import proofs.«128293_j31387620999258_1_alg».proof.Proof.Ref.Writes
import proofs.«128293_j31387620999258_1_alg».proof.Proof.Forms
import proofs.«128293_j31387620999258_1_alg».proof.Proof.LibCoe
import Idealize.ShloMosaic.Lib.StableHlo.Run
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open Finset BigOperators

/-! ## The two index tables

The program's two dense integer constants list, pair by pair, the row and the column of the upper triangle of a
32 × 32 matrix. Every entry is below 32, so reading it signed and clamping it into [0, 31] (as the gather does)
leaves it unchanged; both tables are stated reduced mod 32 so that no bound has to travel with them. -/

/-- Entry p of the row table, reduced mod 32. -/
def iuR (p : Fin 496) : Fin 32 := ⟨(lit0 p).toNat % 32, Nat.mod_lt _ (by decide)⟩
/-- Entry p of the column table, reduced mod 32. -/
def juR (p : Fin 496) : Fin 32 := ⟨(lit1 p).toNat % 32, Nat.mod_lt _ (by decide)⟩

/-- Each row-table entry, read signed and clamped into [0, 31], is the entry mod 32. -/
theorem lit0_clamp : ∀ p : Fin 496, min (lit0 p).toInt.toNat 31 = (lit0 p).toNat % 32 := by decide
/-- Each column-table entry, read signed and clamped into [0, 31], is the entry mod 32. -/
theorem lit1_clamp : ∀ p : Fin 496, min (lit1 p).toInt.toNat 31 = (lit1 p).toNat % 32 := by decide

/-! ## The gather read at an index

Operand [16384, 32, 32], start indices [496, 2] with the index vector along axis 1, result [16384, 496]; the result's
axis 0 is the one offset axis (the whole batch axis of the operand), operand axes 1 and 2 are collapsed and are the
ones the start index map names. So result element (b, p) is the operand at (b, s₁, s₂), where s₁ and s₂ are the two
components of start index p, each read signed and clamped into [0, 31]. -/

section Gather
variable {α : Type} {w : Nat}

/-- The start-indices index of component 0 of result index j's start: (j 1, 0). -/
theorem gather_start_1 (j : S16384x496.Idx) (idx : IVec S496x2 w) :
    gather_S16384x32x32_S496x2_S16384x496_0_12_n_n_12_1_1638411.start j idx (1 : Fin S16384x32x32.rank)
      = min (idx (ix2 (j 1) 0)).toInt.toNat 31 := by
  unfold GatherDims.start
  rw [dif_pos (show (1 : Fin S16384x32x32.rank) ∈ gather_S16384x32x32_S496x2_S16384x496_0_12_n_n_12_1_1638411.startIndexMap by decide)]
  have hsi : gather_S16384x32x32_S496x2_S16384x496_0_12_n_n_12_1_1638411.siIdx j
      ⟨List.idxOf (1 : Fin S16384x32x32.rank) gather_S16384x32x32_S496x2_S16384x496_0_12_n_n_12_1_1638411.startIndexMap,
        List.idxOf_lt_length_iff.2 (by decide)⟩ = ix2 (j 1) 0 := by
    funext b; refine Fin.ext ?_
    match b with
    | ⟨0, _⟩ => rfl
    | ⟨1, _⟩ => rfl
  rw [hsi]
  rfl

/-- … and of component 1: (j 1, 1). -/
theorem gather_start_2 (j : S16384x496.Idx) (idx : IVec S496x2 w) :
    gather_S16384x32x32_S496x2_S16384x496_0_12_n_n_12_1_1638411.start j idx (2 : Fin S16384x32x32.rank)
      = min (idx (ix2 (j 1) 1)).toInt.toNat 31 := by
  unfold GatherDims.start
  rw [dif_pos (show (2 : Fin S16384x32x32.rank) ∈ gather_S16384x32x32_S496x2_S16384x496_0_12_n_n_12_1_1638411.startIndexMap by decide)]
  have hsi : gather_S16384x32x32_S496x2_S16384x496_0_12_n_n_12_1_1638411.siIdx j
      ⟨List.idxOf (2 : Fin S16384x32x32.rank) gather_S16384x32x32_S496x2_S16384x496_0_12_n_n_12_1_1638411.startIndexMap,
        List.idxOf_lt_length_iff.2 (by decide)⟩ = ix2 (j 1) 1 := by
    funext b; refine Fin.ext ?_
    match b with
    | ⟨0, _⟩ => rfl
    | ⟨1, _⟩ => rfl
  rw [hsi]
  rfl

/-- Operand axis 0 is the offset axis: the result's coordinate 0. -/
theorem gather_opIdx_0 (j : S16384x496.Idx) (idx : IVec S496x2 w) :
    (gather_S16384x32x32_S496x2_S16384x496_0_12_n_n_12_1_1638411.operandIdx j idx (0 : Fin S16384x32x32.rank)).val = (j 0).val := by
  show gather_S16384x32x32_S496x2_S16384x496_0_12_n_n_12_1_1638411.start j idx 0
    + gather_S16384x32x32_S496x2_S16384x496_0_12_n_n_12_1_1638411.batchCoord j 0
    + gather_S16384x32x32_S496x2_S16384x496_0_12_n_n_12_1_1638411.offCoord j 0 = _
  rw [GatherDims.batchCoord_eq_zero _ j 0 (by decide), Nat.add_zero]
  unfold GatherDims.start GatherDims.offCoord
  rw [dif_neg (show (0 : Fin S16384x32x32.rank) ∉ gather_S16384x32x32_S496x2_S16384x496_0_12_n_n_12_1_1638411.startIndexMap by decide),
    dif_pos (show (0 : Fin S16384x32x32.rank) ∈ gather_S16384x32x32_S496x2_S16384x496_0_12_n_n_12_1_1638411.sKept by decide),
    Nat.zero_add]
  rfl

/-- Operand axis 1 is collapsed and named first by the start index map: the clamped component 0. -/
theorem gather_opIdx_1 (j : S16384x496.Idx) (idx : IVec S496x2 w) :
    (gather_S16384x32x32_S496x2_S16384x496_0_12_n_n_12_1_1638411.operandIdx j idx (1 : Fin S16384x32x32.rank)).val
      = min (idx (ix2 (j 1) 0)).toInt.toNat 31 := by
  show gather_S16384x32x32_S496x2_S16384x496_0_12_n_n_12_1_1638411.start j idx 1
    + gather_S16384x32x32_S496x2_S16384x496_0_12_n_n_12_1_1638411.batchCoord j 1
    + gather_S16384x32x32_S496x2_S16384x496_0_12_n_n_12_1_1638411.offCoord j 1 = _
  rw [GatherDims.batchCoord_eq_zero _ j 1 (by decide), GatherDims.offCoord_eq_zero _ j 1 (by decide), Nat.add_zero]
  exact gather_start_1 j idx

/-- Operand axis 2 likewise: the clamped component 1. -/
theorem gather_opIdx_2 (j : S16384x496.Idx) (idx : IVec S496x2 w) :
    (gather_S16384x32x32_S496x2_S16384x496_0_12_n_n_12_1_1638411.operandIdx j idx (2 : Fin S16384x32x32.rank)).val
      = min (idx (ix2 (j 1) 1)).toInt.toNat 31 := by
  show gather_S16384x32x32_S496x2_S16384x496_0_12_n_n_12_1_1638411.start j idx 2
    + gather_S16384x32x32_S496x2_S16384x496_0_12_n_n_12_1_1638411.batchCoord j 2
    + gather_S16384x32x32_S496x2_S16384x496_0_12_n_n_12_1_1638411.offCoord j 2 = _
  rw [GatherDims.batchCoord_eq_zero _ j 2 (by decide), GatherDims.offCoord_eq_zero _ j 2 (by decide), Nat.add_zero]
  exact gather_start_2 j idx

/-- THE GATHER READ AT (b, p). -/
theorem gather_apply (x : S16384x32x32.Idx → α) (idx : IVec S496x2 w) (j : S16384x496.Idx) :
    Host.gather gather_S16384x32x32_S496x2_S16384x496_0_12_n_n_12_1_1638411 x idx j
      = x (ix3 (j 0) ⟨min (idx (ix2 (j 1) 0)).toInt.toNat 31, Nat.lt_succ_of_le (Nat.min_le_right _ _)⟩
          ⟨min (idx (ix2 (j 1) 1)).toInt.toNat 31, Nat.lt_succ_of_le (Nat.min_le_right _ _)⟩) := by
  unfold Host.gather
  refine congrArg x (funext fun a => Fin.ext ?_)
  match a with
  | ⟨0, _⟩ => exact gather_opIdx_0 j idx
  | ⟨1, _⟩ => exact gather_opIdx_1 j idx
  | ⟨2, _⟩ => exact gather_opIdx_2 j idx

end Gather

/-! ## The start-index array read at (p, c)

Two [496] tables, each broadcast to a [496, 1] column, concatenated along axis 1. -/

section IndexArray
variable {α : Type}

/-- A [496] vector as a [496, 1] column, read at (p, 0). -/
theorem column_apply (v : S496.Idx → α) (h : S496.BroadcastsInDim S496x1 (![0] : Fin 1 → Fin S496x1.rank)) (i : S496x1.Idx) :
    broadcastInDim S496x1 ![0] h v i = v (ix1 (i 0)) :=
  broadcastInDim_apply _ h v i (ix1 (i 0)) (fun a => match a with
    | ⟨0, _⟩ => by show (i 0).val = if (496 : Nat) = 1 then 0 else (i 0).val; rw [if_neg (by decide)])

/-- Column 0 of the concatenation is the first piece. -/
theorem indexArray_apply_0 (a b : S496x1.Idx → α) (h : Shape.Concatenates [S496x1, S496x1] S496x2 1) (p : Fin 496) :
    concatenate S496x2 1 [⟨S496x1, a⟩, ⟨S496x1, b⟩] h (ix2 p 0) = a (ix2 p 0) :=
  concatenate_pair_apply_left (1 : Fin S496x2.rank) a b h (ix2 p 0) rfl (ix2 p 0) (fun c => by
    match c with
    | ⟨0, _⟩ => rfl
    | ⟨1, _⟩ => rfl)

/-- Column 1 of the concatenation is the second piece (its one column). -/
theorem indexArray_apply_1 (a b : S496x1.Idx → α) (h : Shape.Concatenates [S496x1, S496x1] S496x2 1) (p : Fin 496) :
    concatenate S496x2 1 [⟨S496x1, a⟩, ⟨S496x1, b⟩] h (ix2 p 1) = b (ix2 p 0) :=
  concatenate_pair_apply_right (1 : Fin S496x2.rank) a b h (ix2 p 1) rfl rfl (ix2 p 0) (fun c hc => by
    match c with
    | ⟨0, _⟩ => rfl
    | ⟨1, _⟩ => exact absurd rfl hc) rfl

/-- A literal table's buffer at position p holds entry p. -/
theorem rowMajor_ix1 (p : Fin 496) : S496.rowMajor (ix1 p) = p :=
  Fin.ext (Shape.rowMajor_val_one (ix1 p))

end IndexArray

/-! ## The two contractions read at an index

At the ideal values a host dot_general is the sum over its one contracted axis of the operands' products; the
operand indices are read off the dimension numbers, one lemma per operand axis. -/

section Gram

/-- Left operand, axis 0: the batch axis, the result's coordinate 0. -/
theorem gram_lhs_0 (i : S16384x32x32.Idx) (q : dot_S16384x32x64_S16384x32x64_S16384x32x32_2_2_1_1_0_0.contr.Idx) :
    (dot_S16384x32x64_S16384x32x64_S16384x32x32_2_2_1_1_0_0.lhsIdx i q (0 : Fin S16384x32x64.rank)).val = (i 0).val := by
  unfold DotDims.lhsIdx
  rw [dif_pos (show (0 : Fin S16384x32x64.rank) ∈ dot_S16384x32x64_S16384x32x64_S16384x32x32_2_2_1_1_0_0.lhsBatch by decide)]
  rfl
/-- Left operand, axis 1: its free axis, the result's coordinate 1. -/
theorem gram_lhs_1 (i : S16384x32x32.Idx) (q : dot_S16384x32x64_S16384x32x64_S16384x32x32_2_2_1_1_0_0.contr.Idx) :
    (dot_S16384x32x64_S16384x32x64_S16384x32x32_2_2_1_1_0_0.lhsIdx i q (1 : Fin S16384x32x64.rank)).val = (i 1).val := by
  unfold DotDims.lhsIdx
  rw [dif_neg (show ¬(1 : Fin S16384x32x64.rank) ∈ dot_S16384x32x64_S16384x32x64_S16384x32x32_2_2_1_1_0_0.lhsBatch by decide),
    dif_pos (show (1 : Fin S16384x32x64.rank) ∈ dot_S16384x32x64_S16384x32x64_S16384x32x32_2_2_1_1_0_0.lhsNonContracting by decide)]
  rfl
/-- Left operand, axis 2: the contracted axis. -/
theorem gram_lhs_2 (i : S16384x32x32.Idx) (q : dot_S16384x32x64_S16384x32x64_S16384x32x32_2_2_1_1_0_0.contr.Idx) :
    (dot_S16384x32x64_S16384x32x64_S16384x32x32_2_2_1_1_0_0.lhsIdx i q (2 : Fin S16384x32x64.rank)).val = (q ⟨0, by decide⟩).val :=
  dot_S16384x32x64_S16384x32x64_S16384x32x32_2_2_1_1_0_0.lhsIdx_val_of_single rfl i q
/-- Right operand, axis 0: the batch axis. -/
theorem gram_rhs_0 (i : S16384x32x32.Idx) (q : dot_S16384x32x64_S16384x32x64_S16384x32x32_2_2_1_1_0_0.contr.Idx) :
    (dot_S16384x32x64_S16384x32x64_S16384x32x32_2_2_1_1_0_0.rhsIdx i q (0 : Fin S16384x32x64.rank)).val = (i 0).val := by
  unfold DotDims.rhsIdx
  rw [dif_pos (show (0 : Fin S16384x32x64.rank) ∈ dot_S16384x32x64_S16384x32x64_S16384x32x32_2_2_1_1_0_0.rhsBatch by decide)]
  rfl
/-- Right operand, axis 1: its free axis, the result's coordinate 2. -/
theorem gram_rhs_1 (i : S16384x32x32.Idx) (q : dot_S16384x32x64_S16384x32x64_S16384x32x32_2_2_1_1_0_0.contr.Idx) :
    (dot_S16384x32x64_S16384x32x64_S16384x32x32_2_2_1_1_0_0.rhsIdx i q (1 : Fin S16384x32x64.rank)).val = (i 2).val := by
  unfold DotDims.rhsIdx
  rw [dif_neg (show ¬(1 : Fin S16384x32x64.rank) ∈ dot_S16384x32x64_S16384x32x64_S16384x32x32_2_2_1_1_0_0.rhsBatch by decide),
    dif_pos (show (1 : Fin S16384x32x64.rank) ∈ dot_S16384x32x64_S16384x32x64_S16384x32x32_2_2_1_1_0_0.rhsNonContracting by decide)]
  rfl
/-- Right operand, axis 2: the contracted axis. -/
theorem gram_rhs_2 (i : S16384x32x32.Idx) (q : dot_S16384x32x64_S16384x32x64_S16384x32x32_2_2_1_1_0_0.contr.Idx) :
    (dot_S16384x32x64_S16384x32x64_S16384x32x32_2_2_1_1_0_0.rhsIdx i q (2 : Fin S16384x32x64.rank)).val = (q ⟨0, by decide⟩).val :=
  dot_S16384x32x64_S16384x32x64_S16384x32x32_2_2_1_1_0_0.rhsIdx_val_of_single rfl i q

/-- The batched contraction over the last axis: entry (b, n, m) is the dot product of rows n and m of batch b. -/
theorem gram_apply (X Y : FVec Ideal S16384x32x64 .f32) (i : S16384x32x32.Idx) :
    Host.dotGeneral dot_S16384x32x64_S16384x32x64_S16384x32x32_2_2_1_1_0_0 none X Y i
      = ∑ k : Fin 64, X (ix3 (i 0) (i 1) k) * Y (ix3 (i 0) (i 2) k) := by
  simp only [Host.dotGeneral]
  rw [Ideal.dotGeneral_apply, ← Equiv.sum_comp (ValueIdx.contrEquiv1 dot_S16384x32x64_S16384x32x64_S16384x32x32_2_2_1_1_0_0 64 rfl rfl).symm]
  refine Finset.sum_congr rfl fun k _ => ?_
  have hk := ValueIdx.contrEquiv1_symm_val dot_S16384x32x64_S16384x32x64_S16384x32x32_2_2_1_1_0_0 64 rfl rfl k
  have el : dot_S16384x32x64_S16384x32x64_S16384x32x32_2_2_1_1_0_0.lhsIdx i
      ((ValueIdx.contrEquiv1 dot_S16384x32x64_S16384x32x64_S16384x32x32_2_2_1_1_0_0 64 rfl rfl).symm k) = ix3 (i 0) (i 1) k :=
    funext fun a => Fin.ext (by
      match a with
      | ⟨0, _⟩ => exact gram_lhs_0 _ _
      | ⟨1, _⟩ => exact gram_lhs_1 _ _
      | ⟨2, _⟩ => exact (gram_lhs_2 _ _).trans hk)
  have er : dot_S16384x32x64_S16384x32x64_S16384x32x32_2_2_1_1_0_0.rhsIdx i
      ((ValueIdx.contrEquiv1 dot_S16384x32x64_S16384x32x64_S16384x32x32_2_2_1_1_0_0 64 rfl rfl).symm k) = ix3 (i 0) (i 2) k :=
    funext fun a => Fin.ext (by
      match a with
      | ⟨0, _⟩ => exact gram_rhs_0 _ _
      | ⟨1, _⟩ => exact gram_rhs_1 _ _
      | ⟨2, _⟩ => exact (gram_rhs_2 _ _).trans hk)
  rw [el, er]
  rfl

end Gram

section Dense

/-- Left operand, axis 0: its free axis, the result's row. -/
theorem dense_lhs_0 (i : S16384x1024.Idx) (q : dot_S16384x2048_S2048x1024_S16384x1024_1_0_0_1_n_n.contr.Idx) :
    (dot_S16384x2048_S2048x1024_S16384x1024_1_0_0_1_n_n.lhsIdx i q (0 : Fin S16384x2048.rank)).val = (i 0).val := by
  unfold DotDims.lhsIdx
  rw [dif_neg (show ¬(0 : Fin S16384x2048.rank) ∈ dot_S16384x2048_S2048x1024_S16384x1024_1_0_0_1_n_n.lhsBatch by decide),
    dif_pos (show (0 : Fin S16384x2048.rank) ∈ dot_S16384x2048_S2048x1024_S16384x1024_1_0_0_1_n_n.lhsNonContracting by decide)]
  rfl
/-- Left operand, axis 1: the contracted axis. -/
theorem dense_lhs_1 (i : S16384x1024.Idx) (q : dot_S16384x2048_S2048x1024_S16384x1024_1_0_0_1_n_n.contr.Idx) :
    (dot_S16384x2048_S2048x1024_S16384x1024_1_0_0_1_n_n.lhsIdx i q (1 : Fin S16384x2048.rank)).val = (q ⟨0, by decide⟩).val :=
  dot_S16384x2048_S2048x1024_S16384x1024_1_0_0_1_n_n.lhsIdx_val_of_single rfl i q
/-- Right operand, axis 0: the contracted axis. -/
theorem dense_rhs_0 (i : S16384x1024.Idx) (q : dot_S16384x2048_S2048x1024_S16384x1024_1_0_0_1_n_n.contr.Idx) :
    (dot_S16384x2048_S2048x1024_S16384x1024_1_0_0_1_n_n.rhsIdx i q (0 : Fin S2048x1024.rank)).val = (q ⟨0, by decide⟩).val :=
  dot_S16384x2048_S2048x1024_S16384x1024_1_0_0_1_n_n.rhsIdx_val_of_single rfl i q
/-- Right operand, axis 1: its free axis, the result's column. -/
theorem dense_rhs_1 (i : S16384x1024.Idx) (q : dot_S16384x2048_S2048x1024_S16384x1024_1_0_0_1_n_n.contr.Idx) :
    (dot_S16384x2048_S2048x1024_S16384x1024_1_0_0_1_n_n.rhsIdx i q (1 : Fin S2048x1024.rank)).val = (i 1).val := by
  unfold DotDims.rhsIdx
  rw [dif_neg (show ¬(1 : Fin S2048x1024.rank) ∈ dot_S16384x2048_S2048x1024_S16384x1024_1_0_0_1_n_n.rhsBatch by decide),
    dif_pos (show (1 : Fin S2048x1024.rank) ∈ dot_S16384x2048_S2048x1024_S16384x1024_1_0_0_1_n_n.rhsNonContracting by decide)]
  rfl

/-- The plain rows-times-columns contraction of the first layer. -/
theorem dense_applyA (H : FVec Ideal S16384x2048 .f32) (Wm : FVec Ideal S2048x1024 .f32) (i : S16384x1024.Idx) :
    Host.dotGeneral dot_S16384x2048_S2048x1024_S16384x1024_1_0_0_1_n_n none H Wm i
      = ∑ k : Fin 2048, H (ix2 (i 0) k) * Wm (ix2 k (i 1)) := by
  simp only [Host.dotGeneral]
  rw [Ideal.dotGeneral_apply, ← Equiv.sum_comp (ValueIdx.contrEquiv1 dot_S16384x2048_S2048x1024_S16384x1024_1_0_0_1_n_n 2048 rfl rfl).symm]
  refine Finset.sum_congr rfl fun k _ => ?_
  have hk := ValueIdx.contrEquiv1_symm_val dot_S16384x2048_S2048x1024_S16384x1024_1_0_0_1_n_n 2048 rfl rfl k
  have el : dot_S16384x2048_S2048x1024_S16384x1024_1_0_0_1_n_n.lhsIdx i
      ((ValueIdx.contrEquiv1 dot_S16384x2048_S2048x1024_S16384x1024_1_0_0_1_n_n 2048 rfl rfl).symm k) = ix2 (i 0) k :=
    funext fun a => Fin.ext (by
      match a with
      | ⟨0, _⟩ => exact dense_lhs_0 _ _
      | ⟨1, _⟩ => exact (dense_lhs_1 _ _).trans hk)
  have er : dot_S16384x2048_S2048x1024_S16384x1024_1_0_0_1_n_n.rhsIdx i
      ((ValueIdx.contrEquiv1 dot_S16384x2048_S2048x1024_S16384x1024_1_0_0_1_n_n 2048 rfl rfl).symm k) = ix2 k (i 1) :=
    funext fun a => Fin.ext (by
      match a with
      | ⟨0, _⟩ => exact (dense_rhs_0 _ _).trans hk
      | ⟨1, _⟩ => exact dense_rhs_1 _ _)
  rw [el, er]
  rfl

end Dense

/-! ## The column sum, the broadcasts and the reshape, read at an index -/

section Layout
variable {α : Type}

/-- A host sum over the rows, at column k: the initial value plus the sum of the column. -/
theorem colsum_applyA (A : FVec Ideal S16384x1024 .f32) (c : FVec Ideal S_ .f32)
    (hr : S16384x1024.ReducesTo [0] S1024) (hS : 0 < S_.numel) (j : S1024.Idx) :
    Host.reduceAdd A c hr hS j = c (Shape.Idx.first hS) + ∑ b : Fin 16384, A (ix2 b (j 0)) := by
  simp only [Host.reduceAdd, Ideal.hostReduceAdd_def]
  rw [Ideal.hostReduceAdd_single hr (by decide)]
  refine congrArg (_ + ·) (Finset.sum_congr rfl fun b _ => ?_)
  exact congrArg A (funext fun a => Fin.ext (by match a with | ⟨0, _⟩ => rfl | ⟨1, _⟩ => rfl))

/-- A scalar broadcast to any shape is the scalar everywhere. -/
theorem splat_apply {t : Shape} (c : S_.Idx → α) (h : S_.BroadcastsInDim t (![] : Fin 0 → Fin t.rank)) (i : t.Idx) :
    broadcastInDim t ![] h c i = c ix0 :=
  broadcastInDim_apply _ h c i ix0 (fun a => a.elim0)

/-- A [1024] vector as a [1, 1024] row. -/
theorem row_apply (v : S1024.Idx → α) (h : S1024.BroadcastsInDim S1x1024 (![1] : Fin 1 → Fin S1x1024.rank)) (i : S1x1024.Idx) :
    broadcastInDim S1x1024 ![1] h v i = v (ix1 (i 1)) :=
  broadcastInDim_apply _ h v i (ix1 (i 1)) (fun a => match a with
    | ⟨0, _⟩ => by show (i 1).val = if (1024 : Nat) = 1 then 0 else (i 1).val; rw [if_neg (by decide)])

/-- A [1, 1024] row repeated down 16384 rows. -/
theorem rows_apply (r : S1x1024.Idx → α) (h : S1x1024.BroadcastsInDim S16384x1024 (![0, 1] : Fin 2 → Fin S16384x1024.rank))
    (i : S16384x1024.Idx) : broadcastInDim S16384x1024 ![0, 1] h r i = r (ix2 0 (i 1)) :=
  broadcastInDim_apply _ h r i (ix2 0 (i 1)) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])

/-- The two together: a [1024] vector repeated down 16384 rows reads its column's entry. -/
theorem rowsOfRow_apply (v : S1024.Idx → α) (h1 : S1024.BroadcastsInDim S1x1024 (![1] : Fin 1 → Fin S1x1024.rank))
    (h2 : S1x1024.BroadcastsInDim S16384x1024 (![0, 1] : Fin 2 → Fin S16384x1024.rank)) (i : S16384x1024.Idx) :
    broadcastInDim S16384x1024 ![0, 1] h2 (broadcastInDim S1x1024 ![1] h1 v) i = v (ix1 (i 1)) := by
  rw [rows_apply, row_apply]

/-- The reshape [16384, 32, 64] → [16384, 2048] keeps the row and splits the column into (column / 64, column % 64). -/
theorem flat_apply (X : FVec Ideal S16384x32x64 .f32) (h : S16384x32x64.ShapeCasts S16384x2048) (i : S16384x2048.Idx) :
    shapeCast S16384x2048 X h i = Forms.flat X i := by
  unfold Forms.flat
  exact shapeCast_apply X h i _ (by
    rw [Shape.rowMajor_val_three, Shape.rowMajor_val_two]
    show ((i 0).val * 32 + (i 1).val / 64) * 64 + (i 1).val % 64 = (i 0).val * 2048 + (i 1).val
    omega)

end Layout

/-! ## The stages as closed forms, over any operands -/

section Stages

/-- A table's column of the start-index array: the mask is constant false, so the select keeps the table itself. -/
theorem table_column (T : Fin 496 → BitVec 32) (sh : IVec S496 32)
    (hb : S496.BroadcastsInDim S496x1 (![0] : Fin 1 → Fin S496x1.rank)) (p : Fin 496) :
    broadcastInDim S496x1 ![0] hb
        (select (constantI S496 1 0#1) (addi (fun i => T (S496.rowMajor i)) sh) (fun i => T (S496.rowMajor i))) (ix2 p 0)
      = T p := by
  rw [column_apply]
  show Scalar.select (0#1) _ (T (S496.rowMajor (ix1 p))) = T p
  rw [select_zero, rowMajor_ix1]

/-- The gather at the two tables: entry (b, p) is the operand at (b, iuR p, juR p). -/
theorem gather_tables_apply {α : Type} (x : S16384x32x32.Idx → α) (idx : IVec S496x2 32) (j : S16384x496.Idx)
    (h0 : idx (ix2 (j 1) 0) = lit0 (j 1)) (h1 : idx (ix2 (j 1) 1) = lit1 (j 1)) :
    Host.gather gather_S16384x32x32_S496x2_S16384x496_0_12_n_n_12_1_1638411 x idx j
      = x (ix3 (j 0) (iuR (j 1)) (juR (j 1))) := by
  rw [gather_apply]
  refine congrArg x (funext fun a => Fin.ext ?_)
  match a with
  | ⟨0, _⟩ => rfl
  | ⟨1, _⟩ =>
    show min (idx (ix2 (j 1) 0)).toInt.toNat 31 = (lit0 (j 1)).toNat % 32
    rw [h0]; exact lit0_clamp (j 1)
  | ⟨2, _⟩ =>
    show min (idx (ix2 (j 1) 1)).toInt.toNat 31 = (lit1 (j 1)).toNat % 32
    rw [h1]; exact lit1_clamp (j 1)

/-- The selected pair products: the gather of the Gram tensor at the start-index array the program builds. -/
theorem pairs_stage (X : FVec Ideal S16384x32x64 .f32) (sh : IVec S496 32)
    (hb : S496.BroadcastsInDim S496x1 (![0] : Fin 1 → Fin S496x1.rank))
    (hc : Shape.Concatenates [S496x1, S496x1] S496x2 1) :
    Host.gather gather_S16384x32x32_S496x2_S16384x496_0_12_n_n_12_1_1638411
        (Host.dotGeneral (F := Ideal) dot_S16384x32x64_S16384x32x64_S16384x32x32_2_2_1_1_0_0 none X X)
        (concatenate S496x2 1
          [⟨S496x1, broadcastInDim S496x1 ![0] hb
              (select (constantI S496 1 0#1) (addi (fun i => lit0 (S496.rowMajor i)) sh) (fun i => lit0 (S496.rowMajor i)))⟩,
           ⟨S496x1, broadcastInDim S496x1 ![0] hb
              (select (constantI S496 1 0#1) (addi (fun i => lit1 (S496.rowMajor i)) sh) (fun i => lit1 (S496.rowMajor i)))⟩] hc)
      = Forms.pairsF X iuR juR := by
  funext j
  exact (gather_tables_apply _ _ j
    ((indexArray_apply_0 _ _ hc (j 1)).trans (table_column lit0 sh hb (j 1)))
    ((indexArray_apply_1 _ _ hc (j 1)).trans (table_column lit1 sh hb (j 1)))).trans (gram_apply X X _)

/-- The first dense layer with its rectifier. -/
theorem act_stage (X : FVec Ideal S16384x32x64 .f32) (W1 : FVec Ideal S2048x1024 .f32) (b1 : FVec Ideal S1024 .f32)
    (hsc : S16384x32x64.ShapeCasts S16384x2048)
    (h1 : S1024.BroadcastsInDim S1x1024 (![1] : Fin 1 → Fin S1x1024.rank))
    (h2 : S1x1024.BroadcastsInDim S16384x1024 (![0, 1] : Fin 2 → Fin S16384x1024.rank))
    (h0 : S_.BroadcastsInDim S16384x1024 (![] : Fin 0 → Fin S16384x1024.rank)) :
    maximumf (F := Ideal)
        (addf (Host.dotGeneral dot_S16384x2048_S2048x1024_S16384x1024_1_0_0_1_n_n none (fun i => shapeCast S16384x2048 X hsc i) W1)
          (broadcastInDim S16384x1024 ![0, 1] h2 (broadcastInDim S1x1024 ![1] h1 b1)))
        (broadcastInDim S16384x1024 ![] h0 (constant S_ .f32 0x00000000#32))
      = Forms.actF (Forms.flat X) W1 (Forms.row b1) := by
  funext i
  rw [maximumf_apply, addf_apply, dense_applyA, rowsOfRow_apply, splat_apply]
  show max ((∑ k : Fin 2048, shapeCast S16384x2048 X hsc (ix2 (i 0) k) * W1 (ix2 k (i 1))) + b1 (ix1 (i 1)))
      (Ideal.ofBits .f32 0x00000000#32)
    = max ((∑ j : Fin 2048, Forms.flat X (ix2 (i 0) j) * W1 (ix2 j (i 1))) + b1 (ix1 (i 1))) 0
  rw [Ideal.ofBits_zero_f32]
  simp only [flat_apply]

/-- The column mean as the reference takes it: the column sum divided by 16384. -/
theorem mean_stage (A : FVec Ideal S16384x1024 .f32) (hr : S16384x1024.ReducesTo [0] S1024) (hS : 0 < S_.numel)
    (hs : S_.BroadcastsInDim S1024 (![] : Fin 0 → Fin S1024.rank)) (k : Fin 1024) :
    Host.divf (F := Ideal) (Host.reduceAdd A (constant S_ .f32 0x00000000#32) hr hS)
        (broadcastInDim S1024 ![] hs (constant S_ .f32 0x46800000#32)) (ix1 k)
      = Forms.meanR A k := by
  show Ideal.div (Host.reduceAdd (F := Ideal) A (constant S_ .f32 0x00000000#32) hr hS (ix1 k))
      (broadcastInDim S1024 ![] hs (constant (F := Ideal) S_ .f32 0x46800000#32) (ix1 k)) = _
  rw [colsum_applyA, splat_apply]
  show Ideal.div (Ideal.ofBits .f32 0x00000000#32 + ∑ b : Fin 16384, A (ix2 b k)) (Ideal.ofBits .f32 0x46800000#32) = _
  rw [Ideal.ofBits_zero_f32, zero_add]
  rfl

/-- 16384 as a single-precision word. -/
theorem ofBits_16384 : Ideal.ofBits .f32 0x46800000#32 = ((16384 : ℝ) : EReal) := by
  simp [Ideal.ofBits, Ideal.ieee, -EReal.coe_mul]; norm_num

/-- The variance's divisor 16384 − float(0) is 16384 itself … -/
theorem divisor_eq : Ideal.ofBits .f32 0x46800000#32 - (((0#32 : BitVec 32).toInt : ℝ) : EReal) = Ideal.ofBits .f32 0x46800000#32 := by
  have h : (((0#32 : BitVec 32).toInt : ℝ) : EReal) = 0 := by
    rw [show (0#32 : BitVec 32).toInt = 0 by decide]; simp
  rw [h, sub_zero]

/-- … and is positive: the guard of the variance is true. -/
theorem divisor_pos :
    Ideal.cmp .ogt (Ideal.ofBits .f32 0x46800000#32 - (((0#32 : BitVec 32).toInt : ℝ) : EReal)) (Ideal.ofBits .f32 0x00000000#32) = 1#1 := by
  rw [divisor_eq, ofBits_16384, Cert.LibCoe.ofBits_zero]
  exact Cert.LibCoe.cmp_ogt_coe_zero_of_pos (by norm_num)

/-- The column variance as the reference takes it: the mean of the squared deviations from the mean; the guard on
    the divisor is true, so the select keeps the quotient and the not-a-number constant is never read. -/
theorem var_stage (A : FVec Ideal S16384x1024 .f32) (nan : FVec Ideal S1024 .f32)
    (hr : S16384x1024.ReducesTo [0] S1024) (hS : 0 < S_.numel)
    (h1 : S1024.BroadcastsInDim S1x1024 (![1] : Fin 1 → Fin S1x1024.rank))
    (h2 : S1x1024.BroadcastsInDim S16384x1024 (![0, 1] : Fin 2 → Fin S16384x1024.rank))
    (hs1 : S_.BroadcastsInDim S1x1024 (![] : Fin 0 → Fin S1x1024.rank))
    (hs : S_.BroadcastsInDim S1024 (![] : Fin 0 → Fin S1024.rank)) (k : Fin 1024) :
    select
        (broadcastInDim S1024 ![] hs
          (cmpf (F := Ideal) .ogt (subf (constant S_ .f32 0x46800000#32) (sitofp .f32 (constantI S_ 32 0#32)))
            (constant S_ .f32 0x00000000#32)))
        (Host.divf (F := Ideal)
          (Host.reduceAdd
            (mulf
              (subf A (broadcastInDim S16384x1024 ![0, 1] h2
                (Host.divf (broadcastInDim S1x1024 ![1] h1 (Host.reduceAdd A (constant S_ .f32 0x00000000#32) hr hS))
                  (broadcastInDim S1x1024 ![] hs1 (constant S_ .f32 0x46800000#32)))))
              (subf A (broadcastInDim S16384x1024 ![0, 1] h2
                (Host.divf (broadcastInDim S1x1024 ![1] h1 (Host.reduceAdd A (constant S_ .f32 0x00000000#32) hr hS))
                  (broadcastInDim S1x1024 ![] hs1 (constant S_ .f32 0x46800000#32))))))
            (constant S_ .f32 0x00000000#32) hr hS)
          (broadcastInDim S1024 ![] hs (subf (constant S_ .f32 0x46800000#32) (sitofp .f32 (constantI S_ 32 0#32)))))
        nan (ix1 k)
      = Forms.varR A k := by
  rw [select_apply, splat_apply]
  show Scalar.select (Ideal.cmp .ogt (Ideal.ofBits .f32 0x46800000#32 - (((0#32 : BitVec 32).toInt : ℝ) : EReal))
      (Ideal.ofBits .f32 0x00000000#32)) _ _ = _
  rw [divisor_pos, select_one]
  show Ideal.div (Host.reduceAdd (F := Ideal) _ (constant S_ .f32 0x00000000#32) hr hS (ix1 k))
      (broadcastInDim S1024 ![] hs (subf (F := Ideal) (constant S_ .f32 0x46800000#32) (sitofp .f32 (constantI S_ 32 0#32))) (ix1 k)) = _
  rw [colsum_applyA, splat_apply]
  show Ideal.div (Ideal.ofBits .f32 0x00000000#32 + ∑ b : Fin 16384, _)
      (Ideal.ofBits .f32 0x46800000#32 - (((0#32 : BitVec 32).toInt : ℝ) : EReal)) = _
  rw [Ideal.ofBits_zero_f32, zero_add, divisor_eq]
  unfold Forms.varR
  refine congrArg (fun s => Ideal.div s Forms.n16384) (Finset.sum_congr rfl fun b _ => ?_)
  -- one squared deviation: the centred entry times itself, the centre being the column mean
  have hc : (broadcastInDim S16384x1024 ![0, 1] h2
        (Host.divf (F := Ideal) (broadcastInDim S1x1024 ![1] h1 (Host.reduceAdd A (constant S_ .f32 0x00000000#32) hr hS))
          (broadcastInDim S1x1024 ![] hs1 (constant S_ .f32 0x46800000#32)))) (ix2 b k) = Forms.meanR A k := by
    rw [rows_apply]
    show Ideal.div (broadcastInDim S1x1024 ![1] h1 (Host.reduceAdd (F := Ideal) A (constant S_ .f32 0x00000000#32) hr hS) (ix2 0 k))
        (broadcastInDim S1x1024 ![] hs1 (constant (F := Ideal) S_ .f32 0x46800000#32) (ix2 0 k)) = _
    rw [row_apply, colsum_applyA, splat_apply]
    show Ideal.div (Ideal.ofBits .f32 0x00000000#32 + ∑ b : Fin 16384, A (ix2 b k)) (Ideal.ofBits .f32 0x46800000#32) = _
    rw [Ideal.ofBits_zero_f32, zero_add]
    rfl
  rw [mulf_apply, subf_apply, hc]

/-- The normalization: gain times the centred entry times the reciprocal root of variance plus epsilon, plus shift. -/
theorem bn_stage (A : FVec Ideal S16384x1024 .f32) (M V G Be : FVec Ideal S1024 .f32)
    (h1 : S1024.BroadcastsInDim S1x1024 (![1] : Fin 1 → Fin S1x1024.rank))
    (h2 : S1x1024.BroadcastsInDim S16384x1024 (![0, 1] : Fin 2 → Fin S16384x1024.rank))
    (hs : S_.BroadcastsInDim S1024 (![] : Fin 0 → Fin S1024.rank)) :
    addf (F := Ideal)
        (mulf
          (mulf (broadcastInDim S16384x1024 ![0, 1] h2 (broadcastInDim S1x1024 ![1] h1 G))
            (subf A (broadcastInDim S16384x1024 ![0, 1] h2 (broadcastInDim S1x1024 ![1] h1 M))))
          (broadcastInDim S16384x1024 ![0, 1] h2 (broadcastInDim S1x1024 ![1] h1
            (Host.rsqrt (addf V (broadcastInDim S1024 ![] hs (constant S_ .f32 0x3727C5AC#32)))))))
        (broadcastInDim S16384x1024 ![0, 1] h2 (broadcastInDim S1x1024 ![1] h1 Be))
      = fun i => Forms.bnF A (fun k => M (ix1 k)) (fun k => V (ix1 k)) (fun k => G (ix1 k)) (fun k => Be (ix1 k)) (i 0) (i 1) := by
  funext i
  rw [addf_apply, mulf_apply, mulf_apply, subf_apply, rowsOfRow_apply, rowsOfRow_apply, rowsOfRow_apply, rowsOfRow_apply]
  show G (ix1 (i 1)) * (A i - M (ix1 (i 1)))
        * Ideal.rsqrt (V (ix1 (i 1)) + broadcastInDim S1024 ![] hs (constant (F := Ideal) S_ .f32 0x3727C5AC#32) (ix1 (i 1)))
        + Be (ix1 (i 1)) = _
  rw [splat_apply, eq_ix2 i]
  rfl

end Stages

/-! ## The program's buffers

Each buffer after the whole line is its operation's function of the operands' buffers after the whole line (every
buffer is written once, before it is read). Opening the line at a buffer gives its operations' composed term; the
equations below are stated between buffers, so that both sides open to the same term. -/

section Program

/-- Opens `after ops W` at the buffers named in the goal: the eight stretches one after the other, a stretch that
    does not write the buffer skipped whole, each operation's result at its own buffer and every other buffer unchanged. -/
local macro "expand_after" : tactic => `(tactic| (
  rw [after_ops]
  simp (disch := decide) only [↓ ops0_of, ↓ ops1_of, ↓ ops2_of, ↓ ops3_of, ↓ ops4_of, ↓ ops5_of, ↓ ops6_of, ↓ ops7_of,
    ops0, ops1, ops2, ops3, ops4, ops5, ops6, ops7,
    after_cons, after_nil, nullary_result', unary_result', binary_result', ternary_result', reshape_result',
    nullary_result_ne', unary_result_ne', binary_result_ne', ternary_result_ne', reshape_result_ne',
    TRef.ofBuf, TRef.toBuf, cast_eq]))

set_option maxRecDepth 8192 in
/-- The 496 selected pair products: stretch 0 leaves the Gram tensor and the two table columns, stretch 1 sets the
    columns side by side and gathers; no later stretch writes the result. -/
theorem read_v10 (W : Valuation τ sig (Elt Ideal)) :
    (StableHlo.after ops W (Proc.devRef .tc main_v10) : Forms.A2 16384 496)
      = Forms.pairsF (W (Proc.devRef .tc main_arg0)) iuR juR := by
  have h0 : (StableHlo.after (ops0 (F := Ideal)) W (Proc.devRef .tc main_v0) : FVec Ideal S16384x32x32 .f32)
      = Host.dotGeneral (F := Ideal) (φ₁ := .f32) (φ₂ := .f32) dot_S16384x32x64_S16384x32x64_S16384x32x32_2_2_1_1_0_0 none
          (W (Proc.devRef .tc main_arg0) : FVec Ideal S16384x32x64 .f32)
          (W (Proc.devRef .tc main_arg0) : FVec Ideal S16384x32x64 .f32) := by
    simp (disch := decide) only [ops0, after_cons, after_nil, nullary_result', unary_result', binary_result', ternary_result',
      nullary_result_ne', unary_result_ne', binary_result_ne', ternary_result_ne']
  have h7 : (StableHlo.after (ops0 (F := Ideal)) W (Proc.devRef .tc main_v7) : IVec S496x1 32)
      = broadcastInDim S496x1 ![0] bcast_S496_S496x1_0
          (select (constantI S496 1 0#1)
            (addi (fun i => lit0 (S496.rowMajor i)) (broadcastInDim S496 ![] bcast_S_S496 (constantI S_ 32 32#32)))
            (fun i => lit0 (S496.rowMajor i))) := by
    simp (disch := decide) only [ops0, after_cons, after_nil, nullary_result', unary_result', binary_result', ternary_result',
      nullary_result_ne', unary_result_ne', binary_result_ne', ternary_result_ne']
    rfl
  have h8 : (StableHlo.after (ops0 (F := Ideal)) W (Proc.devRef .tc main_v8) : IVec S496x1 32)
      = broadcastInDim S496x1 ![0] bcast_S496_S496x1_0
          (select (constantI S496 1 0#1)
            (addi (fun i => lit1 (S496.rowMajor i)) (broadcastInDim S496 ![] bcast_S_S496 (constantI S_ 32 32#32)))
            (fun i => lit1 (S496.rowMajor i))) := by
    simp (disch := decide) only [ops0, after_cons, after_nil, nullary_result', unary_result', binary_result', ternary_result',
      nullary_result_ne', unary_result_ne', binary_result_ne', ternary_result_ne']
    rfl
  rw [after_ops, ops7_of _ (by decide), ops6_of _ (by decide), ops5_of _ (by decide), ops4_of _ (by decide),
    ops3_of _ (by decide), ops2_of _ (by decide)]
  generalize StableHlo.after (ops0 (F := Ideal)) W = V0 at h0 h7 h8 ⊢
  simp (disch := decide) only [ops1, after_cons, after_nil, binary_result', binary_result_ne']
  rw [h0, h7, h8]
  exact pairs_stage _ _ _ _

set_option maxRecDepth 8192 in
/-- The first layer's rectified output. -/
theorem read_v16 (W : Valuation τ sig (Elt Ideal)) :
    (StableHlo.after ops W (Proc.devRef .tc main_v16) : Forms.A2 16384 1024)
      = Forms.actF (Forms.flat (W (Proc.devRef .tc main_arg0))) (W (Proc.devRef .tc main_arg1))
          (Forms.row (W (Proc.devRef .tc main_arg2))) := by
  expand_after
  exact act_stage _ _ _ _ _ _ _

set_option maxRecDepth 8192 in
/-- The column mean, from the first layer's output. -/
theorem step_v19 (W : Valuation τ sig (Elt Ideal)) :
    StableHlo.after ops W (Proc.devRef .tc main_v19)
      = Host.divf (F := Ideal)
          (Host.reduceAdd (StableHlo.after ops W (Proc.devRef .tc main_v16) : FVec Ideal S16384x1024 .f32)
            (constant S_ .f32 0x00000000#32) reducesTo_S16384x1024_S1024_d0 h_S_)
          (broadcastInDim S1024 ![] bcast_S_S1024 (constant S_ .f32 0x46800000#32)) := by
  expand_after

set_option maxRecDepth 8192 in
/-- The column variance, from the first layer's output. -/
theorem step_v20 (W : Valuation τ sig (Elt Ideal)) :
    StableHlo.after ops W (Proc.devRef .tc main_v20)
      = select
        (broadcastInDim S1024 ![] bcast_S_S1024
          (cmpf (F := Ideal) .ogt (subf (constant S_ .f32 0x46800000#32) (sitofp .f32 (constantI S_ 32 0#32)))
            (constant S_ .f32 0x00000000#32)))
        (Host.divf (F := Ideal)
          (Host.reduceAdd
            (mulf
              (subf (StableHlo.after ops W (Proc.devRef .tc main_v16) : FVec Ideal S16384x1024 .f32)
                (broadcastInDim S16384x1024 ![0, 1] bcast_S1x1024_S16384x1024_0_1
                (Host.divf (broadcastInDim S1x1024 ![1] bcast_S1024_S1x1024_1
                    (Host.reduceAdd (StableHlo.after ops W (Proc.devRef .tc main_v16) : FVec Ideal S16384x1024 .f32)
                      (constant S_ .f32 0x00000000#32) reducesTo_S16384x1024_S1024_d0 h_S_))
                  (broadcastInDim S1x1024 ![] bcast_S_S1x1024 (constant S_ .f32 0x46800000#32)))))
              (subf (StableHlo.after ops W (Proc.devRef .tc main_v16) : FVec Ideal S16384x1024 .f32)
                (broadcastInDim S16384x1024 ![0, 1] bcast_S1x1024_S16384x1024_0_1
                (Host.divf (broadcastInDim S1x1024 ![1] bcast_S1024_S1x1024_1
                    (Host.reduceAdd (StableHlo.after ops W (Proc.devRef .tc main_v16) : FVec Ideal S16384x1024 .f32)
                      (constant S_ .f32 0x00000000#32) reducesTo_S16384x1024_S1024_d0 h_S_))
                  (broadcastInDim S1x1024 ![] bcast_S_S1x1024 (constant S_ .f32 0x46800000#32))))))
            (constant S_ .f32 0x00000000#32) reducesTo_S16384x1024_S1024_d0 h_S_)
          (broadcastInDim S1024 ![] bcast_S_S1024 (subf (constant S_ .f32 0x46800000#32) (sitofp .f32 (constantI S_ 32 0#32)))))
        (broadcastInDim S1024 ![] bcast_S_S1024 (id (constant S_ .f32 0x7FC00000#32))) := by
  expand_after

set_option maxRecDepth 8192 in
/-- The normalized output, from the first layer's output, its mean and its variance. -/
theorem step_v35 (W : Valuation τ sig (Elt Ideal)) :
    StableHlo.after ops W (Proc.devRef .tc main_v35)
      = addf (F := Ideal)
        (mulf
          (mulf (broadcastInDim S16384x1024 ![0, 1] bcast_S1x1024_S16384x1024_0_1 (broadcastInDim S1x1024 ![1] bcast_S1024_S1x1024_1 (W (Proc.devRef .tc main_arg3))))
            (subf (StableHlo.after ops W (Proc.devRef .tc main_v16) : FVec Ideal S16384x1024 .f32)
              (broadcastInDim S16384x1024 ![0, 1] bcast_S1x1024_S16384x1024_0_1 (broadcastInDim S1x1024 ![1] bcast_S1024_S1x1024_1
                (StableHlo.after ops W (Proc.devRef .tc main_v19))))))
          (broadcastInDim S16384x1024 ![0, 1] bcast_S1x1024_S16384x1024_0_1 (broadcastInDim S1x1024 ![1] bcast_S1024_S1x1024_1
            (Host.rsqrt (addf (StableHlo.after ops W (Proc.devRef .tc main_v20) : FVec Ideal S1024 .f32)
              (broadcastInDim S1024 ![] bcast_S_S1024 (constant S_ .f32 0x3727C5AC#32)))))))
        (broadcastInDim S16384x1024 ![0, 1] bcast_S1x1024_S16384x1024_0_1 (broadcastInDim S1x1024 ![1] bcast_S1024_S1x1024_1 (W (Proc.devRef .tc main_arg4)))) := by
  expand_after

/-- The first normalization's output: the first layer's rectified output, centred at its column mean, scaled by the
    gain and by the reciprocal root of its column variance plus epsilon, shifted. -/
theorem read_v35 (W : Valuation τ sig (Elt Ideal)) :
    (StableHlo.after ops W (Proc.devRef .tc main_v35) : Forms.A2 16384 1024)
      = fun i => Forms.bnF
          (Forms.actF (Forms.flat (W (Proc.devRef .tc main_arg0))) (W (Proc.devRef .tc main_arg1)) (Forms.row (W (Proc.devRef .tc main_arg2))))
          (Forms.meanR (Forms.actF (Forms.flat (W (Proc.devRef .tc main_arg0))) (W (Proc.devRef .tc main_arg1)) (Forms.row (W (Proc.devRef .tc main_arg2)))))
          (Forms.varR (Forms.actF (Forms.flat (W (Proc.devRef .tc main_arg0))) (W (Proc.devRef .tc main_arg1)) (Forms.row (W (Proc.devRef .tc main_arg2)))))
          (fun k => W (Proc.devRef .tc main_arg3) (ix1 k)) (fun k => W (Proc.devRef .tc main_arg4) (ix1 k)) (i 0) (i 1) := by
  have hM : (fun k : Fin 1024 => (StableHlo.after ops W (Proc.devRef .tc main_v19) : Forms.A1 1024) (ix1 k))
      = Forms.meanR (StableHlo.after ops W (Proc.devRef .tc main_v16) : Forms.A2 16384 1024) :=
    funext fun k => by rw [step_v19]; exact mean_stage _ _ _ _ k
  have hV : (fun k : Fin 1024 => (StableHlo.after ops W (Proc.devRef .tc main_v20) : Forms.A1 1024) (ix1 k))
      = Forms.varR (StableHlo.after ops W (Proc.devRef .tc main_v16) : Forms.A2 16384 1024) :=
    funext fun k => by rw [step_v20]; exact var_stage _ _ _ _ _ _ _ _ k
  rw [step_v35, bn_stage, hM, hV, read_v16]
  rfl

end Program

end Cert.ReferenceIdeal.Hand

end
-- ==== Proof.Ref.ReadBLib.lean ====
/-
  The host operations the reference's second half is made of, read at an index at the ideal values: a row copied
  into every row of a matrix, a dense layer (the plain matrix product plus a bias row), the rectifier, the sum down
  a matrix's rows, and the three constants that decide the variance function's guard.
-/
import proofs.«128293_j31387620999258_1_alg».proof.Proof.LibCoe
import Idealize.ShloMosaic.PureOps.Ideal.Laws
import Idealize.ShloMosaic.Lib.Pipeline.Value
import Idealize.ShloMosaic.Lib.IdealHost
import Idealize.ShloMosaic.Lib.StackMember
import Idealize.ShloMosaic.Lib.ValueIdxRank1

noncomputable section

namespace Cert.ReferenceIdeal.Hand

open Idealize.ShloMosaic Idealize.ShloMosaic.ValueIdx
open Finset BigOperators

variable {α : Type}

/-- A scalar copied to every index reads the scalar. -/
theorem bscalar_apply {T : Shape} (h : (⟨0, ![]⟩ : Shape).BroadcastsInDim T ![]) (x : (⟨0, ![]⟩ : Shape).Idx → α)
    (j : T.Idx) : broadcastInDim T (no_index ![]) h x j = x ix0 :=
  broadcastInDim_scalar_apply h x j

/-- A rank-1 array placed as the one row of a matrix reads the array at the column. -/
theorem bcast1_apply {n : Nat} (h1 : (⟨1, ![n]⟩ : Shape).BroadcastsInDim ⟨2, ![1, n]⟩ ![1])
    (v : (⟨1, ![n]⟩ : Shape).Idx → α) (z : Fin 1) (b : Fin n) :
    broadcastInDim ⟨2, ![1, n]⟩ (no_index ![1]) h1 v (ix2 z b) = v (ix1 b) :=
  broadcastInDim_apply ![1] h1 v (ix2 z b) (ix1 b) (by
    intro c; fin_cases c
    show b.val = if n = 1 then 0 else b.val
    split
    · next h => subst h; exact Nat.lt_one_iff.mp b.isLt
    · rfl)

/-- A one-row matrix copied into every row reads the row at the column. -/
theorem bcast01_apply {m n : Nat} (h2 : (⟨2, ![1, n]⟩ : Shape).BroadcastsInDim ⟨2, ![m, n]⟩ ![0, 1])
    (x : (⟨2, ![1, n]⟩ : Shape).Idx → α) (a : Fin m) (b : Fin n) :
    broadcastInDim ⟨2, ![m, n]⟩ (no_index ![0, 1]) h2 x (ix2 a b) = x (ix2 0 b) :=
  broadcastInDim_apply ![0, 1] h2 x (ix2 a b) (ix2 0 b) (by
    intro c; fin_cases c
    · rfl
    · show b.val = if n = 1 then 0 else b.val
      split
      · next h => subst h; exact Nat.lt_one_iff.mp b.isLt
      · rfl)

/-- The two together: a rank-1 array copied into every row of a matrix. -/
theorem bcast_rows {m n : Nat} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α)
    (a : Fin m) (b : Fin n) :
    broadcastInDim ⟨2, ![m, n]⟩ (no_index ![0, 1]) h2 (broadcastInDim ⟨2, ![1, n]⟩ (no_index ![1]) h1 v) (ix2 a b)
      = v (ix1 b) := by
  rw [bcast01_apply, bcast1_apply]

/-- A dense layer: the plain matrix product plus the bias row, at an index. -/
theorem dense_apply {m k n : Nat} (D : DotDims ⟨2, ![m, k]⟩ ⟨2, ![k, n]⟩ ⟨2, ![m, n]⟩) (hD : D = DotDims.plain m k n)
    (h1 : (⟨1, ![n]⟩ : Shape).BroadcastsInDim ⟨2, ![1, n]⟩ ![1])
    (h2 : (⟨2, ![1, n]⟩ : Shape).BroadcastsInDim ⟨2, ![m, n]⟩ ![0, 1])
    (H : FVec Ideal ⟨2, ![m, k]⟩ .f32) (Wt : FVec Ideal ⟨2, ![k, n]⟩ .f32) (bv : FVec Ideal ⟨1, ![n]⟩ .f32)
    (a : Fin m) (b : Fin n) :
    addf (Host.dotGeneral D none H Wt)
        (broadcastInDim ⟨2, ![m, n]⟩ (no_index ![0, 1]) h2 (broadcastInDim ⟨2, ![1, n]⟩ (no_index ![1]) h1 bv)) (ix2 a b)
      = (∑ j : Fin k, H (ix2 a j) * Wt (ix2 j b)) + bv (ix1 b) := by
  subst hD
  rw [addf_apply, StackMember.dotGeneral_plain_apply, bcast_rows]

/-- The rectifier against the broadcast zero, at an index. -/
theorem relu_apply {s : Shape} (h : (⟨0, ![]⟩ : Shape).BroadcastsInDim s ![]) (X : FVec Ideal s .f32) (i : s.Idx) :
    maximumf X (broadcastInDim s (no_index ![]) h (constant ⟨0, ![]⟩ .f32 0x00000000#32)) i = max (X i) 0 := by
  rw [maximumf_apply, bscalar_apply, constant_apply, Ideal.ofBits_zero_f32]

/-- The host's sum down the rows from the zero word: the column sum. -/
theorem colsum_apply {m n : Nat} (hR : (⟨2, ![m, n]⟩ : Shape).ReducesTo [0] ⟨1, ![n]⟩)
    (h : (⟨2, ![m, n]⟩ : Shape).Reduces [0] ⟨1, ![n]⟩) (hu : 0 < (⟨0, ![]⟩ : Shape).numel)
    (X : FVec Ideal ⟨2, ![m, n]⟩ .f32) (k : (⟨1, ![n]⟩ : Shape).Idx) :
    Host.reduceAdd X (constant ⟨0, ![]⟩ .f32 0x00000000#32) hR hu k = ∑ b : Fin m, X (ix2 b (k 0)) := by
  rw [hostReduceAdd_apply, Ideal.hostReduceAdd_single hR h, constant_apply, Ideal.ofBits_zero_f32, zero_add]
  refine Finset.sum_congr rfl fun b _ => congrArg X ?_
  funext c; apply Fin.ext
  fin_cases c <;> rfl

/-- The host's reciprocal square root at an index. -/
theorem hostRsqrt_apply {s : Shape} {φ : FTy} (x : FVec Ideal s φ) (i : s.Idx) : Host.rsqrt x i = Ideal.rsqrt (x i) := rfl

/-- The word 0x46800000 (exponent field 141, fraction 0) denotes 2^14. -/
theorem word16384 : Ideal.ofBits .f32 0x46800000#32 = ((16384 : ℝ) : EReal) := by
  simp [Ideal.ofBits, Ideal.ieee, -EReal.coe_mul]; norm_num

/-- The variance's degrees-of-freedom correction is the integer zero, converted: zero. -/
theorem ddof_zero (j : (⟨0, ![]⟩ : Shape).Idx) :
    (FloatOps.sitofp .f32 (constantI ⟨0, ![]⟩ 32 (0#32) j) : Ideal .f32) = 0 := by
  show ((((0#32 : BitVec 32).toInt : ℤ) : ℝ) : EReal) = 0
  simp

/-- So the variance's guard, 16384 - 0 above 0, holds: the select keeps the quotient. -/
theorem guard_one : Ideal.cmp .ogt (Ideal.ofBits .f32 0x46800000#32) (Ideal.ofBits .f32 0x00000000#32) = 1#1 := by
  rw [word16384, Cert.LibCoe.ofBits_zero]
  exact Cert.LibCoe.cmp_ogt_coe_zero_of_pos (by norm_num)

end Cert.ReferenceIdeal.Hand
end
-- ==== Proof.Ref.ReadB.lean ====
/-
  The reference's second half read at an index, at the ideal values, and the reference's result assembled.

  After the first normalization (the contents H1 of the buffer that holds it) the reference multiplies by the second
  weight, adds the bias row and rectifies; takes the batch mean (the column sums divided by 16384) and the batch
  variance (a module-local function: the mean again, the squared deviations' column sums divided by 16384 minus a
  degrees-of-freedom correction that is the constant 0, under a guard that this divisor is positive); normalizes;
  multiplies by the third weight and adds its bias row; sets those 64 columns beside the 496 gathered pair products
  (the contents PR of their buffer) and projects the 560 columns against the last weight column, plus the last bias.

  Each stretch of the operation list is read by itself from arbitrary contents, at one index: a dense layer is the
  plain matrix product plus a row, a row copied down a matrix reads the row, the sum down the rows is the column
  sum, the guard is constant-true so the select keeps the quotient, and the concatenation read at column j is the
  first piece below 64 and the second piece, 64 columns earlier, from there on. The stretches are then chained:
  a buffer no later stretch writes keeps its contents.
-/
import proofs.«128293_j31387620999258_1_alg».proof.Proof.Ref.Ops
import proofs.«128293_j31387620999258_1_alg».proof.Proof.Ref.Writes
import proofs.«128293_j31387620999258_1_alg».proof.Proof.Ref.ReadBLib
import proofs.«128293_j31387620999258_1_alg».proof.Proof.Forms

noncomputable section

namespace Cert.ReferenceIdeal.Hand

open Idealize.ShloMosaic Idealize.ShloMosaic.TcCoe Idealize.SL Idealize.SL.Sem Cert.ReferenceIdeal Cert.ReferenceIdeal.Gen
open Idealize.ShloMosaic.StableHlo Idealize.ShloMosaic.ValueIdx
open Finset BigOperators

variable {F : FTy → Type} [FloatOps F]

/-! ## Stretch 4's last seven operations: the second layer and its rectifier -/

/-- The last seven operations of stretch 4: the product with the second weight, the bias row, the rectifier. -/
abbrev ops4b : List (HloOp τ sig (Elt F)) :=
  [ binary main_v35 main_arg5 main_v36 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    unary main_arg6 main_v37 (broadcastInDim S1x512 ![1] bcast_S512_S1x512_1 : (⟨S512, .f32⟩ : BufTy).Contents (Elt F) → (⟨S1x512, .f32⟩ : BufTy).Contents (Elt F)),
    unary main_v37 main_v38 (broadcastInDim S16384x512 ![0, 1] bcast_S1x512_S16384x512_0_1 : (⟨S1x512, .f32⟩ : BufTy).Contents (Elt F) → (⟨S16384x512, .f32⟩ : BufTy).Contents (Elt F)),
    binary main_v36 main_v38 main_v39 (addf : (⟨S16384x512, .f32⟩ : BufTy).Contents (Elt F) → (⟨S16384x512, .f32⟩ : BufTy).Contents (Elt F) → (⟨S16384x512, .f32⟩ : BufTy).Contents (Elt F)),
    TRef.nullary main_call2.cst (constant S_ .f32 0x00000000#32),
    TRef.unary main_call2.cst main_call2.v0 (broadcastInDim S16384x512 ![] bcast_S_S16384x512),
    TRef.binary (.of main_v39 : TRef sig ⟨S16384x512, .f32⟩) main_call2.v0 main_call2.v1 maximumf ]

/-- Stretch 4 is its first sixteen operations followed by those seven. -/
theorem ops4_split : (ops4 : List (HloOp τ sig (Elt F))) = ops4.take 16 ++ ops4b :=
  (List.take_append_drop 16 ops4).symm

/-- So the contents after stretch 4 are those seven operations' after the first sixteen's. -/
theorem after_ops4 (X : Valuation τ sig (Elt F)) : after ops4 X = after ops4b (after (ops4.take 16) X) :=
  (congrArg (fun l => after l X) ops4_split).trans (after_app _ _ X)

/-- The results of those seven operations. -/
abbrev ops4b_W : List (Ref sig .tc) :=
  [main_v36, main_v37, main_v38, main_v39, main_call2_cst, main_call2_v0, main_v40]

theorem ops4b_writes :
    (ops4b (F := F)).Forall fun op => op.writes ⊆ (ops4b_W.map (Proc.devRef (τ := τ) .tc)).toFinset := by
  repeat' apply And.intro
  all_goals exact writes_sub_of_mem (by decide)

/-- A buffer that is none of those seven results keeps its contents across them. -/
theorem ops4b_of (V : Valuation τ sig (Elt F)) {r : Ref sig .tc} (h : r ∉ ops4b_W) :
    after (ops4b (F := F)) V (Proc.devRef .tc r) = V (Proc.devRef .tc r) := after_of_writes_sub ops4b V ops4b_writes h

/-- The rectified second layer, from the contents before those seven operations. -/
theorem ops4b_v40 (Y : Valuation τ sig (Elt Ideal)) :
    (after (ops4b (F := Ideal)) Y (main_v40 : DevRef τ sig) : Forms.A2 16384 512)
      = Forms.actF (Y (main_v35 : DevRef τ sig)) (Y (main_arg5 : DevRef τ sig)) (Forms.row (Y (main_arg6 : DevRef τ sig))) := by
  after_results_simp
  simp only [TRef.toBuf, TRef.ofBuf, cast_eq]
  funext i
  obtain ⟨a, b, rfl⟩ : ∃ (a : Fin 16384) (b : Fin 512), i = ix2 a b := ⟨i 0, i 1, eq_ix2 i⟩
  rw [relu_apply, dense_apply dot_S16384x1024_S1024x512_S16384x512_1_0_0_1_n_n rfl]
  rfl

/-! ## Stretch 5: the batch mean and variance of the rectified second layer -/

/-- The column sums divided by 16384. -/
theorem ops5_v43 (Y : Valuation τ sig (Elt Ideal)) :
    (after (ops5 (F := Ideal)) Y (main_v43 : DevRef τ sig) : Forms.A1 512)
      = fun k => Forms.meanR (Y (main_v40 : DevRef τ sig) : Forms.A2 16384 512) (k 0) := by
  after_results_simp
  funext k
  rw [hostDivf_apply, colsum_apply _ (by decide), bscalar_apply, constant_apply]
  rfl

/-- The sum down the rows, read at a column given by its coordinate. -/
theorem colsum_ix1 {m n : Nat} (hR : (⟨2, ![m, n]⟩ : Shape).ReducesTo [0] ⟨1, ![n]⟩)
    (h : (⟨2, ![m, n]⟩ : Shape).Reduces [0] ⟨1, ![n]⟩) (hu : 0 < (⟨0, ![]⟩ : Shape).numel)
    (X : FVec Ideal ⟨2, ![m, n]⟩ .f32) (c : Fin n) :
    Host.reduceAdd X (constant ⟨0, ![]⟩ .f32 0x00000000#32) hR hu (ix1 c) = ∑ b : Fin m, X (ix2 b c) :=
  colsum_apply hR h hu X (ix1 c)

/-- The variance function's body: the mean again, the squared deviations' column sums divided by 16384 - 0; its
    guard against a divisor that is not positive is constant-true, so its not-a-number fill is never read. -/
theorem ops5_v44 (Y : Valuation τ sig (Elt Ideal)) :
    (after (ops5 (F := Ideal)) Y (main_v44 : DevRef τ sig) : Forms.A1 512)
      = fun k => Forms.varR (Y (main_v40 : DevRef τ sig) : Forms.A2 16384 512) (k 0) := by
  after_results_simp
  simp only [TRef.toBuf, TRef.ofBuf, cast_eq]
  funext k
  obtain ⟨c, rfl⟩ : ∃ c : Fin 512, k = ix1 c := ⟨k 0, eq_ix1 k⟩
  simp only [select_apply, bscalar_apply, cmpf_apply, subf_apply, mulf_apply, sitofp_apply, constant_apply,
    hostDivf_apply, colsum_ix1 reducesTo_S16384x512_S512_d0 (by decide) h_S_, bcast01_apply, bcast1_apply]
  simp only [ddof_zero, sub_zero, Ideal.cmpf_def, guard_one, select_one]
  rfl

/-! ## Stretch 6: the second normalization and the third layer -/

/-- The third layer over the second layer normalized with the mean, variance, scale and shift found in their
    buffers: each a row copied down the matrix, the variance plus the floor under the reciprocal square root. -/
theorem ops6_v63 (Y : Valuation τ sig (Elt Ideal)) :
    (after (ops6 (F := Ideal)) Y (main_v63 : DevRef τ sig) : Forms.A2 16384 64)
      = Forms.hofF (fun i => Forms.bnF (Y (main_v40 : DevRef τ sig) : Forms.A2 16384 512)
            (fun k => Y (main_v43 : DevRef τ sig) (ix1 k)) (fun k => Y (main_v44 : DevRef τ sig) (ix1 k))
            (fun k => Y (main_arg7 : DevRef τ sig) (ix1 k)) (fun k => Y (main_arg8 : DevRef τ sig) (ix1 k)) (i 0) (i 1))
          (Y (main_arg9 : DevRef τ sig)) (Forms.row (Y (main_arg10 : DevRef τ sig))) := by
  after_results_simp
  funext i
  obtain ⟨a, b, rfl⟩ : ∃ (a : Fin 16384) (b : Fin 64), i = ix2 a b := ⟨i 0, i 1, eq_ix2 i⟩
  refine (dense_apply dot_S16384x512_S512x64_S16384x64_1_0_0_1_n_n rfl _ _ _ _ _ a b).trans ?_
  simp only [addf_apply, mulf_apply, subf_apply, bcast_rows, hostRsqrt_apply, bscalar_apply, constant_apply]
  rfl

/-! ## Stretch 7: the concatenation against the last weight column -/

/-- The projection of the 560 concatenated columns plus the bias: the concatenation read at column j is the third
    layer's column j below 64 and the pair product j - 64 from there on. -/
theorem ops7_v68 (Y : Valuation τ sig (Elt Ideal)) :
    (after (ops7 (F := Ideal)) Y (main_v68 : DevRef τ sig) : Forms.A2 16384 1)
      = Forms.outRF (Y (main_v63 : DevRef τ sig)) (Y (main_v10 : DevRef τ sig)) (Y (main_arg11 : DevRef τ sig))
          (Y (main_arg12 : DevRef τ sig)) := by
  after_results_simp
  funext i
  obtain ⟨a, z, rfl⟩ : ∃ (a : Fin 16384) (z : Fin 1), i = ix2 a z := ⟨i 0, i 1, eq_ix2 i⟩
  obtain rfl : z = 0 := Subsingleton.elim _ _
  refine (dense_apply dot_S16384x560_S560x1_S16384x1_1_0_0_1_n_n rfl _ _ _ _ _ a 0).trans ?_
  show _ = (∑ j : Fin 560, _ * _) + _
  refine congrArg (· + _) (Finset.sum_congr rfl fun j _ => congrArg (· * _) ?_)
  by_cases h : j.val < 64
  · rw [dif_pos h]
    exact concatenate_pair_apply_left (s₁ := S16384x64) (s₂ := S16384x496) 1 _ _ _ (ix2 a j) rfl
      (ix2 a (⟨j.val, h⟩ : Fin 64)) (by intro c; fin_cases c <;> rfl)
  · rw [dif_neg h]
    exact concatenate_pair_apply_right (s₁ := S16384x64) (s₂ := S16384x496) 1 _ _ _ (ix2 a j) rfl rfl
      (ix2 a (⟨j.val - 64, by have := j.isLt; omega⟩ : Fin 496))
      (by intro c hc; fin_cases c
          · rfl
          · exact absurd rfl hc)
      (by show j.val - 64 + 64 = j.val; omega)

/-! ## The second half assembled -/

/-- The reference's second half as a function of the first half's two results and the eight arguments it reads:
    the second layer rectified and normalized by its own batch statistics, the third layer, and the projection of
    the third layer's columns beside the gathered pair products. -/
def halfB (H1 : Forms.A2 16384 1024) (PR : Forms.A2 16384 496) (W2 : Forms.A2 1024 512) (b2 g2 be2 : Forms.A1 512)
    (W3 : Forms.A2 512 64) (b3 : Forms.A1 64) (Wc : Forms.A2 560 1) (bc : Forms.A1 1) : Forms.A2 16384 1 :=
  Forms.outRF
    (Forms.hofF
      (fun i => Forms.bnF (Forms.actF H1 W2 (Forms.row b2)) (Forms.meanR (Forms.actF H1 W2 (Forms.row b2)))
        (Forms.varR (Forms.actF H1 W2 (Forms.row b2))) (fun k => g2 (ix1 k)) (fun k => be2 (ix1 k)) (i 0) (i 1))
      W3 (Forms.row b3))
    PR Wc bc

section Tail

variable (X : Valuation τ sig (Elt Ideal))

local notation "𝕋" => after (ops7 (F := Ideal)) (after (ops6 (F := Ideal)) (after (ops5 (F := Ideal)) (after (ops4 (F := Ideal)) X)))

/-- Stretches 4 to 7 from any contents: the last result is the second half of the contents they leave at the
    second layer's input, the gathered products and the eight arguments (none of which they write after the
    second layer's input is made). -/
theorem tail_v68 :
    (𝕋 (main_v68 : DevRef τ sig) : Forms.A2 16384 1)
      = halfB (𝕋 (main_v35 : DevRef τ sig)) (𝕋 (main_v10 : DevRef τ sig)) (𝕋 (main_arg5 : DevRef τ sig))
          (𝕋 (main_arg6 : DevRef τ sig)) (𝕋 (main_arg7 : DevRef τ sig)) (𝕋 (main_arg8 : DevRef τ sig))
          (𝕋 (main_arg9 : DevRef τ sig)) (𝕋 (main_arg10 : DevRef τ sig)) (𝕋 (main_arg11 : DevRef τ sig))
          (𝕋 (main_arg12 : DevRef τ sig)) := by
  rw [after_ops4 X]
  generalize after (List.take 16 (ops4 (F := Ideal))) X = Y
  -- the right side's reads, each carried back across the stretches that do not write it
  rw [ops7_of (r := main_v10) _ (by decide), ops7_of (r := main_arg11) _ (by decide), ops7_of (r := main_arg12) _ (by decide),
    ops7_of (r := main_arg7) _ (by decide), ops6_of (r := main_arg7) _ (by decide),
    ops7_of (r := main_arg8) _ (by decide), ops6_of (r := main_arg8) _ (by decide),
    ops7_of (r := main_arg9) _ (by decide), ops6_of (r := main_arg9) _ (by decide),
    ops7_of (r := main_arg10) _ (by decide), ops6_of (r := main_arg10) _ (by decide),
    ops7_of (r := main_v35) _ (by decide), ops6_of (r := main_v35) _ (by decide), ops5_of (r := main_v35) _ (by decide),
    ops4b_of (r := main_v35) _ (by decide),
    ops7_of (r := main_arg5) _ (by decide), ops6_of (r := main_arg5) _ (by decide), ops5_of (r := main_arg5) _ (by decide),
    ops4b_of (r := main_arg5) _ (by decide),
    ops7_of (r := main_arg6) _ (by decide), ops6_of (r := main_arg6) _ (by decide), ops5_of (r := main_arg6) _ (by decide),
    ops4b_of (r := main_arg6) _ (by decide)]
  -- the left side, stretch by stretch
  rw [ops7_v68, ops6_v63, ops5_v43, ops5_v44, ops5_of (r := main_v40) _ (by decide), ops4b_v40]
  rfl

end Tail

/-- The last result of the whole line, over the first half's two results. -/
theorem read_v68' (W : Valuation τ sig (Elt Ideal)) :
    (after (ops (F := Ideal)) W (main_v68 : DevRef τ sig) : Forms.A2 16384 1)
      = halfB (after (ops (F := Ideal)) W (main_v35 : DevRef τ sig)) (after (ops (F := Ideal)) W (main_v10 : DevRef τ sig))
          (W (main_arg5 : DevRef τ sig)) (W (main_arg6 : DevRef τ sig)) (W (main_arg7 : DevRef τ sig))
          (W (main_arg8 : DevRef τ sig)) (W (main_arg9 : DevRef τ sig)) (W (main_arg10 : DevRef τ sig))
          (W (main_arg11 : DevRef τ sig)) (W (main_arg12 : DevRef τ sig)) := by
  have h := tail_v68 (after (ops3 (F := Ideal)) (after (ops2 (F := Ideal)) (after (ops1 (F := Ideal)) (after (ops0 (F := Ideal)) W))))
  rw [← after_ops W] at h
  rw [h, ops_of W (r := main_arg5) (by decide), ops_of W (r := main_arg6) (by decide), ops_of W (r := main_arg7) (by decide),
    ops_of W (r := main_arg8) (by decide), ops_of W (r := main_arg9) (by decide), ops_of W (r := main_arg10) (by decide),
    ops_of W (r := main_arg11) (by decide), ops_of W (r := main_arg12) (by decide)]

/-- The same, spelt out. -/
theorem read_v68 (W : Valuation τ sig (Elt Ideal)) :
    (after (ops (F := Ideal)) W (main_v68 : DevRef τ sig) : Forms.A2 16384 1)
      = Forms.outRF
          (Forms.hofF
            (fun i => Forms.bnF
              (Forms.actF (after (ops (F := Ideal)) W (main_v35 : DevRef τ sig)) (W (main_arg5 : DevRef τ sig)) (Forms.row (W (main_arg6 : DevRef τ sig))))
              (Forms.meanR (Forms.actF (after (ops (F := Ideal)) W (main_v35 : DevRef τ sig)) (W (main_arg5 : DevRef τ sig)) (Forms.row (W (main_arg6 : DevRef τ sig)))))
              (Forms.varR (Forms.actF (after (ops (F := Ideal)) W (main_v35 : DevRef τ sig)) (W (main_arg5 : DevRef τ sig)) (Forms.row (W (main_arg6 : DevRef τ sig)))))
              (fun k => W (main_arg7 : DevRef τ sig) (ix1 k)) (fun k => W (main_arg8 : DevRef τ sig) (ix1 k)) (i 0) (i 1))
            (W (main_arg9 : DevRef τ sig)) (Forms.row (W (main_arg10 : DevRef τ sig))))
          (after (ops (F := Ideal)) W (main_v10 : DevRef τ sig)) (W (main_arg11 : DevRef τ sig)) (W (main_arg12 : DevRef τ sig)) :=
  read_v68' W

/-! ## The reference's result from the thirteen argument arrays -/

/-- The argument arrays at launch. -/
def argsOf (m : (ℓ : Loc nD τ sig) → Buf (Elt Ideal) ℓ) (c : Dev nD) : Cert.Forms.Args where
  x := m ((c : Thread nD τ).loc main_arg0)
  W1 := m ((c : Thread nD τ).loc main_arg1)
  b1 := m ((c : Thread nD τ).loc main_arg2)
  g1 := m ((c : Thread nD τ).loc main_arg3)
  be1 := m ((c : Thread nD τ).loc main_arg4)
  W2 := m ((c : Thread nD τ).loc main_arg5)
  b2 := m ((c : Thread nD τ).loc main_arg6)
  g2 := m ((c : Thread nD τ).loc main_arg7)
  be2 := m ((c : Thread nD τ).loc main_arg8)
  W3 := m ((c : Thread nD τ).loc main_arg9)
  b3 := m ((c : Thread nD τ).loc main_arg10)
  Wc := m ((c : Thread nD τ).loc main_arg11)
  bc := m ((c : Thread nD τ).loc main_arg12)

end Cert.ReferenceIdeal.Hand
end
-- ==== Proof.Ref.RefOut.lean ====
/-
  The reference's result as the closed form of its thirteen argument arrays: the second half read over the first
  half's two results (the first normalization and the gathered pair products), each replaced by its own closed form.
-/
import proofs.«128293_j31387620999258_1_alg».proof.Proof.Ref.ReadA
import proofs.«128293_j31387620999258_1_alg».proof.Proof.Ref.ReadB

noncomputable section

namespace Cert.ReferenceIdeal.Hand

open Idealize.ShloMosaic Idealize.ShloMosaic.TcCoe Idealize.SL Idealize.SL.Sem Cert.ReferenceIdeal Cert.ReferenceIdeal.Gen
open Idealize.ShloMosaic.StableHlo Idealize.ShloMosaic.ValueIdx

/-- The reference's result is the closed form of its arguments: the last result over the first half's two results,
    the first normalization and the gathered pair products, and those two over the arguments. -/
theorem ref_out (m : (ℓ : Loc nD τ sig) → Buf (Elt Ideal) ℓ) (c : Dev nD) :
    (StableHlo.after (ops (F := Ideal)) (fun b => m (c, b)) (Proc.devRef .tc main_v68) : Cert.Forms.A2 16384 1)
      = Cert.Forms.outR (argsOf m c) iuR juR := by
  rw [read_v68, read_v35, read_v10]
  rfl

end Cert.ReferenceIdeal.Hand

end
-- ==== Proof.MathA.lean ====
/-
  Program-free mathematics, first part: extended reals that are real numbers, and the batch statistics.

  A value of the closed forms is an extended real. Where every entry of an array is (the coercion of) a real
  number, every operation of the closed forms that stays off its corners returns a coerced real again, so a
  claim about such arrays comes down to a claim about real numbers. This file has

  * the closure of "is a real number" under sum, difference, product, maximum and finite sums;
  * what the three single-precision words of the closed forms denote: 2^-14 = 1/16384, 16384, and the variance floor;
  * two identities of real numbers: a sum times 1/16384 is the sum divided by 16384, and
    (Σ g²)/N − ((Σ g)/N)² = (Σ (g − (Σ g)/N)²)/N for N = 16384, whose right side is visibly non-negative;
  * from these, for an array of real entries of any width: the two means agree, the two variances agree, and the
    variance is a non-negative real.
-/
import proofs.«128293_j31387620999258_1_alg».proof.Proof.Forms
import proofs.«128293_j31387620999258_1_alg».proof.Proof.LibCoe
import Mathlib.Algebra.BigOperators.Group.Finset.Basic
import Mathlib.Algebra.BigOperators.Ring.Finset
import Mathlib.Algebra.Order.BigOperators.Group.Finset
import Mathlib.Data.Fintype.Card
import Mathlib.Tactic.Ring
import Mathlib.Tactic.NormNum
import Mathlib.Tactic.Linarith

noncomputable section

namespace Cert.Math

open Idealize.ShloMosaic Idealize.ShloMosaic.ValueIdx
open Cert.Forms Cert.LibCoe
open Finset BigOperators

/-! ### Extended reals that are real numbers -/

/-- An extended real that is the coercion of a real number. -/
def IsR (x : E) : Prop := ∃ r : ℝ, x = (r : E)

theorem isR_coe (r : ℝ) : IsR (r : E) := ⟨r, rfl⟩

theorem isR_zero : IsR (0 : E) := ⟨0, EReal.coe_zero.symm⟩

theorem isR_add {x y : E} (hx : IsR x) (hy : IsR y) : IsR (x + y) := by
  obtain ⟨a, rfl⟩ := hx; obtain ⟨b, rfl⟩ := hy; exact ⟨a + b, add_coe a b⟩

theorem isR_sub {x y : E} (hx : IsR x) (hy : IsR y) : IsR (x - y) := by
  obtain ⟨a, rfl⟩ := hx; obtain ⟨b, rfl⟩ := hy; exact ⟨a - b, sub_coe a b⟩

theorem isR_mul {x y : E} (hx : IsR x) (hy : IsR y) : IsR (x * y) := by
  obtain ⟨a, rfl⟩ := hx; obtain ⟨b, rfl⟩ := hy; exact ⟨a * b, mul_coe a b⟩

theorem isR_max {x y : E} (hx : IsR x) (hy : IsR y) : IsR (max x y) := by
  obtain ⟨a, rfl⟩ := hx; obtain ⟨b, rfl⟩ := hy; exact ⟨max a b, max_coe a b⟩

/-- A finite sum of real numbers is a real number. -/
theorem isR_sum {ι : Type*} [Fintype ι] {f : ι → E} (hf : ∀ i, IsR (f i)) : IsR (∑ i, f i) := by
  choose g hg using hf
  refine ⟨∑ i, g i, ?_⟩
  rw [← sum_coe]
  exact Finset.sum_congr rfl (fun i _ => hg i)

/-! ### The three words -/

/-- The word `0x38800000` (exponent field 113, fraction 0) denotes 2^-14 = 1/16384. -/
theorem c14_eq : c14 = (((1 : ℝ) / 16384 : ℝ) : E) := by
  unfold c14
  simp [Ideal.ofBits, Ideal.ieee, -EReal.coe_mul]; norm_num

/-- The word `0x46800000` (exponent field 141, fraction 0) denotes 2^14 = 16384. -/
theorem n16384_eq : n16384 = ((16384 : ℝ) : E) := by
  unfold n16384
  simp [Ideal.ofBits, Ideal.ieee, -EReal.coe_mul]; norm_num

/-- The variance floor is the positive real `epsR`. -/
theorem eps_eq : eps = ((epsR : ℝ) : E) := ofBits_eps

/-! ### Two identities of real numbers -/

/-- The variance as "mean of squares minus square of the mean" is the mean squared deviation, for 16384 terms
    and the mean taken as the sum times 1/16384: expand the square and use that the constant summand counts
    16384 times. -/
theorem real_var (g : Fin 16384 → ℝ) :
    (∑ b, g b * g b) * (1 / 16384) - ((∑ b, g b) * (1 / 16384)) * ((∑ b, g b) * (1 / 16384))
      = (∑ b, (g b - (∑ c, g c) / 16384) * (g b - (∑ c, g c) / 16384)) / 16384 := by
  have h : ∀ m : ℝ, ∑ b, (g b - m) * (g b - m)
      = (∑ b, g b * g b) - 2 * m * (∑ b, g b) + 16384 * (m * m) := by
    intro m
    have e : ∀ b, (g b - m) * (g b - m) = g b * g b - 2 * m * g b + m * m := fun b => by ring
    simp only [e]
    rw [Finset.sum_add_distrib, Finset.sum_sub_distrib, ← Finset.mul_sum, Finset.sum_const,
      Finset.card_univ, Fintype.card_fin, nsmul_eq_mul]
    norm_num
  rw [h]; ring

/-! ### Statistics of an array of real entries -/

section Stats

variable {n : Nat}

/-- The column mean of a real array, as a real number. -/
def meanRe (f : (⟨2, ![16384, n]⟩ : Shape).Idx → ℝ) (k : Fin n) : ℝ := (∑ b : Fin 16384, f (ix2 b k)) / 16384

/-- The column variance of a real array, as a real number: the mean squared deviation. -/
def varRe (f : (⟨2, ![16384, n]⟩ : Shape).Idx → ℝ) (k : Fin n) : ℝ :=
  (∑ b : Fin 16384, (f (ix2 b k) - meanRe f k) * (f (ix2 b k) - meanRe f k)) / 16384

theorem varRe_nonneg (f : (⟨2, ![16384, n]⟩ : Shape).Idx → ℝ) (k : Fin n) : 0 ≤ varRe f k :=
  div_nonneg (Finset.sum_nonneg fun _ _ => mul_self_nonneg _) (by norm_num)

/-- The sum times 2^-14, on a real array, is the real mean. -/
theorem meanK_coe (f : (⟨2, ![16384, n]⟩ : Shape).Idx → ℝ) (k : Fin n) :
    meanK (fun i => (f i : E)) k = ((meanRe f k : ℝ) : E) := by
  simp only [meanK, meanRe]
  rw [sum_coe, c14_eq, mul_coe]
  congr 1; ring

/-- The sum divided by 16384, on a real array, is the real mean: the divisor is not zero. -/
theorem meanR_coe (f : (⟨2, ![16384, n]⟩ : Shape).Idx → ℝ) (k : Fin n) :
    meanR (fun i => (f i : E)) k = ((meanRe f k : ℝ) : E) := by
  simp only [meanR, meanRe]
  rw [sum_coe, n16384_eq, div_coe_coe _ (by norm_num)]

/-- The mean squared deviation, on a real array, is the real variance. -/
theorem varR_coe (f : (⟨2, ![16384, n]⟩ : Shape).Idx → ℝ) (k : Fin n) :
    varR (fun i => (f i : E)) k = ((varRe f k : ℝ) : E) := by
  simp only [varR, meanR_coe, sub_coe, mul_coe]
  rw [sum_coe, n16384_eq, div_coe_coe _ (by norm_num)]
  rfl

/-- Mean of squares minus square of the mean, on a real array, is the real variance (`real_var`). -/
theorem varK_coe (f : (⟨2, ![16384, n]⟩ : Shape).Idx → ℝ) (k : Fin n) :
    varK (fun i => (f i : E)) k = ((varRe f k : ℝ) : E) := by
  simp only [varK, meanK_coe, mul_coe]
  rw [sum_coe, c14_eq, mul_coe, sub_coe]
  congr 1
  have h := real_var (fun b => f (ix2 b k))
  simp only [varRe, meanRe]
  rw [← h]; ring

variable (A : A2 16384 n) (hA : ∀ i, IsR (A i))
include hA

/-- On an array of real entries the two means agree. -/
theorem meanK_eq_meanR (k : Fin n) : meanK A k = meanR A k := by
  choose f hf using hA
  obtain rfl : A = fun i => (f i : E) := funext hf
  rw [meanK_coe, meanR_coe]

/-- On an array of real entries the two variances agree. -/
theorem varK_eq_varR (k : Fin n) : varK A k = varR A k := by
  choose f hf using hA
  obtain rfl : A = fun i => (f i : E) := funext hf
  rw [varK_coe, varR_coe]

/-- The mean of an array of real entries is a real number. -/
theorem meanR_isR (k : Fin n) : IsR (meanR A k) := by
  choose f hf using hA
  obtain rfl : A = fun i => (f i : E) := funext hf
  exact ⟨_, meanR_coe f k⟩

/-- The variance of an array of real entries is a non-negative real number. -/
theorem varR_nonneg (k : Fin n) : ∃ v : ℝ, 0 ≤ v ∧ varR A k = (v : E) := by
  choose f hf using hA
  obtain rfl : A = fun i => (f i : E) := funext hf
  exact ⟨_, varRe_nonneg f k, varR_coe f k⟩

end Stats

end Cert.Math

end
-- ==== Proof.MathB.lean ====
/-
  Program-free mathematics, second part: the stages of the two closed forms.

  * A dense layer with a rectifier (`actF`) of real arrays is a real array.
  * The kernel's normalization, read from its own two-row statistics, is the reference's normalization with the
    reference's statistics, as soon as the normalized array has real entries (the two means and the two variances
    agree there); and the normalized array is real again, because the variance is non-negative, so that the
    argument of the reciprocal square root is positive.
  * The two projections of the kernel's last stage are the one projection of the reference's: a sum over
    560 = 64 + 496 terms is the sum of its first 64 and its last 496 terms. This needs no finiteness.
-/
import proofs.«128293_j31387620999258_1_alg».proof.Proof.MathA
import Mathlib.Algebra.BigOperators.Fin

noncomputable section

namespace Cert.Math

open Idealize.ShloMosaic Idealize.ShloMosaic.ValueIdx
open Cert.Forms Cert.LibCoe
open Finset BigOperators

/-! ### Reshapes keep real entries -/

theorem flat_isR (X : A3 16384 32 64) (hX : ∀ i, IsR (X i)) (i) : IsR (flat X i) := hX _

theorem row_isR {n : Nat} (v : A1 n) (hv : ∀ i, IsR (v i)) (i) : IsR (row v i) := hv _

/-! ### A dense layer with a rectifier -/

/-- Sums of products of reals, plus a real, against zero under the maximum: a real. -/
theorem actF_isR {nin nout : Nat} (H : A2 16384 nin) (W : A2 nin nout) (B : A2 1 nout)
    (hH : ∀ i, IsR (H i)) (hW : ∀ i, IsR (W i)) (hB : ∀ i, IsR (B i)) (i) : IsR (actF H W B i) :=
  isR_max (isR_add (isR_sum fun _ => isR_mul (hH _) (hW _)) (hB _)) isR_zero

/-! ### Batch normalization -/

section Bn

variable {n : Nat}

/-- Row 0 of the kernel's statistics is its mean. -/
theorem statsK_row0 (A : A2 16384 n) (k : Fin n) : statsK A (ix2 0 k) = meanK A k := if_pos rfl

/-- Row 1 of the kernel's statistics is its variance. -/
theorem statsK_row1 (A : A2 16384 n) (k : Fin n) : statsK A (ix2 1 k) = varK A k :=
  if_neg (show ¬ ((1 : Fin 2).val = 0) by decide)

/-- The kernel's normalization with the kernel's statistics is the reference's normalization with the
    reference's statistics, on an array of real entries. -/
theorem bnK_eq (A : A2 16384 n) (hA : ∀ i, IsR (A i)) (G Be : A1 n) :
    bnK A (statsK A) (row G) (row Be)
      = fun i => bnF A (meanR A) (varR A) (fun k => G (ix1 k)) (fun k => Be (ix1 k)) (i 0) (i 1) := by
  funext i
  obtain ⟨b, k, rfl⟩ : ∃ b k, i = ix2 b k := ⟨i 0, i 1, eq_ix2 i⟩
  show G (ix1 k) * (A (ix2 b k) - statsK A (ix2 0 k)) * Ideal.rsqrt (statsK A (ix2 1 k) + eps) + Be (ix1 k)
    = G (ix1 k) * (A (ix2 b k) - meanR A k) * Ideal.rsqrt (varR A k + eps) + Be (ix1 k)
  rw [statsK_row0, statsK_row1, meanK_eq_meanR A hA, varK_eq_varR A hA]

/-- The reference's normalization of a real array, with real scale and shift, is real: the variance is a
    non-negative real, the floor is positive, so the reciprocal square root is taken of a positive real. -/
theorem bnF_isR (A : A2 16384 n) (hA : ∀ i, IsR (A i)) (G Be : Fin n → E)
    (hG : ∀ k, IsR (G k)) (hBe : ∀ k, IsR (Be k)) (b : Fin 16384) (k : Fin n) :
    IsR (bnF A (meanR A) (varR A) G Be b k) := by
  obtain ⟨v, hv0, hv⟩ := varR_nonneg A hA k
  have hpos : 0 < v + epsR := by have := epsR_pos; linarith
  unfold bnF
  rw [hv, eps_eq, add_coe, rsqrt_coe_pos hpos]
  exact isR_add (isR_mul (isR_mul (hG k) (isR_sub (hA _) (meanR_isR A hA k))) (isR_coe _)) (hBe k)

end Bn

/-! ### The last stage: one projection of a concatenation is two projections -/

/-- The sum over 560 = 64 + 496 terms splits into its first 64 and its last 496; on the first the
    concatenation reads the deep features, on the last the pair products. -/
theorem outKF_eq_outRF (HOF : A2 16384 64) (PR : A2 16384 496) (Wc : A2 560 1) (bc : A1 1) :
    outKF HOF PR
      (fun i => Wc (ix2 ⟨(i 0).val, by have h : (i 0).val < 64 := (i 0).isLt; omega⟩ 0))
      (fun i => Wc (ix2 ⟨(i 0).val + 64, by have h : (i 0).val < 496 := (i 0).isLt; omega⟩ 0))
      (fun _ => bc (ix1 0))
      = outRF HOF PR Wc bc := by
  funext i
  simp only [outKF, outRF]
  congr 1
  have hs := Fin.sum_univ_add (a := 64) (b := 496) (fun j : Fin (64 + 496) =>
      (if h : j.val < 64 then HOF (ix2 (i 0) ⟨j.val, h⟩)
        else PR (ix2 (i 0) ⟨j.val - 64, by have := j.isLt; omega⟩)) * Wc (ix2 j 0))
  refine Eq.trans ?_ hs.symm
  refine congrArg₂ (· + ·) ?_ ?_
  · refine Finset.sum_congr rfl fun k _ => ?_
    have hk : (Fin.castAdd 496 k).val < 64 := k.isLt
    rw [dif_pos hk]
    rfl
  · refine Finset.sum_congr rfl fun p _ => ?_
    have hp : ¬ (Fin.natAdd 64 p).val < 64 := by rw [Fin.coe_natAdd]; omega
    rw [dif_neg hp]
    refine congrArg₂ (fun (q : Fin 496) (r : Fin 560) => PR (ix2 (i 0) q) * Wc (ix2 r 0))
      (Fin.ext ?_) (Fin.ext ?_)
    · show p.val = 64 + p.val - 64
      omega
    · show p.val + 64 = 64 + p.val
      omega

end Cert.Math

end
-- ==== Proof.Math.lean ====
/-
  Program-free mathematics: the kernel's closed form is the reference's, on real arguments.

  Both closed forms run the same stages on the same arguments and differ in the statistics of the two batch
  normalizations and in the shape of the last projection. Going down the stages: the flattened features, the
  first dense layer and its rectifier give an array of real entries; there the kernel's normalization is the
  reference's, and its result is real again; so are the second dense layer and the second normalization. The third
  dense layer and the pair products are then the same arrays on both sides, and the two projections of the one are
  the single projection of the other.
-/
import proofs.«128293_j31387620999258_1_alg».proof.Proof.MathB

noncomputable section

namespace Cert.Math

open Idealize.ShloMosaic Idealize.ShloMosaic.ValueIdx
open Cert.Forms Cert.LibCoe
open Finset BigOperators

/-- On real arguments the kernel's result is the reference's. -/
theorem outK_eq_outR (a : Cert.Forms.Args) (iu ju : Fin 496 → Fin 32) (h : a.Finite) :
    Cert.Forms.outK a iu ju = Cert.Forms.outR a iu ju := by
  obtain ⟨hx, hW1, hb1, hg1, hbe1, hW2, hb2, hg2, hbe2, _, _, _, _⟩ := h
  -- first layer: real entries, so the two normalizations agree and give real entries
  have hact1 : ∀ i, IsR (actF (flat a.x) a.W1 (row a.b1) i) :=
    actF_isR _ _ _ (flat_isR _ hx) hW1 (row_isR _ hb1)
  have e1 := bnK_eq _ hact1 a.g1 a.be1
  have hh1 : ∀ i : (⟨2, ![16384, 1024]⟩ : Shape).Idx,
      IsR (bnF (actF (flat a.x) a.W1 (row a.b1)) (meanR _) (varR _)
        (fun k => a.g1 (ix1 k)) (fun k => a.be1 (ix1 k)) (i 0) (i 1)) :=
    fun i => bnF_isR _ hact1 _ _ (fun _ => hg1 _) (fun _ => hbe1 _) (i 0) (i 1)
  -- second layer, the same way
  have hact2 := actF_isR _ a.W2 (row a.b2) hh1 hW2 (row_isR _ hb2)
  have e2 := bnK_eq _ hact2 a.g2 a.be2
  -- the stages agree up to the last; there the sum over 560 terms splits
  simp only [outK, outR]
  rw [e1, e2]
  exact outKF_eq_outRF _ _ _ _

end Cert.Math

end
-- ==== Proof.FinPre.lean ====
/-
  Finiteness from the precondition. The printed predicate is a thirteen-fold conjunction, one conjunct per input array:
  "every entry x of the array has |x| < +∞", each read as a reduction by `and` of the elementwise comparison
  |x| < +∞ over all axes. At the extended reals |x| is max x (-x), and max x (-x) < ⊤ holds exactly for the reals:
  at ⊥ and at ⊤ the maximum is ⊤. So the predicate being 1 makes every entry of every input a real.
-/
import proofs.«128293_j31387620999258_1_alg».proof.Pre_finite_inputs
import Idealize.ShloMosaic.Lib.ReduceAll
import Idealize.ShloMosaic.PureOps.Ideal

noncomputable section

namespace Cert.FinPre

open Idealize.ShloMosaic Cert.Pre_finite_inputs

/-- The scalar shape has one index: an index of rank 0 has no coordinate to differ in. -/
instance : Subsingleton S_.Idx := ⟨fun a b => funext fun d => d.elim0⟩

/-- The pattern 0x7F800000 denotes +∞. -/
theorem ofBits_inf : Ideal.ofBits .f32 0x7F800000#32 = (⊤ : EReal) := by simp [Ideal.ofBits, Ideal.ieee]

/-- An extended real whose absolute value max x (-x) is below +∞ is a real: at ⊥ and at ⊤ that maximum is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct of the predicate: if the reduction by `and`, over all axes, of the comparison |x| < +∞ is 1,
    then every entry of x is a real. The reduction being 1 gives the comparison at each index; the comparison is the
    order's; the bound is ⊤. -/
theorem real_of_all {s : Shape} {axes : List (Fin s.rank)} (x : FVec Ideal s .f32)
    (bc : S_.BroadcastsInDim s (![] : Fin 0 → Fin s.rank)) (hr : s.ReducesTo axes S_) (hu : 0 < S_.numel) (j : S_.Idx)
    (e : Host.reduce IntOp.andi (cmpf .olt (Host.absf x) (broadcastInDim s ![] bc (constant S_ .f32 0x7F800000#32)))
        (constantI S_ 1 1#1) hr hu j = 1#1) (i : s.Idx) : ∃ r : ℝ, x i = ((r : ℝ) : EReal) := by
  have hi := Host.reduce_andi_all _ _ hr hu j e i
  change BitVec.ofBool (decide (max (x i) (-(x i)) < Ideal.ofBits .f32 0x7F800000#32)) = 1#1 at hi
  rw [ofBits_inf] at hi
  apply real_of_abs_lt_top
  by_contra hn
  rw [decide_eq_false hn] at hi
  exact absurd hi (by decide)

/-- The predicate being 1 makes every entry of each of the thirteen inputs a real. The predicate's value at the one
    scalar index is a left-nested `and` of the thirteen reductions; each `and` that is 1 has both operands 1. -/
theorem finite_of_fn [Cert.Pre_finite_inputs.Facts]
    (a0 : FVec Ideal S16384x32x64 .f32) (a1 : FVec Ideal S2048x1024 .f32) (a2 : FVec Ideal S1024 .f32) (a3 : FVec Ideal S1024 .f32) (a4 : FVec Ideal S1024 .f32) (a5 : FVec Ideal S1024x512 .f32) (a6 : FVec Ideal S512 .f32) (a7 : FVec Ideal S512 .f32) (a8 : FVec Ideal S512 .f32) (a9 : FVec Ideal S512x64 .f32) (a10 : FVec Ideal S64 .f32) (a11 : FVec Ideal S560x1 .f32) (a12 : FVec Ideal S1 .f32)
    (h : Cert.Pre_finite_inputs.fn (F := Ideal) a0 a1 a2 a3 a4 a5 a6 a7 a8 a9 a10 a11 a12 = fun _ => 1#1) :
    (∀ i, ∃ r : ℝ, a0 i = ((r : ℝ) : EReal)) ∧
      (∀ i, ∃ r : ℝ, a1 i = ((r : ℝ) : EReal)) ∧
      (∀ i, ∃ r : ℝ, a2 i = ((r : ℝ) : EReal)) ∧
      (∀ i, ∃ r : ℝ, a3 i = ((r : ℝ) : EReal)) ∧
      (∀ i, ∃ r : ℝ, a4 i = ((r : ℝ) : EReal)) ∧
      (∀ i, ∃ r : ℝ, a5 i = ((r : ℝ) : EReal)) ∧
      (∀ i, ∃ r : ℝ, a6 i = ((r : ℝ) : EReal)) ∧
      (∀ i, ∃ r : ℝ, a7 i = ((r : ℝ) : EReal)) ∧
      (∀ i, ∃ r : ℝ, a8 i = ((r : ℝ) : EReal)) ∧
      (∀ i, ∃ r : ℝ, a9 i = ((r : ℝ) : EReal)) ∧
      (∀ i, ∃ r : ℝ, a10 i = ((r : ℝ) : EReal)) ∧
      (∀ i, ∃ r : ℝ, a11 i = ((r : ℝ) : EReal)) ∧
      (∀ i, ∃ r : ℝ, a12 i = ((r : ℝ) : EReal)) := by
  have h0 := congrFun h (fun d : Fin 0 => d.elim0)
  dsimp only [fn, fn_part1, fn_part2, fn_part3, Idealize.ShloMosaic.andi] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ _ e0,
    real_of_all a1 _ _ _ _ e1,
    real_of_all a2 _ _ _ _ e2,
    real_of_all a3 _ _ _ _ e3,
    real_of_all a4 _ _ _ _ e4,
    real_of_all a5 _ _ _ _ e5,
    real_of_all a6 _ _ _ _ e6,
    real_of_all a7 _ _ _ _ e7,
    real_of_all a8 _ _ _ _ e8,
    real_of_all a9 _ _ _ _ e9,
    real_of_all a10 _ _ _ _ e10,
    real_of_all a11 _ _ _ _ e11,
    real_of_all a12 _ _ _ _ e12⟩

end Cert.FinPre

end
-- ==== Proof.Tables.lean ====
/-
  The two programs select the same 496 pairs of features.

  The kernel gathers columns of a row's 32 × 32 dot products laid end to end, by ONE literal table of linear
  indices; the reference gathers entries of the 32 × 32 matrix by TWO literal tables, of row and of column indices.
  Entry by entry the linear index is 32 · row + column (the pairs i < j in row-major order), so its quotient and
  remainder by 32 are the reference's two entries. All three tables are literals: the 496 cases are decided.
-/
import proofs.«128293_j31387620999258_1_alg».proof.KernelIdeal
import proofs.«128293_j31387620999258_1_alg».proof.ReferenceIdeal

namespace Cert.Tables

/-- The quotient by 32 of the kernel's linear index is the reference's row index. -/
theorem tab_iu : ∀ p : Fin 496,
    ((Cert.KernelIdeal.lit0 p).toNat % 1024) / 32 = (Cert.ReferenceIdeal.lit0 p).toNat % 32 := by decide +kernel

/-- The remainder by 32 of the kernel's linear index is the reference's column index. -/
theorem tab_ju : ∀ p : Fin 496,
    ((Cert.KernelIdeal.lit0 p).toNat % 1024) % 32 = (Cert.ReferenceIdeal.lit1 p).toNat % 32 := by decide +kernel

end Cert.Tables
-- ==== Proof.lean ====
/-
  `Cert.Claim` for the deep factorization machine forward pass: a Pallas kernel of four pipelined regions (pairwise
  feature dot products; two dense layers, each rectified and followed by a batch normalization whose statistics a
  scratch accumulator gathers over the 32 batch tiles; a third dense layer and the final projection) against its
  jnp reference.

  * The three frames. Each kernel program is its host stretches and its four regions in order; every region's body
    obligation is discharged from a run of the body, and the run of the whole program ends with every unscoped buffer
    at the last boundary's contents, where no argument was ever written. The reference is a straight line of host
    operations.
  * `preserves` has no conjunct: the idealization rewrote nothing.
  * `algebraic`. On the extended reals the kernel's result array is one closed form of the arguments (the regions'
    closed forms composed through the host glue) and the reference's is another. They differ in how the batch mean
    and variance are written — sum · 2^-14 against sum / 16384, E[a²] − E[a]² against E[(a − E a)²] — and in
    whether the last projection is one sum over 560 columns or two over 64 and 496; on FINITE arguments, which the
    precondition gives, these agree. The two programs' literal index tables name the same 496 feature pairs.
-/
import proofs.«128293_j31387620999258_1_alg».proof.Defs
import proofs.«128293_j31387620999258_1_alg».proof.Proof.Gen.Kernel
import proofs.«128293_j31387620999258_1_alg».proof.Proof.Gen.KernelIdeal
import proofs.«128293_j31387620999258_1_alg».proof.Proof.Gen.ReferenceIdeal
import proofs.«128293_j31387620999258_1_alg».proof.Proof.Gen.Pre_finite_inputs
import proofs.«128293_j31387620999258_1_alg».proof.Proof.K.Run
import proofs.«128293_j31387620999258_1_alg».proof.Proof.KI.Run
import proofs.«128293_j31387620999258_1_alg».proof.Proof.Val.KOut
import proofs.«128293_j31387620999258_1_alg».proof.Proof.Ref.Run
import proofs.«128293_j31387620999258_1_alg».proof.Proof.Ref.RefOut
import proofs.«128293_j31387620999258_1_alg».proof.Proof.Math
import proofs.«128293_j31387620999258_1_alg».proof.Proof.FinPre
import proofs.«128293_j31387620999258_1_alg».proof.Proof.Tables

noncomputable section

namespace Cert.Tables

/-- The kernel's pair of features at entry `p` is the reference's. -/
theorem iu_eq : Cert.KernelIdeal.Val.iuK = Cert.ReferenceIdeal.Hand.iuR := funext fun p => Fin.ext (tab_iu p)
theorem ju_eq : Cert.KernelIdeal.Val.juK = Cert.ReferenceIdeal.Hand.juR := funext fun p => Fin.ext (tab_ju p)

end Cert.Tables

namespace Cert.Proof
open Idealize.ShloMosaic Idealize.ShloMosaic.TcCoe Idealize.SL.Sem
/-- The word-level kernel runs to the end; the arguments are read back to their launch contents. -/
theorem frame_K : Cert.frame_Kernel := fun m ρ _ =>
  (θ_run Cert.Kernel.defs _ _).mono (fun r h c => ⟨
    (h c _ (Cert.Kernel.Hand.mem_uc Cert.Kernel.main_arg0 (by decide))).trans (Cert.Kernel.Hand.W7_main_arg0 m c),
    (h c _ (Cert.Kernel.Hand.mem_uc Cert.Kernel.main_arg1 (by decide))).trans (Cert.Kernel.Hand.W7_main_arg1 m c),
    (h c _ (Cert.Kernel.Hand.mem_uc Cert.Kernel.main_arg2 (by decide))).trans (Cert.Kernel.Hand.W7_main_arg2 m c),
    (h c _ (Cert.Kernel.Hand.mem_uc Cert.Kernel.main_arg3 (by decide))).trans (Cert.Kernel.Hand.W7_main_arg3 m c),
    (h c _ (Cert.Kernel.Hand.mem_uc Cert.Kernel.main_arg4 (by decide))).trans (Cert.Kernel.Hand.W7_main_arg4 m c),
    (h c _ (Cert.Kernel.Hand.mem_uc Cert.Kernel.main_arg5 (by decide))).trans (Cert.Kernel.Hand.W7_main_arg5 m c),
    (h c _ (Cert.Kernel.Hand.mem_uc Cert.Kernel.main_arg6 (by decide))).trans (Cert.Kernel.Hand.W7_main_arg6 m c),
    (h c _ (Cert.Kernel.Hand.mem_uc Cert.Kernel.main_arg7 (by decide))).trans (Cert.Kernel.Hand.W7_main_arg7 m c),
    (h c _ (Cert.Kernel.Hand.mem_uc Cert.Kernel.main_arg8 (by decide))).trans (Cert.Kernel.Hand.W7_main_arg8 m c),
    (h c _ (Cert.Kernel.Hand.mem_uc Cert.Kernel.main_arg9 (by decide))).trans (Cert.Kernel.Hand.W7_main_arg9 m c),
    (h c _ (Cert.Kernel.Hand.mem_uc Cert.Kernel.main_arg10 (by decide))).trans (Cert.Kernel.Hand.W7_main_arg10 m c),
    (h c _ (Cert.Kernel.Hand.mem_uc Cert.Kernel.main_arg11 (by decide))).trans (Cert.Kernel.Hand.W7_main_arg11 m c),
    (h c _ (Cert.Kernel.Hand.mem_uc Cert.Kernel.main_arg12 (by decide))).trans (Cert.Kernel.Hand.W7_main_arg12 m c)⟩)
    (Cert.Kernel.Hand.run_all (F := Bits) m ρ)

end Cert.Proof

namespace Cert.Proof
open Idealize.ShloMosaic Idealize.ShloMosaic.TcCoe Idealize.SL.Sem

/-- The idealized kernel runs to the end with every unscoped buffer at the last boundary's contents; the arguments are
    read back to their launch contents. -/
theorem frame_KI : Cert.frame_KernelIdeal := fun m ρ _ =>
  (θ_run Cert.KernelIdeal.defs _ _).mono (fun r h c => ⟨
    (h c _ (Cert.KernelIdeal.Hand.mem_uc Cert.KernelIdeal.main_arg0 (by decide))).trans (Cert.KernelIdeal.Hand.W7_main_arg0 m c),
    (h c _ (Cert.KernelIdeal.Hand.mem_uc Cert.KernelIdeal.main_arg1 (by decide))).trans (Cert.KernelIdeal.Hand.W7_main_arg1 m c),
    (h c _ (Cert.KernelIdeal.Hand.mem_uc Cert.KernelIdeal.main_arg2 (by decide))).trans (Cert.KernelIdeal.Hand.W7_main_arg2 m c),
    (h c _ (Cert.KernelIdeal.Hand.mem_uc Cert.KernelIdeal.main_arg3 (by decide))).trans (Cert.KernelIdeal.Hand.W7_main_arg3 m c),
    (h c _ (Cert.KernelIdeal.Hand.mem_uc Cert.KernelIdeal.main_arg4 (by decide))).trans (Cert.KernelIdeal.Hand.W7_main_arg4 m c),
    (h c _ (Cert.KernelIdeal.Hand.mem_uc Cert.KernelIdeal.main_arg5 (by decide))).trans (Cert.KernelIdeal.Hand.W7_main_arg5 m c),
    (h c _ (Cert.KernelIdeal.Hand.mem_uc Cert.KernelIdeal.main_arg6 (by decide))).trans (Cert.KernelIdeal.Hand.W7_main_arg6 m c),
    (h c _ (Cert.KernelIdeal.Hand.mem_uc Cert.KernelIdeal.main_arg7 (by decide))).trans (Cert.KernelIdeal.Hand.W7_main_arg7 m c),
    (h c _ (Cert.KernelIdeal.Hand.mem_uc Cert.KernelIdeal.main_arg8 (by decide))).trans (Cert.KernelIdeal.Hand.W7_main_arg8 m c),
    (h c _ (Cert.KernelIdeal.Hand.mem_uc Cert.KernelIdeal.main_arg9 (by decide))).trans (Cert.KernelIdeal.Hand.W7_main_arg9 m c),
    (h c _ (Cert.KernelIdeal.Hand.mem_uc Cert.KernelIdeal.main_arg10 (by decide))).trans (Cert.KernelIdeal.Hand.W7_main_arg10 m c),
    (h c _ (Cert.KernelIdeal.Hand.mem_uc Cert.KernelIdeal.main_arg11 (by decide))).trans (Cert.KernelIdeal.Hand.W7_main_arg11 m c),
    (h c _ (Cert.KernelIdeal.Hand.mem_uc Cert.KernelIdeal.main_arg12 (by decide))).trans (Cert.KernelIdeal.Hand.W7_main_arg12 m c)⟩)
    (Cert.KernelIdeal.Hand.run_all (F := Ideal) m ρ)

/-- The reference's run, its result dropped. -/
theorem frame_RI : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both programs end with the result array at one function of the arguments: the kernel's at its closed form, the
    reference's at its own, and the two closed forms agree on finite arguments. -/
theorem algebraic : Cert.algebraic_KernelIdeal_ReferenceIdeal := by
  intro m ρ m' ρ' hpre hagree
  refine ⟨fun c => Cert.KernelIdeal.Hand.W7 m c (Proc.devRef .tc Cert.KernelIdeal.main_v21), ?_, ?_⟩
  · exact (θ_run Cert.KernelIdeal.defs _ _).mono (fun r h c => ⟨h c _ (Cert.KernelIdeal.Hand.mem_uc Cert.KernelIdeal.main_v21 (by decide)),
      (h c _ (Cert.KernelIdeal.Hand.mem_uc Cert.KernelIdeal.main_arg0 (by decide))).trans (Cert.KernelIdeal.Hand.W7_main_arg0 m c),
      (h c _ (Cert.KernelIdeal.Hand.mem_uc Cert.KernelIdeal.main_arg1 (by decide))).trans (Cert.KernelIdeal.Hand.W7_main_arg1 m c),
      (h c _ (Cert.KernelIdeal.Hand.mem_uc Cert.KernelIdeal.main_arg2 (by decide))).trans (Cert.KernelIdeal.Hand.W7_main_arg2 m c),
      (h c _ (Cert.KernelIdeal.Hand.mem_uc Cert.KernelIdeal.main_arg3 (by decide))).trans (Cert.KernelIdeal.Hand.W7_main_arg3 m c),
      (h c _ (Cert.KernelIdeal.Hand.mem_uc Cert.KernelIdeal.main_arg4 (by decide))).trans (Cert.KernelIdeal.Hand.W7_main_arg4 m c),
      (h c _ (Cert.KernelIdeal.Hand.mem_uc Cert.KernelIdeal.main_arg5 (by decide))).trans (Cert.KernelIdeal.Hand.W7_main_arg5 m c),
      (h c _ (Cert.KernelIdeal.Hand.mem_uc Cert.KernelIdeal.main_arg6 (by decide))).trans (Cert.KernelIdeal.Hand.W7_main_arg6 m c),
      (h c _ (Cert.KernelIdeal.Hand.mem_uc Cert.KernelIdeal.main_arg7 (by decide))).trans (Cert.KernelIdeal.Hand.W7_main_arg7 m c),
      (h c _ (Cert.KernelIdeal.Hand.mem_uc Cert.KernelIdeal.main_arg8 (by decide))).trans (Cert.KernelIdeal.Hand.W7_main_arg8 m c),
      (h c _ (Cert.KernelIdeal.Hand.mem_uc Cert.KernelIdeal.main_arg9 (by decide))).trans (Cert.KernelIdeal.Hand.W7_main_arg9 m c),
      (h c _ (Cert.KernelIdeal.Hand.mem_uc Cert.KernelIdeal.main_arg10 (by decide))).trans (Cert.KernelIdeal.Hand.W7_main_arg10 m c),
      (h c _ (Cert.KernelIdeal.Hand.mem_uc Cert.KernelIdeal.main_arg11 (by decide))).trans (Cert.KernelIdeal.Hand.W7_main_arg11 m c),
      (h c _ (Cert.KernelIdeal.Hand.mem_uc Cert.KernelIdeal.main_arg12 (by decide))).trans (Cert.KernelIdeal.Hand.W7_main_arg12 m c)⟩)
      (Cert.KernelIdeal.Hand.run_all (F := Ideal) m ρ)
  · refine (θ_run Cert.ReferenceIdeal.defs _ _).mono (fun r h c => ⟨(h c).1.trans ?_, (h c).2⟩) (Cert.ReferenceIdeal.Hand.run (F := Ideal) m' ρ')
    have hargs : Cert.ReferenceIdeal.Hand.argsOf m' c = Cert.KernelIdeal.Val.argsOf m c := by
      obtain ⟨h0, h1, h2, h3, h4, h5, h6, h7, h8, h9, h10, h11, h12⟩ := hagree c
      unfold Cert.ReferenceIdeal.Hand.argsOf Cert.KernelIdeal.Val.argsOf
      congr 1
    have hfin : (Cert.KernelIdeal.Val.argsOf m c).Finite := Cert.FinPre.finite_of_fn _ _ _ _ _ _ _ _ _ _ _ _ _ (hpre c)
    exact ((Cert.ReferenceIdeal.Hand.ref_out m' c).trans (by
      rw [hargs, ← Cert.Tables.iu_eq, ← Cert.Tables.ju_eq]
      exact (Cert.Math.outK_eq_outR _ _ _ hfin).symm)).trans (Cert.KernelIdeal.Val.kernel_out m c).symm

end Cert.Proof

namespace Cert.Proof

theorem claim : Cert.Claim := ⟨Cert.Kernel.Gen.facts, Cert.KernelIdeal.Gen.facts, Cert.ReferenceIdeal.Gen.facts, Cert.Pre_finite_inputs.Gen.facts,
  frame_K, frame_KI, frame_RI, preserves, algebraic⟩

end Cert.Proof

end
